-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part6 {F : FTy → Type} [FloatOps F] (main_arg23 : FVec F S64x10 .f32) (main_arg24 : FVec F S10 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64x10 .f32 := Host.absf main_arg23
  let main_cst_40 : FVec F S_ .f32 := constant S_ .f32 0x7F800000#32
  let main_v105 : FVec F S64x10 .f32 := broadcastInDim S64x10 ![] bcast_S_S64x10 main_cst_40
  let main_v106 : IVec S64x10 1 := cmpf .olt main_v104 main_v105
  let main_c_41 : IVec S_ 1 := constantI S_ 1 1#1
  let main_v107 : IVec S_ 1 := (fun x v => Host.reduce IntOp.andi x v reducesTo_S64x10_S_d0_1 h_S_) main_v106 main_c_41
  let main_v108 : IVec S_ 1 := andi main_v103 main_v107
  let main_v109 : FVec F S10 .f32 := Host.absf main_arg24
  let main_cst_42 : FVec F S_ .f32 := constant S_ .f32 0x7F800000#32
  let main_v110 : FVec F S10 .f32 := broadcastInDim S10 ![] bcast_S_S10 main_cst_42
  let main_v111 : IVec S10 1 := cmpf .olt main_v109 main_v110
  let main_c_43 : IVec S_ 1 := constantI S_ 1 1#1
  let main_v112 : IVec S_ 1 := (fun x v => Host.reduce IntOp.andi x v reducesTo_S10_S_d0 h_S_) main_v111 main_c_43
  let main_v113 : IVec S_ 1 := andi main_v108 main_v112
  main_v113

def fn_part5 {F : FTy → Type} [FloatOps F] (main_arg20 : FVec F S64 .f32) (main_arg21 : FVec F S64 .f32) (main_arg22 : FVec F S64 .f32) (main_arg23 : FVec F S64x10 .f32) (main_arg24 : FVec F S10 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg21
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64 .f32 := Host.absf main_arg22
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg23 main_arg24 main_v98 main_v101 main_c_39

def fn_part4 {F : FTy → Type} [FloatOps F] (main_arg16 : FVec F S64 .f32) (main_arg17 : FVec F S64x64 .f32) (main_arg18 : FVec F S64 .f32) (main_arg19 : FVec F S64 .f32) (main_arg20 : FVec F S64 .f32) (main_arg21 : FVec F S64 .f32) (main_arg22 : FVec F S64 .f32) (main_arg23 : FVec F S64x10 .f32) (main_arg24 : FVec F S10 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg17
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_arg22 main_arg23 main_arg24 main_v83 main_v84 main_cst_32

def fn_part3 {F : FTy → Type} [FloatOps F] (main_arg13 : FVec F S64 .f32) (main_arg14 : FVec F S64 .f32) (main_arg15 : FVec F S64 .f32) (main_arg16 : FVec F S64 .f32) (main_arg17 : FVec F S64x64 .f32) (main_arg18 : FVec F S64 .f32) (main_arg19 : FVec F S64 .f32) (main_arg20 : FVec F S64 .f32) (main_arg21 : FVec F S64 .f32) (main_arg22 : FVec F S64 .f32) (main_arg23 : FVec F S64x10 .f32) (main_arg24 : FVec F S10 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_arg20 main_arg21 main_arg22 main_arg23 main_arg24 main_v63 main_v67

def fn_part2 {F : FTy → Type} [FloatOps F] (main_arg9 : FVec F S64 .f32) (main_arg10 : FVec F S64 .f32) (main_arg11 : FVec F S64 .f32) (main_arg12 : FVec F S64 .f32) (main_arg13 : FVec F S64 .f32) (main_arg14 : FVec F S64 .f32) (main_arg15 : FVec F S64 .f32) (main_arg16 : FVec F S64 .f32) (main_arg17 : FVec F S64x64 .f32) (main_arg18 : FVec F S64 .f32) (main_arg19 : FVec F S64 .f32) (main_arg20 : FVec F S64 .f32) (main_arg21 : FVec F S64 .f32) (main_arg22 : FVec F S64 .f32) (main_arg23 : FVec F S64x10 .f32) (main_arg24 : FVec F S10 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_arg22 main_arg23 main_arg24 main_v48 main_v49 main_v50

def fn_part1 {F : FTy → Type} [FloatOps F] (main_arg6 : FVec F S64x64 .f32) (main_arg7 : FVec F S64x64 .f32) (main_arg8 : FVec F S64 .f32) (main_arg9 : FVec F S64 .f32) (main_arg10 : FVec F S64 .f32) (main_arg11 : FVec F S64 .f32) (main_arg12 : FVec F S64 .f32) (main_arg13 : FVec F S64 .f32) (main_arg14 : FVec F S64 .f32) (main_arg15 : FVec F S64 .f32) (main_arg16 : FVec F S64 .f32) (main_arg17 : FVec F S64x64 .f32) (main_arg18 : FVec F S64 .f32) (main_arg19 : FVec F S64 .f32) (main_arg20 : FVec F S64 .f32) (main_arg21 : FVec F S64 .f32) (main_arg22 : FVec F S64 .f32) (main_arg23 : FVec F S64x10 .f32) (main_arg24 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S100000x128 .f32) (main_arg1 : IVec S2x1600000 32) (main_arg2 : IVec S100000 32) (main_arg3 : FVec F S128x64 .f32) (main_arg4 : FVec F S128x64 .f32) (main_arg5 : FVec F S64 .f32) (main_arg6 : FVec F S64x64 .f32) (main_arg7 : FVec F S64x64 .f32) (main_arg8 : FVec F S64 .f32) (main_arg9 : FVec F S64 .f32) (main_arg10 : FVec F S64 .f32) (main_arg11 : FVec F S64 .f32) (main_arg12 : FVec F S64 .f32) (main_arg13 : FVec F S64 .f32) (main_arg14 : FVec F S64 .f32) (main_arg15 : FVec F S64 .f32) (main_arg16 : FVec F S64 .f32) (main_arg17 : FVec F S64x64 .f32) (main_arg18 : FVec F S64 .f32) (main_arg19 : FVec F S64 .f32) (main_arg20 : FVec F S64 .f32) (main_arg21 : FVec F S64 .f32) (main_arg22 : FVec F S64 .f32) (main_arg23 : FVec F S64x10 .f32) (main_arg24 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x64 : Shape := ⟨2, ![100000, 64]⟩
abbrev S10000x128 : Shape := ⟨2, ![10000, 128]⟩
abbrev S10000x64 : Shape := ⟨2, ![10000, 64]⟩
abbrev S1600000x64 : Shape := ⟨2, ![1600000, 64]⟩
abbrev S100000x1 : Shape := ⟨2, ![100000, 1]⟩
abbrev S1x64 : Shape := ⟨2, ![1, 64]⟩
abbrev S5000x128 : Shape := ⟨2, ![5000, 128]⟩
abbrev S5000x64 : Shape := ⟨2, ![5000, 64]⟩
abbrev S5000x1 : Shape := ⟨2, ![5000, 1]⟩
abbrev S1x10 : Shape := ⟨2, ![1, 10]⟩
abbrev S128x10 : Shape := ⟨2, ![128, 10]⟩
abbrev S128x1 : Shape := ⟨2, ![128, 1]⟩
abbrev S128 : Shape := ⟨1, ![128]⟩

abbrev nBuf : Space → Nat
  | .hbm => 91
  | .vmem => 45
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S64x64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S64x10, .f32⟩
  | .hbm, ⟨24, _⟩ => ⟨S10, .f32⟩
  | .hbm, ⟨25, _⟩ => ⟨S1x1600000, .i32⟩
  | .hbm, ⟨26, _⟩ => ⟨S1600000, .i32⟩
  | .hbm, ⟨27, _⟩ => ⟨S1x1600000, .i32⟩
  | .hbm, ⟨28, _⟩ => ⟨S1600000, .i32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000x64, .bf16⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .bf16⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S100000x1, .f32⟩
  | .hbm, ⟨57, _⟩ => ⟨S1x64, .f32⟩
  | .hbm, ⟨58, _⟩ => ⟨S1x64, .f32⟩
  | .hbm, ⟨59, _⟩ => ⟨S1x64, .f32⟩
  | .hbm, ⟨60, _⟩ => ⟨S1x64, .f32⟩
  | .hbm, ⟨61, _⟩ => ⟨S1x64, .f32⟩
  | .hbm, ⟨62, _⟩ => ⟨S100000x64, .bf16⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x64, .bf16⟩
  | .hbm, ⟨72, _⟩ => ⟨S1600000x64, .f32⟩
  | .hbm, ⟨73, _⟩ => ⟨S_, .f32⟩
  | .hbm, ⟨74, _⟩ => ⟨S100000x64, .f32⟩
  | .hbm, ⟨75, _⟩ => ⟨S1600000x1, .i32⟩
  | .hbm, ⟨76, _⟩ => ⟨S100000x64, .f32⟩
  | .hbm, ⟨77, _⟩ => ⟨S100000x1, .f32⟩
  | .hbm, ⟨78, _⟩ => ⟨S100000x1, .i32⟩
  | .hbm, ⟨79, _⟩ => ⟨S1x64, .f32⟩
  | .hbm, ⟨80, _⟩ => ⟨S1x64, .f32⟩
  | .hbm, ⟨81, _⟩ => ⟨S1x64, .f32⟩
  | .hbm, ⟨82, _⟩ => ⟨S1x64, .f32⟩
  | .hbm, ⟨83, _⟩ => ⟨S1x64, .f32⟩
  | .hbm, ⟨84, _⟩ => ⟨S1x64, .f32⟩
  | .hbm, ⟨85, _⟩ => ⟨S1x64, .f32⟩
  | .hbm, ⟨86, _⟩ => ⟨S1x64, .f32⟩
  | .hbm, ⟨87, _⟩ => ⟨S1x64, .f32⟩
  | .hbm, ⟨88, _⟩ => ⟨S1x64, .f32⟩
  | .hbm, ⟨89, _⟩ => ⟨S1x10, .f32⟩
  | .hbm, ⟨90, _⟩ => ⟨S128x10, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .bf16⟩
  | .local _ .vmem, ⟨4, _⟩ => ⟨S10000x64, .bf16⟩
  | .local _ .vmem, ⟨5, _⟩ => ⟨S5000x128, .f32⟩
  | .local _ .vmem, ⟨6, _⟩ => ⟨S5000x128, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S128x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S5000x64, .bf16⟩
  | .local _ .vmem, ⟨18, _⟩ => ⟨S5000x64, .bf16⟩
  | .local _ .vmem, ⟨19, _⟩ => ⟨S5000x64, .bf16⟩
  | .local _ .vmem, ⟨20, _⟩ => ⟨S5000x64, .bf16⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S5000x1, .i32⟩
  | .local _ .vmem, ⟨26, _⟩ => ⟨S5000x1, .i32⟩
  | .local _ .vmem, ⟨27, _⟩ => ⟨S64x64, .f32⟩
  | .local _ .vmem, ⟨28, _⟩ => ⟨S64x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S64x64, .f32⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S1x64, .f32⟩
  | .local _ .vmem, ⟨39, _⟩ => ⟨S1x64, .f32⟩
  | .local _ .vmem, ⟨40, _⟩ => ⟨S64x10, .f32⟩
  | .local _ .vmem, ⟨41, _⟩ => ⟨S1x10, .f32⟩
  | .local _ .vmem, ⟨42, _⟩ => ⟨S128x10, .f32⟩
  | .local _ .vmem, ⟨43, _⟩ => ⟨S128x64, .f32⟩
  | .local _ .vmem, ⟨44, _⟩ => ⟨S128x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_1 : Ref sig .tc := ⟨.hbm, 35, rfl⟩
abbrev main_v8 : Ref sig .tc := ⟨.hbm, 36, rfl⟩
abbrev main_v9 : Ref sig .tc := ⟨.hbm, 37, rfl⟩
abbrev main_cst_2 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_c : Ref sig .tc := ⟨.hbm, 42, rfl⟩
abbrev main_v13 : Ref sig .tc := ⟨.hbm, 43, rfl⟩
abbrev main_v14 : Ref sig .tc := ⟨.hbm, 44, rfl⟩
abbrev main_c_3 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_4 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_c_5 : Ref sig .tc := ⟨.hbm, 63, rfl⟩
abbrev main_v31 : Ref sig .tc := ⟨.hbm, 64, rfl⟩
abbrev main_v32 : Ref sig .tc := ⟨.hbm, 65, rfl⟩
abbrev main_c_6 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_7 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg9_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg8_0 : Ref sig .tc := ⟨.vmem, 31, rfl⟩
abbrev cc2_stg9_0 : Ref sig .tc := ⟨.vmem, 32, rfl⟩
abbrev cc2_stg10_0 : Ref sig .tc := ⟨.vmem, 33, rfl⟩
abbrev cc2_stg11_0 : Ref sig .tc := ⟨.vmem, 34, rfl⟩
abbrev cc2_stg12_0 : Ref sig .tc := ⟨.vmem, 35, rfl⟩
abbrev cc2_stg13_0 : Ref sig .tc := ⟨.vmem, 36, rfl⟩
abbrev cc2_stg14_0 : Ref sig .tc := ⟨.vmem, 37, rfl⟩
abbrev cc2_stg15_0 : Ref sig .tc := ⟨.vmem, 38, rfl⟩
abbrev cc2_stg16_0 : Ref sig .tc := ⟨.vmem, 39, rfl⟩
abbrev cc2_stg17_0 : Ref sig .tc := ⟨.vmem, 40, rfl⟩
abbrev cc2_stg18_0 : Ref sig .tc := ⟨.vmem, 41, rfl⟩
abbrev cc2_stg19_0 : Ref sig .tc := ⟨.vmem, 42, rfl⟩
abbrev cc2_scratch0 : Ref sig .tc := ⟨.vmem, 43, rfl⟩
abbrev cc2_scratch1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem8_0 : DmaSem sig := 31
abbrev cc2_sem9_0 : DmaSem sig := 32
abbrev cc2_sem10_0 : DmaSem sig := 33
abbrev cc2_sem11_0 : DmaSem sig := 34
abbrev cc2_sem12_0 : DmaSem sig := 35
abbrev cc2_sem13_0 : DmaSem sig := 36
abbrev cc2_sem14_0 : DmaSem sig := 37
abbrev cc2_sem15_0 : DmaSem sig := 38
abbrev cc2_sem16_0 : DmaSem sig := 39
abbrev cc2_sem17_0 : DmaSem sig := 40
abbrev cc2_sem18_0 : DmaSem sig := 41
abbrev cc2_sem19_0 : DmaSem sig := 42

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x64 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![20], ![false]⟩

def k2_cond1 (i : grid2.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k2_cond2 (i : grid2.Coords) : BitVec 1 :=
  let arg0 : BitVec 32 := BitVec.ofNat 32 (i 0).val
  let c19_i32 : BitVec 32 := 19#32
  let v66 : BitVec 1 := Scalar.cmpi .eq arg0 c19_i32
  let v67 : BitVec 32 := Scalar.extui v66
  let c0_i32_36 : BitVec 32 := 0#32
  let v68 : BitVec 1 := Scalar.cmpi .ne v67 c0_i32_36
  v68

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_18 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_19 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S64x64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x64 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x64 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S1x64 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S1x64 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S64x10 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 1 → Memref sig .tc .vmem S1x10 .f32 := fun | 0 => Memref.whole cc2_stg18_0 | ⟨_ + 1, h⟩ => absurd h (Nat.not_lt.2 (Nat.le_add_left _ _))
abbrev sem2_18 : Fin 1 → DmaSem sig := fun | 0 => cc2_sem18_0 | ⟨_ + 1, h⟩ => absurd h (Nat.not_lt.2 (Nat.le_add_left _ _))
abbrev reads2_18 : Fin grid2.rank → Bool := ![false]

abbrev stage2_19 : Fin 1 → Memref sig .tc .vmem S128x10 .f32 := fun | 0 => Memref.whole cc2_stg19_0 | ⟨_ + 1, h⟩ => absurd h (Nat.not_lt.2 (Nat.le_add_left _ _))
abbrev sem2_19 : Fin 1 → DmaSem sig := fun | 0 => cc2_sem19_0 | ⟨_ + 1, h⟩ => absurd h (Nat.not_lt.2 (Nat.le_add_left _ _))
abbrev reads2_19 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  packedbf16_S5000x64_S5000x64_0_0 : (Rect.unit (s := S5000x64) ![0, 0] S5000x64.size inb_S5000x64_S5000x64_0_0).PackedRows (EltTy.packing .bf16)
  shapeCasts_S10_S1x10 : S10.ShapeCasts S1x10
  shapeCasts_S128x64_S128x64 : S128x64.ShapeCasts S128x64
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x10_S128x10_0_0 : ∀ a, (![0, 0] : Fin 2 → Nat) a + S128x10.size a ≤ S128x10.size a
  h_S128x10 : 0 < S128x10.numel
  inb_S64x64_S64x64_0_0 : ∀ a, (![0, 0] : Fin 2 → Nat) a + S64x64.size a ≤ S64x64.size a
  h_S64x64 : 0 < S64x64.numel
  iota_S5000x128_d1_w32 : S5000x128.Iotas .tc 32 [1]
  broadcasts_S5000x1_S5000x128 : S5000x1.Broadcasts S5000x128
  natLt_1_32 : 1 < 32
  broadcasts_S128x1_S128x64 : S128x1.Broadcasts S128x64
  broadcasts_S1x64_S128x64 : S1x64.Broadcasts S128x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  reduces_S128x10_S128 : S128x10.Reduces [1] S128
  shapeCasts_S128_S128x1 : S128.ShapeCasts S128x1
  broadcasts_S128x1_S128x10 : S128x1.Broadcasts S128x10
  scatter_S100000_S1600000x1_S1600000_n_0_0_1_wf : ScatterDims.WF S100000 S1600000x1 S1600000 [] [0] [0] 1
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  dot_S5000x128_S5000x64_S128x64_0_0_1_1_n_n_wf : DotDims.WF S5000x128 S5000x64 S128x64 [0] [0] [1] [1] [] []
  dot_S5000x128_S5000x1_S128x1_0_0_1_1_n_n_wf : DotDims.WF S5000x128 S5000x1 S128x1 [0] [0] [1] [1] [] []
  dot_S128x64_S64x64_S128x64_1_0_0_1_n_n_wf : DotDims.WF S128x64 S64x64 S128x64 [1] [0] [0] [1] [] []
  dot_S128x64_S64x10_S128x10_1_0_0_1_n_n_wf : DotDims.WF S128x64 S64x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .bf16 = 32 ∨ (Rect.block (s := S100000x64) S10000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x64.size a ≤ S100000x64.size a
  hwx1_9 : ∀ i : grid1.Coords, EltTy.bits .bf16 = 32 ∨ (Rect.block (s := S100000x64) S5000x64.size (cc1_transform_9 i) (hinb1_9 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .bf16 = 32 ∨ (Rect.block (s := S100000x64) S5000x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .i32 = 32 ∨ (Rect.block (s := S100000x1) S5000x1.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x64.size a ≤ S1x64.size a
  hwx2_9 : ∀ i : grid2.Coords, EltTy.bits .f32 = 32 ∨ (Rect.block (s := S1x64) S1x64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x64.size a ≤ S1x64.size a
  hwx2_10 : ∀ i : grid2.Coords, EltTy.bits .f32 = 32 ∨ (Rect.block (s := S1x64) S1x64.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S64x64.size a ≤ S64x64.size a
  hwx2_11 : ∀ i : grid2.Coords, EltTy.bits .f32 = 32 ∨ (Rect.block (s := S64x64) S64x64.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x64.size a ≤ S1x64.size a
  hwx2_12 : ∀ i : grid2.Coords, EltTy.bits .f32 = 32 ∨ (Rect.block (s := S1x64) S1x64.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x64.size a ≤ S1x64.size a
  hwx2_13 : ∀ i : grid2.Coords, EltTy.bits .f32 = 32 ∨ (Rect.block (s := S1x64) S1x64.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S1x64.size a ≤ S1x64.size a
  hwx2_14 : ∀ i : grid2.Coords, EltTy.bits .f32 = 32 ∨ (Rect.block (s := S1x64) S1x64.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S1x64.size a ≤ S1x64.size a
  hwx2_15 : ∀ i : grid2.Coords, EltTy.bits .f32 = 32 ∨ (Rect.block (s := S1x64) S1x64.size (cc2_transform_15 i) (hinb2_15 i)).WholeWords (EltTy.packing .f32)
  hstage2_16 : ∀ j, (stage2_16 j).IsWhole
  nbuf2_16 : grid2.bufCount reads2_16 true = 1
  hreads2_16 : ∀ i i' : grid2.Coords, (∀ a, reads2_16 a = true → i a = i' a) → cc2_transform_16 i = cc2_transform_16 i'
  hinb2_16 : ∀ (i : grid2.Coords) a, (cc2_transform_16 i a + 1) * S1x64.size a ≤ S1x64.size a
  hwx2_16 : ∀ i : grid2.Coords, EltTy.bits .f32 = 32 ∨ (Rect.block (s := S1x64) S1x64.size (cc2_transform_16 i) (hinb2_16 i)).WholeWords (EltTy.packing .f32)
  hstage2_17 : ∀ j, (stage2_17 j).IsWhole
  nbuf2_17 : grid2.bufCount reads2_17 true = 1
  hreads2_17 : ∀ i i' : grid2.Coords, (∀ a, reads2_17 a = true → i a = i' a) → cc2_transform_17 i = cc2_transform_17 i'
  hinb2_17 : ∀ (i : grid2.Coords) a, (cc2_transform_17 i a + 1) * S64x10.size a ≤ S64x10.size a
  hwx2_17 : ∀ i : grid2.Coords, EltTy.bits .f32 = 32 ∨ (Rect.block (s := S64x10) S64x10.size (cc2_transform_17 i) (hinb2_17 i)).WholeWords (EltTy.packing .f32)
  hstage2_18 : ∀ j, (stage2_18 j).IsWhole
  nbuf2_18 : grid2.bufCount reads2_18 true = 1
  hreads2_18 : ∀ i i' : grid2.Coords, (∀ a, reads2_18 a = true → i a = i' a) → cc2_transform_18 i = cc2_transform_18 i'
  hinb2_18 : ∀ (i : grid2.Coords) a, (cc2_transform_18 i a + 1) * S1x10.size a ≤ S1x10.size a
  hwx2_18 : ∀ i : grid2.Coords, EltTy.bits .f32 = 32 ∨ (Rect.block (s := S1x10) S1x10.size (cc2_transform_18 i) (hinb2_18 i)).WholeWords (EltTy.packing .f32)
  hstage2_19 : ∀ j, (stage2_19 j).IsWhole
  nbuf2_19 : grid2.bufCount reads2_19 true = 1
  hreads2_19 : ∀ i i' : grid2.Coords, (∀ a, reads2_19 a = true → i a = i' a) → cc2_transform_19 i = cc2_transform_19 i'
  hinb2_19 : ∀ (i : grid2.Coords) a, (cc2_transform_19 i a + 1) * S128x10.size a ≤ S128x10.size a
  hwx2_19 : ∀ i : grid2.Coords, EltTy.bits .f32 = 32 ∨ (Rect.block (s := S128x10) S128x10.size (cc2_transform_19 i) (hinb2_19 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x128_S5000x64_S128x64_0_0_1_1_n_n : DotDims S5000x128 S5000x64 S128x64 where
  lhsContracting := [0]
  rhsContracting := [0]
  lhsNonContracting := [1]
  rhsNonContracting := [1]
  lhsBatch := []
  rhsBatch := []
  wf := dot_S5000x128_S5000x64_S128x64_0_0_1_1_n_n_wf
def dot_S5000x128_S5000x1_S128x1_0_0_1_1_n_n : DotDims S5000x128 S5000x1 S128x1 where
  lhsContracting := [0]
  rhsContracting := [0]
  lhsNonContracting := [1]
  rhsNonContracting := [1]
  lhsBatch := []
  rhsBatch := []
  wf := dot_S5000x128_S5000x1_S128x1_0_0_1_1_n_n_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v29) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v30) S5000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v30) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v43) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v44) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v45) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v46) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v47) S1x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v48) S1x64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg17) S64x64.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v49) S1x64.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v50) S1x64.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v51) S1x64.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v52) S1x64.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_v53) S1x64.size cc2_transform_16 reads2_16 false true 1 stage2_16 sem2_16
    hrank2 hreads2_16 hinb2_16 nbuf2_16 (Memref.isWhole_whole _) hwx2_16 hstage2_16

abbrev win2_17 : Pipeline.Window sig grid2 :=
  Pipeline.Window.ofSpec (Memref.whole main_arg23) S64x10.size cc2_transform_17 reads2_17 false true 1 stage2_17 sem2_17
    hrank2 hreads2_17 hinb2_17 nbuf2_17 (Memref.isWhole_whole _) hwx2_17 hstage2_17

abbrev win2_18 : Pipeline.Window sig grid2 :=
  Pipeline.Window.ofSpec (Memref.whole main_v54) S1x10.size cc2_transform_18 reads2_18 false true 1 stage2_18 sem2_18
    hrank2 hreads2_18 hinb2_18 nbuf2_18 (Memref.isWhole_whole _) hwx2_18 hstage2_18

abbrev win2_19 : Pipeline.Window sig grid2 :=
  Pipeline.Window.ofSpec (Memref.whole main_v55) S128x10.size cc2_transform_19 reads2_19 true true 1 stage2_19 sem2_19
    hrank2 hreads2_19 hinb2_19 nbuf2_19 (Memref.isWhole_whole _) hwx2_19 hstage2_19

abbrev win2 : Fin 20 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | 18 => win2_18 | 19 => win2_19 | ⟨_ + 20, h⟩ => absurd h (Nat.not_lt.2 (Nat.le_add_left _ _))
abbrev spec2 : Fin 20 → Pipeline.WinSpec sig grid2.rank := fun w => (win2 w).toWinSpec

abbrev idle2 : Fin 20 → grid2.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun _ => false | 19 => fun i => !(k2_cond1 i == 1#1) && !(k2_cond2 i == 1#1) | ⟨_ + 20, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S128 : Shape := ⟨1, ![128]⟩
abbrev S128x1 : Shape := ⟨2, ![128, 1]⟩
abbrev S128x10 : Shape := ⟨2, ![128, 10]⟩
abbrev S1x10 : Shape := ⟨2, ![1, 10]⟩

abbrev nBuf : Space → Nat
  | .hbm => 187
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S128x64, .f32⟩
  | 5 => ⟨S64, .f32⟩
  | 6 => ⟨S64x64, .f32⟩
  | 7 => ⟨S64x64, .f32⟩
  | 8 => ⟨S64, .f32⟩
  | 9 => ⟨S64, .f32⟩
  | 10 => ⟨S64, .f32⟩
  | 11 => ⟨S64, .f32⟩
  | 12 => ⟨S64, .f32⟩
  | 13 => ⟨S64, .f32⟩
  | 14 => ⟨S64, .f32⟩
  | 15 => ⟨S64, .f32⟩
  | 16 => ⟨S64, .f32⟩
  | 17 => ⟨S64x64, .f32⟩
  | 18 => ⟨S64, .f32⟩
  | 19 => ⟨S64, .f32⟩
  | 20 => ⟨S64, .f32⟩
  | 21 => ⟨S64, .f32⟩
  | 22 => ⟨S64, .f32⟩
  | 23 => ⟨S64x10, .f32⟩
  | 24 => ⟨S10, .f32⟩
  | 25 => ⟨S1x1600000, .i32⟩
  | 26 => ⟨S1600000, .i32⟩
  | 27 => ⟨S1x1600000, .i32⟩
  | 28 => ⟨S1600000, .i32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x128, .f32⟩
  | 38 => ⟨S_, .f32⟩
  | 39 => ⟨S100000x128, .f32⟩
  | 40 => ⟨S1600000x1, .i32⟩
  | 41 => ⟨S100000x128, .f32⟩
  | 42 => ⟨S_, .f32⟩
  | 43 => ⟨S1600000, .f32⟩
  | 44 => ⟨S_, .f32⟩
  | 45 => ⟨S100000, .f32⟩
  | 46 => ⟨S1600000x1, .i32⟩
  | 47 => ⟨S100000, .f32⟩
  | 48 => ⟨S_, .f32⟩
  | 49 => ⟨S100000, .f32⟩
  | 50 => ⟨S100000, .f32⟩
  | 51 => ⟨S100000x1, .f32⟩
  | 52 => ⟨S100000x128, .f32⟩
  | 53 => ⟨S100000x128, .f32⟩
  | 54 => ⟨S100000x64, .f32⟩
  | 55 => ⟨S1x64, .f32⟩
  | 56 => ⟨S100000x64, .f32⟩
  | 57 => ⟨S100000x64, .f32⟩
  | 58 => ⟨S100000x64, .f32⟩
  | 59 => ⟨S100000x64, .f32⟩
  | 60 => ⟨S1x64, .f32⟩
  | 61 => ⟨S100000x64, .f32⟩
  | 62 => ⟨S100000x64, .f32⟩
  | 63 => ⟨S_, .f32⟩
  | 64 => ⟨S64, .f32⟩
  | 65 => ⟨S64, .f32⟩
  | 66 => ⟨S64, .f32⟩
  | 67 => ⟨S1x64, .f32⟩
  | 68 => ⟨S100000x64, .f32⟩
  | 69 => ⟨S100000x64, .f32⟩
  | 70 => ⟨S1x64, .f32⟩
  | 71 => ⟨S100000x64, .f32⟩
  | 72 => ⟨S100000x64, .f32⟩
  | 73 => ⟨S1x64, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x64, .f32⟩
  | 88 => ⟨S_, .f32⟩
  | 89 => ⟨S100000x64, .f32⟩
  | 90 => ⟨S1600000x1, .i32⟩
  | 91 => ⟨S100000x64, .f32⟩
  | 92 => ⟨S_, .f32⟩
  | 93 => ⟨S1600000, .f32⟩
  | 94 => ⟨S_, .f32⟩
  | 95 => ⟨S100000, .f32⟩
  | 96 => ⟨S1600000x1, .i32⟩
  | 97 => ⟨S100000, .f32⟩
  | 98 => ⟨S_, .f32⟩
  | 99 => ⟨S100000, .f32⟩
  | 100 => ⟨S100000, .f32⟩
  | 101 => ⟨S100000x1, .f32⟩
  | 102 => ⟨S100000x64, .f32⟩
  | 103 => ⟨S100000x64, .f32⟩
  | 104 => ⟨S100000x64, .f32⟩
  | 105 => ⟨S1x64, .f32⟩
  | 106 => ⟨S100000x64, .f32⟩
  | 107 => ⟨S100000x64, .f32⟩
  | 108 => ⟨S100000x64, .f32⟩
  | 109 => ⟨S100000x64, .f32⟩
  | 110 => ⟨S1x64, .f32⟩
  | 111 => ⟨S100000x64, .f32⟩
  | 112 => ⟨S100000x64, .f32⟩
  | 113 => ⟨S_, .f32⟩
  | 114 => ⟨S64, .f32⟩
  | 115 => ⟨S64, .f32⟩
  | 116 => ⟨S64, .f32⟩
  | 117 => ⟨S1x64, .f32⟩
  | 118 => ⟨S100000x64, .f32⟩
  | 119 => ⟨S100000x64, .f32⟩
  | 120 => ⟨S1x64, .f32⟩
  | 121 => ⟨S100000x64, .f32⟩
  | 122 => ⟨S100000x64, .f32⟩
  | 123 => ⟨S1x64, .f32⟩
  | 124 => ⟨S100000x64, .f32⟩
  | 125 => ⟨S100000x64, .f32⟩
  | 126 => ⟨S_, .f32⟩
  | 127 => ⟨S100000x64, .f32⟩
  | _ => ⟨S100000x128, .f32⟩

abbrev hbmTy0_1 (i : Nat) : BufTy := match i % 128 with
  | 0 => ⟨S100000x64, .f32⟩
  | 1 => ⟨S_, .f32⟩
  | 2 => ⟨S128x64, .f32⟩
  | 3 => ⟨S100000x1, .i32⟩
  | 4 => ⟨S128x64, .f32⟩
  | 5 => ⟨S_, .f32⟩
  | 6 => ⟨S100000, .f32⟩
  | 7 => ⟨S_, .f32⟩
  | 8 => ⟨S128, .f32⟩
  | 9 => ⟨S100000x1, .i32⟩
  | 10 => ⟨S128, .f32⟩
  | 11 => ⟨S_, .f32⟩
  | 12 => ⟨S128, .f32⟩
  | 13 => ⟨S128, .f32⟩
  | 14 => ⟨S128x1, .f32⟩
  | 15 => ⟨S128x64, .f32⟩
  | 16 => ⟨S128x64, .f32⟩
  | 17 => ⟨S128x64, .f32⟩
  | 18 => ⟨S1x64, .f32⟩
  | 19 => ⟨S128x64, .f32⟩
  | 20 => ⟨S128x64, .f32⟩
  | 21 => ⟨S1x64, .f32⟩
  | 22 => ⟨S128x64, .f32⟩
  | 23 => ⟨S128x64, .f32⟩
  | 24 => ⟨S_, .f32⟩
  | 25 => ⟨S64, .f32⟩
  | 26 => ⟨S64, .f32⟩
  | 27 => ⟨S64, .f32⟩
  | 28 => ⟨S1x64, .f32⟩
  | 29 => ⟨S128x64, .f32⟩
  | 30 => ⟨S128x64, .f32⟩
  | 31 => ⟨S1x64, .f32⟩
  | 32 => ⟨S128x64, .f32⟩
  | 33 => ⟨S128x64, .f32⟩
  | 34 => ⟨S1x64, .f32⟩
  | 35 => ⟨S128x64, .f32⟩
  | 36 => ⟨S128x64, .f32⟩
  | 37 => ⟨S_, .f32⟩
  | 38 => ⟨S128x64, .f32⟩
  | 39 => ⟨S128x64, .f32⟩
  | 40 => ⟨S128x10, .f32⟩
  | 41 => ⟨S1x10, .f32⟩
  | 42 => ⟨S128x10, .f32⟩
  | 43 => ⟨S128x10, .f32⟩
  | 44 => ⟨S_, .f32⟩
  | 45 => ⟨S128, .f32⟩
  | 46 => ⟨S_, .f32⟩
  | 47 => ⟨S128, .f32⟩
  | 48 => ⟨S128, .f32⟩
  | 49 => ⟨S128x1, .f32⟩
  | 50 => ⟨S128x10, .f32⟩
  | 51 => ⟨S128x10, .f32⟩
  | 52 => ⟨S128x10, .f32⟩
  | 53 => ⟨S_, .f32⟩
  | 54 => ⟨S128, .f32⟩
  | 55 => ⟨S128x1, .f32⟩
  | 56 => ⟨S128x1, .f32⟩
  | 57 => ⟨S128x10, .f32⟩
  | 58 => ⟨S128x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_1 : Ref sig .tc := ⟨.hbm, 42, rfl⟩
abbrev main_v14 : Ref sig .tc := ⟨.hbm, 43, rfl⟩
abbrev main_cst_2 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_4 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_call0_cst : Ref sig .tc := ⟨.hbm, 76, rfl⟩
abbrev main_call0_v0 : Ref sig .tc := ⟨.hbm, 77, rfl⟩
abbrev main_v44 : Ref sig .tc := ⟨.hbm, 78, rfl⟩
abbrev main_c_5 : Ref sig .tc := ⟨.hbm, 79, rfl⟩
abbrev main_v45 : Ref sig .tc := ⟨.hbm, 80, rfl⟩
abbrev main_v46 : Ref sig .tc := ⟨.hbm, 81, rfl⟩
abbrev main_c_6 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_7 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_8 : Ref sig .tc := ⟨.hbm, 92, rfl⟩
abbrev main_v55 : Ref sig .tc := ⟨.hbm, 93, rfl⟩
abbrev main_cst_9 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_10 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_11 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_call1_cst : Ref sig .tc := ⟨.hbm, 126, rfl⟩
abbrev main_call1_v0 : Ref sig .tc := ⟨.hbm, 127, rfl⟩
abbrev main_v85 : Ref sig .tc := ⟨.hbm, 128, rfl⟩
abbrev main_cst_12 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_13 : Ref sig .tc := ⟨.hbm, 133, rfl⟩
abbrev main_v89 : Ref sig .tc := ⟨.hbm, 134, rfl⟩
abbrev main_cst_14 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_cst_15 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_cst_16 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_call2_cst : Ref sig .tc := ⟨.hbm, 165, rfl⟩
abbrev main_call2_v0 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_call3_cst : Ref sig .tc := ⟨.hbm, 172, rfl⟩
abbrev main_call3_v0 : Ref sig .tc := ⟨.hbm, 173, rfl⟩
abbrev main_call3_cst_0 : Ref sig .tc := ⟨.hbm, 174, rfl⟩
abbrev main_call3_v1 : Ref sig .tc := ⟨.hbm, 175, rfl⟩
abbrev main_call3_v2 : Ref sig .tc := ⟨.hbm, 176, rfl⟩
abbrev main_call3_v3 : Ref sig .tc := ⟨.hbm, 177, rfl⟩
abbrev main_call3_v4 : Ref sig .tc := ⟨.hbm, 178, rfl⟩
abbrev main_call3_v5 : Ref sig .tc := ⟨.hbm, 179, rfl⟩
abbrev main_call3_v6 : Ref sig .tc := ⟨.hbm, 180, rfl⟩
abbrev main_call3_cst_1 : Ref sig .tc := ⟨.hbm, 181, rfl⟩
abbrev main_call3_v7 : Ref sig .tc := ⟨.hbm, 182, rfl⟩
abbrev main_call3_v8 : Ref sig .tc := ⟨.hbm, 183, rfl⟩
abbrev main_call3_v9 : Ref sig .tc := ⟨.hbm, 184, rfl⟩
abbrev main_call3_v10 : Ref sig .tc := ⟨.hbm, 185, rfl⟩
abbrev main_v122 : Ref sig .tc := ⟨.hbm, 186, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S_S128x64 : S_.BroadcastsInDim S128x64 (![] : Fin 0 → Fin S128x64.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S1x64_S128x64_0_1 : S1x64.BroadcastsInDim S128x64 (![0, 1] : Fin 2 → Fin S128x64.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  reducesTo_S128x10_S128_d1 : S128x10.ReducesTo [1] S128
  h_S_ : 0 < S_.numel
  bcast_S128x1_S128x10_0_1 : S128x1.BroadcastsInDim S128x10 (![0, 1] : Fin 2 → Fin S128x10.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x64_S128x64_1_0_0_1_n_n_wf : DotDims.WF S128x64 S64x64 S128x64 [1] [0] [0] [1] [] []
  dot_S128x64_S64x10_S128x10_1_0_0_1_n_n_wf : DotDims.WF S128x64 S64x10 S128x10 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

class Facts : Prop extends Facts₀ where

variable [Facts]
-- ==== Proof.KernelRun.lean ====
import proofs.«418702_j33346126086715_3_alg».proof.Proof.KernelRegionsP
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- decided memberships among 136 references and 20 windows recurse past the default depth
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! # What the run takes of a region's proof data -/

/-- The TensorCores' buffer contents when a region is entered, read at the TensorCore's references. -/
abbrev Ent (F : FTy → Type) [FloatOps F] : Type := (c : Dev nD) → (b : Ref sig .tc) → Buf (Elt F) ((c : Thread nD τ).loc b)

/-- A pipeline's proof data on every core, at any entry contents. -/
abbrev DatAt (F : FTy → Type) [FloatOps F] (cfg : Cfg sig Λ₀) : Type :=
  Ent F → (c : Dev nD) → Dat τ (Elt F) Unit ℕ (UR sig nD τ) ℕ cfg c

/-- What the run needs of a region's proof data `d`, at every entry contents `V` and core `c`: the arrays are read off
    `V`; the body obligation holds; the core owes nothing and holds every input whole; its recorded pairs are not
    bounded; and the invariant is entered from the class's (`ΦA`: the scoped rest and the generator register) and gives
    it back after the last point. -/
structure RegionData (cfg : Cfg sig Λ₀) (d : DatAt F cfg) : Prop where
  A_eq : ∀ (V : Ent F) (c : Dev nD) (w : Fin cfg.W), (d V c).A w = V c (Pipeline.arrRef cfg.spec w)
  body : ∀ (V : Ent F) (c : Dev nD), BodyObligation (d V c) (defs₀ (F := F)) Variants.none () Set.univ
  owed : ∀ (V : Ent F) (c : Dev nD) (t : Fin (cfg.N + 1)), (d V c).owed t = 0
  share : ∀ (V : Ent F) (c : Dev nD) (w : Fin cfg.W), (d V c).q w = fullShare
  recorded : ∀ (V : Ent F) (c : Dev nD) (t : Fin (cfg.N + 1)), (d V c).recorded t = Set.univ
  hin : ∀ (V : Ent F) (c : Dev nD), (Pipeline.ΦA cfg.spec c : sProp 𝕄) ⊢ (d V c).Φ 0
  hout : ∀ (V : Ent F) (c : Dev nD), (d V c).Φ (Fin.last cfg.N) ⊢ (Pipeline.ΦA cfg.spec c : sProp 𝕄)

variable (m : (ℓ : Loc nD τ sig) → Buf (Elt F) ℓ)
variable (d0 : DatAt F cfg0) (d1 : DatAt F cfg1) (d2 : DatAt F cfg2)

/-! # The buffer contents at the regions' boundaries -/

/-- Region 0 is entered from the launch contents after `hostOps0`. -/
abbrev ent0 : Ent F := fun c b => V1 m c b
/-- What region 0 leaves: its arrays at what the pipeline computes, every other buffer as entered. -/
def out0 (c : Dev nD) : Valuation τ sig (Elt F) :=
  Pipeline.withArrays spec0 c (V1 m c) fun w => (d0 (ent0 m) c).arrAt w cfg0.N
/-- The regions' results as far as region 0. -/
def outs0 : Outs (F := F) := fun _ r c => out0 m d0 c r
/-- Region 1 is entered from that after `hostOps1`. -/
abbrev ent1 : Ent F := fun c b => V3 m (outs0 m d0) c b
/-- What region 1 leaves. -/
def out1 (c : Dev nD) : Valuation τ sig (Elt F) :=
  Pipeline.withArrays spec1 c (V3 m (outs0 m d0) c) fun w => (d1 (ent1 m d0) c).arrAt w cfg1.N
/-- The regions' results as far as region 1. -/
def outs1 : Outs (F := F) := fun J r c => match J with
  | 2 => out0 m d0 c r
  | _ => out1 m d0 d1 c r
/-- Region 2 is entered from that after `hostOps2`. -/
abbrev ent2 : Ent F := fun c b => V5 m (outs1 m d0 d1) c b
/-- What region 2 leaves. -/
def out2 (c : Dev nD) : Valuation τ sig (Elt F) :=
  Pipeline.withArrays spec2 c (V5 m (outs1 m d0 d1) c) fun w => (d2 (ent2 m d0 d1) c).arrAt w cfg2.N
/-- The regions' results: what each leaves in the buffer it may change. -/
def outs : Outs (F := F) := fun J r c => match J with
  | 2 => out0 m d0 c r
  | 4 => out1 m d0 d1 c r
  | _ => out2 m d0 d1 d2 c r

theorem V2_outs (c : Dev nD) : V2 m (outs m d0 d1 d2) c = V2 m (outs0 m d0) c := rfl
theorem V3_outs (c : Dev nD) : V3 m (outs m d0 d1 d2) c = V3 m (outs0 m d0) c := rfl
theorem V4_outs (c : Dev nD) : V4 m (outs m d0 d1 d2) c = V4 m (outs1 m d0 d1) c := rfl
theorem V5_outs (c : Dev nD) : V5 m (outs m d0 d1 d2) c = V5 m (outs1 m d0 d1) c := rfl
theorem V3_outs1 (c : Dev nD) : V3 m (outs1 m d0 d1) c = V3 m (outs0 m d0) c := rfl

/-- The program's result buffer after region 2: the output window's array after the last point's write-back. -/
def res55 (c : Dev nD) : Buf (Elt F) ((c.tc : Thread nD τ).loc main_v55) := out2 m d0 d1 d2 c main_v55

theorem res55_eq (c : Dev nD) : res55 m d0 d1 d2 c = (d2 (ent2 m d0 d1) c).arrAt 19 cfg2.N := by
  unfold res55 out2; exact Pipeline.withArrays_arr spec2 launch2.win.arr_inj c _ _ 19
theorem out1_v30 (c : Dev nD) : out1 m d0 d1 c main_v30 = (d1 (ent1 m d0) c).arrAt 9 cfg1.N :=
  Pipeline.withArrays_arr spec1 launch1.win.arr_inj c _ _ 9
theorem out0_v12 (c : Dev nD) : out0 m d0 c main_v12 = (d0 (ent0 m) c).arrAt 2 cfg0.N :=
  Pipeline.withArrays_arr spec0 launch0.win.arr_inj c _ _ 2

/-! # The proof data family and the thread state -/

/-- Every pipeline's proof data, each at its region's entry contents. -/
def pdats : (p : Fin 3) → (c : Dev nD) → Dat τ (Elt F) Unit ℕ (UR sig nD τ) ℕ (cfgs p) c
  | ⟨0, _⟩ => fun c => d0 (ent0 m) c
  | ⟨1, _⟩ => fun c => d1 (ent1 m d0) c
  | ⟨2, _⟩ => fun c => d2 (ent2 m d0 d1) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at
    nothing. -/
abbrev Rst (c : Dev nD) : sProp 𝕄 := iprop((∃ r, prngReg c r) ∗ ∃ W, owes (c : Thread nD τ) (0 : CellTallies nD τ sig Unit) W)

/-! # Each region's arrays at its exit -/

theorem isOut0 : ∀ w : Fin 3, w ≠ 2 → (cfg0.win w).isOut = false := by decide
theorem isOut1 : ∀ w : Fin 10, w ≠ 9 → (cfg1.win w).isOut = false := by decide
theorem isOut2 : ∀ w : Fin 20, w ≠ 19 → (cfg2.win w).isOut = false := by decide

section Exit
variable (h0 : RegionData cfg0 d0) (h1 : RegionData cfg1 d1) (h2 : RegionData cfg2 d2)

include h0 in
/-- At region 0's exit each of its arrays holds what the pipeline leaves: an input as entered, the output what the
    write-backs made of it. -/
theorem hF0 (c : Dev nD) (w : Fin cfg0.W) :
    (d0 (ent0 m) c).arrAt w cfg0.N = V2 m (outs0 m d0) c (Pipeline.arrRef spec0 w) := by
  by_cases hw : w = 2
  · subst hw
    have hu : V2 m (outs0 m d0) c (Proc.devRef .tc main_v12) = out0 m d0 c (Proc.devRef .tc main_v12) :=
      Function.update_self (β := fun b : DevRef τ sig => b.ty.Contents (Elt F)) (Proc.devRef .tc main_v12) _ (V1 m c)
    exact (out0_v12 m d0 c).symm.trans hu.symm
  · have hne : Pipeline.arrRef spec0 w ∉ ([main_v12] : List (Ref sig .tc)) := fun hm =>
      hw (launch0.win.arr_inj (a₁ := w) (a₂ := 2) (List.mem_singleton.mp hm))
    have hstep : V2 m (outs0 m d0) c (Pipeline.arrRef spec0 w) = V1 m c (Pipeline.arrRef spec0 w) :=
      V2_of m (outs0 m d0) c _ hne
    exact ((d0 (ent0 m) c).arrAt_in w (isOut0 w hw) _).trans ((h0.A_eq _ c w).trans hstep.symm)
/-- and every other buffer what it held at entry. -/
theorem hrest0 (c : Dev nD) : ∀ b, b ∉ Finset.univ.image (Pipeline.arrRef spec0) → V2 m (outs0 m d0) c b = V1 m c b :=
  fun b hb => V2_of m (outs0 m d0) c b fun hm => hb (Finset.mem_image.mpr ⟨2, Finset.mem_univ _, (List.mem_singleton.mp hm).symm⟩)

include h1 in
/-- At region 1's exit each of its arrays holds what the pipeline leaves: an input as entered, the output what the
    write-backs made of it. -/
theorem hF1 (c : Dev nD) (w : Fin cfg1.W) :
    (d1 (ent1 m d0) c).arrAt w cfg1.N = V4 m (outs1 m d0 d1) c (Pipeline.arrRef spec1 w) := by
  by_cases hw : w = 9
  · subst hw
    have hu : V4 m (outs1 m d0 d1) c (Proc.devRef .tc main_v30) = out1 m d0 d1 c (Proc.devRef .tc main_v30) :=
      Function.update_self (β := fun b : DevRef τ sig => b.ty.Contents (Elt F)) (Proc.devRef .tc main_v30) _ (V3 m (outs1 m d0 d1) c)
    exact (out1_v30 m d0 d1 c).symm.trans hu.symm
  · have hne : Pipeline.arrRef spec1 w ∉ ([main_v30] : List (Ref sig .tc)) := fun hm =>
      hw (launch1.win.arr_inj (a₁ := w) (a₂ := 9) (List.mem_singleton.mp hm))
    have hstep : V4 m (outs1 m d0 d1) c (Pipeline.arrRef spec1 w) = V3 m (outs0 m d0) c (Pipeline.arrRef spec1 w) :=
      V4_of m (outs1 m d0 d1) c _ hne
    exact ((d1 (ent1 m d0) c).arrAt_in w (isOut1 w hw) _).trans ((h1.A_eq _ c w).trans hstep.symm)
/-- and every other buffer what it held at entry. -/
theorem hrest1 (c : Dev nD) : ∀ b, b ∉ Finset.univ.image (Pipeline.arrRef spec1) → V4 m (outs1 m d0 d1) c b = V3 m (outs0 m d0) c b :=
  fun b hb => V4_of m (outs1 m d0 d1) c b fun hm => hb (Finset.mem_image.mpr ⟨9, Finset.mem_univ _, (List.mem_singleton.mp hm).symm⟩)

include h2 in
/-- At region 2's exit each of its arrays holds what the pipeline leaves: an input as entered, the output what the
    write-backs made of it. -/
theorem hF2 (c : Dev nD) (w : Fin cfg2.W) :
    (d2 (ent2 m d0 d1) c).arrAt w cfg2.N = V6 m (outs m d0 d1 d2) c (Pipeline.arrRef spec2 w) := by
  by_cases hw : w = 19
  · subst hw
    have hu : V6 m (outs m d0 d1 d2) c (Proc.devRef .tc main_v55) = res55 m d0 d1 d2 c :=
      Function.update_self (β := fun b : DevRef τ sig => b.ty.Contents (Elt F)) (Proc.devRef .tc main_v55) _ (V5 m (outs m d0 d1 d2) c)
    exact (res55_eq m d0 d1 d2 c).symm.trans hu.symm
  · have hne : Pipeline.arrRef spec2 w ∉ ([main_v55] : List (Ref sig .tc)) := fun hm =>
      hw (launch2.win.arr_inj (a₁ := w) (a₂ := 19) (List.mem_singleton.mp hm))
    have hstep : V6 m (outs m d0 d1 d2) c (Pipeline.arrRef spec2 w) = V5 m (outs1 m d0 d1) c (Pipeline.arrRef spec2 w) :=
      V6_of m (outs m d0 d1 d2) c _ hne
    exact ((d2 (ent2 m d0 d1) c).arrAt_in w (isOut2 w hw) _).trans ((h2.A_eq _ c w).trans hstep.symm)
/-- and every other buffer what it held at entry. -/
theorem hrest2 (c : Dev nD) : ∀ b, b ∉ Finset.univ.image (Pipeline.arrRef spec2) → V6 m (outs m d0 d1 d2) c b = V5 m (outs1 m d0 d1) c b :=
  fun b hb => V6_of m (outs m d0 d1 d2) c b fun hm => hb (Finset.mem_image.mpr ⟨19, Finset.mem_univ _, (List.mem_singleton.mp hm).symm⟩)
end Exit

/-! # The regions as segments -/

section Regs
variable (h0 : RegionData cfg0 d0) (h1 : RegionData cfg1 d1) (h2 : RegionData cfg2 d2)

-- a library lemma stated over `pin pcs a p` unifies with the pinned configuration only when unification may unfold plain
-- definitions in a metavariable's type
set_option backward.isDefEq.respectTransparency.types false in
/-- REGION 0 over the thread state: entered from every unscoped buffer at `V1 m`, left at `V2 m (outs0 m d0)`. Its arrays
    split out of the unscoped buffers and put back at the exit contents; the generator register into the class invariant and
    out; nothing owed; no semaphore of the kernel's own. -/
def reg0 : RegionSeg (pcfgs (F := F)) adm (pdats m d0 d1 d2) () defs₀ 𝒱₀ L lv 0 where
  win := launch0.win.to₀
  block_pos := launch0.block_pos
  stage_whole := launch0.stage_whole
  K := PEmpty
  osem k := k.elim
  ho := Pipeline.OwnSemFacts.none _
  hbody c := (h0.body (ent0 m) c).loose
  hwaits := Pipeline.hwaits_of_owed_zero _ _ _ _ L lv 0 fun c t => h0.owed (ent0 m) c t
  pre c := iprop(StableHlo.held (c : Thread nD τ) (Pipeline.ucRefs τ sig) (V1 m c) ∗ Rst c)
  post c := iprop(StableHlo.held (c : Thread nD τ) (Pipeline.ucRefs τ sig) (V2 m (outs0 m d0) c) ∗ Rst c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdats m d0 d1 d2) launch0.win launch0.arr_whole c
      ((pdats m d0 d1 d2 0 c).share_full fun w => h0.share (ent0 m) c w) (ent0 m c) fun w => h0.A_eq (ent0 m) c w
    rw [Pipeline.unscopedBufs_held] at hsplit
    have ho : (pdats m d0 d1 d2 0 c).owed 0 = 0 := h0.owed (ent0 m) c 0
    have hr : (pdats m d0 d1 d2 0 c).recorded 0 = Set.univ := h0.recorded (ent0 m) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr
      · ipureintro; exact fun x _ => Or.inl (by rw [hr]; exact Set.mem_univ x)
      iexact HO
    isplitl [Hp]; · iexact Hp
    iexact Hrest
  hin c := by
    refine BIBase.Entails.trans ?_ (h0.hin (ent0 m) c)
    unfold Pipeline.ΦA
    iintro ⟨Hp, -, Hr⟩
    isplitl [Hr]; · iexact Hr
    iexact Hp
  hout c := by
    rw [Pipeline.ownSems0_none]
    refine BIBase.Entails.trans (h0.hout (ent0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m d0 d1 d2) ((pdats m d0 d1 d2 0 c).share_full fun w => h0.share (ent0 m) c w)
      (ent0 m c) (fun b => V2 m (outs0 m d0) c b) ((pdats m d0 d1 d2 0 c).arrAt · cfg0.N) (hF0 m d0 h0 c) (hrest0 m d0 c)
    rw [Pipeline.unscopedBufs_held] at hjoin
    have ho : (pdats m d0 d1 d2 0 c).owed (Fin.last _) = 0 := h0.owed (ent0 m) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

-- a library lemma stated over `pin pcs a p` unifies with the pinned configuration only when unification may unfold plain
-- definitions in a metavariable's type
set_option backward.isDefEq.respectTransparency.types false in
/-- REGION 1 over the thread state: entered from every unscoped buffer at `V3 m (outs0 m d0)`, left at `V4 m (outs1 m d0 d1)`. Its arrays
    split out of the unscoped buffers and put back at the exit contents; the generator register into the class invariant and
    out; nothing owed; no semaphore of the kernel's own. -/
def reg1 : RegionSeg (pcfgs (F := F)) adm (pdats m d0 d1 d2) () defs₀ 𝒱₀ L lv 1 where
  win := launch1.win.to₀
  block_pos := launch1.block_pos
  stage_whole := launch1.stage_whole
  K := PEmpty
  osem k := k.elim
  ho := Pipeline.OwnSemFacts.none _
  hbody c := (h1.body (ent1 m d0) c).loose
  hwaits := Pipeline.hwaits_of_owed_zero _ _ _ _ L lv 1 fun c t => h1.owed (ent1 m d0) c t
  pre c := iprop(StableHlo.held (c : Thread nD τ) (Pipeline.ucRefs τ sig) (V3 m (outs0 m d0) c) ∗ Rst c)
  post c := iprop(StableHlo.held (c : Thread nD τ) (Pipeline.ucRefs τ sig) (V4 m (outs1 m d0 d1) c) ∗ Rst c)
  X c := iprop(∃ r, prngReg c r)
  Y c := iprop(∃ r, prngReg c r)
  Z c := Pipeline.unscopedRest (Ix := Unit) (Name := ℕ) (U := UR sig nD τ) (Lvl := ℕ) spec1 c (ent1 m d0 c)
  hentry c := by
    rw [Pipeline.ownSems0_none]
    have hsplit := Pipeline.arrays_of_unscopedBufs (p := 1) (pcfgs (F := F)) adm (pdats m d0 d1 d2) launch1.win launch1.arr_whole c
      ((pdats m d0 d1 d2 1 c).share_full fun w => h1.share (ent1 m d0) c w) (ent1 m d0 c) fun w => h1.A_eq (ent1 m d0) c w
    rw [Pipeline.unscopedBufs_held] at hsplit
    have ho : (pdats m d0 d1 d2 1 c).owed 0 = 0 := h1.owed (ent1 m d0) c 0
    have hr : (pdats m d0 d1 d2 1 c).recorded 0 = Set.univ := h1.recorded (ent1 m d0) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr
      · ipureintro; exact fun x _ => Or.inl (by rw [hr]; exact Set.mem_univ x)
      iexact HO
    isplitl [Hp]; · iexact Hp
    iexact Hrest
  hin c := by
    refine BIBase.Entails.trans ?_ (h1.hin (ent1 m d0) c)
    unfold Pipeline.ΦA
    iintro ⟨Hp, -, Hr⟩
    isplitl [Hr]; · iexact Hr
    iexact Hp
  hout c := by
    rw [Pipeline.ownSems0_none]
    refine BIBase.Entails.trans (h1.hout (ent1 m d0) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m d0 d1 d2) ((pdats m d0 d1 d2 1 c).share_full fun w => h1.share (ent1 m d0) c w)
      (ent1 m d0 c) (fun b => V4 m (outs1 m d0 d1) c b) ((pdats m d0 d1 d2 1 c).arrAt · cfg1.N) (hF1 m d0 d1 h1 c) (hrest1 m d0 d1 c)
    rw [Pipeline.unscopedBufs_held] at hjoin
    have ho : (pdats m d0 d1 d2 1 c).owed (Fin.last _) = 0 := h1.owed (ent1 m d0) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

-- a library lemma stated over `pin pcs a p` unifies with the pinned configuration only when unification may unfold plain
-- definitions in a metavariable's type
set_option backward.isDefEq.respectTransparency.types false in
/-- REGION 2 over the thread state: entered from every unscoped buffer at `V5 m (outs1 m d0 d1)`, left at `V6 m (outs m d0 d1 d2)`. Its arrays
    split out of the unscoped buffers and put back at the exit contents; the generator register into the class invariant and
    out; nothing owed; no semaphore of the kernel's own. -/
def reg2 : RegionSeg (pcfgs (F := F)) adm (pdats m d0 d1 d2) () defs₀ 𝒱₀ L lv 2 where
  win := launch2.win.to₀
  block_pos := launch2.block_pos
  stage_whole := launch2.stage_whole
  K := PEmpty
  osem k := k.elim
  ho := Pipeline.OwnSemFacts.none _
  hbody c := (h2.body (ent2 m d0 d1) c).loose
  hwaits := Pipeline.hwaits_of_owed_zero _ _ _ _ L lv 2 fun c t => h2.owed (ent2 m d0 d1) c t
  pre c := iprop(StableHlo.held (c : Thread nD τ) (Pipeline.ucRefs τ sig) (V5 m (outs1 m d0 d1) c) ∗ Rst c)
  post c := iprop(StableHlo.held (c : Thread nD τ) (Pipeline.ucRefs τ sig) (V6 m (outs m d0 d1 d2) c) ∗ Rst c)
  X c := iprop(∃ r, prngReg c r)
  Y c := iprop(∃ r, prngReg c r)
  Z c := Pipeline.unscopedRest (Ix := Unit) (Name := ℕ) (U := UR sig nD τ) (Lvl := ℕ) spec2 c (ent2 m d0 d1 c)
  hentry c := by
    rw [Pipeline.ownSems0_none]
    have hsplit := Pipeline.arrays_of_unscopedBufs (p := 2) (pcfgs (F := F)) adm (pdats m d0 d1 d2) launch2.win launch2.arr_whole c
      ((pdats m d0 d1 d2 2 c).share_full fun w => h2.share (ent2 m d0 d1) c w) (ent2 m d0 d1 c) fun w => h2.A_eq (ent2 m d0 d1) c w
    rw [Pipeline.unscopedBufs_held] at hsplit
    have ho : (pdats m d0 d1 d2 2 c).owed 0 = 0 := h2.owed (ent2 m d0 d1) c 0
    have hr : (pdats m d0 d1 d2 2 c).recorded 0 = Set.univ := h2.recorded (ent2 m d0 d1) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr
      · ipureintro; exact fun x _ => Or.inl (by rw [hr]; exact Set.mem_univ x)
      iexact HO
    isplitl [Hp]; · iexact Hp
    iexact Hrest
  hin c := by
    refine BIBase.Entails.trans ?_ (h2.hin (ent2 m d0 d1) c)
    unfold Pipeline.ΦA
    iintro ⟨Hp, -, Hr⟩
    isplitl [Hr]; · iexact Hr
    iexact Hp
  hout c := by
    rw [Pipeline.ownSems0_none]
    refine BIBase.Entails.trans (h2.hout (ent2 m d0 d1) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m d0 d1 d2) ((pdats m d0 d1 d2 2 c).share_full fun w => h2.share (ent2 m d0 d1) c w)
      (ent2 m d0 d1 c) (fun b => V6 m (outs m d0 d1 d2) c b) ((pdats m d0 d1 d2 2 c).arrAt · cfg2.N) (hF2 m d0 d1 d2 h2 c) (hrest2 m d0 d1 d2 c)
    rw [Pipeline.unscopedBufs_held] at hjoin
    have ho : (pdats m d0 d1 d2 2 c).owed (Fin.last _) = 0 := h2.owed (ent2 m d0 d1) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

end Regs

/-! # The run of @main -/

section Run
variable (ρ : Dev nD → PrngReg) (h0 : RegionData cfg0 d0) (h1 : RegionData cfg1 d1) (h2 : RegionData cfg2 d2)

/-- The last valuation at the result buffer is what region 2 leaves there. -/
theorem V6_main_v55 (c : Dev nD) : V6 m (outs m d0 d1 d2) c (Proc.devRef .tc main_v55) = res55 m d0 d1 d2 c :=
  Function.update_self (β := fun b : DevRef τ sig => b.ty.Contents (Elt F)) (Proc.devRef .tc main_v55) _ (V5 m (outs m d0 d1 d2) c)

include h0 h1 h2 in
-- the launch theorem's implicit arguments are found by unifying its conclusion with this one, which takes unfolding
-- plain definitions in a metavariable's type
set_option backward.isDefEq.respectTransparency.types false in
/-- THE RUN. From any memory `m` with zero counters, every weakly fair execution of @main on the TensorCores terminates,
    and every final memory holds in the result buffer what region 2's pipeline leaves there (`res55`: the output window's
    array after the last point's write-back, region 2 entered from what region 1 left after `hostOps2`, region 1 from
    what region 0 left after `hostOps1`) and each argument as launched. -/
theorem run_main : θ_run defs (onTc (τ := τ) (main (F := F))) ⟨m, fun _ => 0, ρ⟩ (fun r => ∀ c : Dev nD,
      r.2.mem ((c.tc : Thread nD τ).loc main_v55) = res55 m d0 d1 d2 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) := by
  refine Pipeline.θ_run_regions_kit_dev (pcfgs (F := F)) adm (pdats m d0 d1 d2) () cellOf_inj emb₁ defs₀ 𝒱₀ L lv m ρ main
    (segs m (outs m d0 d1 d2) 𝒱₀ L lv (fun _ => Rst) () (pdats m d0 d1 d2) (reg0 m d0 d1 d2 h0) (reg1 m d0 d1 d2 h1) (reg2 m d0 d1 d2 h2))
    (fun c Q => by
      rewrite [main_chain c, Seg.run_eq_chain,
        show (segs m (outs m d0 d1 d2) 𝒱₀ L lv (fun _ => Rst) () (pdats m d0 d1 d2) (reg0 m d0 d1 d2 h0) (reg1 m d0 d1 d2 h1) (reg2 m d0 d1 d2 h2) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (V6 m (outs m d0 d1 d2) c))
    (hch := fun c => ⟨.rfl, .rfl, .rfl, .rfl, .rfl, .rfl, sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v55) = res55 m d0 d1 d2 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19) ∧ s.mem ((c.tc : Thread nD τ).loc main_arg20) = m ((c.tc : Thread nD τ).loc main_arg20) ∧ s.mem ((c.tc : Thread nD τ).loc main_arg21) = m ((c.tc : Thread nD τ).loc main_arg21) ∧ s.mem ((c.tc : Thread nD τ).loc main_arg22) = m ((c.tc : Thread nD τ).loc main_arg22) ∧ s.mem ((c.tc : Thread nD τ).loc main_arg23) = m ((c.tc : Thread nD τ).loc main_arg23) ∧ s.mem ((c.tc : Thread nD τ).loc main_arg24) = m ((c.tc : Thread nD τ).loc main_arg24))
    (hfin := fun c s' => ?_) (hQ := fun _ h => h)
  -- the end: the result buffer and each argument's buffer read off the last valuation
  unfold StableHlo.held
  iintro ⟨Hh, HSI⟩
  ihave Hr := (pointsTo_read_all (Pipeline.ucRefs τ sig) (fun b => ((c : Thread nD τ).1, b)) (V6 m (outs m d0 d1 d2) c) s') $$ [Hh HSI]
  · isplitl [Hh] <;> iassumption
  icases Hr with ⟨%h, HSI⟩
  imodintro
  isplitr
  · ipureintro
    exact ⟨(h (Proc.devRef .tc main_v55) (Finset.mem_filter.mpr ⟨StableHlo.devRef_mem_tcRefs main_v55, by decide⟩)).trans (V6_main_v55 m d0 d1 d2 c),
        (h (Proc.devRef .tc main_arg0) (Finset.mem_filter.mpr ⟨StableHlo.devRef_mem_tcRefs main_arg0, by decide⟩)).trans (V6_main_arg0 m (outs m d0 d1 d2) c),
        (h (Proc.devRef .tc main_arg1) (Finset.mem_filter.mpr ⟨StableHlo.devRef_mem_tcRefs main_arg1, by decide⟩)).trans (V6_main_arg1 m (outs m d0 d1 d2) c),
        (h (Proc.devRef .tc main_arg2) (Finset.mem_filter.mpr ⟨StableHlo.devRef_mem_tcRefs main_arg2, by decide⟩)).trans (V6_main_arg2 m (outs m d0 d1 d2) c),
        (h (Proc.devRef .tc main_arg3) (Finset.mem_filter.mpr ⟨StableHlo.devRef_mem_tcRefs main_arg3, by decide⟩)).trans (V6_main_arg3 m (outs m d0 d1 d2) c),
        (h (Proc.devRef .tc main_arg4) (Finset.mem_filter.mpr ⟨StableHlo.devRef_mem_tcRefs main_arg4, by decide⟩)).trans (V6_main_arg4 m (outs m d0 d1 d2) c),
        (h (Proc.devRef .tc main_arg5) (Finset.mem_filter.mpr ⟨StableHlo.devRef_mem_tcRefs main_arg5, by decide⟩)).trans (V6_main_arg5 m (outs m d0 d1 d2) c),
        (h (Proc.devRef .tc main_arg6) (Finset.mem_filter.mpr ⟨StableHlo.devRef_mem_tcRefs main_arg6, by decide⟩)).trans (V6_main_arg6 m (outs m d0 d1 d2) c),
        (h (Proc.devRef .tc main_arg7) (Finset.mem_filter.mpr ⟨StableHlo.devRef_mem_tcRefs main_arg7, by decide⟩)).trans (V6_main_arg7 m (outs m d0 d1 d2) c),
        (h (Proc.devRef .tc main_arg8) (Finset.mem_filter.mpr ⟨StableHlo.devRef_mem_tcRefs main_arg8, by decide⟩)).trans (V6_main_arg8 m (outs m d0 d1 d2) c),
        (h (Proc.devRef .tc main_arg9) (Finset.mem_filter.mpr ⟨StableHlo.devRef_mem_tcRefs main_arg9, by decide⟩)).trans (V6_main_arg9 m (outs m d0 d1 d2) c),
        (h (Proc.devRef .tc main_arg10) (Finset.mem_filter.mpr ⟨StableHlo.devRef_mem_tcRefs main_arg10, by decide⟩)).trans (V6_main_arg10 m (outs m d0 d1 d2) c),
        (h (Proc.devRef .tc main_arg11) (Finset.mem_filter.mpr ⟨StableHlo.devRef_mem_tcRefs main_arg11, by decide⟩)).trans (V6_main_arg11 m (outs m d0 d1 d2) c),
        (h (Proc.devRef .tc main_arg12) (Finset.mem_filter.mpr ⟨StableHlo.devRef_mem_tcRefs main_arg12, by decide⟩)).trans (V6_main_arg12 m (outs m d0 d1 d2) c),
        (h (Proc.devRef .tc main_arg13) (Finset.mem_filter.mpr ⟨StableHlo.devRef_mem_tcRefs main_arg13, by decide⟩)).trans (V6_main_arg13 m (outs m d0 d1 d2) c),
        (h (Proc.devRef .tc main_arg14) (Finset.mem_filter.mpr ⟨StableHlo.devRef_mem_tcRefs main_arg14, by decide⟩)).trans (V6_main_arg14 m (outs m d0 d1 d2) c),
        (h (Proc.devRef .tc main_arg15) (Finset.mem_filter.mpr ⟨StableHlo.devRef_mem_tcRefs main_arg15, by decide⟩)).trans (V6_main_arg15 m (outs m d0 d1 d2) c),
        (h (Proc.devRef .tc main_arg16) (Finset.mem_filter.mpr ⟨StableHlo.devRef_mem_tcRefs main_arg16, by decide⟩)).trans (V6_main_arg16 m (outs m d0 d1 d2) c),
        (h (Proc.devRef .tc main_arg17) (Finset.mem_filter.mpr ⟨StableHlo.devRef_mem_tcRefs main_arg17, by decide⟩)).trans (V6_main_arg17 m (outs m d0 d1 d2) c),
        (h (Proc.devRef .tc main_arg18) (Finset.mem_filter.mpr ⟨StableHlo.devRef_mem_tcRefs main_arg18, by decide⟩)).trans (V6_main_arg18 m (outs m d0 d1 d2) c),
        (h (Proc.devRef .tc main_arg19) (Finset.mem_filter.mpr ⟨StableHlo.devRef_mem_tcRefs main_arg19, by decide⟩)).trans (V6_main_arg19 m (outs m d0 d1 d2) c),
        (h (Proc.devRef .tc main_arg20) (Finset.mem_filter.mpr ⟨StableHlo.devRef_mem_tcRefs main_arg20, by decide⟩)).trans (V6_main_arg20 m (outs m d0 d1 d2) c),
        (h (Proc.devRef .tc main_arg21) (Finset.mem_filter.mpr ⟨StableHlo.devRef_mem_tcRefs main_arg21, by decide⟩)).trans (V6_main_arg21 m (outs m d0 d1 d2) c),
        (h (Proc.devRef .tc main_arg22) (Finset.mem_filter.mpr ⟨StableHlo.devRef_mem_tcRefs main_arg22, by decide⟩)).trans (V6_main_arg22 m (outs m d0 d1 d2) c),
        (h (Proc.devRef .tc main_arg23) (Finset.mem_filter.mpr ⟨StableHlo.devRef_mem_tcRefs main_arg23, by decide⟩)).trans (V6_main_arg23 m (outs m d0 d1 d2) c),
        (h (Proc.devRef .tc main_arg24) (Finset.mem_filter.mpr ⟨StableHlo.devRef_mem_tcRefs main_arg24, by decide⟩)).trans (V6_main_arg24 m (outs m d0 d1 d2) c)⟩
  · iexact HSI

include d0 d1 d2 h0 h1 h2 in
/-- THE FRAME: every weakly fair execution of @main terminates and every final memory holds each argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c => (h c).2) (run_main m d0 d1 d2 ρ h0 h1 h2)

/-- info: 'Cert.Kernel.Frm.run_main' depends on axioms: [propext, Classical.choice, Quot.sound] -/
#guard_msgs in #print axioms run_main
/-- info: 'Cert.Kernel.Frm.frame' depends on axioms: [propext, Classical.choice, Quot.sound] -/
#guard_msgs in #print axioms frame

end Run

end Cert.Kernel.Frm

end
-- ==== Proof.KernelIdealRun.lean ====
import proofs.«418702_j33346126086715_3_alg».proof.Proof.KernelIdealRegionsP
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- decided memberships among 136 references and 20 windows recurse past the default depth
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! # What the run takes of a region's proof data -/

/-- The TensorCores' buffer contents when a region is entered, read at the TensorCore's references. -/
abbrev Ent (F : FTy → Type) [FloatOps F] : Type := (c : Dev nD) → (b : Ref sig .tc) → Buf (Elt F) ((c : Thread nD τ).loc b)

/-- A pipeline's proof data on every core, at any entry contents. -/
abbrev DatAt (F : FTy → Type) [FloatOps F] (cfg : Cfg sig Λ₀) : Type :=
  Ent F → (c : Dev nD) → Dat τ (Elt F) Unit ℕ (UR sig nD τ) ℕ cfg c

/-- What the run needs of a region's proof data `d`, at every entry contents `V` and core `c`: the arrays are read off
    `V`; the body obligation holds; the core owes nothing and holds every input whole; its recorded pairs are not
    bounded; and the invariant is entered from the class's (`ΦA`: the scoped rest and the generator register) and gives
    it back after the last point. -/
structure RegionData (cfg : Cfg sig Λ₀) (d : DatAt F cfg) : Prop where
  A_eq : ∀ (V : Ent F) (c : Dev nD) (w : Fin cfg.W), (d V c).A w = V c (Pipeline.arrRef cfg.spec w)
  body : ∀ (V : Ent F) (c : Dev nD), BodyObligation (d V c) (defs₀ (F := F)) Variants.none () Set.univ
  owed : ∀ (V : Ent F) (c : Dev nD) (t : Fin (cfg.N + 1)), (d V c).owed t = 0
  share : ∀ (V : Ent F) (c : Dev nD) (w : Fin cfg.W), (d V c).q w = fullShare
  recorded : ∀ (V : Ent F) (c : Dev nD) (t : Fin (cfg.N + 1)), (d V c).recorded t = Set.univ
  hin : ∀ (V : Ent F) (c : Dev nD), (Pipeline.ΦA cfg.spec c : sProp 𝕄) ⊢ (d V c).Φ 0
  hout : ∀ (V : Ent F) (c : Dev nD), (d V c).Φ (Fin.last cfg.N) ⊢ (Pipeline.ΦA cfg.spec c : sProp 𝕄)

variable (m : (ℓ : Loc nD τ sig) → Buf (Elt F) ℓ)
variable (d0 : DatAt F cfg0) (d1 : DatAt F cfg1) (d2 : DatAt F cfg2)

/-! # The buffer contents at the regions' boundaries -/

/-- Region 0 is entered from the launch contents after `hostOps0`. -/
abbrev ent0 : Ent F := fun c b => V1 m c b
/-- What region 0 leaves: its arrays at what the pipeline computes, every other buffer as entered. -/
def out0 (c : Dev nD) : Valuation τ sig (Elt F) :=
  Pipeline.withArrays spec0 c (V1 m c) fun w => (d0 (ent0 m) c).arrAt w cfg0.N
/-- The regions' results as far as region 0. -/
def outs0 : Outs (F := F) := fun _ r c => out0 m d0 c r
/-- Region 1 is entered from that after `hostOps1`. -/
abbrev ent1 : Ent F := fun c b => V3 m (outs0 m d0) c b
/-- What region 1 leaves. -/
def out1 (c : Dev nD) : Valuation τ sig (Elt F) :=
  Pipeline.withArrays spec1 c (V3 m (outs0 m d0) c) fun w => (d1 (ent1 m d0) c).arrAt w cfg1.N
/-- The regions' results as far as region 1. -/
def outs1 : Outs (F := F) := fun J r c => match J with
  | 2 => out0 m d0 c r
  | _ => out1 m d0 d1 c r
/-- Region 2 is entered from that after `hostOps2`. -/
abbrev ent2 : Ent F := fun c b => V5 m (outs1 m d0 d1) c b
/-- What region 2 leaves. -/
def out2 (c : Dev nD) : Valuation τ sig (Elt F) :=
  Pipeline.withArrays spec2 c (V5 m (outs1 m d0 d1) c) fun w => (d2 (ent2 m d0 d1) c).arrAt w cfg2.N
/-- The regions' results: what each leaves in the buffer it may change. -/
def outs : Outs (F := F) := fun J r c => match J with
  | 2 => out0 m d0 c r
  | 4 => out1 m d0 d1 c r
  | _ => out2 m d0 d1 d2 c r

theorem V2_outs (c : Dev nD) : V2 m (outs m d0 d1 d2) c = V2 m (outs0 m d0) c := rfl
theorem V3_outs (c : Dev nD) : V3 m (outs m d0 d1 d2) c = V3 m (outs0 m d0) c := rfl
theorem V4_outs (c : Dev nD) : V4 m (outs m d0 d1 d2) c = V4 m (outs1 m d0 d1) c := rfl
theorem V5_outs (c : Dev nD) : V5 m (outs m d0 d1 d2) c = V5 m (outs1 m d0 d1) c := rfl
theorem V3_outs1 (c : Dev nD) : V3 m (outs1 m d0 d1) c = V3 m (outs0 m d0) c := rfl

/-- The program's result buffer after region 2: the output window's array after the last point's write-back. -/
def res55 (c : Dev nD) : Buf (Elt F) ((c.tc : Thread nD τ).loc main_v55) := out2 m d0 d1 d2 c main_v55

theorem res55_eq (c : Dev nD) : res55 m d0 d1 d2 c = (d2 (ent2 m d0 d1) c).arrAt 19 cfg2.N := by
  unfold res55 out2; exact Pipeline.withArrays_arr spec2 launch2.win.arr_inj c _ _ 19
theorem out1_v30 (c : Dev nD) : out1 m d0 d1 c main_v30 = (d1 (ent1 m d0) c).arrAt 9 cfg1.N :=
  Pipeline.withArrays_arr spec1 launch1.win.arr_inj c _ _ 9
theorem out0_v12 (c : Dev nD) : out0 m d0 c main_v12 = (d0 (ent0 m) c).arrAt 2 cfg0.N :=
  Pipeline.withArrays_arr spec0 launch0.win.arr_inj c _ _ 2

/-! # The proof data family and the thread state -/

/-- Every pipeline's proof data, each at its region's entry contents. -/
def pdats : (p : Fin 3) → (c : Dev nD) → Dat τ (Elt F) Unit ℕ (UR sig nD τ) ℕ (cfgs p) c
  | ⟨0, _⟩ => fun c => d0 (ent0 m) c
  | ⟨1, _⟩ => fun c => d1 (ent1 m d0) c
  | ⟨2, _⟩ => fun c => d2 (ent2 m d0 d1) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at
    nothing. -/
abbrev Rst (c : Dev nD) : sProp 𝕄 := iprop((∃ r, prngReg c r) ∗ ∃ W, owes (c : Thread nD τ) (0 : CellTallies nD τ sig Unit) W)

/-! # Each region's arrays at its exit -/

theorem isOut0 : ∀ w : Fin 3, w ≠ 2 → (cfg0.win w).isOut = false := by decide
theorem isOut1 : ∀ w : Fin 10, w ≠ 9 → (cfg1.win w).isOut = false := by decide
theorem isOut2 : ∀ w : Fin 20, w ≠ 19 → (cfg2.win w).isOut = false := by decide

section Exit
variable (h0 : RegionData cfg0 d0) (h1 : RegionData cfg1 d1) (h2 : RegionData cfg2 d2)

include h0 in
/-- At region 0's exit each of its arrays holds what the pipeline leaves: an input as entered, the output what the
    write-backs made of it. -/
theorem hF0 (c : Dev nD) (w : Fin cfg0.W) :
    (d0 (ent0 m) c).arrAt w cfg0.N = V2 m (outs0 m d0) c (Pipeline.arrRef spec0 w) := by
  by_cases hw : w = 2
  · subst hw
    have hu : V2 m (outs0 m d0) c (Proc.devRef .tc main_v12) = out0 m d0 c (Proc.devRef .tc main_v12) :=
      Function.update_self (β := fun b : DevRef τ sig => b.ty.Contents (Elt F)) (Proc.devRef .tc main_v12) _ (V1 m c)
    exact (out0_v12 m d0 c).symm.trans hu.symm
  · have hne : Pipeline.arrRef spec0 w ∉ ([main_v12] : List (Ref sig .tc)) := fun hm =>
      hw (launch0.win.arr_inj (a₁ := w) (a₂ := 2) (List.mem_singleton.mp hm))
    have hstep : V2 m (outs0 m d0) c (Pipeline.arrRef spec0 w) = V1 m c (Pipeline.arrRef spec0 w) :=
      V2_of m (outs0 m d0) c _ hne
    exact ((d0 (ent0 m) c).arrAt_in w (isOut0 w hw) _).trans ((h0.A_eq _ c w).trans hstep.symm)
/-- and every other buffer what it held at entry. -/
theorem hrest0 (c : Dev nD) : ∀ b, b ∉ Finset.univ.image (Pipeline.arrRef spec0) → V2 m (outs0 m d0) c b = V1 m c b :=
  fun b hb => V2_of m (outs0 m d0) c b fun hm => hb (Finset.mem_image.mpr ⟨2, Finset.mem_univ _, (List.mem_singleton.mp hm).symm⟩)

include h1 in
/-- At region 1's exit each of its arrays holds what the pipeline leaves: an input as entered, the output what the
    write-backs made of it. -/
theorem hF1 (c : Dev nD) (w : Fin cfg1.W) :
    (d1 (ent1 m d0) c).arrAt w cfg1.N = V4 m (outs1 m d0 d1) c (Pipeline.arrRef spec1 w) := by
  by_cases hw : w = 9
  · subst hw
    have hu : V4 m (outs1 m d0 d1) c (Proc.devRef .tc main_v30) = out1 m d0 d1 c (Proc.devRef .tc main_v30) :=
      Function.update_self (β := fun b : DevRef τ sig => b.ty.Contents (Elt F)) (Proc.devRef .tc main_v30) _ (V3 m (outs1 m d0 d1) c)
    exact (out1_v30 m d0 d1 c).symm.trans hu.symm
  · have hne : Pipeline.arrRef spec1 w ∉ ([main_v30] : List (Ref sig .tc)) := fun hm =>
      hw (launch1.win.arr_inj (a₁ := w) (a₂ := 9) (List.mem_singleton.mp hm))
    have hstep : V4 m (outs1 m d0 d1) c (Pipeline.arrRef spec1 w) = V3 m (outs0 m d0) c (Pipeline.arrRef spec1 w) :=
      V4_of m (outs1 m d0 d1) c _ hne
    exact ((d1 (ent1 m d0) c).arrAt_in w (isOut1 w hw) _).trans ((h1.A_eq _ c w).trans hstep.symm)
/-- and every other buffer what it held at entry. -/
theorem hrest1 (c : Dev nD) : ∀ b, b ∉ Finset.univ.image (Pipeline.arrRef spec1) → V4 m (outs1 m d0 d1) c b = V3 m (outs0 m d0) c b :=
  fun b hb => V4_of m (outs1 m d0 d1) c b fun hm => hb (Finset.mem_image.mpr ⟨9, Finset.mem_univ _, (List.mem_singleton.mp hm).symm⟩)

include h2 in
/-- At region 2's exit each of its arrays holds what the pipeline leaves: an input as entered, the output what the
    write-backs made of it. -/
theorem hF2 (c : Dev nD) (w : Fin cfg2.W) :
    (d2 (ent2 m d0 d1) c).arrAt w cfg2.N = V6 m (outs m d0 d1 d2) c (Pipeline.arrRef spec2 w) := by
  by_cases hw : w = 19
  · subst hw
    have hu : V6 m (outs m d0 d1 d2) c (Proc.devRef .tc main_v55) = res55 m d0 d1 d2 c :=
      Function.update_self (β := fun b : DevRef τ sig => b.ty.Contents (Elt F)) (Proc.devRef .tc main_v55) _ (V5 m (outs m d0 d1 d2) c)
    exact (res55_eq m d0 d1 d2 c).symm.trans hu.symm
  · have hne : Pipeline.arrRef spec2 w ∉ ([main_v55] : List (Ref sig .tc)) := fun hm =>
      hw (launch2.win.arr_inj (a₁ := w) (a₂ := 19) (List.mem_singleton.mp hm))
    have hstep : V6 m (outs m d0 d1 d2) c (Pipeline.arrRef spec2 w) = V5 m (outs1 m d0 d1) c (Pipeline.arrRef spec2 w) :=
      V6_of m (outs m d0 d1 d2) c _ hne
    exact ((d2 (ent2 m d0 d1) c).arrAt_in w (isOut2 w hw) _).trans ((h2.A_eq _ c w).trans hstep.symm)
/-- and every other buffer what it held at entry. -/
theorem hrest2 (c : Dev nD) : ∀ b, b ∉ Finset.univ.image (Pipeline.arrRef spec2) → V6 m (outs m d0 d1 d2) c b = V5 m (outs1 m d0 d1) c b :=
  fun b hb => V6_of m (outs m d0 d1 d2) c b fun hm => hb (Finset.mem_image.mpr ⟨19, Finset.mem_univ _, (List.mem_singleton.mp hm).symm⟩)
end Exit

/-! # The regions as segments -/

section Regs
variable (h0 : RegionData cfg0 d0) (h1 : RegionData cfg1 d1) (h2 : RegionData cfg2 d2)

-- a library lemma stated over `pin pcs a p` unifies with the pinned configuration only when unification may unfold plain
-- definitions in a metavariable's type
set_option backward.isDefEq.respectTransparency.types false in
/-- REGION 0 over the thread state: entered from every unscoped buffer at `V1 m`, left at `V2 m (outs0 m d0)`. Its arrays
    split out of the unscoped buffers and put back at the exit contents; the generator register into the class invariant and
    out; nothing owed; no semaphore of the kernel's own. -/
def reg0 : RegionSeg (pcfgs (F := F)) adm (pdats m d0 d1 d2) () defs₀ 𝒱₀ L lv 0 where
  win := launch0.win.to₀
  block_pos := launch0.block_pos
  stage_whole := launch0.stage_whole
  K := PEmpty
  osem k := k.elim
  ho := Pipeline.OwnSemFacts.none _
  hbody c := (h0.body (ent0 m) c).loose
  hwaits := Pipeline.hwaits_of_owed_zero _ _ _ _ L lv 0 fun c t => h0.owed (ent0 m) c t
  pre c := iprop(StableHlo.held (c : Thread nD τ) (Pipeline.ucRefs τ sig) (V1 m c) ∗ Rst c)
  post c := iprop(StableHlo.held (c : Thread nD τ) (Pipeline.ucRefs τ sig) (V2 m (outs0 m d0) c) ∗ Rst c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdats m d0 d1 d2) launch0.win launch0.arr_whole c
      ((pdats m d0 d1 d2 0 c).share_full fun w => h0.share (ent0 m) c w) (ent0 m c) fun w => h0.A_eq (ent0 m) c w
    rw [Pipeline.unscopedBufs_held] at hsplit
    have ho : (pdats m d0 d1 d2 0 c).owed 0 = 0 := h0.owed (ent0 m) c 0
    have hr : (pdats m d0 d1 d2 0 c).recorded 0 = Set.univ := h0.recorded (ent0 m) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr
      · ipureintro; exact fun x _ => Or.inl (by rw [hr]; exact Set.mem_univ x)
      iexact HO
    isplitl [Hp]; · iexact Hp
    iexact Hrest
  hin c := by
    refine BIBase.Entails.trans ?_ (h0.hin (ent0 m) c)
    unfold Pipeline.ΦA
    iintro ⟨Hp, -, Hr⟩
    isplitl [Hr]; · iexact Hr
    iexact Hp
  hout c := by
    rw [Pipeline.ownSems0_none]
    refine BIBase.Entails.trans (h0.hout (ent0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m d0 d1 d2) ((pdats m d0 d1 d2 0 c).share_full fun w => h0.share (ent0 m) c w)
      (ent0 m c) (fun b => V2 m (outs0 m d0) c b) ((pdats m d0 d1 d2 0 c).arrAt · cfg0.N) (hF0 m d0 h0 c) (hrest0 m d0 c)
    rw [Pipeline.unscopedBufs_held] at hjoin
    have ho : (pdats m d0 d1 d2 0 c).owed (Fin.last _) = 0 := h0.owed (ent0 m) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

-- a library lemma stated over `pin pcs a p` unifies with the pinned configuration only when unification may unfold plain
-- definitions in a metavariable's type
set_option backward.isDefEq.respectTransparency.types false in
/-- REGION 1 over the thread state: entered from every unscoped buffer at `V3 m (outs0 m d0)`, left at `V4 m (outs1 m d0 d1)`. Its arrays
    split out of the unscoped buffers and put back at the exit contents; the generator register into the class invariant and
    out; nothing owed; no semaphore of the kernel's own. -/
def reg1 : RegionSeg (pcfgs (F := F)) adm (pdats m d0 d1 d2) () defs₀ 𝒱₀ L lv 1 where
  win := launch1.win.to₀
  block_pos := launch1.block_pos
  stage_whole := launch1.stage_whole
  K := PEmpty
  osem k := k.elim
  ho := Pipeline.OwnSemFacts.none _
  hbody c := (h1.body (ent1 m d0) c).loose
  hwaits := Pipeline.hwaits_of_owed_zero _ _ _ _ L lv 1 fun c t => h1.owed (ent1 m d0) c t
  pre c := iprop(StableHlo.held (c : Thread nD τ) (Pipeline.ucRefs τ sig) (V3 m (outs0 m d0) c) ∗ Rst c)
  post c := iprop(StableHlo.held (c : Thread nD τ) (Pipeline.ucRefs τ sig) (V4 m (outs1 m d0 d1) c) ∗ Rst c)
  X c := iprop(∃ r, prngReg c r)
  Y c := iprop(∃ r, prngReg c r)
  Z c := Pipeline.unscopedRest (Ix := Unit) (Name := ℕ) (U := UR sig nD τ) (Lvl := ℕ) spec1 c (ent1 m d0 c)
  hentry c := by
    rw [Pipeline.ownSems0_none]
    have hsplit := Pipeline.arrays_of_unscopedBufs (p := 1) (pcfgs (F := F)) adm (pdats m d0 d1 d2) launch1.win launch1.arr_whole c
      ((pdats m d0 d1 d2 1 c).share_full fun w => h1.share (ent1 m d0) c w) (ent1 m d0 c) fun w => h1.A_eq (ent1 m d0) c w
    rw [Pipeline.unscopedBufs_held] at hsplit
    have ho : (pdats m d0 d1 d2 1 c).owed 0 = 0 := h1.owed (ent1 m d0) c 0
    have hr : (pdats m d0 d1 d2 1 c).recorded 0 = Set.univ := h1.recorded (ent1 m d0) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr
      · ipureintro; exact fun x _ => Or.inl (by rw [hr]; exact Set.mem_univ x)
      iexact HO
    isplitl [Hp]; · iexact Hp
    iexact Hrest
  hin c := by
    refine BIBase.Entails.trans ?_ (h1.hin (ent1 m d0) c)
    unfold Pipeline.ΦA
    iintro ⟨Hp, -, Hr⟩
    isplitl [Hr]; · iexact Hr
    iexact Hp
  hout c := by
    rw [Pipeline.ownSems0_none]
    refine BIBase.Entails.trans (h1.hout (ent1 m d0) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m d0 d1 d2) ((pdats m d0 d1 d2 1 c).share_full fun w => h1.share (ent1 m d0) c w)
      (ent1 m d0 c) (fun b => V4 m (outs1 m d0 d1) c b) ((pdats m d0 d1 d2 1 c).arrAt · cfg1.N) (hF1 m d0 d1 h1 c) (hrest1 m d0 d1 c)
    rw [Pipeline.unscopedBufs_held] at hjoin
    have ho : (pdats m d0 d1 d2 1 c).owed (Fin.last _) = 0 := h1.owed (ent1 m d0) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

-- a library lemma stated over `pin pcs a p` unifies with the pinned configuration only when unification may unfold plain
-- definitions in a metavariable's type
set_option backward.isDefEq.respectTransparency.types false in
/-- REGION 2 over the thread state: entered from every unscoped buffer at `V5 m (outs1 m d0 d1)`, left at `V6 m (outs m d0 d1 d2)`. Its arrays
    split out of the unscoped buffers and put back at the exit contents; the generator register into the class invariant and
    out; nothing owed; no semaphore of the kernel's own. -/
def reg2 : RegionSeg (pcfgs (F := F)) adm (pdats m d0 d1 d2) () defs₀ 𝒱₀ L lv 2 where
  win := launch2.win.to₀
  block_pos := launch2.block_pos
  stage_whole := launch2.stage_whole
  K := PEmpty
  osem k := k.elim
  ho := Pipeline.OwnSemFacts.none _
  hbody c := (h2.body (ent2 m d0 d1) c).loose
  hwaits := Pipeline.hwaits_of_owed_zero _ _ _ _ L lv 2 fun c t => h2.owed (ent2 m d0 d1) c t
  pre c := iprop(StableHlo.held (c : Thread nD τ) (Pipeline.ucRefs τ sig) (V5 m (outs1 m d0 d1) c) ∗ Rst c)
  post c := iprop(StableHlo.held (c : Thread nD τ) (Pipeline.ucRefs τ sig) (V6 m (outs m d0 d1 d2) c) ∗ Rst c)
  X c := iprop(∃ r, prngReg c r)
  Y c := iprop(∃ r, prngReg c r)
  Z c := Pipeline.unscopedRest (Ix := Unit) (Name := ℕ) (U := UR sig nD τ) (Lvl := ℕ) spec2 c (ent2 m d0 d1 c)
  hentry c := by
    rw [Pipeline.ownSems0_none]
    have hsplit := Pipeline.arrays_of_unscopedBufs (p := 2) (pcfgs (F := F)) adm (pdats m d0 d1 d2) launch2.win launch2.arr_whole c
      ((pdats m d0 d1 d2 2 c).share_full fun w => h2.share (ent2 m d0 d1) c w) (ent2 m d0 d1 c) fun w => h2.A_eq (ent2 m d0 d1) c w
    rw [Pipeline.unscopedBufs_held] at hsplit
    have ho : (pdats m d0 d1 d2 2 c).owed 0 = 0 := h2.owed (ent2 m d0 d1) c 0
    have hr : (pdats m d0 d1 d2 2 c).recorded 0 = Set.univ := h2.recorded (ent2 m d0 d1) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr
      · ipureintro; exact fun x _ => Or.inl (by rw [hr]; exact Set.mem_univ x)
      iexact HO
    isplitl [Hp]; · iexact Hp
    iexact Hrest
  hin c := by
    refine BIBase.Entails.trans ?_ (h2.hin (ent2 m d0 d1) c)
    unfold Pipeline.ΦA
    iintro ⟨Hp, -, Hr⟩
    isplitl [Hr]; · iexact Hr
    iexact Hp
  hout c := by
    rw [Pipeline.ownSems0_none]
    refine BIBase.Entails.trans (h2.hout (ent2 m d0 d1) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m d0 d1 d2) ((pdats m d0 d1 d2 2 c).share_full fun w => h2.share (ent2 m d0 d1) c w)
      (ent2 m d0 d1 c) (fun b => V6 m (outs m d0 d1 d2) c b) ((pdats m d0 d1 d2 2 c).arrAt · cfg2.N) (hF2 m d0 d1 d2 h2 c) (hrest2 m d0 d1 d2 c)
    rw [Pipeline.unscopedBufs_held] at hjoin
    have ho : (pdats m d0 d1 d2 2 c).owed (Fin.last _) = 0 := h2.owed (ent2 m d0 d1) c _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

end Regs

/-! # The run of @main -/

section Run
variable (ρ : Dev nD → PrngReg) (h0 : RegionData cfg0 d0) (h1 : RegionData cfg1 d1) (h2 : RegionData cfg2 d2)

/-- The last valuation at the result buffer is what region 2 leaves there. -/
theorem V6_main_v55 (c : Dev nD) : V6 m (outs m d0 d1 d2) c (Proc.devRef .tc main_v55) = res55 m d0 d1 d2 c :=
  Function.update_self (β := fun b : DevRef τ sig => b.ty.Contents (Elt F)) (Proc.devRef .tc main_v55) _ (V5 m (outs m d0 d1 d2) c)

include h0 h1 h2 in
-- the launch theorem's implicit arguments are found by unifying its conclusion with this one, which takes unfolding
-- plain definitions in a metavariable's type
set_option backward.isDefEq.respectTransparency.types false in
/-- THE RUN. From any memory `m` with zero counters, every weakly fair execution of @main on the TensorCores terminates,
    and every final memory holds in the result buffer what region 2's pipeline leaves there (`res55`: the output window's
    array after the last point's write-back, region 2 entered from what region 1 left after `hostOps2`, region 1 from
    what region 0 left after `hostOps1`) and each argument as launched. -/
theorem run_main : θ_run defs (onTc (τ := τ) (main (F := F))) ⟨m, fun _ => 0, ρ⟩ (fun r => ∀ c : Dev nD,
      r.2.mem ((c.tc : Thread nD τ).loc main_v55) = res55 m d0 d1 d2 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) := by
  refine Pipeline.θ_run_regions_kit_dev (pcfgs (F := F)) adm (pdats m d0 d1 d2) () cellOf_inj emb₁ defs₀ 𝒱₀ L lv m ρ main
    (segs m (outs m d0 d1 d2) 𝒱₀ L lv (fun _ => Rst) () (pdats m d0 d1 d2) (reg0 m d0 d1 d2 h0) (reg1 m d0 d1 d2 h1) (reg2 m d0 d1 d2 h2))
    (fun c Q => by
      rewrite [main_chain c, Seg.run_eq_chain,
        show (segs m (outs m d0 d1 d2) 𝒱₀ L lv (fun _ => Rst) () (pdats m d0 d1 d2) (reg0 m d0 d1 d2 h0) (reg1 m d0 d1 d2 h1) (reg2 m d0 d1 d2 h2) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (V6 m (outs m d0 d1 d2) c))
    (hch := fun c => ⟨.rfl, .rfl, .rfl, .rfl, .rfl, .rfl, sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v55) = res55 m d0 d1 d2 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19) ∧ s.mem ((c.tc : Thread nD τ).loc main_arg20) = m ((c.tc : Thread nD τ).loc main_arg20) ∧ s.mem ((c.tc : Thread nD τ).loc main_arg21) = m ((c.tc : Thread nD τ).loc main_arg21) ∧ s.mem ((c.tc : Thread nD τ).loc main_arg22) = m ((c.tc : Thread nD τ).loc main_arg22) ∧ s.mem ((c.tc : Thread nD τ).loc main_arg23) = m ((c.tc : Thread nD τ).loc main_arg23) ∧ s.mem ((c.tc : Thread nD τ).loc main_arg24) = m ((c.tc : Thread nD τ).loc main_arg24))
    (hfin := fun c s' => ?_) (hQ := fun _ h => h)
  -- the end: the result buffer and each argument's buffer read off the last valuation
  unfold StableHlo.held
  iintro ⟨Hh, HSI⟩
  ihave Hr := (pointsTo_read_all (Pipeline.ucRefs τ sig) (fun b => ((c : Thread nD τ).1, b)) (V6 m (outs m d0 d1 d2) c) s') $$ [Hh HSI]
  · isplitl [Hh] <;> iassumption
  icases Hr with ⟨%h, HSI⟩
  imodintro
  isplitr
  · ipureintro
    exact ⟨(h (Proc.devRef .tc main_v55) (Finset.mem_filter.mpr ⟨StableHlo.devRef_mem_tcRefs main_v55, by decide⟩)).trans (V6_main_v55 m d0 d1 d2 c),
        (h (Proc.devRef .tc main_arg0) (Finset.mem_filter.mpr ⟨StableHlo.devRef_mem_tcRefs main_arg0, by decide⟩)).trans (V6_main_arg0 m (outs m d0 d1 d2) c),
        (h (Proc.devRef .tc main_arg1) (Finset.mem_filter.mpr ⟨StableHlo.devRef_mem_tcRefs main_arg1, by decide⟩)).trans (V6_main_arg1 m (outs m d0 d1 d2) c),
        (h (Proc.devRef .tc main_arg2) (Finset.mem_filter.mpr ⟨StableHlo.devRef_mem_tcRefs main_arg2, by decide⟩)).trans (V6_main_arg2 m (outs m d0 d1 d2) c),
        (h (Proc.devRef .tc main_arg3) (Finset.mem_filter.mpr ⟨StableHlo.devRef_mem_tcRefs main_arg3, by decide⟩)).trans (V6_main_arg3 m (outs m d0 d1 d2) c),
        (h (Proc.devRef .tc main_arg4) (Finset.mem_filter.mpr ⟨StableHlo.devRef_mem_tcRefs main_arg4, by decide⟩)).trans (V6_main_arg4 m (outs m d0 d1 d2) c),
        (h (Proc.devRef .tc main_arg5) (Finset.mem_filter.mpr ⟨StableHlo.devRef_mem_tcRefs main_arg5, by decide⟩)).trans (V6_main_arg5 m (outs m d0 d1 d2) c),
        (h (Proc.devRef .tc main_arg6) (Finset.mem_filter.mpr ⟨StableHlo.devRef_mem_tcRefs main_arg6, by decide⟩)).trans (V6_main_arg6 m (outs m d0 d1 d2) c),
        (h (Proc.devRef .tc main_arg7) (Finset.mem_filter.mpr ⟨StableHlo.devRef_mem_tcRefs main_arg7, by decide⟩)).trans (V6_main_arg7 m (outs m d0 d1 d2) c),
        (h (Proc.devRef .tc main_arg8) (Finset.mem_filter.mpr ⟨StableHlo.devRef_mem_tcRefs main_arg8, by decide⟩)).trans (V6_main_arg8 m (outs m d0 d1 d2) c),
        (h (Proc.devRef .tc main_arg9) (Finset.mem_filter.mpr ⟨StableHlo.devRef_mem_tcRefs main_arg9, by decide⟩)).trans (V6_main_arg9 m (outs m d0 d1 d2) c),
        (h (Proc.devRef .tc main_arg10) (Finset.mem_filter.mpr ⟨StableHlo.devRef_mem_tcRefs main_arg10, by decide⟩)).trans (V6_main_arg10 m (outs m d0 d1 d2) c),
        (h (Proc.devRef .tc main_arg11) (Finset.mem_filter.mpr ⟨StableHlo.devRef_mem_tcRefs main_arg11, by decide⟩)).trans (V6_main_arg11 m (outs m d0 d1 d2) c),
        (h (Proc.devRef .tc main_arg12) (Finset.mem_filter.mpr ⟨StableHlo.devRef_mem_tcRefs main_arg12, by decide⟩)).trans (V6_main_arg12 m (outs m d0 d1 d2) c),
        (h (Proc.devRef .tc main_arg13) (Finset.mem_filter.mpr ⟨StableHlo.devRef_mem_tcRefs main_arg13, by decide⟩)).trans (V6_main_arg13 m (outs m d0 d1 d2) c),
        (h (Proc.devRef .tc main_arg14) (Finset.mem_filter.mpr ⟨StableHlo.devRef_mem_tcRefs main_arg14, by decide⟩)).trans (V6_main_arg14 m (outs m d0 d1 d2) c),
        (h (Proc.devRef .tc main_arg15) (Finset.mem_filter.mpr ⟨StableHlo.devRef_mem_tcRefs main_arg15, by decide⟩)).trans (V6_main_arg15 m (outs m d0 d1 d2) c),
        (h (Proc.devRef .tc main_arg16) (Finset.mem_filter.mpr ⟨StableHlo.devRef_mem_tcRefs main_arg16, by decide⟩)).trans (V6_main_arg16 m (outs m d0 d1 d2) c),
        (h (Proc.devRef .tc main_arg17) (Finset.mem_filter.mpr ⟨StableHlo.devRef_mem_tcRefs main_arg17, by decide⟩)).trans (V6_main_arg17 m (outs m d0 d1 d2) c),
        (h (Proc.devRef .tc main_arg18) (Finset.mem_filter.mpr ⟨StableHlo.devRef_mem_tcRefs main_arg18, by decide⟩)).trans (V6_main_arg18 m (outs m d0 d1 d2) c),
        (h (Proc.devRef .tc main_arg19) (Finset.mem_filter.mpr ⟨StableHlo.devRef_mem_tcRefs main_arg19, by decide⟩)).trans (V6_main_arg19 m (outs m d0 d1 d2) c),
        (h (Proc.devRef .tc main_arg20) (Finset.mem_filter.mpr ⟨StableHlo.devRef_mem_tcRefs main_arg20, by decide⟩)).trans (V6_main_arg20 m (outs m d0 d1 d2) c),
        (h (Proc.devRef .tc main_arg21) (Finset.mem_filter.mpr ⟨StableHlo.devRef_mem_tcRefs main_arg21, by decide⟩)).trans (V6_main_arg21 m (outs m d0 d1 d2) c),
        (h (Proc.devRef .tc main_arg22) (Finset.mem_filter.mpr ⟨StableHlo.devRef_mem_tcRefs main_arg22, by decide⟩)).trans (V6_main_arg22 m (outs m d0 d1 d2) c),
        (h (Proc.devRef .tc main_arg23) (Finset.mem_filter.mpr ⟨StableHlo.devRef_mem_tcRefs main_arg23, by decide⟩)).trans (V6_main_arg23 m (outs m d0 d1 d2) c),
        (h (Proc.devRef .tc main_arg24) (Finset.mem_filter.mpr ⟨StableHlo.devRef_mem_tcRefs main_arg24, by decide⟩)).trans (V6_main_arg24 m (outs m d0 d1 d2) c)⟩
  · iexact HSI

include d0 d1 d2 h0 h1 h2 in
/-- THE FRAME: every weakly fair execution of @main terminates and every final memory holds each argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c => (h c).2) (run_main m d0 d1 d2 ρ h0 h1 h2)

/-- info: 'Cert.KernelIdeal.Frm.run_main' depends on axioms: [propext, Classical.choice, Quot.sound] -/
#guard_msgs in #print axioms run_main
/-- info: 'Cert.KernelIdeal.Frm.frame' depends on axioms: [propext, Classical.choice, Quot.sound] -/
#guard_msgs in #print axioms frame

end Run

end Cert.KernelIdeal.Frm

end
-- ==== Proof.RefSide.lean ====
import proofs.«418702_j33346126086715_3_alg».proof.Proof.Gen.ReferenceIdeal.Run
import proofs.«418702_j33346126086715_3_alg».proof.Proof.Gen.ReferenceIdeal.Read

/-! The reference's run and its read-at-an-index lemmas (generated), gathered for the value proof. -/
-- ==== Proof.Spec.lean ====
import Idealize.ShloMosaic.PureOps.Ideal
import Idealize.ShloMosaic.PureOps.Ideal.Laws
import Idealize.ShloMosaic.Lib.ValueIdx

/-!
# The function both programs compute, as mathematics

A two-layer mean-aggregating graph network (each layer: mean of the neighbours' rows through one weight matrix, plus
the row itself through another, plus a bias; then an affine normalisation and a rectifier), a mean pool of the
node rows by graph, a two-layer classifier head and a row-wise log-softmax. Every stage is a definition of its own
over extended reals, written in the arrangement of the host program (sums start from the zero word, divisions are
the ideal division, the literals stay the words they are printed as). The edge and graph selectors are abstract:
r e is the row an edge reads, lands e n says the edge's contribution lands on row n, landsB m g says node m belongs to
graph g. The last section defines them from the raw integer inputs.
-/

noncomputable section

namespace Cert.Value.Spec

open Idealize.ShloMosaic Idealize.ShloMosaic.ValueIdx
open scoped BigOperators

/-! ## Shapes -/

abbrev SN128 : Shape := ⟨2, ![100000, 128]⟩
abbrev S128x64 : Shape := ⟨2, ![128, 64]⟩
abbrev S64x64 : Shape := ⟨2, ![64, 64]⟩
abbrev S64x10 : Shape := ⟨2, ![64, 10]⟩
abbrev S64 : Shape := ⟨1, ![64]⟩
abbrev S10 : Shape := ⟨1, ![10]⟩
abbrev S2xE : Shape := ⟨2, ![2, 1600000]⟩
abbrev SN : Shape := ⟨1, ![100000]⟩

/-! ## The literals, as the words they are printed as -/

/-- The f32 word of 0.0. -/
abbrev zeroW : EReal := Ideal.ofBits .f32 0x00000000#32
/-- The f32 word of 1.0. -/
abbrev oneW : EReal := Ideal.ofBits .f32 0x3F800000#32
/-- The f32 word of the normalisation's epsilon. -/
abbrev epsW : EReal := Ideal.ofBits .f32 0x3727C5AC#32
/-- The f32 word of minus infinity, the value the row maximum starts from. -/
abbrev ninfW : EReal := Ideal.ofBits .f32 0xFF800000#32

/-! ## The float inputs -/

/-- The float inputs, in the order of the programs' arguments (the integer inputs enter through the selectors). -/
structure Params where
  x : SN128.Idx → EReal
  W1l : S128x64.Idx → EReal
  W1r : S128x64.Idx → EReal
  b1 : S64.Idx → EReal
  W2l : S64x64.Idx → EReal
  W2r : S64x64.Idx → EReal
  b2 : S64.Idx → EReal
  bn1g : S64.Idx → EReal
  bn1b : S64.Idx → EReal
  bn1m : S64.Idx → EReal
  bn1v : S64.Idx → EReal
  bn2g : S64.Idx → EReal
  bn2b : S64.Idx → EReal
  bn2m : S64.Idx → EReal
  bn2v : S64.Idx → EReal
  Wc1 : S64x64.Idx → EReal
  bc1 : S64.Idx → EReal
  bn3g : S64.Idx → EReal
  bn3b : S64.Idx → EReal
  bn3m : S64.Idx → EReal
  bn3v : S64.Idx → EReal
  Wc2 : S64x10.Idx → EReal
  bc2 : S10.Idx → EReal

variable (P : Params) (r : Fin 1600000 → Fin 100000)
  (lands : Fin 1600000 → Fin 100000 → Prop) [∀ e n, Decidable (lands e n)]
  (landsB : Fin 100000 → Fin 128 → Prop) [∀ m g, Decidable (landsB m g)]

/-! ## The stages -/

/-- The number of edges landing on row n, as a sum of ones from zero. -/
def cnt (n : Fin 100000) : EReal :=
  zeroW + ∑ _e ∈ Finset.univ.filter (fun e => lands e n), oneW

/-- The divisor of the mean: the count, at least one. -/
def c (n : Fin 100000) : EReal := max (cnt lands n) oneW

/-- The reciprocal of the divisor. -/
def invc (n : Fin 100000) : EReal := Ideal.div oneW (c lands n)

/-- Layer 1's mean of the neighbours' input rows. -/
def m1 (n : Fin 100000) (k : Fin 128) : EReal :=
  Ideal.div (zeroW + ∑ e ∈ Finset.univ.filter (fun e => lands e n), P.x (ix2 (r e) k)) (c lands n)

/-- The input rows through the neighbour weight of layer 1. -/
def xl1 (n : Fin 100000) (j : Fin 64) : EReal :=
  ∑ k : Fin 128, P.x (ix2 n k) * P.W1l (ix2 k j)

/-- The sum over the landing edges of the projected rows. -/
def s1 (n : Fin 100000) (j : Fin 64) : EReal :=
  zeroW + ∑ e ∈ Finset.univ.filter (fun e => lands e n), xl1 P (r e) j

/-- Layer 1 before the normalisation: neighbours' mean through W1l, plus the bias, plus the row through W1r. -/
def a1 (n : Fin 100000) (j : Fin 64) : EReal :=
  ((∑ k : Fin 128, m1 P r lands n k * P.W1l (ix2 k j)) + P.b1 (ix1 j))
    + ∑ k : Fin 128, P.x (ix2 n k) * P.W1r (ix2 k j)

/-- The affine normalisation of one element in column j. -/
def bnorm (γ β μ σ2 : S64.Idx → EReal) (v : EReal) (j : Fin 64) : EReal :=
  ((v - μ (ix1 j)) * Ideal.rsqrt (σ2 (ix1 j) + epsW)) * γ (ix1 j) + β (ix1 j)

/-- Layer 1's output. -/
def h1 (n : Fin 100000) (j : Fin 64) : EReal :=
  max (bnorm P.bn1g P.bn1b P.bn1m P.bn1v (a1 P r lands n j) j) zeroW

/-- The sum over the landing edges of layer 1's output rows. -/
def s2 (n : Fin 100000) (k : Fin 64) : EReal :=
  zeroW + ∑ e ∈ Finset.univ.filter (fun e => lands e n), h1 P r lands (r e) k

/-- Layer 2's mean of the neighbours' rows. -/
def m2 (n : Fin 100000) (k : Fin 64) : EReal :=
  Ideal.div (s2 P r lands n k) (c lands n)

/-- Layer 2 before the normalisation. -/
def a2 (n : Fin 100000) (j : Fin 64) : EReal :=
  ((∑ k : Fin 64, m2 P r lands n k * P.W2l (ix2 k j)) + P.b2 (ix1 j))
    + ∑ k : Fin 64, h1 P r lands n k * P.W2r (ix2 k j)

/-- Layer 2's output. -/
def h2 (n : Fin 100000) (j : Fin 64) : EReal :=
  max (bnorm P.bn2g P.bn2b P.bn2m P.bn2v (a2 P r lands n j) j) zeroW

/-- The sum of the node rows of graph g. -/
def gs (g : Fin 128) (j : Fin 64) : EReal :=
  zeroW + ∑ m ∈ Finset.univ.filter (fun m => landsB m g), h2 P r lands m j

/-- The number of nodes of graph g. -/
def gc (g : Fin 128) : EReal :=
  zeroW + ∑ _m ∈ Finset.univ.filter (fun m => landsB m g), oneW

/-- The mean pool. -/
def p (g : Fin 128) (j : Fin 64) : EReal :=
  Ideal.div (gs P r lands landsB g j) (max (gc landsB g) oneW)

/-- The head's first layer before the normalisation. -/
def a3 (g : Fin 128) (j : Fin 64) : EReal :=
  (∑ k : Fin 64, p P r lands landsB g k * P.Wc1 (ix2 k j)) + P.bc1 (ix1 j)

/-- The head's first layer. -/
def g3 (g : Fin 128) (j : Fin 64) : EReal :=
  max (bnorm P.bn3g P.bn3b P.bn3m P.bn3v (a3 P r lands landsB g j) j) zeroW

/-- The logits. -/
def lg (g : Fin 128) (q : Fin 10) : EReal :=
  (∑ k : Fin 64, g3 P r lands landsB g k * P.Wc2 (ix2 k q)) + P.bc2 (ix1 q)

/-- The maximum of a row of ten values, folded from the minus-infinity word. -/
def rowmax (f : Fin 10 → EReal) : EReal := (Finset.univ : Finset (Fin 10)).fold max ninfW f

/-- The row's shift: the host takes the maximum of the minus-infinity word and the row maximum. -/
def mx (g : Fin 128) : EReal := max ninfW (rowmax fun q => lg P r lands landsB g q)

/-- The shifted logits. -/
def sh (g : Fin 128) (q : Fin 10) : EReal := lg P r lands landsB g q - mx P r lands landsB g

/-- The logarithm of the row's sum of exponentials. -/
def lse (g : Fin 128) : EReal :=
  Ideal.log (zeroW + ∑ q : Fin 10, Ideal.exp (sh P r lands landsB g q))

/-- The log-softmax of the logits: the function both programs compute. -/
def result (g : Fin 128) (q : Fin 10) : EReal := sh P r lands landsB g q - lse P r lands landsB g

/-! ## The selectors from the raw integer inputs -/

/-- The normalisation printed before the gather: a negative index is moved up by the number of rows. -/
def norm (s : BitVec 32) : BitVec 32 := Scalar.select (IntOp.cmpi .slt s 0#32) (IntOp.addi s 100000#32) s

/-- The row edge e reads: the normalised source index, read signed and clamped into the rows. -/
def rOf (ei : IVec S2xE 32) (e : Fin 1600000) : Fin 100000 :=
  ⟨min (norm (ei (ix2 (0 : Fin 2) e))).toInt.toNat (100000 - 1), by omega⟩

/-- Edge e lands on row n: its destination index, read signed, is n (out of range lands nowhere). -/
abbrev landsOf (ei : IVec S2xE 32) (e : Fin 1600000) (n : Fin 100000) : Prop :=
  (ei (ix2 (1 : Fin 2) e)).toInt = (n.val : ℤ)

/-- Node m belongs to graph g: its graph index, read signed, is g. -/
abbrev landsBOf (batch : IVec SN 32) (m : Fin 100000) (g : Fin 128) : Prop :=
  (batch (ix1 m)).toInt = (g.val : ℤ)

/-- The function at the raw inputs. -/
abbrev resultOf (P : Params) (ei : IVec S2xE 32) (batch : IVec SN 32) (g : Fin 128) (q : Fin 10) : EReal :=
  result P (rOf ei) (landsOf ei) (landsBOf batch) g q

end Cert.Value.Spec

end
-- ==== Proof.LibGatherRows.lean ====
/-
  A ROW GATHER READ AT AN INDEX. `stablehlo.gather` of a rank-2 operand `x : [N, C]` at a column of start indices
  `idx : [E, 1]` with offset_dims `[1]`, collapsed_slice_dims `[0]`, start_index_map `[0]`, index_vector_dim `1` and
  slice_sizes `[1, C]` — what `x[idx]` of a table of rows lowers to — has result `[E, C]`; its element `(e, j)` is the
  operand's element `(r, j)` where the row `r` is the start index `idx[e, 0]` read as a signed integer and clamped
  into `[0, N − 1]` (StableHLO clamps every start index so that the slice fits: here the slice is one whole row).
  General in the three sizes and in the element type.
-/
import Idealize.ShloMosaic.Lib.ValueIdx

noncomputable section

open scoped BigOperators

namespace Idealize.ShloMosaic.ValueIdx

open Idealize.ShloMosaic

section RowsGather
variable {α : Type}

/-- The dimension numbers of a gather of whole rows: operand `[N, C]`, start indices `[E, 1]`, result `[E, C]`;
    the result's axis 1 is the offset axis (it runs over a row), the operand's axis 0 is collapsed and is the one
    the start index addresses, the index vector lies along the start indices' axis 1, and a slice is `1 × C`.
    The conditions `wf` are decided (or assumed) on a program's literal shapes. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, j)`: the operand at row `idx[e, 0]` — read signed, clamped into `[0, N − 1]` — and
    column `j`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowsDims N E C wf) x idx (ix2 e j)
      = x (ix2 ⟨min (idx (ix2 e (0 : Fin 1))).toInt.toNat (N - 1), by omega⟩ j) := by
  unfold Host.gather
  congr 1
  funext a
  refine Fin.ext ?_
  match a with
  | ⟨0, _⟩ =>
    -- the row: the clamped start; no batching coordinate, and no offset coordinate on a collapsed axis
    show (rowsDims N E C wf).start (ix2 e j) idx 0 + (rowsDims N E C wf).batchCoord (ix2 e j) 0
        + (rowsDims N E C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e j) ⟨List.idxOf (0 : Fin 2) (rowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the column: the start index map does not name this axis, so the start is 0; the offset coordinate is `j`
    show (rowsDims N E C wf).start (ix2 e j) idx 1 + (rowsDims N E C wf).batchCoord (ix2 e j) 1
        + (rowsDims N E C wf).offCoord (ix2 e j) 1 = j.val
    have h1 : (1 : Fin 2) ∉ (rowsDims N E C wf).startIndexMap := by
      intro h; exact Nat.one_ne_zero (congrArg Fin.val (List.mem_singleton.mp h))
    have hk : (1 : Fin 2) ∈ (rowsDims N E C wf).sKept :=
      (GatherDims.mem_sKept _ _).mpr
        ⟨fun h => Nat.one_ne_zero (congrArg Fin.val (List.mem_singleton.mp h)), List.not_mem_nil⟩
    rw [GatherDims.batchCoord_eq_zero _ _ _ List.not_mem_nil]
    unfold GatherDims.start GatherDims.offCoord
    rw [dif_neg h1, dif_pos hk]
    simp only [Nat.add_zero, Nat.zero_add]
    rfl

end RowsGather

end Idealize.ShloMosaic.ValueIdx

end
-- ==== Proof.LibScatterRows.lean ====
/-
  AN ACCUMULATING ROW SCATTER READ AT AN INDEX, at the ideal instance. `stablehlo.scatter` with an `add` body of updates
  `upd : [E, C]` into an operand `x : [N, C]` at a column of scatter indices `idx : [E, 1]` with update_window_dims `[1]`,
  inserted_window_dims `[0]`, scatter_dims_to_operand_dims `[0]` and index_vector_dim `1` — what `x.at[idx].add(upd)` of
  a table of rows lowers to. Update element `(e, j')` lands on operand element `(idx[e, 0], j')`, the scatter index read
  as a SIGNED integer and NOT clamped: an update whose row is outside `[0, N)` is dropped. Over the extended reals the
  result at `(n, j)` is therefore `x (n, j)` plus the sum of `upd (e, j)` over the update rows `e` whose index is `n`.
  The same for a flat operand `[N]` and updates `[E]` (no window axis). General in the sizes.
-/
import Idealize.ShloMosaic.Lib.ValueIdx

noncomputable section

open scoped BigOperators

namespace Idealize.ShloMosaic.ValueIdx

open Idealize.ShloMosaic

/-! ## Where an update lands, in general -/

section General
variable {s si u : Shape}

/-- An axis is kept exactly when it is not among the removed ones. -/
theorem mem_kept_iff (axes : List (Fin s.rank)) (a : Fin s.rank) : a ∈ s.kept axes ↔ a ∉ axes := by
  simp [Shape.kept, List.mem_filter, List.mem_finRange]

/-- Update index `j` lands at operand index `i` exactly when on every axis the (signed, unclamped) start plus the
    window coordinate is `i`'s coordinate. -/
theorem resultIdx?_eq_some_iff (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  constructor
  · intro h a
    split at h
    · rename_i hc
      have hf := Option.some.inj h
      have ha : (d.start j idx a + (d.window j a : ℤ)).toNat = (i a).val := congrArg (fun f => (f a).val) hf
      have := (hc a).1
      omega
    · exact absurd h (by simp)
  · intro h
    have hc : ∀ a, 0 ≤ d.start j idx a + (d.window j a : ℤ) ∧ d.start j idx a + (d.window j a : ℤ) < (s.size a : ℤ) := by
      intro a
      have := (i a).isLt
      rw [h a]
      omega
    rw [dif_pos hc]
    congr 1
    funext a
    refine Fin.ext ?_
    show (d.start j idx a + (d.window j a : ℤ)).toNat = (i a).val
    rw [h a]
    exact Int.toNat_natCast _

end General

/-! ## Rows: operand `[N, C]`, scatter indices `[E, 1]`, updates `[E, C]` -/

section RowsScatter

/-- The dimension numbers of an accumulating scatter of whole rows: the updates' axis 1 is the window axis (it runs
    over a row), the operand's axis 0 is the inserted one and the one a scatter index addresses, and the index vector
    lies along the scatter indices' axis 1. The conditions `wf` are decided (or assumed) on a program's literal
    shapes. -/
abbrev rowsScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (j' : Fin C)

/-- On the row axis the start of update `(e, j')` is the scatter index `idx[e, 0]`, read signed. -/
theorem rowsScatter_start_row :
    (rowsScatterDims N E C wf).start (ix2 e j') idx 0 = (idx (ix2 e (0 : Fin 1))).toInt := by
  unfold ScatterDims.start
  rw [dif_pos (show (0 : Fin 2) ∈ (rowsScatterDims N E C wf).scatterDimsToOperandDims from List.mem_singleton.mpr rfl)]
  have hsi : (rowsScatterDims N E C wf).siIdx (ix2 e j')
      ⟨List.idxOf (0 : Fin 2) (rowsScatterDims N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which no scatter index addresses, the start is `0`. -/
theorem rowsScatter_start_col : (rowsScatterDims N E C wf).start (ix2 e j') idx 1 = 0 := by
  unfold ScatterDims.start
  rw [dif_neg (show (1 : Fin 2) ∉ (rowsScatterDims N E C wf).scatterDimsToOperandDims from
    fun h => Nat.one_ne_zero (congrArg Fin.val (List.mem_singleton.mp h)))]

/-- The row axis is inserted: no window coordinate there. -/
theorem rowsScatter_window_row : (rowsScatterDims N E C wf).window (ix2 e j') 0 = 0 := by
  unfold ScatterDims.window
  rw [dif_neg (show (0 : Fin 2) ∉ (rowsScatterDims N E C wf).sKept from
    fun h => (mem_kept_iff _ _).mp h (List.mem_singleton.mpr rfl))]

/-- On the column axis the window coordinate of update `(e, j')` is `j'`. -/
theorem rowsScatter_window_col : (rowsScatterDims N E C wf).window (ix2 e j') 1 = j'.val := by
  unfold ScatterDims.window
  rw [dif_pos (show (1 : Fin 2) ∈ (rowsScatterDims N E C wf).sKept from
    (mem_kept_iff _ _).mpr fun h => Nat.one_ne_zero (congrArg Fin.val (List.mem_singleton.mp h)))]
  rfl

/-- WHERE A ROW UPDATE LANDS: update `(e, j')` lands on operand element `(n, j)` exactly when the scatter index
    `idx[e, 0]`, read signed, is `n`, and the columns agree. -/
theorem rowsScatter_resultIdx?_eq_some (n : Fin N) (j : Fin C) :
    (rowsScatterDims N E C wf).resultIdx? (ix2 e j') idx = some (ix2 n j)
      ↔ (idx (ix2 e (0 : Fin 1))).toInt = (n.val : ℤ) ∧ j' = j := by
  rw [resultIdx?_eq_some_iff]
  constructor
  · intro h
    have h0 := h 0
    have h1 := h 1
    rw [rowsScatter_start_row, rowsScatter_window_row] at h0
    rw [rowsScatter_start_col, rowsScatter_window_col] at h1
    have h0' : (idx (ix2 e (0 : Fin 1))).toInt + ((0 : Nat) : ℤ) = (n.val : ℤ) := h0
    have h1' : (0 : ℤ) + (j'.val : ℤ) = (j.val : ℤ) := h1
    exact ⟨by omega, Fin.ext (by omega)⟩
  · rintro ⟨h0, rfl⟩ a
    match a with
    | ⟨0, _⟩ =>
      show (rowsScatterDims N E C wf).start (ix2 e j') idx 0 + ((rowsScatterDims N E C wf).window (ix2 e j') 0 : ℤ) = (n.val : ℤ)
      rw [rowsScatter_start_row, rowsScatter_window_row, h0]
      simp
    | ⟨1, _⟩ =>
      show (rowsScatterDims N E C wf).start (ix2 e j') idx 1 + ((rowsScatterDims N E C wf).window (ix2 e j') 1 : ℤ) = (j'.val : ℤ)
      rw [rowsScatter_start_col, rowsScatter_window_col]
      simp

end RowsScatter

section RowsScatterRead

/-- THE ACCUMULATING ROW SCATTER READ AT `(n, j)`, over the extended reals: the operand's element plus the sum, over
    the update rows `e` whose scatter index `idx[e, 0]` (read signed) is `n`, of the update's element `(e, j)`. -/
theorem scatterAdd_rows_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ)
    (n : Fin N) (j : Fin C) :
    Host.scatterAdd (F := Ideal) (rowsScatterDims N E C wf) x idx upd (ix2 n j)
      = x (ix2 n j)
        + ∑ e ∈ Finset.univ.filter (fun e : Fin E => (idx (ix2 e (0 : Fin 1))).toInt = (n.val : ℤ)), upd (ix2 e j) := by
  show x (ix2 n j) + ∑ v ∈ Finset.univ.filter
      (fun v => (rowsScatterDims N E C wf).resultIdx? v idx = some (ix2 n j)), upd v = _
  congr 1
  rw [Finset.sum_filter, sum_idx2, Finset.sum_filter]
  refine Finset.sum_congr rfl fun e _ => ?_
  simp only [rowsScatter_resultIdx?_eq_some]
  by_cases ht : (idx (ix2 e (0 : Fin 1))).toInt = (n.val : ℤ)
  · simp only [ht, true_and, if_true]
    exact Finset.sum_ite_eq' Finset.univ j (fun c => upd (ix2 e c)) |>.trans (if_pos (Finset.mem_univ j))
  · simp only [ht, false_and, if_false, Finset.sum_const_zero]

end RowsScatterRead

/-! ## Flat: operand `[N]`, scatter indices `[E, 1]`, updates `[E]` -/

section FlatScatter

/-- A rank-1 index is its one coordinate … -/
def idxEquiv1 {n : Nat} : (⟨1, ![n]⟩ : Shape).Idx ≃ Fin n where
  toFun i := i 0
  invFun a := ix1 a
  left_inv i := (eq_ix1 i).symm
  right_inv _ := rfl
/-- … so a sum over the rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of an accumulating scatter of scalars into a flat operand: the updates have no window
    axis, the operand's one axis is inserted and is the one a scatter index addresses, and the index vector lies along
    the scatter indices' axis 1. -/
abbrev flatScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

/-- The start of update `e` is the scatter index `idx[e, 0]`, read signed. -/
theorem flatScatter_start :
    (flatScatterDims N E wf).start (ix1 e) idx 0 = (idx (ix2 e (0 : Fin 1))).toInt := by
  unfold ScatterDims.start
  rw [dif_pos (show (0 : Fin 1) ∈ (flatScatterDims N E wf).scatterDimsToOperandDims from List.mem_singleton.mpr rfl)]
  have hsi : (flatScatterDims N E wf).siIdx (ix1 e)
      ⟨List.idxOf (0 : Fin 1) (flatScatterDims N E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: no window coordinate. -/
theorem flatScatter_window : (flatScatterDims N E wf).window (ix1 e) 0 = 0 := by
  unfold ScatterDims.window
  rw [dif_neg (show (0 : Fin 1) ∉ (flatScatterDims N E wf).sKept from
    fun h => (mem_kept_iff _ _).mp h (List.mem_singleton.mpr rfl))]

/-- WHERE A FLAT UPDATE LANDS: update `e` lands on operand element `n` exactly when the scatter index `idx[e, 0]`,
    read signed, is `n`. -/
theorem flatScatter_resultIdx?_eq_some (n : Fin N) :
    (flatScatterDims N E wf).resultIdx? (ix1 e) idx = some (ix1 n)
      ↔ (idx (ix2 e (0 : Fin 1))).toInt = (n.val : ℤ) := by
  rw [resultIdx?_eq_some_iff]
  constructor
  · intro h
    have h0 := h 0
    rw [flatScatter_start, flatScatter_window] at h0
    have h0' : (idx (ix2 e (0 : Fin 1))).toInt + ((0 : Nat) : ℤ) = (n.val : ℤ) := h0
    omega
  · intro h0 a
    match a with
    | ⟨0, _⟩ =>
      show (flatScatterDims N E wf).start (ix1 e) idx 0 + ((flatScatterDims N E wf).window (ix1 e) 0 : ℤ) = (n.val : ℤ)
      rw [flatScatter_start, flatScatter_window, h0]
      simp

end FlatScatter

section FlatScatterRead

/-- THE ACCUMULATING FLAT SCATTER READ AT `n`, over the extended reals: the operand's element plus the sum, over the
    updates `e` whose scatter index `idx[e, 0]` (read signed) is `n`, of the update `e`. -/
theorem scatterAdd_flat_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (flatScatterDims N E wf) x idx upd (ix1 n)
      = x (ix1 n)
        + ∑ e ∈ Finset.univ.filter (fun e : Fin E => (idx (ix2 e (0 : Fin 1))).toInt = (n.val : ℤ)), upd (ix1 e) := by
  show x (ix1 n) + ∑ v ∈ Finset.univ.filter
      (fun v => (flatScatterDims N E wf).resultIdx? v idx = some (ix1 n)), upd v = _
  congr 1
  rw [Finset.sum_filter, sum_idx1, Finset.sum_filter]
  refine Finset.sum_congr rfl fun e _ => ?_
  simp only [flatScatter_resultIdx?_eq_some]

end FlatScatterRead

end Idealize.ShloMosaic.ValueIdx

end
-- ==== Proof.RefValue.lean ====
import proofs.«418702_j33346126086715_3_alg».proof.Proof.RefSide
import proofs.«418702_j33346126086715_3_alg».proof.Proof.Spec
import proofs.«418702_j33346126086715_3_alg».proof.Proof.LibGatherRows
import proofs.«418702_j33346126086715_3_alg».proof.Proof.LibScatterRows
import Idealize.ShloMosaic.PureOps.Reduce
import proofs.«418702_j33346126086715_3_alg».proof.Defs
import proofs.«418702_j33346126086715_3_alg».proof.Proof.Gen.Pre_finite_inputs

/-!
# The host program computes the specified function

The host program's result, read one operation at a time, is `Spec.resultOf` of its argument arrays: the two index
columns of the edge array are the source and destination selectors, each gather reads the row the source selector
names, each accumulating scatter is the sum over the edges (or nodes) that land on a row, and the remaining
operations are elementwise, a contraction over one axis, or a fold over a row. One lemma per stage of the
specification; then the run of the host program with its result named by the specification.
-/

noncomputable section

namespace Cert.Value.Ref

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo
open scoped BigOperators

/-- The float arguments as the specification's parameters, in argument order (the two integer arguments enter
    through the selectors). -/
abbrev paramsOf (x0 : (⟨S100000x128, .f32⟩ : BufTy).Contents (Elt Ideal)) (x3 x4 : (⟨S128x64, .f32⟩ : BufTy).Contents (Elt Ideal)) (x5 : (⟨S64, .f32⟩ : BufTy).Contents (Elt Ideal))
    (x6 x7 : (⟨S64x64, .f32⟩ : BufTy).Contents (Elt Ideal)) (x8 x9 x10 x11 x12 x13 x14 x15 x16 : (⟨S64, .f32⟩ : BufTy).Contents (Elt Ideal))
    (x17 : (⟨S64x64, .f32⟩ : BufTy).Contents (Elt Ideal)) (x18 x19 x20 x21 x22 : (⟨S64, .f32⟩ : BufTy).Contents (Elt Ideal))
    (x23 : (⟨S64x10, .f32⟩ : BufTy).Contents (Elt Ideal)) (x24 : (⟨S10, .f32⟩ : BufTy).Contents (Elt Ideal)) : Spec.Params :=
  ⟨x0, x3, x4, x5, x6, x7, x8, x9, x10, x11, x12, x13, x14, x15, x16, x17, x18, x19, x20, x21, x22, x23, x24⟩

/-- Two sums over decidable subsets of a finite type agree when the subsets and the summands do. -/
theorem sum_filter_congr {ι : Type} [Fintype ι] {p q : ι → Prop} [DecidablePred p] [DecidablePred q]
    {f g : ι → EReal} (hpq : ∀ i, p i ↔ q i) (hfg : ∀ i, f i = g i) :
    ∑ i ∈ Finset.univ.filter p, f i = ∑ i ∈ Finset.univ.filter q, g i :=
  Finset.sum_congr (Finset.filter_congr fun i _ => hpq i) fun i _ => hfg i

variable (x0 : (⟨S100000x128, .f32⟩ : BufTy).Contents (Elt Ideal))
  (x1 : (⟨S2x1600000, .i32⟩ : BufTy).Contents (Elt Ideal))
  (x2 : (⟨S100000, .i32⟩ : BufTy).Contents (Elt Ideal))
  (x3 x4 : (⟨S128x64, .f32⟩ : BufTy).Contents (Elt Ideal))
  (x5 : (⟨S64, .f32⟩ : BufTy).Contents (Elt Ideal))
  (x6 x7 : (⟨S64x64, .f32⟩ : BufTy).Contents (Elt Ideal))
  (x8 x9 x10 x11 x12 x13 x14 x15 x16 : (⟨S64, .f32⟩ : BufTy).Contents (Elt Ideal))
  (x17 : (⟨S64x64, .f32⟩ : BufTy).Contents (Elt Ideal))
  (x18 x19 x20 x21 x22 : (⟨S64, .f32⟩ : BufTy).Contents (Elt Ideal))
  (x23 : (⟨S64x10, .f32⟩ : BufTy).Contents (Elt Ideal))
  (x24 : (⟨S10, .f32⟩ : BufTy).Contents (Elt Ideal))

/-! ## The selectors -/

/-- Row 0 of the edge array, flattened: the source indices. -/
theorem src_at (e : Fin 1600000) : val_main_v1 (F := Ideal) x1 (ix1 e) = x1 (ix2 (0 : Fin 2) e) := by
  rw [val_main_v1_apply, val_main_v0_apply]
  refine congrArg x1 (funext fun a => Fin.ext ?_)
  match a with
  | ⟨0, _⟩ => rfl
  | ⟨1, _⟩ => exact Nat.mod_eq_of_lt e.isLt

/-- Row 1 of the edge array, flattened: the destination indices. -/
theorem dst_at (e : Fin 1600000) : val_main_v3 (F := Ideal) x1 (ix1 e) = x1 (ix2 (1 : Fin 2) e) := by
  rw [val_main_v3_apply, val_main_v2_apply]
  refine congrArg x1 (funext fun a => Fin.ext ?_)
  match a with
  | ⟨0, _⟩ => rfl
  | ⟨1, _⟩ => exact Nat.mod_eq_of_lt e.isLt

/-- The first gather's start indices: the source index, a negative one moved up by the number of rows. -/
theorem gidx1_at (e : Fin 1600000) : val_main_v9 (F := Ideal) x1 (ix2 e (0 : Fin 1)) = Spec.norm (x1 (ix2 (0 : Fin 2) e)) := by
  have h : idx_main_v9 (ix2 e (0 : Fin 1)) = ix1 e := funext fun a => Fin.ext (by match a with | ⟨0, _⟩ => rfl)
  rw [val_main_v9_apply, h, val_main_v8_apply, val_main_v5_apply, val_main_v7_apply, val_main_v4_apply,
    val_main_v6_apply, val_main_c_apply, val_main_c_0_apply, src_at]
  rfl

/-- The second gather's start indices: the same. -/
theorem gidx2_at (e : Fin 1600000) : val_main_v50 (F := Ideal) x1 (ix2 e (0 : Fin 1)) = Spec.norm (x1 (ix2 (0 : Fin 2) e)) := by
  have h : idx_main_v50 (ix2 e (0 : Fin 1)) = ix1 e := funext fun a => Fin.ext (by match a with | ⟨0, _⟩ => rfl)
  rw [val_main_v50_apply, h, val_main_v49_apply, val_main_v46_apply, val_main_v48_apply, val_main_v45_apply,
    val_main_v47_apply, val_main_c_5_apply, val_main_c_6_apply, src_at]
  rfl

/-- A scatter's index column: the destination indices. -/
theorem sidx_v12_at (e : Fin 1600000) : val_main_v12 (F := Ideal) x1 (ix2 e (0 : Fin 1)) = x1 (ix2 (1 : Fin 2) e) := by
  have h : idx_main_v12 (ix2 e (0 : Fin 1)) = ix1 e := funext fun a => Fin.ext (by match a with | ⟨0, _⟩ => rfl)
  rw [val_main_v12_apply, h, dst_at]

/-- A scatter's index column: the destination indices. -/
theorem sidx_v16_at (e : Fin 1600000) : val_main_v16 (F := Ideal) x1 (ix2 e (0 : Fin 1)) = x1 (ix2 (1 : Fin 2) e) := by
  have h : idx_main_v16 (ix2 e (0 : Fin 1)) = ix1 e := funext fun a => Fin.ext (by match a with | ⟨0, _⟩ => rfl)
  rw [val_main_v16_apply, h, dst_at]

/-- A scatter's index column: the destination indices. -/
theorem sidx_v53_at (e : Fin 1600000) : val_main_v53 (F := Ideal) x1 (ix2 e (0 : Fin 1)) = x1 (ix2 (1 : Fin 2) e) := by
  have h : idx_main_v53 (ix2 e (0 : Fin 1)) = ix1 e := funext fun a => Fin.ext (by match a with | ⟨0, _⟩ => rfl)
  rw [val_main_v53_apply, h, dst_at]

/-- A scatter's index column: the destination indices. -/
theorem sidx_v57_at (e : Fin 1600000) : val_main_v57 (F := Ideal) x1 (ix2 e (0 : Fin 1)) = x1 (ix2 (1 : Fin 2) e) := by
  have h : idx_main_v57 (ix2 e (0 : Fin 1)) = ix1 e := funext fun a => Fin.ext (by match a with | ⟨0, _⟩ => rfl)
  rw [val_main_v57_apply, h, dst_at]

/-- The pool's index column: the graph indices. -/
theorem sidx_v87_at (m : Fin 100000) : val_main_v87 (F := Ideal) x2 (ix2 m (0 : Fin 1)) = x2 (ix1 m) := by
  rw [val_main_v87_apply]
  exact congrArg x2 (funext fun a => Fin.ext (by match a with | ⟨0, _⟩ => rfl))

/-- The pool's index column: the graph indices. -/
theorem sidx_v91_at (m : Fin 100000) : val_main_v91 (F := Ideal) x2 (ix2 m (0 : Fin 1)) = x2 (ix1 m) := by
  rw [val_main_v91_apply]
  exact congrArg x2 (funext fun a => Fin.ext (by match a with | ⟨0, _⟩ => rfl))

/-! ## Layer 1 -/

/-- The first gather: the input row the edge's source selector names. -/
theorem g1_at (e : Fin 1600000) (k : Fin 128) : val_main_v10 (F := Ideal) x0 x1 (ix2 e k) = x0 (ix2 (Spec.rOf x1 e) k) := by
  unfold val_main_v10
  refine (gather_rows_apply (N := 100000) (E := 1600000) (C := 128) (by omega) _ x0 (val_main_v9 (F := Ideal) x1) e k).trans ?_
  refine congrArg x0 (congrArg (fun r => ix2 r k) (Fin.ext ?_))
  show min (val_main_v9 (F := Ideal) x1 (ix2 e (0 : Fin 1))).toInt.toNat (100000 - 1)
    = min (Spec.norm (x1 (ix2 (0 : Fin 2) e))).toInt.toNat (100000 - 1)
  rw [gidx1_at]

/-- The first row scatter: from zero, the sum of the gathered rows over the edges landing on row n. -/
theorem sum1_at (n : Fin 100000) (k : Fin 128) : val_main_v13 (F := Ideal) x0 x1 (ix2 n k)
    = Spec.zeroW + ∑ e ∈ Finset.univ.filter (fun e => Spec.landsOf x1 e n), x0 (ix2 (Spec.rOf x1 e) k) := by
  unfold val_main_v13
  refine (scatterAdd_rows_apply (N := 100000) (E := 1600000) (C := 128) _ (val_main_v11 (F := Ideal)) (val_main_v12 (F := Ideal) x1) (val_main_v10 (F := Ideal) x0 x1) n k).trans ?_
  exact congrArg₂ (· + ·) ((val_main_v11_apply _).trans rfl)
    (sum_filter_congr (fun e => by rw [sidx_v12_at]) (fun e => g1_at x0 x1 e k))

/-- The edge count of row n. -/
theorem cnt1_at (n : Fin 100000) : val_main_v17 (F := Ideal) x1 (ix1 n) = Spec.cnt (Spec.landsOf x1) n := by
  unfold val_main_v17 Spec.cnt
  refine (scatterAdd_flat_apply (N := 100000) (E := 1600000) _ (val_main_v15 (F := Ideal)) (val_main_v16 (F := Ideal) x1) (val_main_v14 (F := Ideal)) n).trans ?_
  exact congrArg₂ (· + ·) ((val_main_v15_apply _).trans rfl)
    (sum_filter_congr (fun e => by rw [sidx_v16_at]) (fun e => (val_main_v14_apply _).trans rfl))

/-- The divisor of the first mean. -/
theorem c1_at (n : Fin 100000) : val_main_v19 (F := Ideal) x1 (ix1 n) = Spec.c (Spec.landsOf x1) n := by
  have h1 : val_main_v18 (F := Ideal) (ix1 n) = Spec.oneW := (val_main_v18_apply _).trans rfl
  rw [val_main_v19_apply, cnt1_at, h1]
  rfl

/-- The first mean. -/
theorem m1_at (n : Fin 100000) (k : Fin 128) : val_main_v22 (F := Ideal) x0 x1 (ix2 n k) = Spec.m1 (paramsOf x0 x3 x4 x5 x6 x7 x8 x9 x10 x11 x12 x13 x14 x15 x16 x17 x18 x19 x20 x21 x22 x23 x24) (Spec.rOf x1) (Spec.landsOf x1) n k := by
  have hi : idx_main_v20 (idx_main_v21 (ix2 n k)) = ix1 n := funext fun a => Fin.ext (by match a with | ⟨0, _⟩ => rfl)
  rw [val_main_v22_apply, sum1_at, val_main_v21_apply, val_main_v20_apply, hi, c1_at]
  rfl

/-- Layer 1 before the normalisation. -/
theorem a1_at (n : Fin 100000) (j : Fin 64) : val_main_v28 (F := Ideal) x0 x1 x3 x4 x5 (ix2 n j) = Spec.a1 (paramsOf x0 x3 x4 x5 x6 x7 x8 x9 x10 x11 x12 x13 x14 x15 x16 x17 x18 x19 x20 x21 x22 x23 x24) (Spec.rOf x1) (Spec.landsOf x1) n j := by
  have hb : val_main_v25 (F := Ideal) x5 (ix2 n j) = x5 (ix1 j) := by
    rw [val_main_v25_apply, val_main_v24_apply]
    exact congrArg x5 (funext fun a => Fin.ext (by match a with | ⟨0, _⟩ => rfl))
  rw [val_main_v28_apply, val_main_v26_apply, val_main_v23_apply, val_main_v27_apply, hb]
  unfold Spec.a1
  refine congrArg₂ (· + ·) (congrArg₂ (· + ·) (Finset.sum_congr rfl fun k _ => ?_) rfl) (Finset.sum_congr rfl fun k _ => ?_)
  ·
    have hl : lidx_main_v23 (ix2 n j) k = ix2 n k := funext fun a => Fin.ext (by match a with | ⟨0, _⟩ => rfl | ⟨1, _⟩ => rfl)
    have hr : ridx_main_v23 (ix2 n j) k = ix2 k j := funext fun a => Fin.ext (by match a with | ⟨0, _⟩ => rfl | ⟨1, _⟩ => rfl)
    rw [hl, hr, m1_at x0 x1 x3 x4 x5 x6 x7 x8 x9 x10 x11 x12 x13 x14 x15 x16 x17 x18 x19 x20 x21 x22 x23 x24]
  ·
    have hl : lidx_main_v27 (ix2 n j) k = ix2 n k := funext fun a => Fin.ext (by match a with | ⟨0, _⟩ => rfl | ⟨1, _⟩ => rfl)
    have hr : ridx_main_v27 (ix2 n j) k = ix2 k j := funext fun a => Fin.ext (by match a with | ⟨0, _⟩ => rfl | ⟨1, _⟩ => rfl)
    rw [hl, hr]

/-- Layer 1's output. -/
theorem h1_at (n : Fin 100000) (j : Fin 64) : val_main_v44 (F := Ideal) x0 x1 x3 x4 x5 x9 x10 x11 x12 (ix2 n j) = Spec.h1 (paramsOf x0 x3 x4 x5 x6 x7 x8 x9 x10 x11 x12 x13 x14 x15 x16 x17 x18 x19 x20 x21 x22 x23 x24) (Spec.rOf x1) (Spec.landsOf x1) n j := by
  have hmu : val_main_v30 (F := Ideal) x11 (ix2 n j) = x11 (ix1 j) := by
    rw [val_main_v30_apply, val_main_v29_apply]
    exact congrArg x11 (funext fun a => Fin.ext (by match a with | ⟨0, _⟩ => rfl))
  have hga : val_main_v39 (F := Ideal) x9 (ix2 n j) = x9 (ix1 j) := by
    rw [val_main_v39_apply, val_main_v38_apply]
    exact congrArg x9 (funext fun a => Fin.ext (by match a with | ⟨0, _⟩ => rfl))
  have hbe : val_main_v42 (F := Ideal) x10 (ix2 n j) = x10 (ix1 j) := by
    rw [val_main_v42_apply, val_main_v41_apply]
    exact congrArg x10 (funext fun a => Fin.ext (by match a with | ⟨0, _⟩ => rfl))
  have hrs : val_main_v36 (F := Ideal) x12 (ix2 n j) = Ideal.rsqrt (x12 (ix1 j) + Spec.epsW) := by
    have hi : idx_main_v35 (idx_main_v36 (ix2 n j)) = ix1 j := funext fun a => Fin.ext (by match a with | ⟨0, _⟩ => rfl)
    rw [val_main_v36_apply, val_main_v35_apply, hi, val_main_v34_apply, val_main_v33_apply, val_main_v32_apply, val_main_cst_4_apply]
    rfl
  have hz : val_main_call0_v0 (F := Ideal) (ix2 n j) = Spec.zeroW := (val_main_call0_v0_apply _).trans rfl
  rw [val_main_v44_apply, val_main_v43_apply, val_main_v40_apply, val_main_v37_apply, val_main_v31_apply, a1_at x0 x1 x3 x4 x5 x6 x7 x8 x9 x10 x11 x12 x13 x14 x15 x16 x17 x18 x19 x20 x21 x22 x23 x24, hmu, hga, hbe, hrs, hz]
  rfl

/-! ## Layer 2 -/

/-- The second gather: layer 1's output row the edge's source selector names. -/
theorem g2_at (e : Fin 1600000) (k : Fin 64) : val_main_v51 (F := Ideal) x0 x1 x3 x4 x5 x9 x10 x11 x12 (ix2 e k) = val_main_v44 (F := Ideal) x0 x1 x3 x4 x5 x9 x10 x11 x12 (ix2 (Spec.rOf x1 e) k) := by
  unfold val_main_v51
  refine (gather_rows_apply (N := 100000) (E := 1600000) (C := 64) (by omega) _ (val_main_v44 (F := Ideal) x0 x1 x3 x4 x5 x9 x10 x11 x12) (val_main_v50 (F := Ideal) x1) e k).trans ?_
  refine congrArg (val_main_v44 (F := Ideal) x0 x1 x3 x4 x5 x9 x10 x11 x12) (congrArg (fun r => ix2 r k) (Fin.ext ?_))
  show min (val_main_v50 (F := Ideal) x1 (ix2 e (0 : Fin 1))).toInt.toNat (100000 - 1)
    = min (Spec.norm (x1 (ix2 (0 : Fin 2) e))).toInt.toNat (100000 - 1)
  rw [gidx2_at]

/-- The second row scatter: from zero, the sum of layer 1's output rows over the edges landing on row n. -/
theorem sum2_at (n : Fin 100000) (k : Fin 64) : val_main_v54 (F := Ideal) x0 x1 x3 x4 x5 x9 x10 x11 x12 (ix2 n k) = Spec.s2 (paramsOf x0 x3 x4 x5 x6 x7 x8 x9 x10 x11 x12 x13 x14 x15 x16 x17 x18 x19 x20 x21 x22 x23 x24) (Spec.rOf x1) (Spec.landsOf x1) n k := by
  unfold val_main_v54 Spec.s2
  refine (scatterAdd_rows_apply (N := 100000) (E := 1600000) (C := 64) _ (val_main_v52 (F := Ideal)) (val_main_v53 (F := Ideal) x1) (val_main_v51 (F := Ideal) x0 x1 x3 x4 x5 x9 x10 x11 x12) n k).trans ?_
  exact congrArg₂ (· + ·) ((val_main_v52_apply _).trans rfl)
    (sum_filter_congr (fun e => by rw [sidx_v53_at]) (fun e => (g2_at x0 x1 x3 x4 x5 x9 x10 x11 x12 e k).trans (h1_at x0 x1 x3 x4 x5 x6 x7 x8 x9 x10 x11 x12 x13 x14 x15 x16 x17 x18 x19 x20 x21 x22 x23 x24 _ k)))

/-- The edge count of row n, as the second layer recomputes it. -/
theorem cnt2_at (n : Fin 100000) : val_main_v58 (F := Ideal) x1 (ix1 n) = Spec.cnt (Spec.landsOf x1) n := by
  unfold val_main_v58 Spec.cnt
  refine (scatterAdd_flat_apply (N := 100000) (E := 1600000) _ (val_main_v56 (F := Ideal)) (val_main_v57 (F := Ideal) x1) (val_main_v55 (F := Ideal)) n).trans ?_
  exact congrArg₂ (· + ·) ((val_main_v56_apply _).trans rfl)
    (sum_filter_congr (fun e => by rw [sidx_v57_at]) (fun e => (val_main_v55_apply _).trans rfl))

/-- The divisor of the second mean. -/
theorem c2_at (n : Fin 100000) : val_main_v60 (F := Ideal) x1 (ix1 n) = Spec.c (Spec.landsOf x1) n := by
  have h1 : val_main_v59 (F := Ideal) (ix1 n) = Spec.oneW := (val_main_v59_apply _).trans rfl
  rw [val_main_v60_apply, cnt2_at, h1]
  rfl

/-- The second mean. -/
theorem m2_at (n : Fin 100000) (k : Fin 64) : val_main_v63 (F := Ideal) x0 x1 x3 x4 x5 x9 x10 x11 x12 (ix2 n k) = Spec.m2 (paramsOf x0 x3 x4 x5 x6 x7 x8 x9 x10 x11 x12 x13 x14 x15 x16 x17 x18 x19 x20 x21 x22 x23 x24) (Spec.rOf x1) (Spec.landsOf x1) n k := by
  have hi : idx_main_v61 (idx_main_v62 (ix2 n k)) = ix1 n := funext fun a => Fin.ext (by match a with | ⟨0, _⟩ => rfl)
  rw [val_main_v63_apply, sum2_at x0 x1 x3 x4 x5 x6 x7 x8 x9 x10 x11 x12 x13 x14 x15 x16 x17 x18 x19 x20 x21 x22 x23 x24, val_main_v62_apply, val_main_v61_apply, hi, c2_at]
  rfl

/-- Layer 2 before the normalisation. -/
theorem a2_at (n : Fin 100000) (j : Fin 64) : val_main_v69 (F := Ideal) x0 x1 x3 x4 x5 x6 x7 x8 x9 x10 x11 x12 (ix2 n j) = Spec.a2 (paramsOf x0 x3 x4 x5 x6 x7 x8 x9 x10 x11 x12 x13 x14 x15 x16 x17 x18 x19 x20 x21 x22 x23 x24) (Spec.rOf x1) (Spec.landsOf x1) n j := by
  have hb : val_main_v66 (F := Ideal) x8 (ix2 n j) = x8 (ix1 j) := by
    rw [val_main_v66_apply, val_main_v65_apply]
    exact congrArg x8 (funext fun a => Fin.ext (by match a with | ⟨0, _⟩ => rfl))
  rw [val_main_v69_apply, val_main_v67_apply, val_main_v64_apply, val_main_v68_apply, hb]
  unfold Spec.a2
  refine congrArg₂ (· + ·) (congrArg₂ (· + ·) (Finset.sum_congr rfl fun k _ => ?_) rfl) (Finset.sum_congr rfl fun k _ => ?_)
  ·
    have hl : lidx_main_v64 (ix2 n j) k = ix2 n k := funext fun a => Fin.ext (by match a with | ⟨0, _⟩ => rfl | ⟨1, _⟩ => rfl)
    have hr : ridx_main_v64 (ix2 n j) k = ix2 k j := funext fun a => Fin.ext (by match a with | ⟨0, _⟩ => rfl | ⟨1, _⟩ => rfl)
    rw [hl, hr, m2_at x0 x1 x3 x4 x5 x6 x7 x8 x9 x10 x11 x12 x13 x14 x15 x16 x17 x18 x19 x20 x21 x22 x23 x24]
  ·
    have hl : lidx_main_v68 (ix2 n j) k = ix2 n k := funext fun a => Fin.ext (by match a with | ⟨0, _⟩ => rfl | ⟨1, _⟩ => rfl)
    have hr : ridx_main_v68 (ix2 n j) k = ix2 k j := funext fun a => Fin.ext (by match a with | ⟨0, _⟩ => rfl | ⟨1, _⟩ => rfl)
    rw [hl, hr, h1_at x0 x1 x3 x4 x5 x6 x7 x8 x9 x10 x11 x12 x13 x14 x15 x16 x17 x18 x19 x20 x21 x22 x23 x24]

/-- Layer 2's output. -/
theorem h2_at (n : Fin 100000) (j : Fin 64) : val_main_v85 (F := Ideal) x0 x1 x3 x4 x5 x6 x7 x8 x9 x10 x11 x12 x13 x14 x15 x16 (ix2 n j) = Spec.h2 (paramsOf x0 x3 x4 x5 x6 x7 x8 x9 x10 x11 x12 x13 x14 x15 x16 x17 x18 x19 x20 x21 x22 x23 x24) (Spec.rOf x1) (Spec.landsOf x1) n j := by
  have hmu : val_main_v71 (F := Ideal) x15 (ix2 n j) = x15 (ix1 j) := by
    rw [val_main_v71_apply, val_main_v70_apply]
    exact congrArg x15 (funext fun a => Fin.ext (by match a with | ⟨0, _⟩ => rfl))
  have hga : val_main_v80 (F := Ideal) x13 (ix2 n j) = x13 (ix1 j) := by
    rw [val_main_v80_apply, val_main_v79_apply]
    exact congrArg x13 (funext fun a => Fin.ext (by match a with | ⟨0, _⟩ => rfl))
  have hbe : val_main_v83 (F := Ideal) x14 (ix2 n j) = x14 (ix1 j) := by
    rw [val_main_v83_apply, val_main_v82_apply]
    exact congrArg x14 (funext fun a => Fin.ext (by match a with | ⟨0, _⟩ => rfl))
  have hrs : val_main_v77 (F := Ideal) x16 (ix2 n j) = Ideal.rsqrt (x16 (ix1 j) + Spec.epsW) := by
    have hi : idx_main_v76 (idx_main_v77 (ix2 n j)) = ix1 j := funext fun a => Fin.ext (by match a with | ⟨0, _⟩ => rfl)
    rw [val_main_v77_apply, val_main_v76_apply, hi, val_main_v75_apply, val_main_v74_apply, val_main_v73_apply, val_main_cst_11_apply]
    rfl
  have hz : val_main_call1_v0 (F := Ideal) (ix2 n j) = Spec.zeroW := (val_main_call1_v0_apply _).trans rfl
  rw [val_main_v85_apply, val_main_v84_apply, val_main_v81_apply, val_main_v78_apply, val_main_v72_apply, a2_at x0 x1 x3 x4 x5 x6 x7 x8 x9 x10 x11 x12 x13 x14 x15 x16 x17 x18 x19 x20 x21 x22 x23 x24, hmu, hga, hbe, hrs, hz]
  rfl

/-! ## The pool and the head -/

/-- The pool's row scatter: from zero, the sum of layer 2's output rows over the nodes of graph g. -/
theorem gs_at (g : Fin 128) (j : Fin 64) : val_main_v88 (F := Ideal) x0 x1 x2 x3 x4 x5 x6 x7 x8 x9 x10 x11 x12 x13 x14 x15 x16 (ix2 g j) = Spec.gs (paramsOf x0 x3 x4 x5 x6 x7 x8 x9 x10 x11 x12 x13 x14 x15 x16 x17 x18 x19 x20 x21 x22 x23 x24) (Spec.rOf x1) (Spec.landsOf x1) (Spec.landsBOf x2) g j := by
  unfold val_main_v88 Spec.gs
  refine (scatterAdd_rows_apply (N := 128) (E := 100000) (C := 64) _ (val_main_v86 (F := Ideal)) (val_main_v87 (F := Ideal) x2) (val_main_v85 (F := Ideal) x0 x1 x3 x4 x5 x6 x7 x8 x9 x10 x11 x12 x13 x14 x15 x16) g j).trans ?_
  exact congrArg₂ (· + ·) ((val_main_v86_apply _).trans rfl)
    (sum_filter_congr (fun m => by rw [sidx_v87_at]) (fun m => h2_at x0 x1 x3 x4 x5 x6 x7 x8 x9 x10 x11 x12 x13 x14 x15 x16 x17 x18 x19 x20 x21 x22 x23 x24 m j))

/-- The node count of graph g. -/
theorem gc_at (g : Fin 128) : val_main_v92 (F := Ideal) x2 (ix1 g) = Spec.gc (Spec.landsBOf x2) g := by
  unfold val_main_v92 Spec.gc
  refine (scatterAdd_flat_apply (N := 128) (E := 100000) _ (val_main_v90 (F := Ideal)) (val_main_v91 (F := Ideal) x2) (val_main_v89 (F := Ideal)) g).trans ?_
  exact congrArg₂ (· + ·) ((val_main_v90_apply _).trans rfl)
    (sum_filter_congr (fun m => by rw [sidx_v91_at]) (fun m => (val_main_v89_apply _).trans rfl))

/-- The mean pool. -/
theorem p_at (g : Fin 128) (j : Fin 64) : val_main_v97 (F := Ideal) x0 x1 x2 x3 x4 x5 x6 x7 x8 x9 x10 x11 x12 x13 x14 x15 x16 (ix2 g j) = Spec.p (paramsOf x0 x3 x4 x5 x6 x7 x8 x9 x10 x11 x12 x13 x14 x15 x16 x17 x18 x19 x20 x21 x22 x23 x24) (Spec.rOf x1) (Spec.landsOf x1) (Spec.landsBOf x2) g j := by
  have hi : idx_main_v95 (idx_main_v96 (ix2 g j)) = ix1 g := funext fun a => Fin.ext (by match a with | ⟨0, _⟩ => rfl)
  have h1 : val_main_v93 (F := Ideal) (ix1 g) = Spec.oneW := (val_main_v93_apply _).trans rfl
  rw [val_main_v97_apply, gs_at x0 x1 x2 x3 x4 x5 x6 x7 x8 x9 x10 x11 x12 x13 x14 x15 x16 x17 x18 x19 x20 x21 x22 x23 x24, val_main_v96_apply, val_main_v95_apply, hi, val_main_v94_apply, gc_at, h1]
  rfl

/-- The head's first layer before the normalisation. -/
theorem a3_at (g : Fin 128) (j : Fin 64) : val_main_v101 (F := Ideal) x0 x1 x2 x3 x4 x5 x6 x7 x8 x9 x10 x11 x12 x13 x14 x15 x16 x17 x18 (ix2 g j) = Spec.a3 (paramsOf x0 x3 x4 x5 x6 x7 x8 x9 x10 x11 x12 x13 x14 x15 x16 x17 x18 x19 x20 x21 x22 x23 x24) (Spec.rOf x1) (Spec.landsOf x1) (Spec.landsBOf x2) g j := by
  have hb : val_main_v100 (F := Ideal) x18 (ix2 g j) = x18 (ix1 j) := by
    rw [val_main_v100_apply, val_main_v99_apply]
    exact congrArg x18 (funext fun a => Fin.ext (by match a with | ⟨0, _⟩ => rfl))
  rw [val_main_v101_apply, val_main_v98_apply, hb]
  unfold Spec.a3
  refine congrArg₂ (· + ·) (Finset.sum_congr rfl fun k _ => ?_) rfl
  have hl : lidx_main_v98 (ix2 g j) k = ix2 g k := funext fun a => Fin.ext (by match a with | ⟨0, _⟩ => rfl | ⟨1, _⟩ => rfl)
  have hr : ridx_main_v98 (ix2 g j) k = ix2 k j := funext fun a => Fin.ext (by match a with | ⟨0, _⟩ => rfl | ⟨1, _⟩ => rfl)
  rw [hl, hr, p_at x0 x1 x2 x3 x4 x5 x6 x7 x8 x9 x10 x11 x12 x13 x14 x15 x16 x17 x18 x19 x20 x21 x22 x23 x24]

/-- The head's first layer. -/
theorem g3_at (n : Fin 128) (j : Fin 64) : val_main_v117 (F := Ideal) x0 x1 x2 x3 x4 x5 x6 x7 x8 x9 x10 x11 x12 x13 x14 x15 x16 x17 x18 x19 x20 x21 x22 (ix2 n j) = Spec.g3 (paramsOf x0 x3 x4 x5 x6 x7 x8 x9 x10 x11 x12 x13 x14 x15 x16 x17 x18 x19 x20 x21 x22 x23 x24) (Spec.rOf x1) (Spec.landsOf x1) (Spec.landsBOf x2) n j := by
  have hmu : val_main_v103 (F := Ideal) x21 (ix2 n j) = x21 (ix1 j) := by
    rw [val_main_v103_apply, val_main_v102_apply]
    exact congrArg x21 (funext fun a => Fin.ext (by match a with | ⟨0, _⟩ => rfl))
  have hga : val_main_v112 (F := Ideal) x19 (ix2 n j) = x19 (ix1 j) := by
    rw [val_main_v112_apply, val_main_v111_apply]
    exact congrArg x19 (funext fun a => Fin.ext (by match a with | ⟨0, _⟩ => rfl))
  have hbe : val_main_v115 (F := Ideal) x20 (ix2 n j) = x20 (ix1 j) := by
    rw [val_main_v115_apply, val_main_v114_apply]
    exact congrArg x20 (funext fun a => Fin.ext (by match a with | ⟨0, _⟩ => rfl))
  have hrs : val_main_v109 (F := Ideal) x22 (ix2 n j) = Ideal.rsqrt (x22 (ix1 j) + Spec.epsW) := by
    have hi : idx_main_v108 (idx_main_v109 (ix2 n j)) = ix1 j := funext fun a => Fin.ext (by match a with | ⟨0, _⟩ => rfl)
    rw [val_main_v109_apply, val_main_v108_apply, hi, val_main_v107_apply, val_main_v106_apply, val_main_v105_apply, val_main_cst_16_apply]
    rfl
  have hz : val_main_call2_v0 (F := Ideal) (ix2 n j) = Spec.zeroW := (val_main_call2_v0_apply _).trans rfl
  rw [val_main_v117_apply, val_main_v116_apply, val_main_v113_apply, val_main_v110_apply, val_main_v104_apply, a3_at x0 x1 x2 x3 x4 x5 x6 x7 x8 x9 x10 x11 x12 x13 x14 x15 x16 x17 x18 x19 x20 x21 x22 x23 x24, hmu, hga, hbe, hrs, hz]
  rfl

/-- The logits. -/
theorem lg_at (g : Fin 128) (q : Fin 10) : val_main_v121 (F := Ideal) x0 x1 x2 x3 x4 x5 x6 x7 x8 x9 x10 x11 x12 x13 x14 x15 x16 x17 x18 x19 x20 x21 x22 x23 x24 (ix2 g q) = Spec.lg (paramsOf x0 x3 x4 x5 x6 x7 x8 x9 x10 x11 x12 x13 x14 x15 x16 x17 x18 x19 x20 x21 x22 x23 x24) (Spec.rOf x1) (Spec.landsOf x1) (Spec.landsBOf x2) g q := by
  have hb : val_main_v120 (F := Ideal) x24 (ix2 g q) = x24 (ix1 q) := by
    rw [val_main_v120_apply, val_main_v119_apply]
    exact congrArg x24 (funext fun a => Fin.ext (by match a with | ⟨0, _⟩ => rfl))
  rw [val_main_v121_apply, val_main_v118_apply, hb]
  unfold Spec.lg
  refine congrArg₂ (· + ·) (Finset.sum_congr rfl fun k _ => ?_) rfl
  have hl : lidx_main_v118 (ix2 g q) k = ix2 g k := funext fun a => Fin.ext (by match a with | ⟨0, _⟩ => rfl | ⟨1, _⟩ => rfl)
  have hr : ridx_main_v118 (ix2 g q) k = ix2 k q := funext fun a => Fin.ext (by match a with | ⟨0, _⟩ => rfl | ⟨1, _⟩ => rfl)
  rw [hl, hr, g3_at x0 x1 x2 x3 x4 x5 x6 x7 x8 x9 x10 x11 x12 x13 x14 x15 x16 x17 x18 x19 x20 x21 x22 x23 x24]

/-! ## The row-wise log-softmax -/

/-- A fold of the maximum over the second axis of a 128 × 10 array, from the initial value's element, at row g. -/
theorem rowfold_at (y : (⟨S128x10, .f32⟩ : BufTy).Contents (Elt Ideal)) (init : (⟨S_, .f32⟩ : BufTy).Contents (Elt Ideal))
    (g : Fin 128) :
    Host.reduce (FloatOps.maximumf (F := Ideal) (φ := .f32)) y init reducesTo_S128x10_S128_d1 h_S_ (ix1 g)
      = (Finset.univ : Finset (Fin 10)).fold max (init (Shape.Idx.first h_S_)) (fun q => y (ix2 g q)) := by
  have hR : S128x10.Reduces [1] S128 := by decide
  rw [Host.reduce_eq_fold_single (FloatOps.maximumf (F := Ideal) (φ := .f32)) y init reducesTo_S128x10_S128_d1 hR h_S_ (ix1 g)]
  have hf : (y ∘ hR.lift (ix1 g)) = fun q : Fin 10 => y (ix2 g q) :=
    funext fun q => congrArg y (funext fun a => Fin.ext (by match a with | ⟨0, _⟩ => rfl | ⟨1, _⟩ => rfl))
  rw [hf]
  rfl

/-- The row maximum of the logits, folded from the minus-infinity word. -/
theorem rowmax_at (g : Fin 128) : val_main_call3_v0 (F := Ideal) x0 x1 x2 x3 x4 x5 x6 x7 x8 x9 x10 x11 x12 x13 x14 x15 x16 x17 x18 x19 x20 x21 x22 x23 x24 (ix1 g)
    = Spec.rowmax (fun q => Spec.lg (paramsOf x0 x3 x4 x5 x6 x7 x8 x9 x10 x11 x12 x13 x14 x15 x16 x17 x18 x19 x20 x21 x22 x23 x24) (Spec.rOf x1) (Spec.landsOf x1) (Spec.landsBOf x2) g q) := by
  unfold val_main_call3_v0
  refine (rowfold_at _ _ g).trans ?_
  unfold Spec.rowmax
  have hf : (fun q : Fin 10 => val_main_v121 (F := Ideal) x0 x1 x2 x3 x4 x5 x6 x7 x8 x9 x10 x11 x12 x13 x14 x15 x16 x17 x18 x19 x20 x21 x22 x23 x24 (ix2 g q)) = fun q => Spec.lg (paramsOf x0 x3 x4 x5 x6 x7 x8 x9 x10 x11 x12 x13 x14 x15 x16 x17 x18 x19 x20 x21 x22 x23 x24) (Spec.rOf x1) (Spec.landsOf x1) (Spec.landsBOf x2) g q :=
    funext fun q => lg_at x0 x1 x2 x3 x4 x5 x6 x7 x8 x9 x10 x11 x12 x13 x14 x15 x16 x17 x18 x19 x20 x21 x22 x23 x24 g q
  rw [hf]
  rfl

/-- The row's shift. -/
theorem mx_at (g : Fin 128) : val_main_call3_v2 (F := Ideal) x0 x1 x2 x3 x4 x5 x6 x7 x8 x9 x10 x11 x12 x13 x14 x15 x16 x17 x18 x19 x20 x21 x22 x23 x24 (ix1 g) = Spec.mx (paramsOf x0 x3 x4 x5 x6 x7 x8 x9 x10 x11 x12 x13 x14 x15 x16 x17 x18 x19 x20 x21 x22 x23 x24) (Spec.rOf x1) (Spec.landsOf x1) (Spec.landsBOf x2) g := by
  have hn : val_main_call3_v1 (F := Ideal) (ix1 g) = Spec.ninfW := (val_main_call3_v1_apply _).trans rfl
  rw [val_main_call3_v2_apply, hn, rowmax_at x0 x1 x2 x3 x4 x5 x6 x7 x8 x9 x10 x11 x12 x13 x14 x15 x16 x17 x18 x19 x20 x21 x22 x23 x24]
  rfl

/-- The shifted logits. -/
theorem sh_at (g : Fin 128) (q : Fin 10) : val_main_call3_v5 (F := Ideal) x0 x1 x2 x3 x4 x5 x6 x7 x8 x9 x10 x11 x12 x13 x14 x15 x16 x17 x18 x19 x20 x21 x22 x23 x24 (ix2 g q) = Spec.sh (paramsOf x0 x3 x4 x5 x6 x7 x8 x9 x10 x11 x12 x13 x14 x15 x16 x17 x18 x19 x20 x21 x22 x23 x24) (Spec.rOf x1) (Spec.landsOf x1) (Spec.landsBOf x2) g q := by
  have hi : idx_main_call3_v3 (idx_main_call3_v4 (ix2 g q)) = ix1 g := funext fun a => Fin.ext (by match a with | ⟨0, _⟩ => rfl)
  rw [val_main_call3_v5_apply, lg_at x0 x1 x2 x3 x4 x5 x6 x7 x8 x9 x10 x11 x12 x13 x14 x15 x16 x17 x18 x19 x20 x21 x22 x23 x24, val_main_call3_v4_apply, val_main_call3_v3_apply, hi, mx_at x0 x1 x2 x3 x4 x5 x6 x7 x8 x9 x10 x11 x12 x13 x14 x15 x16 x17 x18 x19 x20 x21 x22 x23 x24]
  rfl

/-- The logarithm of the row's sum of exponentials, at the row's one column. -/
theorem lse_at (g : Fin 128) (z : Fin 1) : val_main_call3_v9 (F := Ideal) x0 x1 x2 x3 x4 x5 x6 x7 x8 x9 x10 x11 x12 x13 x14 x15 x16 x17 x18 x19 x20 x21 x22 x23 x24 (ix2 g z) = Spec.lse (paramsOf x0 x3 x4 x5 x6 x7 x8 x9 x10 x11 x12 x13 x14 x15 x16 x17 x18 x19 x20 x21 x22 x23 x24) (Spec.rOf x1) (Spec.landsOf x1) (Spec.landsBOf x2) g := by
  have hi : idx_main_call3_v8 (ix2 g z) = ix1 g := funext fun a => Fin.ext (by match a with | ⟨0, _⟩ => rfl)
  have hs : (∑ k : Fin 10, val_main_call3_v6 (F := Ideal) x0 x1 x2 x3 x4 x5 x6 x7 x8 x9 x10 x11 x12 x13 x14 x15 x16 x17 x18 x19 x20 x21 x22 x23 x24 (idx_main_call3_v7 (ix1 g) k))
      = ∑ q : Fin 10, Ideal.exp (Spec.sh (paramsOf x0 x3 x4 x5 x6 x7 x8 x9 x10 x11 x12 x13 x14 x15 x16 x17 x18 x19 x20 x21 x22 x23 x24) (Spec.rOf x1) (Spec.landsOf x1) (Spec.landsBOf x2) g q) :=
    Finset.sum_congr rfl fun k _ => by
      have hk : idx_main_call3_v7 (ix1 g) k = ix2 g k := funext fun a => Fin.ext (by match a with | ⟨0, _⟩ => rfl | ⟨1, _⟩ => rfl)
      rw [val_main_call3_v6_apply, hk, sh_at x0 x1 x2 x3 x4 x5 x6 x7 x8 x9 x10 x11 x12 x13 x14 x15 x16 x17 x18 x19 x20 x21 x22 x23 x24]
      exact Ideal.hostUnary_exp_def (φ := .f32) _
  rw [val_main_call3_v9_apply, val_main_call3_v8_apply, hi, val_main_call3_v7_apply, val_main_call3_cst_1_apply, hs]
  unfold Spec.lse
  exact Ideal.hostUnary_log_def (φ := .f32) _

/-- The host program's result is the specified function of its arguments. -/
theorem ref_eq : val_main_v122 (F := Ideal) x0 x1 x2 x3 x4 x5 x6 x7 x8 x9 x10 x11 x12 x13 x14 x15 x16 x17 x18 x19 x20 x21 x22 x23 x24
    = fun i => Spec.resultOf (paramsOf x0 x3 x4 x5 x6 x7 x8 x9 x10 x11 x12 x13 x14 x15 x16 x17 x18 x19 x20 x21 x22 x23 x24) x1 x2 (i 0) (i 1) := by
  funext i
  obtain ⟨g, q, rfl⟩ : ∃ (g : Fin 128) (q : Fin 10), i = ix2 g q := ⟨i 0, i 1, eq_ix2 i⟩
  have hi : idx_main_call3_v10 (ix2 g q) = ix2 g (0 : Fin 1) := funext fun a => Fin.ext (by match a with | ⟨0, _⟩ => rfl | ⟨1, _⟩ => rfl)
  rw [val_main_v122_apply, sh_at x0 x1 x2 x3 x4 x5 x6 x7 x8 x9 x10 x11 x12 x13 x14 x15 x16 x17 x18 x19 x20 x21 x22 x23 x24, val_main_call3_v10_apply, hi, lse_at x0 x1 x2 x3 x4 x5 x6 x7 x8 x9 x10 x11 x12 x13 x14 x15 x16 x17 x18 x19 x20 x21 x22 x23 x24]
  rfl

/-! ## The run -/

/-- The specified result of a memory's argument arrays, on device c. -/
def specAt (m : (ℓ : Loc nD τ sig) → Buf (Elt Ideal) ℓ) (c : Dev nD) : (⟨S128x10, .f32⟩ : BufTy).Contents (Elt Ideal) :=
  fun i => Spec.resultOf (paramsOf (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)))
    (m ((c.tc : Thread nD τ).loc main_arg1)) (m ((c.tc : Thread nD τ).loc main_arg2)) (i 0) (i 1)

/-- The host program's composed result term is the specified result of the launch memory's arguments. -/
theorem res_eq (m : (ℓ : Loc nD τ sig) → Buf (Elt Ideal) ℓ) (c : Dev nD) :
    Cert.ReferenceIdeal.Value.res_main_v122 m c = specAt m c :=
  (val_main_v122_eq (F := Ideal) m c).trans
    (ref_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)))

/-- Every weakly fair execution of the host program terminates with its result the specified function of the
    launch memory's arguments, and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v122) = specAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun _ h c => ⟨(h c).1.trans (res_eq m c), (h c).2⟩)
    (Cert.ReferenceIdeal.Value.run (F := Ideal) m ρ)

/-- The host program runs and leaves its arguments unchanged. -/
theorem frame_ri : Cert.frame_ReferenceIdeal :=
  fun m ρ _ => (θ_run Cert.ReferenceIdeal.defs _ _).mono (fun _ h c => (h c).2)
    (Cert.ReferenceIdeal.Value.run (F := Ideal) m ρ)

end Cert.Value.Ref

end
-- ==== Proof.FiniteInputs.lean ====
import proofs.«418702_j33346126086715_3_alg».proof.Pre_finite_inputs
import Idealize.ShloMosaic.Lib.ReduceAll
import Idealize.ShloMosaic.Lib.ValueIdx
import Idealize.ShloMosaic.PureOps.Ideal
import Idealize.ShloMosaic.PureOps.Ideal.Laws

/-! # What the precondition says of the node features and the first projection

The precondition is one conjunction, over all float inputs, of "every entry's absolute value is below +∞".
Only two conjuncts are used by the value proof: the node features `x` and the layer-1 neighbour weights `W1l`
are real-valued, which is what lets the projection be moved across the neighbourhood sum. -/

noncomputable section

namespace Cert.Value.Finite

open Idealize.ShloMosaic Idealize.ShloMosaic.ValueIdx Cert.Pre_finite_inputs

instance : Subsingleton S_.Idx := ⟨fun a b => funext fun d => d.elim0⟩

/-- The left conjunct of a scalar conjunction that is true. -/
theorem and_left {a b : IVec S_ 1} (h : andi a b ix0 = 1#1) : a ix0 = 1#1 := (IntOp.andi_eq_one.1 h).1
/-- The right conjunct of a scalar conjunction that is true. -/
theorem and_right {a b : IVec S_ 1} (h : andi a b ix0 = 1#1) : b ix0 = 1#1 := (IntOp.andi_eq_one.1 h).2

/-- An extended real whose absolute value `max v (-v)` is strictly below the f32 pattern of +∞ is a real
    number: it is neither +∞ (then the maximum is +∞) nor −∞ (then its negation is +∞). -/
theorem real_of_abs_lt (v : EReal)
    (h : FloatOps.cmpf (F := Ideal) (φ := .f32) CmpFPredicate.olt (FloatOps.hostAbsf (F := Ideal) (φ := .f32) v)
      (FloatOps.ofBits (F := Ideal) .f32 0x7F800000#32) = 1#1) :
    ∃ r : ℝ, v = (r : EReal) := by
  have htop : Ideal.ofBits .f32 0x7F800000#32 = (⊤ : EReal) := by simp [Ideal.ofBits, Ideal.ieee]
  rw [Ideal.cmpf_def, Ideal.hostAbsf_def, Ideal.absf_def, Ideal.ofBits_def, htop] at h
  have hlt : max v (-v) < (⊤ : EReal) := by
    by_contra hn
    simp only [Ideal.cmp, hn, decide_false, BitVec.ofBool_false] at h
    exact absurd h (by decide)
  induction v using EReal.rec with
  | bot => exact absurd hlt (by simp)
  | coe r => exact ⟨r, rfl⟩
  | top => exact absurd hlt (by simp)

/-- From the whole precondition: every node feature and every entry of the layer-1 neighbour projection is a
    real number. The precondition's value is a left-nested conjunction of one "all entries finite" test per
    float input, the node features' test and the projection's innermost. -/
theorem x_W1l_real [Facts] (a0 : FVec Ideal S100000x128 .f32) (a1 : IVec S2x1600000 32) (a2 : IVec S100000 32)
    (a3 a4 : FVec Ideal S128x64 .f32) (a5 : FVec Ideal S64 .f32) (a6 a7 : FVec Ideal S64x64 .f32)
    (a8 a9 a10 a11 a12 a13 a14 a15 a16 : FVec Ideal S64 .f32) (a17 : FVec Ideal S64x64 .f32)
    (a18 a19 a20 a21 a22 : FVec Ideal S64 .f32) (a23 : FVec Ideal S64x10 .f32) (a24 : FVec Ideal S10 .f32)
    (h : fn (F := Ideal) a0 a1 a2 a3 a4 a5 a6 a7 a8 a9 a10 a11 a12 a13 a14 a15 a16 a17 a18 a19 a20 a21 a22 a23 a24
      = fun _ => 1#1) :
    (∀ i, ∃ r : ℝ, a0 i = (r : EReal)) ∧ (∀ i, ∃ r : ℝ, a3 i = (r : EReal)) := by
  have h0 := congrFun h ix0
  unfold fn fn_part1 fn_part2 fn_part3 fn_part4 fn_part5 fn_part6 at h0
  dsimp only at h0
  have h1 := and_left (and_left (and_left (and_left (and_left (and_left (and_left (and_left (and_left (and_left (and_left (and_left (and_left (and_left (and_left (and_left (and_left (and_left (and_left (and_left (and_left (h0)))))))))))))))))))))
  refine ⟨fun i => ?_, fun i => ?_⟩
  · have hi := Host.reduce_andi_all _ _ _ _ _ (and_left h1) i
    simp only [cmpf, Host.absf, broadcastInDim, constant] at hi
    exact real_of_abs_lt _ hi
  · have hi := Host.reduce_andi_all _ _ _ _ _ (and_right h1) i
    simp only [cmpf, Host.absf, broadcastInDim, constant] at hi
    exact real_of_abs_lt _ hi

end Cert.Value.Finite

end
-- ==== Proof.Assemble.lean ====
import proofs.«418702_j33346126086715_3_alg».proof.Defs
import proofs.«418702_j33346126086715_3_alg».proof.Proof.Gen.Kernel
import proofs.«418702_j33346126086715_3_alg».proof.Proof.Gen.KernelIdeal
import proofs.«418702_j33346126086715_3_alg».proof.Proof.Gen.ReferenceIdeal
import proofs.«418702_j33346126086715_3_alg».proof.Proof.Gen.Pre_finite_inputs
import proofs.«418702_j33346126086715_3_alg».proof.Proof.KernelRun
import proofs.«418702_j33346126086715_3_alg».proof.Proof.KernelIdealRun
import proofs.«418702_j33346126086715_3_alg».proof.Proof.RefValue
import proofs.«418702_j33346126086715_3_alg».proof.Proof.FiniteInputs

/-!
# The claims, from the runs of the three programs

Each pipelined program's run, for any proof data of its three calls that meets what the run asks of a region, ends
with every argument as launched: its frame. The host program's run ends with its result the specified function of
its arguments. The value claim joins the two ideal runs: the precondition makes the node features and the first
neighbour weight real-valued, under which the kernel program's result array is the same specified function of its
own arguments, and the two programs' arguments agree.
-/

noncomputable section

namespace Cert.Assemble

open Idealize.ShloMosaic Idealize.ShloMosaic.TcCoe Idealize.SL.Sem Idealize.ShloMosaic.ValueIdx

section Words
open Cert.Kernel Cert.Kernel.Gen Cert.Kernel.Frm

/-- The word-level program's frame, from proof data of its three calls. -/
theorem frame_k_of (d0 : DatAt Bits cfg0) (d1 : DatAt Bits cfg1) (d2 : DatAt Bits cfg2)
    (h0 : RegionData cfg0 d0) (h1 : RegionData cfg1 d1) (h2 : RegionData cfg2 d2) : Cert.frame_Kernel :=
  fun m ρ _ => Cert.Kernel.Frm.frame (F := Bits) m d0 d1 d2 ρ h0 h1 h2

end Words

section Ideal
open Cert.KernelIdeal Cert.KernelIdeal.Gen Cert.KernelIdeal.Frm

/-- The idealized program's frame, from proof data of its three calls. -/
theorem frame_ki_of (d0 : DatAt Ideal cfg0) (d1 : DatAt Ideal cfg1) (d2 : DatAt Ideal cfg2)
    (h0 : RegionData cfg0 d0) (h1 : RegionData cfg1 d1) (h2 : RegionData cfg2 d2) : Cert.frame_KernelIdeal :=
  fun m ρ _ => Cert.KernelIdeal.Frm.frame (F := Ideal) m d0 d1 d2 ρ h0 h1 h2

/-- The idealized kernel program's float arguments on core c as the specification's parameters, in argument order. -/
abbrev paramsAt (m : (ℓ : Loc nD τ sig) → Buf (Elt Ideal) ℓ) (c : Dev nD) : Cert.Value.Spec.Params :=
  ⟨(m ((c.tc : Thread nD τ).loc main_arg0)), (m ((c.tc : Thread nD τ).loc main_arg3)), (m ((c.tc : Thread nD τ).loc main_arg4)), (m ((c.tc : Thread nD τ).loc main_arg5)), (m ((c.tc : Thread nD τ).loc main_arg6)), (m ((c.tc : Thread nD τ).loc main_arg7)), (m ((c.tc : Thread nD τ).loc main_arg8)), (m ((c.tc : Thread nD τ).loc main_arg9)), (m ((c.tc : Thread nD τ).loc main_arg10)), (m ((c.tc : Thread nD τ).loc main_arg11)), (m ((c.tc : Thread nD τ).loc main_arg12)), (m ((c.tc : Thread nD τ).loc main_arg13)), (m ((c.tc : Thread nD τ).loc main_arg14)), (m ((c.tc : Thread nD τ).loc main_arg15)), (m ((c.tc : Thread nD τ).loc main_arg16)), (m ((c.tc : Thread nD τ).loc main_arg17)), (m ((c.tc : Thread nD τ).loc main_arg18)), (m ((c.tc : Thread nD τ).loc main_arg19)), (m ((c.tc : Thread nD τ).loc main_arg20)), (m ((c.tc : Thread nD τ).loc main_arg21)), (m ((c.tc : Thread nD τ).loc main_arg22)), (m ((c.tc : Thread nD τ).loc main_arg23)), (m ((c.tc : Thread nD τ).loc main_arg24))⟩

/-- The kernel side of the value claim: where the node features and the first neighbour weight are real-valued on
    every core, the result array the third call leaves is the specified function of the launch memory's arguments. -/
def KernelValue (d0 : DatAt Ideal cfg0) (d1 : DatAt Ideal cfg1) (d2 : DatAt Ideal cfg2) : Prop :=
  ∀ (m : (ℓ : Loc nD τ sig) → Buf (Elt Ideal) ℓ),
    (∀ c i, ∃ v : ℝ, (paramsAt m c).x i = (v : EReal)) → (∀ c i, ∃ v : ℝ, (paramsAt m c).W1l i = (v : EReal)) →
    ∀ c : Dev nD, res55 m d0 d1 d2 c = fun i => Cert.Value.Spec.resultOf (paramsAt m c) (m ((c.tc : Thread nD τ).loc main_arg1)) (m ((c.tc : Thread nD τ).loc main_arg2)) (i 0) (i 1)

/-- The value claim: both ideal runs end with the same result array — the specified function of the arguments, which
    agree — and their arguments unchanged. -/
theorem algebraic_of (d0 : DatAt Ideal cfg0) (d1 : DatAt Ideal cfg1) (d2 : DatAt Ideal cfg2)
    (h0 : RegionData cfg0 d0) (h1 : RegionData cfg1 d1) (h2 : RegionData cfg2 d2)
    (hkv : KernelValue d0 d1 d2) : Cert.algebraic_KernelIdeal_ReferenceIdeal := by
  intro m g m' g' hpre hagree
  refine ⟨fun c => res55 m d0 d1 d2 c, Cert.KernelIdeal.Frm.run_main (F := Ideal) m d0 d1 d2 g h0 h1 h2, ?_⟩
  refine (θ_run Cert.ReferenceIdeal.defs _ _).mono (fun _ h c => ⟨(h c).1.trans ?_, (h c).2⟩)
    (Cert.Value.Ref.ref_run m' g')
  show Cert.Value.Ref.specAt m' c = res55 m d0 d1 d2 c
  have hfin := fun c' => Cert.Value.Finite.x_W1l_real _ _ _ _ _ _ _ _ _ _ _ _ _ _ _ _ _ _ _ _ _ _ _ _ _ (hpre c')
  refine Eq.trans ?_ (hkv m (fun c' => (hfin c').1) (fun c' => (hfin c').2) c).symm
  obtain ⟨e0, e1, e2, e3, e4, e5, e6, e7, e8, e9, e10, e11, e12, e13, e14, e15, e16, e17, e18, e19, e20, e21, e22, e23, e24⟩ := hagree c
  unfold Cert.Value.Ref.specAt
  rw [e0, e1, e2, e3, e4, e5, e6, e7, e8, e9, e10, e11, e12, e13, e14, e15, e16, e17, e18, e19, e20, e21, e22, e23, e24]
  rfl

end Ideal

/-- Everything claimed: the three frames, the idealization (the ideal pass rewrote nothing) and the value claim, from
    proof data of the three calls of each pipelined program and the kernel side of the value claim. -/
theorem claim_of
    (w0 : Cert.Kernel.Frm.DatAt Bits Cert.Kernel.cfg0) (w1 : Cert.Kernel.Frm.DatAt Bits Cert.Kernel.cfg1)
    (w2 : Cert.Kernel.Frm.DatAt Bits Cert.Kernel.cfg2)
    (hw0 : Cert.Kernel.Frm.RegionData Cert.Kernel.cfg0 w0) (hw1 : Cert.Kernel.Frm.RegionData Cert.Kernel.cfg1 w1)
    (hw2 : Cert.Kernel.Frm.RegionData Cert.Kernel.cfg2 w2)
    (d0 : Cert.KernelIdeal.Frm.DatAt Ideal Cert.KernelIdeal.cfg0) (d1 : Cert.KernelIdeal.Frm.DatAt Ideal Cert.KernelIdeal.cfg1)
    (d2 : Cert.KernelIdeal.Frm.DatAt Ideal Cert.KernelIdeal.cfg2)
    (h0 : Cert.KernelIdeal.Frm.RegionData Cert.KernelIdeal.cfg0 d0) (h1 : Cert.KernelIdeal.Frm.RegionData Cert.KernelIdeal.cfg1 d1)
    (h2 : Cert.KernelIdeal.Frm.RegionData Cert.KernelIdeal.cfg2 d2)
    (hkv : KernelValue d0 d1 d2) : Cert.Claim :=
  ⟨Cert.Kernel.Gen.facts, Cert.KernelIdeal.Gen.facts, Cert.ReferenceIdeal.Gen.facts, Cert.Pre_finite_inputs.Gen.facts,
    frame_k_of w0 w1 w2 hw0 hw1 hw2, frame_ki_of d0 d1 d2 h0 h1 h2, Cert.Value.Ref.frame_ri, trivial,
    algebraic_of d0 d1 d2 h0 h1 h2 hkv⟩

end Cert.Assemble

end
-- ==== Proof.KernelReg0.lean ====
/- The class-A pieces of the first pallas_call (the projection x·W₁ˡ, grid of 10 points) at a PARAMETER `V`:
   the contents of the TensorCore's buffers when the call is entered. Per window its block at a grid point; the
   output block as a function of the two input blocks; the body's triple on whole staging memrefs; the pipeline's
   proof data and the body obligation at every grid point. Stated at any float family `F`. -/
import proofs.«418702_j33346126086715_3_alg».proof.Proof.KernelLaunchP
import proofs.«418702_j33346126086715_3_alg».proof.Proof.Gen.Kernel.Skeleton
import proofs.«418702_j33346126086715_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a 10000-row rectangle is decided coordinate by coordinate
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every TensorCore buffer holds when the call is entered
variable (V : (c : Dev nD) → (b : Ref sig .tc) → Buf (Elt F) ((c : Thread nD τ).loc b))

/-! ## The windows' blocks -/

/-- The block of window `w` at grid point `t`: the window's rectangle of its array, read off the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of `x` (window 0): whenever the body is called, the window's current staging buffer holds the block of
    the point, for any proof data over the entry arrays whose body leaves that block where it found it. At a point
    with no fetch the block index is the previous point's, so the buffer still holds the right block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix (window 1, one block, fetched at the first point only): the same statement. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body touches: each staging buffer whole -/

abbrev rX0 : Rect S10000x128 := Rect.unit (s := S10000x128) ![0, 0] S10000x128.size inb_S10000x128_S10000x128_0_0
abbrev rW0 : Rect S128x64 := Rect.unit (s := S128x64) ![0, 0] S128x64.size inb_S128x64_S128x64_0_0
abbrev rY0 : Rect S10000x64 := Rect.unit (s := S10000x64) ![0, 0] S10000x64.size inb_S10000x64_S10000x64_0_0

/-! ## The output block -/

/-- What the body leaves in the output window's staging buffer, from the two input blocks: its one store, of the
    rounded product of the rounded inputs, over the whole buffer. -/
def out0_2 (x0 : Vec F S10000x128 .f32) (x1 : Vec F S128x64 .f32) : Vec F S10000x64 .bf16 :=
  View.canon [⟨rY0, k0_pay1 (View.ld x0 rX0) (View.ld x1 rW0)⟩]

/-- The one store's rectangle is the whole buffer, so every index of the buffer lies in it. -/
theorem cover0_2 (p0 : Vec F S10000x64 .bf16) (y : S10000x64.Idx) :
    ∃ pc ∈ ([⟨rY0, p0⟩] : List (View.Piece (Elt F) S10000x64 .bf16)), y ∈ pc.1.set :=
  View.cover_of_tiled [⟨rY0, p0⟩] S10000x64.size (by rfl) y

/-! ## The body's triple -/

set_option maxHeartbeats 1000000 in
/-- The body on whole staging memrefs — the inputs' holding `x0` and `x1`, the output's holding anything — runs to a
    state where the inputs' are as they were and the output's holds `out0_2 x0 x1`. The grid coordinate is not read. -/
theorem sound_kernel0 (c : Dev nD) (E : Set ℕ) (i : grid0.Coords)
    (arg1 : Memref sig .tc .vmem S10000x128 .f32) (harg1 : arg1.IsWhole)
    (arg2 : Memref sig .tc .vmem S128x64 .f32) (harg2 : arg2.IsWhole)
    (arg3 : Memref sig .tc .vmem S10000x64 .bf16) (harg3 : arg3.IsWhole)
    (x0 : Vec F S10000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__project_kernel i arg1 harg1 arg2 harg2 arg3 harg3) K := by
  simp only [cc0__project_kernel_eq_skeleton]; unfold cc0__project_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this pipeline on core `c`. The arrays are the entry contents. After the body at point `t` each
    input's staging buffer still holds its block and the output's holds `out0_2` of the two input blocks. The
    invariant is the class's: the scoped rest and the generator register, untouched. Nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents (a projection of the definition; `V` is never opened). -/
theorem A_eq0 (c : Dev nD) (w : Fin cfg0.W) : (dat0 V c).A w = V c (Pipeline.arrRef spec0 w) := by
  dsimp only [dat0]

/-- What the body leaves, window by window (the definition's case split reduced at each literal window). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`: the invariant, the core's debts, and each window's current staging
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point. The two input buffers hold their blocks (`before0_0`, `before0_1`), so the body's triple
    applies at those blocks; the invariant and the debts are not read and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for this pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Frm
-- ==== Proof.KernelReg1.lean ====
import proofs.«418702_j33346126086715_3_alg».proof.Proof.KernelLaunchP
import proofs.«418702_j33346126086715_3_alg».proof.Proof.Gen.Kernel.Skeleton
import proofs.«418702_j33346126086715_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 of @main (the first SAGE layer with batch norm and relu): the class-A half

Every window of this pipeline is whole-block: nine inputs that the body only reads, and one output written by a single
store over its entire 5000x64 block. So the body is a pure function from the nine input blocks to the output block. This
file states that function (`out1_9`), proves the body's separation-logic triple against it, packs the pipeline's proof
data at an arbitrary region-entry valuation `V`, and discharges the body obligation at every grid point. -/

-- the tiling check of a 5000-row block recurses once per row
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- what each TensorCore buffer holds at the moment region 1 is entered; everything below is relative to it
variable (V : (c : Dev nD) → (b : Ref sig .tc) → Buf (Elt F) ((c : Thread nD τ).loc b))

/-! ## Blocks of the windows -/

/-- The block of window `w` at grid point `t`: the rectangle of `w`'s array (as `V` has it) that the index map selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! For an input window whose blocks never overhang the array and which is active at every point, the staging buffer the
body sees holds exactly the window's block: either it was fetched at this point, or the block index has not changed since
the fetch. This holds for any proof data whose array is `V`'s and whose body leaves the input block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body touches: each is the whole of its staging buffer -/

abbrev r1_0 : Rect S5000x128 := Rect.unit (s := S5000x128) ![0, 0] S5000x128.size inb_S5000x128_S5000x128_0_0
abbrev r1_1 : Rect S128x64 := Rect.unit (s := S128x64) ![0, 0] S128x64.size inb_S128x64_S128x64_0_0
abbrev r1_2 : Rect S5000x64 := Rect.unit (s := S5000x64) ![0, 0] S5000x64.size inb_S5000x64_S5000x64_0_0
abbrev r1_3 : Rect S5000x1 := Rect.unit (s := S5000x1) ![0, 0] S5000x1.size inb_S5000x1_S5000x1_0_0
abbrev r1_4 : Rect S1x64 := Rect.unit (s := S1x64) ![0, 0] S1x64.size inb_S1x64_S1x64_0_0

/-! ## The output block as a function of the nine input blocks -/

/-- The output staging buffer after the body: one piece, the full rectangle, carrying the layer's value
    `relu(bn((summed * inv_cnt) + x·Wr + b))` rounded to bf16, computed from the full-rectangle reads of the nine inputs
    (x, summed, inv_cnt, Wr and the five 1x64 rows, in the order the payload takes them). -/
def out1_9 (x0 : Vec F S5000x128 .f32) (x1 : Vec F S5000x64 .f32) (x2 : Vec F S5000x1 .f32) (x3 : Vec F S128x64 .f32) (x4 : Vec F S1x64 .f32) (x5 : Vec F S1x64 .f32) (x6 : Vec F S1x64 .f32) (x7 : Vec F S1x64 .f32) (x8 : Vec F S1x64 .f32) : Vec F S5000x64 .bf16 :=
  View.canon [⟨r1_2, k1_pay1 (View.ld x0 r1_0) (View.ld x3 r1_1) (View.ld x1 r1_2) (View.ld x2 r1_3) (View.ld x4 r1_4) (View.ld x5 r1_4) (View.ld x6 r1_4) (View.ld x7 r1_4) (View.ld x8 r1_4)⟩]

/-- A single full-rectangle piece covers every index of the buffer. -/
theorem cover1_9 (p0 : Vec F S5000x64 .bf16) (y : S5000x64.Idx) :
    ∃ pc ∈ ([⟨r1_2, p0⟩] : List (View.Piece (Elt F) S5000x64 .bf16)), y ∈ pc.1.set :=
  View.cover_of_tiled [⟨r1_2, p0⟩] S5000x64.size (by rfl) y

/-! ## The body's triple -/

set_option maxHeartbeats 1000000 in
/-- Run on whole staging buffers, with the inputs holding `x0 … x8` and the output holding anything, the body terminates
    with the inputs unchanged and the output buffer equal to `out1_9 x0 … x8`. -/
theorem sound_kernel1 (c : Dev nD) (E : Set ℕ) (i : grid1.Coords) (arg1 : Memref sig .tc .vmem S5000x128 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S5000x64 .bf16) (harg10 : arg10.IsWhole)
    (x0 : Vec F S5000x128 .f32) (x1 : Vec F S5000x64 .f32) (x2 : Vec F S5000x1 .f32) (x3 : Vec F S128x64 .f32) (x4 : Vec F S1x64 .f32) (x5 : Vec F S1x64 .f32) (x6 : Vec F S1x64 .f32) (x7 : Vec F S1x64 .f32) (x8 : Vec F S1x64 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ (∃ d, owns (c : Thread nD τ) arg10 fullShare d)
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare (out1_9 x0 x1 x2 x3 x4 x5 x6 x7 x8)) -∗ K ⟨⟩))
      ⊢ wp frame (wpE (defs₀ (F := F)) Variants.none c none) E (cc1__sage1_bn_relu_kernel i arg1 harg1 arg2 harg2 arg3 harg3 arg4 harg4 arg5 harg5 arg6 harg6 arg7 harg7 arg8 harg8 arg9 harg9 arg10 harg10) K := by
  simp only [cc1__sage1_bn_relu_kernel_eq_skeleton]; unfold cc1__sage1_bn_relu_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover1_9 _)

/-! ## The pipeline's proof data -/

/-- Proof data of pipeline 1 on core `c`. Arrays: what `V` holds. After the body at point `t`: every input buffer still
    at its block, the output buffer at `out1_9` of the nine input blocks. Invariant: the class-A one (scoped rest and the
    generator register, untouched). Full shares, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

/-- The arrays of the proof data are `V`'s (a projection of the record). -/
theorem A_eq1 (c : Dev nD) (w : Fin cfg1.W) : (dat1 V c).A w = V c (Pipeline.arrRef spec1 w) := by
  dsimp only [dat1]

/-! The `after` field, window by window (the record's match reduced at a literal window). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-! Each input's staging buffer holds its block before the body, at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation -/

/-- What the body is handed at point `t`: the invariant, the owed counter, and each window's current staging buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- What it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 1000000 in
/-- At any point the inputs' buffers hold their blocks, so the kernel's triple applies at those blocks; the invariant
    and the owed counter are not touched and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline library's body obligation for `dat1`, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Frm
-- ==== Proof.KernelReg2Runs.lean ====
import proofs.«418702_j33346126086715_3_alg».proof.Proof.KernelLaunchP
import proofs.«418702_j33346126086715_3_alg».proof.Proof.Gen.Kernel.Skeleton
import proofs.«418702_j33346126086715_3_alg».proof.Proof.Gen.Kernel.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 (the pooled classifier call): what its three whole-body runs share

The region is entered at buffer contents V. Its body branches twice on the grid coordinate: at the first point it
clears both accumulators and the output block, at the last point it reads the accumulators and writes the output
block; in between it only adds into the accumulators. -/

-- the TensorCore's buffer contents when the region is entered: the parameter its half of the frame is stated at
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, whether or not the block was fetched
there (where it was not, the block index has not moved), for any proof data whose array is V's and whose body leaves
the block in place. The input windows are uncut and never idle. One statement per input window. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)

theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)

theorem before2_13_of {c : Dev nD} (dat : Dat τ (Elt F) Unit ℕ (UR sig nD τ) ℕ cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)

theorem before2_14_of {c : Dev nD} (dat : Dat τ (Elt F) Unit ℕ (UR sig nD τ) ℕ cfg2 c) (hA : dat.A 14 = V c (Pipeline.arrRef spec2 14))
    (hafter : ∀ t, dat.after 14 t = iblk2 V c 14 t) (t : Fin cfg2.N) (d) : dat.before 14 t d = iblk2 V c 14 t :=
  (dat.before_in_eq_fetched 14 rfl (fun _ => rfl) (fun _ _ _ => rfl) (fun t => by rw [hafter]; unfold Dat.blockOf iblk2; rw [hA]; try rfl) t d).trans
    (by unfold Dat.fetched Dat.blockOf iblk2; rw [hA]; try rfl)

theorem before2_15_of {c : Dev nD} (dat : Dat τ (Elt F) Unit ℕ (UR sig nD τ) ℕ cfg2 c) (hA : dat.A 15 = V c (Pipeline.arrRef spec2 15))
    (hafter : ∀ t, dat.after 15 t = iblk2 V c 15 t) (t : Fin cfg2.N) (d) : dat.before 15 t d = iblk2 V c 15 t :=
  (dat.before_in_eq_fetched 15 rfl (fun _ => rfl) (fun _ _ _ => rfl) (fun t => by rw [hafter]; unfold Dat.blockOf iblk2; rw [hA]; try rfl) t d).trans
    (by unfold Dat.fetched Dat.blockOf iblk2; rw [hA]; try rfl)

theorem before2_16_of {c : Dev nD} (dat : Dat τ (Elt F) Unit ℕ (UR sig nD τ) ℕ cfg2 c) (hA : dat.A 16 = V c (Pipeline.arrRef spec2 16))
    (hafter : ∀ t, dat.after 16 t = iblk2 V c 16 t) (t : Fin cfg2.N) (d) : dat.before 16 t d = iblk2 V c 16 t :=
  (dat.before_in_eq_fetched 16 rfl (fun _ => rfl) (fun _ _ _ => rfl) (fun t => by rw [hafter]; unfold Dat.blockOf iblk2; rw [hA]; try rfl) t d).trans
    (by unfold Dat.fetched Dat.blockOf iblk2; rw [hA]; try rfl)

theorem before2_17_of {c : Dev nD} (dat : Dat τ (Elt F) Unit ℕ (UR sig nD τ) ℕ cfg2 c) (hA : dat.A 17 = V c (Pipeline.arrRef spec2 17))
    (hafter : ∀ t, dat.after 17 t = iblk2 V c 17 t) (t : Fin cfg2.N) (d) : dat.before 17 t d = iblk2 V c 17 t :=
  (dat.before_in_eq_fetched 17 rfl (fun _ => rfl) (fun _ _ _ => rfl) (fun t => by rw [hafter]; unfold Dat.blockOf iblk2; rw [hA]; try rfl) t d).trans
    (by unfold Dat.fetched Dat.blockOf iblk2; rw [hA]; try rfl)

theorem before2_18_of {c : Dev nD} (dat : Dat τ (Elt F) Unit ℕ (UR sig nD τ) ℕ cfg2 c) (hA : dat.A 18 = V c (Pipeline.arrRef spec2 18))
    (hafter : ∀ t, dat.after 18 t = iblk2 V c 18 t) (t : Fin cfg2.N) (d) : dat.before 18 t d = iblk2 V c 18 t :=
  (dat.before_in_eq_fetched 18 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions -/

/-- The body's first branch: the grid coordinate is 0. -/
abbrev cond2_0 (i : grid2.Coords) : Prop := k2_cond1 i = 1#1
/-- It holds at the first of the twenty points only: decided over the grid. -/
theorem hcond2_0 : ∀ t : Fin cfg2.N, cond2_0 (grid2.coords t) ↔ t.val % 20 = 0 :=
  (by decide +kernel : ∀ t : Fin grid2.N, cond2_0 (grid2.coords t) ↔ t.val % 20 = 0)

/-- The body's second branch: the grid coordinate is 19. -/
abbrev cond2_1 (i : grid2.Coords) : Prop := k2_cond2 i = 1#1
/-- It holds at the last of the twenty points only: decided over the grid. -/
theorem hcond2_1 : ∀ t : Fin cfg2.N, cond2_1 (grid2.coords t) ↔ t.val % 20 = 19 :=
  (by decide +kernel : ∀ t : Fin grid2.N, cond2_1 (grid2.coords t) ↔ t.val % 20 = 19)

/-! ## Where the windows are idle

An input window is never idle. The output window is stored at the first point (cleared) and at the last point (the
result), and is idle at every point between, where its block is not written back either. -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
theorem liveAt2_7 : ∀ t : Fin cfg2.N, cfg2.idle 7 (grid2.coords t) = false := by decide +kernel
theorem liveAt2_8 : ∀ t : Fin cfg2.N, cfg2.idle 8 (grid2.coords t) = false := by decide +kernel
theorem liveAt2_9 : ∀ t : Fin cfg2.N, cfg2.idle 9 (grid2.coords t) = false := by decide +kernel
theorem liveAt2_10 : ∀ t : Fin cfg2.N, cfg2.idle 10 (grid2.coords t) = false := by decide +kernel
theorem liveAt2_11 : ∀ t : Fin cfg2.N, cfg2.idle 11 (grid2.coords t) = false := by decide +kernel
theorem liveAt2_12 : ∀ t : Fin cfg2.N, cfg2.idle 12 (grid2.coords t) = false := by decide +kernel
theorem liveAt2_13 : ∀ t : Fin cfg2.N, cfg2.idle 13 (grid2.coords t) = false := by decide +kernel
theorem liveAt2_14 : ∀ t : Fin cfg2.N, cfg2.idle 14 (grid2.coords t) = false := by decide +kernel
theorem liveAt2_15 : ∀ t : Fin cfg2.N, cfg2.idle 15 (grid2.coords t) = false := by decide +kernel
theorem liveAt2_16 : ∀ t : Fin cfg2.N, cfg2.idle 16 (grid2.coords t) = false := by decide +kernel
theorem liveAt2_17 : ∀ t : Fin cfg2.N, cfg2.idle 17 (grid2.coords t) = false := by decide +kernel
theorem liveAt2_18 : ∀ t : Fin cfg2.N, cfg2.idle 18 (grid2.coords t) = false := by decide +kernel

/-- At the first point the output window is live: the body clears it. -/
theorem liveAt2_19_A : ∀ t : Fin cfg2.N, cond2_0 (grid2.coords t) → ¬cond2_1 (grid2.coords t) → cfg2.idle 19 (grid2.coords t) = false := by decide +kernel
/-- At a point between the first and the last the output window is idle: the body stores nothing into it. -/
theorem idleAt2_19_B : ∀ t : Fin cfg2.N, ¬cond2_0 (grid2.coords t) → ¬cond2_1 (grid2.coords t) → cfg2.idle 19 (grid2.coords t) = true := by decide +kernel
/-- At such a point the pipeline does not write the output block back. -/
theorem noFlush2_19_B : ∀ t : Fin cfg2.N, ¬cond2_0 (grid2.coords t) → ¬cond2_1 (grid2.coords t) → (cfg2.win 19).flush t = false := by decide +kernel
/-- At the last point the output window is live: the body stores the result into it. -/
theorem liveAt2_19_C : ∀ t : Fin cfg2.N, ¬cond2_0 (grid2.coords t) → cond2_1 (grid2.coords t) → cfg2.idle 19 (grid2.coords t) = false := by decide +kernel

/-! ## The memrefs the pipeline passes the body -/

/-- The output window's one staging buffer as a view: what the window holds is stated through it. -/
abbrev VO2_19 : View sig .tc .vmem S128x10 .f32 := (Memref.whole cc2_stg19_0 : Memref sig .tc .vmem S128x10 .f32).view

/-! Each window's current staging memref at point t, spelled as the pipeline passes it, and its wholeness. -/
abbrev ms2_0 (t : Fin cfg2.N) : Memref sig .tc .vmem S5000x64 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S5000x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S5000x1 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S64x64 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x64 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x64 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x64 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S1x64 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S1x64 .f32 := win2_10.stage (cfg2.slots t 10)
abbrev hs2_10 (t : Fin cfg2.N) : (ms2_10 t).IsWhole := hstage2_10 ((cfg2.slots t 10).cast nbuf2_10)
abbrev ms2_11 (t : Fin cfg2.N) : Memref sig .tc .vmem S64x64 .f32 := win2_11.stage (cfg2.slots t 11)
abbrev hs2_11 (t : Fin cfg2.N) : (ms2_11 t).IsWhole := hstage2_11 ((cfg2.slots t 11).cast nbuf2_11)
abbrev ms2_12 (t : Fin cfg2.N) : Memref sig .tc .vmem S1x64 .f32 := win2_12.stage (cfg2.slots t 12)
abbrev hs2_12 (t : Fin cfg2.N) : (ms2_12 t).IsWhole := hstage2_12 ((cfg2.slots t 12).cast nbuf2_12)
abbrev ms2_13 (t : Fin cfg2.N) : Memref sig .tc .vmem S1x64 .f32 := win2_13.stage (cfg2.slots t 13)
abbrev hs2_13 (t : Fin cfg2.N) : (ms2_13 t).IsWhole := hstage2_13 ((cfg2.slots t 13).cast nbuf2_13)
abbrev ms2_14 (t : Fin cfg2.N) : Memref sig .tc .vmem S1x64 .f32 := win2_14.stage (cfg2.slots t 14)
abbrev hs2_14 (t : Fin cfg2.N) : (ms2_14 t).IsWhole := hstage2_14 ((cfg2.slots t 14).cast nbuf2_14)
abbrev ms2_15 (t : Fin cfg2.N) : Memref sig .tc .vmem S1x64 .f32 := win2_15.stage (cfg2.slots t 15)
abbrev hs2_15 (t : Fin cfg2.N) : (ms2_15 t).IsWhole := hstage2_15 ((cfg2.slots t 15).cast nbuf2_15)
abbrev ms2_16 (t : Fin cfg2.N) : Memref sig .tc .vmem S1x64 .f32 := win2_16.stage (cfg2.slots t 16)
abbrev hs2_16 (t : Fin cfg2.N) : (ms2_16 t).IsWhole := hstage2_16 ((cfg2.slots t 16).cast nbuf2_16)
abbrev ms2_17 (t : Fin cfg2.N) : Memref sig .tc .vmem S64x10 .f32 := win2_17.stage (cfg2.slots t 17)
abbrev hs2_17 (t : Fin cfg2.N) : (ms2_17 t).IsWhole := hstage2_17 ((cfg2.slots t 17).cast nbuf2_17)
abbrev ms2_18 (t : Fin cfg2.N) : Memref sig .tc .vmem S1x10 .f32 := win2_18.stage (cfg2.slots t 18)
abbrev hs2_18 (t : Fin cfg2.N) : (ms2_18 t).IsWhole := hstage2_18 ((cfg2.slots t 18).cast nbuf2_18)
abbrev ms2_19 (t : Fin cfg2.N) : Memref sig .tc .vmem S128x10 .f32 := win2_19.stage (cfg2.slots t 19)
abbrev hs2_19 (t : Fin cfg2.N) : (ms2_19 t).IsWhole := hstage2_19 ((cfg2.slots t 19).cast nbuf2_19)

/-- The two accumulators: whole scoped buffers of the kernel's own, passed beside the windows. -/
abbrev scM2_0 : Memref sig .tc .vmem S128x64 .f32 := Memref.whole cc2_scratch0
abbrev scM2_1 : Memref sig .tc .vmem S128x1 .f32 := Memref.whole cc2_scratch1
/-- The sum accumulator, carried between points, as a view: what it holds is stated through it. -/
abbrev VS2_0 : View sig .tc .vmem S128x64 .f32 := scM2_0.view
/-- The count accumulator, carried between points, as a view. -/
abbrev VS2_1 : View sig .tc .vmem S128x1 .f32 := scM2_1.view

/-- The region's invariant before its first point, opened: the core's scoped buffers that are no staging buffer of
    this call (the other two calls' staging buffers, each whole at some contents), then the two accumulators as
    memrefs owned at some contents, then the generator register at some state. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f) ∗ (∃ d, owns (c : Thread nD τ) scM2_0 fullShare d) ∗ (∃ d, owns (c : Thread nD τ) scM2_1 fullShare d)) ∗ (∃ r, prngReg c r)) := by
  unfold Pipeline.ΦA; rw [scopedRest2_eq]; simp only [scM2_0, scM2_1, owns_whole]; try rfl

end Cert.Kernel.Frm

end
-- ==== Proof.KernelReg2RunA.lean ====
import proofs.«418702_j33346126086715_3_alg».proof.Proof.KernelReg2Runs

-- membership in a rectangle of full extents recurses once per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2's whole-body run at its first point

The body's triple at the first grid point, where it clears both accumulators and the output block, then adds the
point's share into the accumulators. -/

-- (the run's proof term is large: the definition's epilogue walks it past the default budget)
set_option maxHeartbeats 4000000 in
/-- THE FIRST POINT (the first branch taken, the second not). What the body's stores leave in the output's staging
    memref and in each accumulator, as pieces (last first), WITH the proof that on whole memrefs, the nineteen inputs'
    at their contents, the output's and both accumulators' at anything (the body clears all three before it reads any
    of them back), the body runs to the continuation holding the inputs' as they were and the output's and each
    accumulator's buffer with its pieces written. The pieces are the witness the run finds. -/
noncomputable def kernelRun2_A (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : cond2_0 i) (hc1 : ¬cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) :
    Σ' (L19 : List (View.Piece (Elt F) S128x10 .f32)), Σ' (LS0 : List (View.Piece (Elt F) S128x64 .f32)), { LS1 : List (View.Piece (Elt F) S128x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f LS0) ∗ (∃ f, arg22.view.loc (c : Thread nD τ) ↦[arg22.view.set]{fullShare} arg22.view.writes (Elt F) f LS1)) -∗ K ⟨⟩))
          ⊢ wp frame (wpE (defs₀ (F := F)) Variants.none c none) E (cc2__sage2_pool_classify_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18
    simp only [cc2__sage2_pool_classify_kernel_eq_skeleton]; unfold cc2__sage2_pool_classify_kernel_skel
    simp only [k2_part1_eq_skeleton, k2_part2_eq_skeleton]
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]; · iexists _; iexact H19
    isplitl [HS0]; · iexists _; iexact HS0
    iexists _; iexact HS1

end Cert.Kernel.Frm

end
-- ==== Proof.KernelReg2RunB.lean ====
import proofs.«418702_j33346126086715_3_alg».proof.Proof.KernelReg2Runs

/-! # Region 2, a point between the first and the last: the whole-body run

Neither branch of the body is taken at such a point: the accumulators are not cleared and the output block is not
written. The body loads its nineteen inputs, forms the second layer's rows, and adds the pooled rows and the row counts
into the two accumulators it carries from the point before. -/

-- membership in a rectangle of full extents recurses once per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the witness of the run is a long term: the definition's closing passes walk all of it
set_option maxHeartbeats 4000000 in
/-- A POINT BETWEEN THE FIRST AND THE LAST (neither branch taken). The pieces the body's stores leave in each
    accumulator (last first; none in the output block), together with the triple: on whole memrefs, with the nineteen
    inputs at their contents, the output block at any contents `xi19`, and each accumulator at what the point before
    left (`xs0`, `xs1`), the body runs to the continuation with the inputs and the output block as they were and each
    accumulator's buffer with its pieces written. The pieces are whatever the symbolic run finds. -/
noncomputable def kernelRun2_B (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : ¬cond2_0 i) (hc1 : ¬cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) (xs0 : Vec F S128x64 .f32) (xs1 : Vec F S128x1 .f32) :
    Σ' (L19 : List (View.Piece (Elt F) S128x10 .f32)), Σ' (LS0 : List (View.Piece (Elt F) S128x64 .f32)), { LS1 : List (View.Piece (Elt F) S128x1 .f32) //
      ∀ (xi19 : Vec F S128x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare xi19 ∗ owns (c : Thread nD τ) arg21 fullShare xs0 ∗ owns (c : Thread nD τ) arg22 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare xi19 ∗ (∃ f, arg21.view.loc (c : Thread nD τ) ↦[arg21.view.set]{fullShare} arg21.view.writes (Elt F) f LS0) ∗ (∃ f, arg22.view.loc (c : Thread nD τ) ↦[arg22.view.set]{fullShare} arg22.view.writes (Elt F) f LS1)) -∗ K ⟨⟩))
          ⊢ wp frame (wpE (defs₀ (F := F)) Variants.none c none) E (cc2__sage2_pool_classify_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨[], ?_, ?_, fun xi19 E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hfs0; obtain rfl := harg22.eq_unread hfs1
    simp only [cc2__sage2_pool_classify_kernel_eq_skeleton]; unfold cc2__sage2_pool_classify_kernel_skel
    simp only [k2_part1_eq_skeleton, k2_part2_eq_skeleton]
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [HS0]; · iexists _; iexact HS0
    iexists _; iexact HS1

end Cert.Kernel.Frm

end
-- ==== Proof.KernelReg2RunC.lean ====
import proofs.«418702_j33346126086715_3_alg».proof.Proof.KernelReg2Runs

-- membership in a rectangle of full extents recurses once per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- THE LAST POINT (the first branch not taken, the second taken). What the body's stores leave in the output's
    staging memref and in each accumulator, as pieces (last first), WITH the proof that on whole memrefs, the nineteen
    inputs' at their contents, the output's at anything, each accumulator's at the contents the point before left, the
    body runs to the continuation holding the inputs' as they were and the output's and each accumulator's buffer
    with its pieces written: the accumulators with this point's share added, the output with the classifier head and
    the log-softmax of the pooled means. The pieces are the witness the run finds. -/
noncomputable def kernelRun2_C (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : ¬cond2_0 i) (hc1 : cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) (xs0 : Vec F S128x64 .f32) (xs1 : Vec F S128x1 .f32) :
    Σ' (L19 : List (View.Piece (Elt F) S128x10 .f32)), Σ' (LS0 : List (View.Piece (Elt F) S128x64 .f32)), { LS1 : List (View.Piece (Elt F) S128x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ owns (c : Thread nD τ) arg21 fullShare xs0 ∗ owns (c : Thread nD τ) arg22 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f LS0) ∗ (∃ f, arg22.view.loc (c : Thread nD τ) ↦[arg22.view.set]{fullShare} arg22.view.writes (Elt F) f LS1)) -∗ K ⟨⟩))
          ⊢ wp frame (wpE (defs₀ (F := F)) Variants.none c none) E (cc2__sage2_pool_classify_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg21.eq_unread hfs0; obtain rfl := harg22.eq_unread hfs1
    simp only [cc2__sage2_pool_classify_kernel_eq_skeleton]; unfold cc2__sage2_pool_classify_kernel_skel
    simp only [k2_part1_eq_skeleton, k2_part2_eq_skeleton]
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]; · iexists _; iexact H19
    isplitl [HS0]; · iexists _; iexact HS0
    iexists _; iexact HS1

end Cert.Kernel.Frm

end
-- ==== Proof.KernelReg2.lean ====
import proofs.«418702_j33346126086715_3_alg».proof.Proof.KernelReg2RunA
import proofs.«418702_j33346126086715_3_alg».proof.Proof.KernelReg2RunB
import proofs.«418702_j33346126086715_3_alg».proof.Proof.KernelReg2RunC

set_option maxRecDepth 16384

noncomputable section

/-! # Region 2 (the second SAGE layer, the pooling and the classifier): proof data and body obligation

The body's three cases (first point, a middle point, the last point) have their whole-body runs in the three run
modules. Here: what each case leaves in the output block and in the two accumulators the kernel carries between grid
points; what those hold point by point (`outsAt2`); the region's invariant (`PhiS2`); the pipeline's proof data
(`dat2`) at the region-entry contents `V`; the body obligation; and the invariant at the region's two ends. -/

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## What each case of the body leaves in the output block and in the two carried accumulators

The body of region 2 has two conditionals on the grid position: the first point zeroes the accumulators and the
output block, the last point computes the result from the accumulators. Three cases are met: A (first point), B (a
middle point), C (last point). For each, the pieces the case's run ends with are read back over junk; where the
pieces cover the buffer the junk is never seen. -/

/-! ### Case A: the first point (both accumulators and the output block zeroed, then the point's contribution added) -/

/-- Case A's stores into the output block (window 19) cover it. -/
theorem cover2_A_19 (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : cond2_0 i) (hc1 : ¬cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) (y : S128x10.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18).1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18).1 S128x10.size (by sl_kernel_rfl) y

/-- What case A leaves in the output block's staging buffer: its pieces read back over junk. -/
def out2_A_19 (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : cond2_0 i) (hc1 : ¬cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) : Vec F S128x10 .f32 :=
  VO2_19.read (Elt F) (VO2_19.writes (Elt F) VO2_19.junk (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18).1)

/-- Case A's stores into the pooled-sum accumulator (scratch 0, carried between points) cover it. -/
theorem scover2_A_0 (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : cond2_0 i) (hc1 : ¬cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) (y : S128x64.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18).2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18).2.1 S128x64.size (by sl_kernel_rfl) y

/-- What case A leaves in the pooled-sum accumulator: its pieces read back over junk. -/
def sout2_A_0 (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : cond2_0 i) (hc1 : ¬cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) : Vec F S128x64 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18).2.1)

/-- Case A's stores into the node-count accumulator (scratch 1, carried between points) cover it. -/
theorem scover2_A_1 (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : cond2_0 i) (hc1 : ¬cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) (y : S128x1.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18).2.2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18).2.2.1 S128x1.size (by sl_kernel_rfl) y

/-- What case A leaves in the node-count accumulator: its pieces read back over junk. -/
def sout2_A_1 (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : cond2_0 i) (hc1 : ¬cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) : Vec F S128x1 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18).2.2.1)

/-! ### Case B: a middle point (the point's contribution added to the accumulators; the output block untouched) -/

/-- Case B stores nothing into the output block (window 19 is idle at the middle points and not written back there):
    no pieces: its value is never read. -/
def out2_B_19 (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : ¬cond2_0 i) (hc1 : ¬cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) (xs0 : Vec F S128x64 .f32) (xs1 : Vec F S128x1 .f32) : Vec F S128x10 .f32 :=
  VO2_19.read (Elt F) (VO2_19.writes (Elt F) VO2_19.junk (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1).1)

/-- Case B's stores into the pooled-sum accumulator (scratch 0, carried between points) cover it. -/
theorem scover2_B_0 (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : ¬cond2_0 i) (hc1 : ¬cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) (xs0 : Vec F S128x64 .f32) (xs1 : Vec F S128x1 .f32) (y : S128x64.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1).2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1).2.1 S128x64.size (by sl_kernel_rfl) y

/-- What case B leaves in the pooled-sum accumulator: its pieces read back over junk. -/
def sout2_B_0 (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : ¬cond2_0 i) (hc1 : ¬cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) (xs0 : Vec F S128x64 .f32) (xs1 : Vec F S128x1 .f32) : Vec F S128x64 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1).2.1)

/-- Case B's stores into the node-count accumulator (scratch 1, carried between points) cover it. -/
theorem scover2_B_1 (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : ¬cond2_0 i) (hc1 : ¬cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) (xs0 : Vec F S128x64 .f32) (xs1 : Vec F S128x1 .f32) (y : S128x1.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1).2.2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1).2.2.1 S128x1.size (by sl_kernel_rfl) y

/-- What case B leaves in the node-count accumulator: its pieces read back over junk. -/
def sout2_B_1 (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : ¬cond2_0 i) (hc1 : ¬cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) (xs0 : Vec F S128x64 .f32) (xs1 : Vec F S128x1 .f32) : Vec F S128x1 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1).2.2.1)

/-! ### Case C: the last point (the contribution added, then the pooled mean classified and the log-softmax stored into the output block) -/

/-- Case C's stores into the output block (window 19) cover it. -/
theorem cover2_C_19 (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : ¬cond2_0 i) (hc1 : cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) (xs0 : Vec F S128x64 .f32) (xs1 : Vec F S128x1 .f32) (y : S128x10.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1).1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1).1 S128x10.size (by sl_kernel_rfl) y

/-- What case C leaves in the output block's staging buffer: its pieces read back over junk. -/
def out2_C_19 (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : ¬cond2_0 i) (hc1 : cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) (xs0 : Vec F S128x64 .f32) (xs1 : Vec F S128x1 .f32) : Vec F S128x10 .f32 :=
  VO2_19.read (Elt F) (VO2_19.writes (Elt F) VO2_19.junk (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1).1)

/-- Case C's stores into the pooled-sum accumulator (scratch 0, carried between points) cover it. -/
theorem scover2_C_0 (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : ¬cond2_0 i) (hc1 : cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) (xs0 : Vec F S128x64 .f32) (xs1 : Vec F S128x1 .f32) (y : S128x64.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1).2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1).2.1 S128x64.size (by sl_kernel_rfl) y

/-- What case C leaves in the pooled-sum accumulator: its pieces read back over junk. -/
def sout2_C_0 (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : ¬cond2_0 i) (hc1 : cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) (xs0 : Vec F S128x64 .f32) (xs1 : Vec F S128x1 .f32) : Vec F S128x64 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1).2.1)

/-- Case C's stores into the node-count accumulator (scratch 1, carried between points) cover it. -/
theorem scover2_C_1 (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : ¬cond2_0 i) (hc1 : cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) (xs0 : Vec F S128x64 .f32) (xs1 : Vec F S128x1 .f32) (y : S128x1.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1).2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1).2.2.1 S128x1.size (by sl_kernel_rfl) y

/-- What case C leaves in the node-count accumulator: its pieces read back over junk. -/
def sout2_C_1 (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : ¬cond2_0 i) (hc1 : cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) (xs0 : Vec F S128x64 .f32) (xs1 : Vec F S128x1 .f32) : Vec F S128x1 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1).2.2.1)

/-! ## What the output block and the accumulators hold after each point -/

/-- THE ACCUMULATION. What the output block's staging buffer and the two accumulators hold after the body at position
    `n` (the output first, then the pooled sums, then the node counts): at the first point case A's contents; at the
    last point case C's and at any other point case B's, each over what the point before left in the accumulators. -/
def outsAt2 (c : Dev nD) : (n : ℕ) → n < cfg2.N → Vec F S128x10 .f32 × Vec F S128x64 .f32 × Vec F S128x1 .f32
  | 0, hn => (out2_A_19 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) (ms2_11 ⟨0, hn⟩) (hs2_11 ⟨0, hn⟩) (ms2_12 ⟨0, hn⟩) (hs2_12 ⟨0, hn⟩) (ms2_13 ⟨0, hn⟩) (hs2_13 ⟨0, hn⟩) (ms2_14 ⟨0, hn⟩) (hs2_14 ⟨0, hn⟩) (ms2_15 ⟨0, hn⟩) (hs2_15 ⟨0, hn⟩) (ms2_16 ⟨0, hn⟩) (hs2_16 ⟨0, hn⟩) (ms2_17 ⟨0, hn⟩) (hs2_17 ⟨0, hn⟩) (ms2_18 ⟨0, hn⟩) (hs2_18 ⟨0, hn⟩) (ms2_19 ⟨0, hn⟩) (hs2_19 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩) (iblk2 V c 10 ⟨0, hn⟩) (iblk2 V c 11 ⟨0, hn⟩) (iblk2 V c 12 ⟨0, hn⟩) (iblk2 V c 13 ⟨0, hn⟩) (iblk2 V c 14 ⟨0, hn⟩) (iblk2 V c 15 ⟨0, hn⟩) (iblk2 V c 16 ⟨0, hn⟩) (iblk2 V c 17 ⟨0, hn⟩) (iblk2 V c 18 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) (ms2_11 ⟨0, hn⟩) (hs2_11 ⟨0, hn⟩) (ms2_12 ⟨0, hn⟩) (hs2_12 ⟨0, hn⟩) (ms2_13 ⟨0, hn⟩) (hs2_13 ⟨0, hn⟩) (ms2_14 ⟨0, hn⟩) (hs2_14 ⟨0, hn⟩) (ms2_15 ⟨0, hn⟩) (hs2_15 ⟨0, hn⟩) (ms2_16 ⟨0, hn⟩) (hs2_16 ⟨0, hn⟩) (ms2_17 ⟨0, hn⟩) (hs2_17 ⟨0, hn⟩) (ms2_18 ⟨0, hn⟩) (hs2_18 ⟨0, hn⟩) (ms2_19 ⟨0, hn⟩) (hs2_19 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩) (iblk2 V c 10 ⟨0, hn⟩) (iblk2 V c 11 ⟨0, hn⟩) (iblk2 V c 12 ⟨0, hn⟩) (iblk2 V c 13 ⟨0, hn⟩) (iblk2 V c 14 ⟨0, hn⟩) (iblk2 V c 15 ⟨0, hn⟩) (iblk2 V c 16 ⟨0, hn⟩) (iblk2 V c 17 ⟨0, hn⟩) (iblk2 V c 18 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) (ms2_11 ⟨0, hn⟩) (hs2_11 ⟨0, hn⟩) (ms2_12 ⟨0, hn⟩) (hs2_12 ⟨0, hn⟩) (ms2_13 ⟨0, hn⟩) (hs2_13 ⟨0, hn⟩) (ms2_14 ⟨0, hn⟩) (hs2_14 ⟨0, hn⟩) (ms2_15 ⟨0, hn⟩) (hs2_15 ⟨0, hn⟩) (ms2_16 ⟨0, hn⟩) (hs2_16 ⟨0, hn⟩) (ms2_17 ⟨0, hn⟩) (hs2_17 ⟨0, hn⟩) (ms2_18 ⟨0, hn⟩) (hs2_18 ⟨0, hn⟩) (ms2_19 ⟨0, hn⟩) (hs2_19 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩) (iblk2 V c 10 ⟨0, hn⟩) (iblk2 V c 11 ⟨0, hn⟩) (iblk2 V c 12 ⟨0, hn⟩) (iblk2 V c 13 ⟨0, hn⟩) (iblk2 V c 14 ⟨0, hn⟩) (iblk2 V c 15 ⟨0, hn⟩) (iblk2 V c 16 ⟨0, hn⟩) (iblk2 V c 17 ⟨0, hn⟩) (iblk2 V c 18 ⟨0, hn⟩))
  | n + 1, hn =>
    if h0 : (n + 1) % 20 = 0 then
      False.elim (by have hN : n + 1 < 20 := lt_of_lt_of_eq hn (show cfg2.N = 20 from N_2); omega)
    else
      if h1 : (n + 1) % 20 = 19 then
        (out2_C_19 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) (ms2_15 ⟨n + 1, hn⟩) (hs2_15 ⟨n + 1, hn⟩) (ms2_16 ⟨n + 1, hn⟩) (hs2_16 ⟨n + 1, hn⟩) (ms2_17 ⟨n + 1, hn⟩) (hs2_17 ⟨n + 1, hn⟩) (ms2_18 ⟨n + 1, hn⟩) (hs2_18 ⟨n + 1, hn⟩) (ms2_19 ⟨n + 1, hn⟩) (hs2_19 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (iblk2 V c 11 ⟨n + 1, hn⟩) (iblk2 V c 12 ⟨n + 1, hn⟩) (iblk2 V c 13 ⟨n + 1, hn⟩) (iblk2 V c 14 ⟨n + 1, hn⟩) (iblk2 V c 15 ⟨n + 1, hn⟩) (iblk2 V c 16 ⟨n + 1, hn⟩) (iblk2 V c 17 ⟨n + 1, hn⟩) (iblk2 V c 18 ⟨n + 1, hn⟩) (outsAt2 c n (Nat.lt_of_succ_lt hn)).2.1 (outsAt2 c n (Nat.lt_of_succ_lt hn)).2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) (ms2_15 ⟨n + 1, hn⟩) (hs2_15 ⟨n + 1, hn⟩) (ms2_16 ⟨n + 1, hn⟩) (hs2_16 ⟨n + 1, hn⟩) (ms2_17 ⟨n + 1, hn⟩) (hs2_17 ⟨n + 1, hn⟩) (ms2_18 ⟨n + 1, hn⟩) (hs2_18 ⟨n + 1, hn⟩) (ms2_19 ⟨n + 1, hn⟩) (hs2_19 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (iblk2 V c 11 ⟨n + 1, hn⟩) (iblk2 V c 12 ⟨n + 1, hn⟩) (iblk2 V c 13 ⟨n + 1, hn⟩) (iblk2 V c 14 ⟨n + 1, hn⟩) (iblk2 V c 15 ⟨n + 1, hn⟩) (iblk2 V c 16 ⟨n + 1, hn⟩) (iblk2 V c 17 ⟨n + 1, hn⟩) (iblk2 V c 18 ⟨n + 1, hn⟩) (outsAt2 c n (Nat.lt_of_succ_lt hn)).2.1 (outsAt2 c n (Nat.lt_of_succ_lt hn)).2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) (ms2_15 ⟨n + 1, hn⟩) (hs2_15 ⟨n + 1, hn⟩) (ms2_16 ⟨n + 1, hn⟩) (hs2_16 ⟨n + 1, hn⟩) (ms2_17 ⟨n + 1, hn⟩) (hs2_17 ⟨n + 1, hn⟩) (ms2_18 ⟨n + 1, hn⟩) (hs2_18 ⟨n + 1, hn⟩) (ms2_19 ⟨n + 1, hn⟩) (hs2_19 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (iblk2 V c 11 ⟨n + 1, hn⟩) (iblk2 V c 12 ⟨n + 1, hn⟩) (iblk2 V c 13 ⟨n + 1, hn⟩) (iblk2 V c 14 ⟨n + 1, hn⟩) (iblk2 V c 15 ⟨n + 1, hn⟩) (iblk2 V c 16 ⟨n + 1, hn⟩) (iblk2 V c 17 ⟨n + 1, hn⟩) (iblk2 V c 18 ⟨n + 1, hn⟩) (outsAt2 c n (Nat.lt_of_succ_lt hn)).2.1 (outsAt2 c n (Nat.lt_of_succ_lt hn)).2.2)
      else
        (out2_B_19 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) (ms2_15 ⟨n + 1, hn⟩) (hs2_15 ⟨n + 1, hn⟩) (ms2_16 ⟨n + 1, hn⟩) (hs2_16 ⟨n + 1, hn⟩) (ms2_17 ⟨n + 1, hn⟩) (hs2_17 ⟨n + 1, hn⟩) (ms2_18 ⟨n + 1, hn⟩) (hs2_18 ⟨n + 1, hn⟩) (ms2_19 ⟨n + 1, hn⟩) (hs2_19 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (iblk2 V c 11 ⟨n + 1, hn⟩) (iblk2 V c 12 ⟨n + 1, hn⟩) (iblk2 V c 13 ⟨n + 1, hn⟩) (iblk2 V c 14 ⟨n + 1, hn⟩) (iblk2 V c 15 ⟨n + 1, hn⟩) (iblk2 V c 16 ⟨n + 1, hn⟩) (iblk2 V c 17 ⟨n + 1, hn⟩) (iblk2 V c 18 ⟨n + 1, hn⟩) (outsAt2 c n (Nat.lt_of_succ_lt hn)).2.1 (outsAt2 c n (Nat.lt_of_succ_lt hn)).2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) (ms2_15 ⟨n + 1, hn⟩) (hs2_15 ⟨n + 1, hn⟩) (ms2_16 ⟨n + 1, hn⟩) (hs2_16 ⟨n + 1, hn⟩) (ms2_17 ⟨n + 1, hn⟩) (hs2_17 ⟨n + 1, hn⟩) (ms2_18 ⟨n + 1, hn⟩) (hs2_18 ⟨n + 1, hn⟩) (ms2_19 ⟨n + 1, hn⟩) (hs2_19 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (iblk2 V c 11 ⟨n + 1, hn⟩) (iblk2 V c 12 ⟨n + 1, hn⟩) (iblk2 V c 13 ⟨n + 1, hn⟩) (iblk2 V c 14 ⟨n + 1, hn⟩) (iblk2 V c 15 ⟨n + 1, hn⟩) (iblk2 V c 16 ⟨n + 1, hn⟩) (iblk2 V c 17 ⟨n + 1, hn⟩) (iblk2 V c 18 ⟨n + 1, hn⟩) (outsAt2 c n (Nat.lt_of_succ_lt hn)).2.1 (outsAt2 c n (Nat.lt_of_succ_lt hn)).2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) (ms2_15 ⟨n + 1, hn⟩) (hs2_15 ⟨n + 1, hn⟩) (ms2_16 ⟨n + 1, hn⟩) (hs2_16 ⟨n + 1, hn⟩) (ms2_17 ⟨n + 1, hn⟩) (hs2_17 ⟨n + 1, hn⟩) (ms2_18 ⟨n + 1, hn⟩) (hs2_18 ⟨n + 1, hn⟩) (ms2_19 ⟨n + 1, hn⟩) (hs2_19 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (iblk2 V c 11 ⟨n + 1, hn⟩) (iblk2 V c 12 ⟨n + 1, hn⟩) (iblk2 V c 13 ⟨n + 1, hn⟩) (iblk2 V c 14 ⟨n + 1, hn⟩) (iblk2 V c 15 ⟨n + 1, hn⟩) (iblk2 V c 16 ⟨n + 1, hn⟩) (iblk2 V c 17 ⟨n + 1, hn⟩) (iblk2 V c 18 ⟨n + 1, hn⟩) (outsAt2 c n (Nat.lt_of_succ_lt hn)).2.1 (outsAt2 c n (Nat.lt_of_succ_lt hn)).2.2)

/-- `outsAt2` at the first point: case A's contents. -/
theorem outsAt2_A (c : Dev nD) (t : Fin cfg2.N) (h0 : t.val % 20 = 0) (h1 : ¬t.val % 20 = 19) :
    outsAt2 V c t.val t.isLt = (out2_A_19 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) (ms2_19 t) (hs2_19 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) (ms2_19 t) (hs2_19 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) (ms2_19 t) (hs2_19 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t)) := by
  obtain ⟨n, hn⟩ := t
  cases n with
  | zero => exact rfl
  | succ n =>
    exfalso
    have hN : n + 1 < 20 := lt_of_lt_of_eq hn (show cfg2.N = 20 from N_2)
    (try dsimp only at h0); omega

/-- `outsAt2` at a middle point: case B's contents, over what the point before left. -/
theorem outsAt2_B (c : Dev nD) (t : Fin cfg2.N) (h0 : ¬t.val % 20 = 0) (h1 : ¬t.val % 20 = 19) :
    outsAt2 V c t.val t.isLt = (out2_B_19 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) (ms2_19 t) (hs2_19 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (outsAt2 V c (t.val - 1) (Nat.lt_of_le_of_lt (Nat.sub_le _ _) t.isLt)).2.1 (outsAt2 V c (t.val - 1) (Nat.lt_of_le_of_lt (Nat.sub_le _ _) t.isLt)).2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) (ms2_19 t) (hs2_19 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (outsAt2 V c (t.val - 1) (Nat.lt_of_le_of_lt (Nat.sub_le _ _) t.isLt)).2.1 (outsAt2 V c (t.val - 1) (Nat.lt_of_le_of_lt (Nat.sub_le _ _) t.isLt)).2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) (ms2_19 t) (hs2_19 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt2` at the last point: case C's contents, over what the point before left. -/
theorem outsAt2_C (c : Dev nD) (t : Fin cfg2.N) (h0 : ¬t.val % 20 = 0) (h1 : t.val % 20 = 19) :
    outsAt2 V c t.val t.isLt = (out2_C_19 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) (ms2_19 t) (hs2_19 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (outsAt2 V c (t.val - 1) (Nat.lt_of_le_of_lt (Nat.sub_le _ _) t.isLt)).2.1 (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) (ms2_19 t) (hs2_19 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (outsAt2 V c (t.val - 1) (Nat.lt_of_le_of_lt (Nat.sub_le _ _) t.isLt)).2.1 (outsAt2 V c (t.val - 1) (Nat.lt_of_le_of_lt (Nat.sub_le _ _) t.isLt)).2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) (ms2_19 t) (hs2_19 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The region invariant before position `n`: before the first point what the launch hands a region whose body
    stages nothing of its own (every scoped buffer no window stages at anything, the generator register at some
    state); afterwards the same with the two accumulators at what the point before left in them (`outsAt2`'s second
    and third components). -/
def PhiS2 (c : Dev nD) : (n : ℕ) → n ≤ cfg2.N → sProp 𝕄
  | 0, _ => Pipeline.ΦA spec2 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f) ∗ owns (c : Thread nD τ) scM2_0 fullShare ((outsAt2 V c n hn).2.1) ∗ owns (c : Thread nD τ) scM2_1 fullShare ((outsAt2 V c n hn).2.2)) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulators at that point's contents. -/
theorem PhiS2_succ (c : Dev nD) (n : ℕ) (hn : n < cfg2.N) :
    PhiS2 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f) ∗ owns (c : Thread nD τ) scM2_0 fullShare ((outsAt2 V c n hn).2.1) ∗ owns (c : Thread nD τ) scM2_1 fullShare ((outsAt2 V c n hn).2.2)) ∗ (∃ r, prngReg c r)) := rfl

/-- Before a point that is not the first: the accumulators at what the point before left. -/
theorem PhiS2_pos (c : Dev nD) (n : ℕ) (h : n ≤ cfg2.N) (hz : n ≠ 0) :
    PhiS2 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f) ∗ owns (c : Thread nD τ) scM2_0 fullShare ((outsAt2 V c (n - 1) (by omega)).2.1) ∗ owns (c : Thread nD τ) scM2_1 fullShare ((outsAt2 V c (n - 1) (by omega)).2.2)) ∗ (∃ r, prngReg c r)) := by
  cases n with
  | zero => exact absurd rfl hz
  | succ n => rfl

/-! ## The pipeline's proof data -/

/-- The proof data of pipeline 2 on core `c`: the arrays as the region finds them (`V`); after the body at point `t`
    each input's buffer at its block and the output block's at `outsAt2`'s first component; the invariant `PhiS2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => iblk2 V c 15 t
    | ⟨16, _⟩ => iblk2 V c 16 t
    | ⟨17, _⟩ => iblk2 V c 17 t
    | ⟨18, _⟩ => iblk2 V c 18 t
    | ⟨19, _⟩ => (outsAt2 V c t.val t.isLt).1
    | ⟨_ + 20, h⟩ => absurd h (Nat.not_lt.2 (Nat.le_add_left _ _))
  Φ t := PhiS2 V c t.val (Nat.le_of_lt_succ t.isLt)
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- The invariant at a point's start (the proof data at `t.castSucc`), restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = iblk2 V c 13 t := by dsimp only [dat2]
theorem after2_14 (c : Dev nD) (t : Fin cfg2.N) : (dat2 V c).after 14 t = iblk2 V c 14 t := by dsimp only [dat2]
theorem after2_15 (c : Dev nD) (t : Fin cfg2.N) : (dat2 V c).after 15 t = iblk2 V c 15 t := by dsimp only [dat2]
theorem after2_16 (c : Dev nD) (t : Fin cfg2.N) : (dat2 V c).after 16 t = iblk2 V c 16 t := by dsimp only [dat2]
theorem after2_17 (c : Dev nD) (t : Fin cfg2.N) : (dat2 V c).after 17 t = iblk2 V c 17 t := by dsimp only [dat2]
theorem after2_18 (c : Dev nD) (t : Fin cfg2.N) : (dat2 V c).after 18 t = iblk2 V c 18 t := by dsimp only [dat2]
theorem after2_19 (c : Dev nD) (t : Fin cfg2.N) : (dat2 V c).after 19 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
theorem before2_12 (c : Dev nD) (t : Fin cfg2.N) (d) : (dat2 V c).before 12 t d = iblk2 V c 12 t :=
  before2_12_of V (dat2 V c) (A_eq2 V c 12) (after2_12 V c) t d
theorem before2_13 (c : Dev nD) (t : Fin cfg2.N) (d) : (dat2 V c).before 13 t d = iblk2 V c 13 t :=
  before2_13_of V (dat2 V c) (A_eq2 V c 13) (after2_13 V c) t d
theorem before2_14 (c : Dev nD) (t : Fin cfg2.N) (d) : (dat2 V c).before 14 t d = iblk2 V c 14 t :=
  before2_14_of V (dat2 V c) (A_eq2 V c 14) (after2_14 V c) t d
theorem before2_15 (c : Dev nD) (t : Fin cfg2.N) (d) : (dat2 V c).before 15 t d = iblk2 V c 15 t :=
  before2_15_of V (dat2 V c) (A_eq2 V c 15) (after2_15 V c) t d
theorem before2_16 (c : Dev nD) (t : Fin cfg2.N) (d) : (dat2 V c).before 16 t d = iblk2 V c 16 t :=
  before2_16_of V (dat2 V c) (A_eq2 V c 16) (after2_16 V c) t d
theorem before2_17 (c : Dev nD) (t : Fin cfg2.N) (d) : (dat2 V c).before 17 t d = iblk2 V c 17 t :=
  before2_17_of V (dat2 V c) (A_eq2 V c 17) (after2_17 V c) t d
theorem before2_18 (c : Dev nD) (t : Fin cfg2.N) (d) : (dat2 V c).before 18 t d = iblk2 V c 18 t :=
  before2_18_of V (dat2 V c) (A_eq2 V c 18) (after2_18 V c) t d

/-! ## The body obligation, at a generic point -/

/-- What the body is called with at point `t`: the invariant, the core's dues, every window's current staging buffer, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d))
    ∗ (∃ d, owns (c : Thread nD τ) (ms2_11 t) fullShare ((dat2 V c).before 11 t d))
    ∗ (∃ d, owns (c : Thread nD τ) (ms2_12 t) fullShare ((dat2 V c).before 12 t d))
    ∗ (∃ d, owns (c : Thread nD τ) (ms2_13 t) fullShare ((dat2 V c).before 13 t d))
    ∗ (∃ d, owns (c : Thread nD τ) (ms2_14 t) fullShare ((dat2 V c).before 14 t d))
    ∗ (∃ d, owns (c : Thread nD τ) (ms2_15 t) fullShare ((dat2 V c).before 15 t d))
    ∗ (∃ d, owns (c : Thread nD τ) (ms2_16 t) fullShare ((dat2 V c).before 16 t d))
    ∗ (∃ d, owns (c : Thread nD τ) (ms2_17 t) fullShare ((dat2 V c).before 17 t d))
    ∗ (∃ d, owns (c : Thread nD τ) (ms2_18 t) fullShare ((dat2 V c).before 18 t d))
    ∗ (∃ d, owns (c : Thread nD τ) (ms2_19 t) fullShare ((dat2 V c).before 19 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t
    ∗ (dat2 V c).leavesExact 11 t
    ∗ (dat2 V c).leavesExact 12 t
    ∗ (dat2 V c).leavesExact 13 t
    ∗ (dat2 V c).leavesExact 14 t
    ∗ (dat2 V c).leavesExact 15 t
    ∗ (dat2 V c).leavesExact 16 t
    ∗ (dat2 V c).leavesExact 17 t
    ∗ (dat2 V c).leavesExact 18 t
    ∗ (dat2 V c).leavesExact 19 t)

set_option maxHeartbeats 8000000 in
/-- The body at any point. The inputs' buffers hold their blocks and are handed back as they were. The grid position
    decides the case: at the first point the invariant hands the run both accumulators at anything and the run zeroes
    them and the output block; at a later point it hands them at what the point before left; in every case it takes them
    back at this point's contents, read through the covers. The output block is live at the first and the last point
    (stored whole there) and idle in between, where its buffer goes back untouched. The core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11, before2_12, before2_13, before2_14, before2_15, before2_16, before2_17, before2_18]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  rw [show (dat2 V c).leavesExact 7 t = owns (c : Thread nD τ) (ms2_7 t) fullShare ((dat2 V c).after 7 t) from by
    unfold Dat.leavesExact; rw [liveAt2_7 t], after2_7]
  rw [show (dat2 V c).leavesExact 8 t = owns (c : Thread nD τ) (ms2_8 t) fullShare ((dat2 V c).after 8 t) from by
    unfold Dat.leavesExact; rw [liveAt2_8 t], after2_8]
  rw [show (dat2 V c).leavesExact 9 t = owns (c : Thread nD τ) (ms2_9 t) fullShare ((dat2 V c).after 9 t) from by
    unfold Dat.leavesExact; rw [liveAt2_9 t], after2_9]
  rw [show (dat2 V c).leavesExact 10 t = owns (c : Thread nD τ) (ms2_10 t) fullShare ((dat2 V c).after 10 t) from by
    unfold Dat.leavesExact; rw [liveAt2_10 t], after2_10]
  rw [show (dat2 V c).leavesExact 11 t = owns (c : Thread nD τ) (ms2_11 t) fullShare ((dat2 V c).after 11 t) from by
    unfold Dat.leavesExact; rw [liveAt2_11 t], after2_11]
  rw [show (dat2 V c).leavesExact 12 t = owns (c : Thread nD τ) (ms2_12 t) fullShare ((dat2 V c).after 12 t) from by
    unfold Dat.leavesExact; rw [liveAt2_12 t], after2_12]
  rw [show (dat2 V c).leavesExact 13 t = owns (c : Thread nD τ) (ms2_13 t) fullShare ((dat2 V c).after 13 t) from by
    unfold Dat.leavesExact; rw [liveAt2_13 t], after2_13]
  rw [show (dat2 V c).leavesExact 14 t = owns (c : Thread nD τ) (ms2_14 t) fullShare ((dat2 V c).after 14 t) from by
    unfold Dat.leavesExact; rw [liveAt2_14 t], after2_14]
  rw [show (dat2 V c).leavesExact 15 t = owns (c : Thread nD τ) (ms2_15 t) fullShare ((dat2 V c).after 15 t) from by
    unfold Dat.leavesExact; rw [liveAt2_15 t], after2_15]
  rw [show (dat2 V c).leavesExact 16 t = owns (c : Thread nD τ) (ms2_16 t) fullShare ((dat2 V c).after 16 t) from by
    unfold Dat.leavesExact; rw [liveAt2_16 t], after2_16]
  rw [show (dat2 V c).leavesExact 17 t = owns (c : Thread nD τ) (ms2_17 t) fullShare ((dat2 V c).after 17 t) from by
    unfold Dat.leavesExact; rw [liveAt2_17 t], after2_17]
  rw [show (dat2 V c).leavesExact 18 t = owns (c : Thread nD τ) (ms2_18 t) fullShare ((dat2 V c).after 18 t) from by
    unfold Dat.leavesExact; rw [liveAt2_18 t], after2_18]
  by_cases h0 : t.val % 20 = 0
  · by_cases h1 : t.val % 20 = 19
    · exfalso; omega
    · -- the first point
      have hz : t.val = 0 := by omega
      rw [show (dat2 V c).leavesExact 19 t = owns (c : Thread nD τ) (ms2_19 t) fullShare ((dat2 V c).after 19 t) from by
        unfold Dat.leavesExact; rw [liveAt2_19_A t ((hcond2_0 t).mpr h0) (fun h => h1 ((hcond2_1 t).mp h))], after2_19]
      rw [outsAt2_A V c t h0 h1]
      unfold out2_A_19 sout2_A_0 sout2_A_1; (try dsimp only)
      rw [PhiS2_castSucc V c t, PhiS2_zero V c _ _ hz, PhiA2_eq]
      iintro ⟨⟨⟨HR0, HR1, HR2, HR3, HR4, HR5, HR6, HR7, HR8, HR9, HR10, HR11, HR12, HR13, HR14, HR15, HR16, HR17, HR18, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((kernelRun2_A c (grid2.coords t) _ _ _ _ _ _ _ _ _ _ _ _ _ _ _ _ _ _ _ _ _ _ _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexists _; iexact H19
      isplitl [HS0]; · iexact HS0
      isplitl [HS1]; · iexact HS1
      iintro ⟨H0, H1, H2, H3, H4, H5, H6, H7, H8, H9, H10, H11, H12, H13, H14, H15, H16, H17, H18, ⟨%e19, H19⟩, ⟨%es0, HS0⟩, ⟨%es1, HS1⟩⟩
      isplitl [HR0 HR1 HR2 HR3 HR4 HR5 HR6 HR7 HR8 HR9 HR10 HR11 HR12 HR13 HR14 HR15 HR16 HR17 HR18 HS0 HS1 Hg]
      · isplitl [HR0 HR1 HR2 HR3 HR4 HR5 HR6 HR7 HR8 HR9 HR10 HR11 HR12 HR13 HR14 HR15 HR16 HR17 HR18 HS0 HS1]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          isplitl [HR18]; · iexact HR18
          isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover2_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      unfold owns; iexists _; isplitr
      swap; · iexact H19
      ipureintro; exact View.read_writes_of_cover _ _ _ _ _ (cover2_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  · have hz : t.val ≠ 0 := fun h => h0 (by rw [h])
    by_cases h1 : t.val % 20 = 19
    · -- the last point
      rw [show (dat2 V c).leavesExact 19 t = owns (c : Thread nD τ) (ms2_19 t) fullShare ((dat2 V c).after 19 t) from by
        unfold Dat.leavesExact; rw [liveAt2_19_C t (fun h => h0 ((hcond2_0 t).mp h)) ((hcond2_1 t).mpr h1)], after2_19]
      rw [outsAt2_C V c t h0 h1]
      unfold out2_C_19 sout2_C_0 sout2_C_1; (try dsimp only)
      rw [PhiS2_castSucc V c t, PhiS2_pos V c _ _ hz]
      iintro ⟨⟨⟨HR0, HR1, HR2, HR3, HR4, HR5, HR6, HR7, HR8, HR9, HR10, HR11, HR12, HR13, HR14, HR15, HR16, HR17, HR18, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((kernelRun2_C c (grid2.coords t) _ _ _ _ _ _ _ _ _ _ _ _ _ _ _ _ _ _ _ _ _ _ _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexists _; iexact H19
      isplitl [HS0]; · iexact HS0
      isplitl [HS1]; · iexact HS1
      iintro ⟨H0, H1, H2, H3, H4, H5, H6, H7, H8, H9, H10, H11, H12, H13, H14, H15, H16, H17, H18, ⟨%e19, H19⟩, ⟨%es0, HS0⟩, ⟨%es1, HS1⟩⟩
      isplitl [HR0 HR1 HR2 HR3 HR4 HR5 HR6 HR7 HR8 HR9 HR10 HR11 HR12 HR13 HR14 HR15 HR16 HR17 HR18 HS0 HS1 Hg]
      · isplitl [HR0 HR1 HR2 HR3 HR4 HR5 HR6 HR7 HR8 HR9 HR10 HR11 HR12 HR13 HR14 HR15 HR16 HR17 HR18 HS0 HS1]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          isplitl [HR18]; · iexact HR18
          isplitl [HS0]
          · unfold owns; iexists _; isplitr
            swap; · iexact HS0
            ipureintro; exact View.read_writes_of_cover _ _ _ _ _ (scover2_C_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover2_C_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      unfold owns; iexists _; isplitr
      swap; · iexact H19
      ipureintro; exact View.read_writes_of_cover _ _ _ _ _ (cover2_C_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · -- a middle point
      rw [Dat.leavesExact_idle (dat2 V c) 19 t (idleAt2_19_B t (fun h => h0 ((hcond2_0 t).mp h)) (fun h => h1 ((hcond2_1 t).mp h))) (noFlush2_19_B t (fun h => h0 ((hcond2_0 t).mp h)) (fun h => h1 ((hcond2_1 t).mp h)))]
      rw [outsAt2_B V c t h0 h1]
      unfold sout2_B_0 sout2_B_1; (try dsimp only)
      rw [PhiS2_castSucc V c t, PhiS2_pos V c _ _ hz]
      iintro ⟨⟨⟨HR0, HR1, HR2, HR3, HR4, HR5, HR6, HR7, HR8, HR9, HR10, HR11, HR12, HR13, HR14, HR15, HR16, HR17, HR18, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((kernelRun2_B c (grid2.coords t) _ _ _ _ _ _ _ _ _ _ _ _ _ _ _ _ _ _ _ _ _ _ _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [HS0]; · iexact HS0
      isplitl [HS1]; · iexact HS1
      iintro ⟨H0, H1, H2, H3, H4, H5, H6, H7, H8, H9, H10, H11, H12, H13, H14, H15, H16, H17, H18, H19, ⟨%es0, HS0⟩, ⟨%es1, HS1⟩⟩
      isplitl [HR0 HR1 HR2 HR3 HR4 HR5 HR6 HR7 HR8 HR9 HR10 HR11 HR12 HR13 HR14 HR15 HR16 HR17 HR18 HS0 HS1 Hg]
      · isplitl [HR0 HR1 HR2 HR3 HR4 HR5 HR6 HR7 HR8 HR9 HR10 HR11 HR12 HR13 HR14 HR15 HR16 HR17 HR18 HS0 HS1]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          isplitl [HR18]; · iexact HR18
          isplitl [HS0]
          · unfold owns; iexists _; isplitr
            swap; · iexact HS0
            ipureintro; exact View.read_writes_of_cover _ _ _ _ _ (scover2_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover2_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iexists _; iexact H19

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the region's two ends -/

/-- What the launch hands a region whose body stages nothing of its own is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the same back: what the accumulators hold is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HR0, HR1, HR2, HR3, HR4, HR5, HR6, HR7, HR8, HR9, HR10, HR11, HR12, HR13, HR14, HR15, HR16, HR17, HR18, HS0, HS1⟩, Hg⟩
  isplitl [HR0 HR1 HR2 HR3 HR4 HR5 HR6 HR7 HR8 HR9 HR10 HR11 HR12 HR13 HR14 HR15 HR16 HR17 HR18 HS0 HS1]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    isplitl [HR16]; · iexact HR16
    isplitl [HR17]; · iexact HR17
    isplitl [HR18]; · iexact HR18
    isplitl [HS0]; · iexists _; iexact HS0
    iexists _; iexact HS1
  iexact Hg

/-- The same after the last point. -/
theorem hout2 (c : Dev nD) : (dat2 V c).Φ (Fin.last cfg2.N) ⊢ Pipeline.ΦA spec2 c :=
  Phi_out2 V c _ (by rw [Fin.val_last]; have : cfg2.N = 20 := N_2; omega)

/-! ## The proof data's plain fields -/

/-- Nothing is owed at any point; every window is held at the full share; every cell's level is recorded. -/
theorem owed2 (c : Dev nD) (t : Fin (cfg2.N + 1)) : (dat2 V c).owed t = 0 := rfl
theorem share2 (c : Dev nD) (w : Fin cfg2.W) : (dat2 V c).q w = fullShare := rfl
theorem recorded2 (c : Dev nD) (t : Fin (cfg2.N + 1)) : (dat2 V c).recorded t = Set.univ := rfl

end Cert.Kernel.Frm

end
-- ==== Proof.KernelData.lean ====
import proofs.«418702_j33346126086715_3_alg».proof.Proof.KernelRun
import proofs.«418702_j33346126086715_3_alg».proof.Proof.KernelReg0
import proofs.«418702_j33346126086715_3_alg».proof.Proof.KernelReg1
import proofs.«418702_j33346126086715_3_alg».proof.Proof.KernelReg2

/-! # The three pallas_calls' proof data, and the run of @main over them

Each call's proof data — the window arrays at the call's entry contents, what every grid point leaves in each
window's buffer, the invariant between points — satisfies what the run of @main asks of a region: the arrays are
the entry contents', the body runs from point to point, nothing is owed, every share is whole, and the invariant
begins and ends at the scoped rest. For the first two calls the invariant IS the scoped rest at every point; the
third carries its two pooling accumulators from point to point. -/

noncomputable section

namespace Cert.Kernel.Frm

open Idealize.ShloMosaic Idealize.ShloMosaic.TcCoe
open Idealize.SL Idealize.SL.RA Idealize.SL.BI
open scoped Idealize.SL.BI
open Idealize.SL.BI.BIBase Idealize.SL.Sem
open Cert.Kernel Cert.Kernel.Gen

variable {F : FTy → Type} [FloatOps F]

/-- The projection call's data, at any entry contents. -/
abbrev d0 : DatAt F cfg0 := fun V c => dat0 V c
/-- The layer-1 call's data, at any entry contents. -/
abbrev d1 : DatAt F cfg1 := fun V c => dat1 V c
/-- The layer-2 / pooling / classifier call's data, at any entry contents. -/
abbrev d2 : DatAt F cfg2 := fun V c => dat2 V c

theorem rd0 : RegionData (F := F) cfg0 d0 :=
  ⟨fun V c w => A_eq0 V c w, fun V c => body_obligation0 V c, fun _ _ _ => rfl, fun _ _ _ => rfl, fun _ _ _ => rfl,
    fun _ _ => .rfl, fun _ _ => .rfl⟩

theorem rd1 : RegionData (F := F) cfg1 d1 :=
  ⟨fun V c w => A_eq1 V c w, fun V c => body_obligation1 V c, fun _ _ _ => rfl, fun _ _ _ => rfl, fun _ _ _ => rfl,
    fun _ _ => .rfl, fun _ _ => .rfl⟩

theorem rd2 : RegionData (F := F) cfg2 d2 :=
  ⟨fun V c w => A_eq2 V c w, fun V c => body_obligation2 V c, fun _ _ _ => rfl, fun _ _ _ => rfl, fun _ _ _ => rfl,
    fun V c => hin2 V c, fun V c => hout2 V c⟩

end Cert.Kernel.Frm

end
-- ==== Proof.KernelIdealReg0.lean ====
/- The class-A pieces of the first pallas_call (the projection x·W₁ˡ, grid of 10 points) at a PARAMETER `V`:
   the contents of the TensorCore's buffers when the call is entered. Per window its block at a grid point; the
   output block as a function of the two input blocks; the body's triple on whole staging memrefs; the pipeline's
   proof data and the body obligation at every grid point. Stated at any float family `F`. -/
import proofs.«418702_j33346126086715_3_alg».proof.Proof.KernelIdealLaunchP
import proofs.«418702_j33346126086715_3_alg».proof.Proof.Gen.KernelIdeal.Skeleton
import proofs.«418702_j33346126086715_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a 10000-row rectangle is decided coordinate by coordinate
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every TensorCore buffer holds when the call is entered
variable (V : (c : Dev nD) → (b : Ref sig .tc) → Buf (Elt F) ((c : Thread nD τ).loc b))

/-! ## The windows' blocks -/

/-- The block of window `w` at grid point `t`: the window's rectangle of its array, read off the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of `x` (window 0): whenever the body is called, the window's current staging buffer holds the block of
    the point, for any proof data over the entry arrays whose body leaves that block where it found it. At a point
    with no fetch the block index is the previous point's, so the buffer still holds the right block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix (window 1, one block, fetched at the first point only): the same statement. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body touches: each staging buffer whole -/

abbrev rX0 : Rect S10000x128 := Rect.unit (s := S10000x128) ![0, 0] S10000x128.size inb_S10000x128_S10000x128_0_0
abbrev rW0 : Rect S128x64 := Rect.unit (s := S128x64) ![0, 0] S128x64.size inb_S128x64_S128x64_0_0
abbrev rY0 : Rect S10000x64 := Rect.unit (s := S10000x64) ![0, 0] S10000x64.size inb_S10000x64_S10000x64_0_0

/-! ## The output block -/

/-- What the body leaves in the output window's staging buffer, from the two input blocks: its one store, of the
    rounded product of the rounded inputs, over the whole buffer. -/
def out0_2 (x0 : Vec F S10000x128 .f32) (x1 : Vec F S128x64 .f32) : Vec F S10000x64 .bf16 :=
  View.canon [⟨rY0, k0_pay1 (View.ld x0 rX0) (View.ld x1 rW0)⟩]

/-- The one store's rectangle is the whole buffer, so every index of the buffer lies in it. -/
theorem cover0_2 (p0 : Vec F S10000x64 .bf16) (y : S10000x64.Idx) :
    ∃ pc ∈ ([⟨rY0, p0⟩] : List (View.Piece (Elt F) S10000x64 .bf16)), y ∈ pc.1.set :=
  View.cover_of_tiled [⟨rY0, p0⟩] S10000x64.size (by rfl) y

/-! ## The body's triple -/

set_option maxHeartbeats 1000000 in
/-- The body on whole staging memrefs — the inputs' holding `x0` and `x1`, the output's holding anything — runs to a
    state where the inputs' are as they were and the output's holds `out0_2 x0 x1`. The grid coordinate is not read. -/
theorem sound_kernel0 (c : Dev nD) (E : Set ℕ) (i : grid0.Coords)
    (arg1 : Memref sig .tc .vmem S10000x128 .f32) (harg1 : arg1.IsWhole)
    (arg2 : Memref sig .tc .vmem S128x64 .f32) (harg2 : arg2.IsWhole)
    (arg3 : Memref sig .tc .vmem S10000x64 .bf16) (harg3 : arg3.IsWhole)
    (x0 : Vec F S10000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__project_kernel i arg1 harg1 arg2 harg2 arg3 harg3) K := by
  simp only [cc0__project_kernel_eq_skeleton]; unfold cc0__project_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this pipeline on core `c`. The arrays are the entry contents. After the body at point `t` each
    input's staging buffer still holds its block and the output's holds `out0_2` of the two input blocks. The
    invariant is the class's: the scoped rest and the generator register, untouched. Nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents (a projection of the definition; `V` is never opened). -/
theorem A_eq0 (c : Dev nD) (w : Fin cfg0.W) : (dat0 V c).A w = V c (Pipeline.arrRef spec0 w) := by
  dsimp only [dat0]

/-- What the body leaves, window by window (the definition's case split reduced at each literal window). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`: the invariant, the core's debts, and each window's current staging
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point. The two input buffers hold their blocks (`before0_0`, `before0_1`), so the body's triple
    applies at those blocks; the invariant and the debts are not read and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for this pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm
-- ==== Proof.KernelIdealReg1.lean ====
import proofs.«418702_j33346126086715_3_alg».proof.Proof.KernelIdealLaunchP
import proofs.«418702_j33346126086715_3_alg».proof.Proof.Gen.KernelIdeal.Skeleton
import proofs.«418702_j33346126086715_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 of @main (the first SAGE layer with batch norm and relu): the class-A half

Every window of this pipeline is whole-block: nine inputs that the body only reads, and one output written by a single
store over its entire 5000x64 block. So the body is a pure function from the nine input blocks to the output block. This
file states that function (`out1_9`), proves the body's separation-logic triple against it, packs the pipeline's proof
data at an arbitrary region-entry valuation `V`, and discharges the body obligation at every grid point. -/

-- the tiling check of a 5000-row block recurses once per row
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- what each TensorCore buffer holds at the moment region 1 is entered; everything below is relative to it
variable (V : (c : Dev nD) → (b : Ref sig .tc) → Buf (Elt F) ((c : Thread nD τ).loc b))

/-! ## Blocks of the windows -/

/-- The block of window `w` at grid point `t`: the rectangle of `w`'s array (as `V` has it) that the index map selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! For an input window whose blocks never overhang the array and which is active at every point, the staging buffer the
body sees holds exactly the window's block: either it was fetched at this point, or the block index has not changed since
the fetch. This holds for any proof data whose array is `V`'s and whose body leaves the input block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body touches: each is the whole of its staging buffer -/

abbrev r1_0 : Rect S5000x128 := Rect.unit (s := S5000x128) ![0, 0] S5000x128.size inb_S5000x128_S5000x128_0_0
abbrev r1_1 : Rect S128x64 := Rect.unit (s := S128x64) ![0, 0] S128x64.size inb_S128x64_S128x64_0_0
abbrev r1_2 : Rect S5000x64 := Rect.unit (s := S5000x64) ![0, 0] S5000x64.size inb_S5000x64_S5000x64_0_0
abbrev r1_3 : Rect S5000x1 := Rect.unit (s := S5000x1) ![0, 0] S5000x1.size inb_S5000x1_S5000x1_0_0
abbrev r1_4 : Rect S1x64 := Rect.unit (s := S1x64) ![0, 0] S1x64.size inb_S1x64_S1x64_0_0

/-! ## The output block as a function of the nine input blocks -/

/-- The output staging buffer after the body: one piece, the full rectangle, carrying the layer's value
    `relu(bn((summed * inv_cnt) + x·Wr + b))` rounded to bf16, computed from the full-rectangle reads of the nine inputs
    (x, summed, inv_cnt, Wr and the five 1x64 rows, in the order the payload takes them). -/
def out1_9 (x0 : Vec F S5000x128 .f32) (x1 : Vec F S5000x64 .f32) (x2 : Vec F S5000x1 .f32) (x3 : Vec F S128x64 .f32) (x4 : Vec F S1x64 .f32) (x5 : Vec F S1x64 .f32) (x6 : Vec F S1x64 .f32) (x7 : Vec F S1x64 .f32) (x8 : Vec F S1x64 .f32) : Vec F S5000x64 .bf16 :=
  View.canon [⟨r1_2, k1_pay1 (View.ld x0 r1_0) (View.ld x3 r1_1) (View.ld x1 r1_2) (View.ld x2 r1_3) (View.ld x4 r1_4) (View.ld x5 r1_4) (View.ld x6 r1_4) (View.ld x7 r1_4) (View.ld x8 r1_4)⟩]

/-- A single full-rectangle piece covers every index of the buffer. -/
theorem cover1_9 (p0 : Vec F S5000x64 .bf16) (y : S5000x64.Idx) :
    ∃ pc ∈ ([⟨r1_2, p0⟩] : List (View.Piece (Elt F) S5000x64 .bf16)), y ∈ pc.1.set :=
  View.cover_of_tiled [⟨r1_2, p0⟩] S5000x64.size (by rfl) y

/-! ## The body's triple -/

set_option maxHeartbeats 1000000 in
/-- Run on whole staging buffers, with the inputs holding `x0 … x8` and the output holding anything, the body terminates
    with the inputs unchanged and the output buffer equal to `out1_9 x0 … x8`. -/
theorem sound_kernel1 (c : Dev nD) (E : Set ℕ) (i : grid1.Coords) (arg1 : Memref sig .tc .vmem S5000x128 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S5000x64 .bf16) (harg10 : arg10.IsWhole)
    (x0 : Vec F S5000x128 .f32) (x1 : Vec F S5000x64 .f32) (x2 : Vec F S5000x1 .f32) (x3 : Vec F S128x64 .f32) (x4 : Vec F S1x64 .f32) (x5 : Vec F S1x64 .f32) (x6 : Vec F S1x64 .f32) (x7 : Vec F S1x64 .f32) (x8 : Vec F S1x64 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ (∃ d, owns (c : Thread nD τ) arg10 fullShare d)
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare (out1_9 x0 x1 x2 x3 x4 x5 x6 x7 x8)) -∗ K ⟨⟩))
      ⊢ wp frame (wpE (defs₀ (F := F)) Variants.none c none) E (cc1__sage1_bn_relu_kernel i arg1 harg1 arg2 harg2 arg3 harg3 arg4 harg4 arg5 harg5 arg6 harg6 arg7 harg7 arg8 harg8 arg9 harg9 arg10 harg10) K := by
  simp only [cc1__sage1_bn_relu_kernel_eq_skeleton]; unfold cc1__sage1_bn_relu_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover1_9 _)

/-! ## The pipeline's proof data -/

/-- Proof data of pipeline 1 on core `c`. Arrays: what `V` holds. After the body at point `t`: every input buffer still
    at its block, the output buffer at `out1_9` of the nine input blocks. Invariant: the class-A one (scoped rest and the
    generator register, untouched). Full shares, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

/-- The arrays of the proof data are `V`'s (a projection of the record). -/
theorem A_eq1 (c : Dev nD) (w : Fin cfg1.W) : (dat1 V c).A w = V c (Pipeline.arrRef spec1 w) := by
  dsimp only [dat1]

/-! The `after` field, window by window (the record's match reduced at a literal window). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-! Each input's staging buffer holds its block before the body, at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation -/

/-- What the body is handed at point `t`: the invariant, the owed counter, and each window's current staging buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- What it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 1000000 in
/-- At any point the inputs' buffers hold their blocks, so the kernel's triple applies at those blocks; the invariant
    and the owed counter are not touched and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline library's body obligation for `dat1`, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Frm
-- ==== Proof.KernelIdealReg2Runs.lean ====
import proofs.«418702_j33346126086715_3_alg».proof.Proof.KernelIdealLaunchP
import proofs.«418702_j33346126086715_3_alg».proof.Proof.Gen.KernelIdeal.Skeleton
import proofs.«418702_j33346126086715_3_alg».proof.Proof.Gen.KernelIdeal.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 (the pooled classifier call): what its three whole-body runs share

The region is entered at buffer contents V. Its body branches twice on the grid coordinate: at the first point it
clears both accumulators and the output block, at the last point it reads the accumulators and writes the output
block; in between it only adds into the accumulators. -/

-- the TensorCore's buffer contents when the region is entered: the parameter its half of the frame is stated at
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, whether or not the block was fetched
there (where it was not, the block index has not moved), for any proof data whose array is V's and whose body leaves
the block in place. The input windows are uncut and never idle. One statement per input window. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)

theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)

theorem before2_13_of {c : Dev nD} (dat : Dat τ (Elt F) Unit ℕ (UR sig nD τ) ℕ cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)

theorem before2_14_of {c : Dev nD} (dat : Dat τ (Elt F) Unit ℕ (UR sig nD τ) ℕ cfg2 c) (hA : dat.A 14 = V c (Pipeline.arrRef spec2 14))
    (hafter : ∀ t, dat.after 14 t = iblk2 V c 14 t) (t : Fin cfg2.N) (d) : dat.before 14 t d = iblk2 V c 14 t :=
  (dat.before_in_eq_fetched 14 rfl (fun _ => rfl) (fun _ _ _ => rfl) (fun t => by rw [hafter]; unfold Dat.blockOf iblk2; rw [hA]; try rfl) t d).trans
    (by unfold Dat.fetched Dat.blockOf iblk2; rw [hA]; try rfl)

theorem before2_15_of {c : Dev nD} (dat : Dat τ (Elt F) Unit ℕ (UR sig nD τ) ℕ cfg2 c) (hA : dat.A 15 = V c (Pipeline.arrRef spec2 15))
    (hafter : ∀ t, dat.after 15 t = iblk2 V c 15 t) (t : Fin cfg2.N) (d) : dat.before 15 t d = iblk2 V c 15 t :=
  (dat.before_in_eq_fetched 15 rfl (fun _ => rfl) (fun _ _ _ => rfl) (fun t => by rw [hafter]; unfold Dat.blockOf iblk2; rw [hA]; try rfl) t d).trans
    (by unfold Dat.fetched Dat.blockOf iblk2; rw [hA]; try rfl)

theorem before2_16_of {c : Dev nD} (dat : Dat τ (Elt F) Unit ℕ (UR sig nD τ) ℕ cfg2 c) (hA : dat.A 16 = V c (Pipeline.arrRef spec2 16))
    (hafter : ∀ t, dat.after 16 t = iblk2 V c 16 t) (t : Fin cfg2.N) (d) : dat.before 16 t d = iblk2 V c 16 t :=
  (dat.before_in_eq_fetched 16 rfl (fun _ => rfl) (fun _ _ _ => rfl) (fun t => by rw [hafter]; unfold Dat.blockOf iblk2; rw [hA]; try rfl) t d).trans
    (by unfold Dat.fetched Dat.blockOf iblk2; rw [hA]; try rfl)

theorem before2_17_of {c : Dev nD} (dat : Dat τ (Elt F) Unit ℕ (UR sig nD τ) ℕ cfg2 c) (hA : dat.A 17 = V c (Pipeline.arrRef spec2 17))
    (hafter : ∀ t, dat.after 17 t = iblk2 V c 17 t) (t : Fin cfg2.N) (d) : dat.before 17 t d = iblk2 V c 17 t :=
  (dat.before_in_eq_fetched 17 rfl (fun _ => rfl) (fun _ _ _ => rfl) (fun t => by rw [hafter]; unfold Dat.blockOf iblk2; rw [hA]; try rfl) t d).trans
    (by unfold Dat.fetched Dat.blockOf iblk2; rw [hA]; try rfl)

theorem before2_18_of {c : Dev nD} (dat : Dat τ (Elt F) Unit ℕ (UR sig nD τ) ℕ cfg2 c) (hA : dat.A 18 = V c (Pipeline.arrRef spec2 18))
    (hafter : ∀ t, dat.after 18 t = iblk2 V c 18 t) (t : Fin cfg2.N) (d) : dat.before 18 t d = iblk2 V c 18 t :=
  (dat.before_in_eq_fetched 18 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions -/

/-- The body's first branch: the grid coordinate is 0. -/
abbrev cond2_0 (i : grid2.Coords) : Prop := k2_cond1 i = 1#1
/-- It holds at the first of the twenty points only: decided over the grid. -/
theorem hcond2_0 : ∀ t : Fin cfg2.N, cond2_0 (grid2.coords t) ↔ t.val % 20 = 0 :=
  (by decide +kernel : ∀ t : Fin grid2.N, cond2_0 (grid2.coords t) ↔ t.val % 20 = 0)

/-- The body's second branch: the grid coordinate is 19. -/
abbrev cond2_1 (i : grid2.Coords) : Prop := k2_cond2 i = 1#1
/-- It holds at the last of the twenty points only: decided over the grid. -/
theorem hcond2_1 : ∀ t : Fin cfg2.N, cond2_1 (grid2.coords t) ↔ t.val % 20 = 19 :=
  (by decide +kernel : ∀ t : Fin grid2.N, cond2_1 (grid2.coords t) ↔ t.val % 20 = 19)

/-! ## Where the windows are idle

An input window is never idle. The output window is stored at the first point (cleared) and at the last point (the
result), and is idle at every point between, where its block is not written back either. -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
theorem liveAt2_7 : ∀ t : Fin cfg2.N, cfg2.idle 7 (grid2.coords t) = false := by decide +kernel
theorem liveAt2_8 : ∀ t : Fin cfg2.N, cfg2.idle 8 (grid2.coords t) = false := by decide +kernel
theorem liveAt2_9 : ∀ t : Fin cfg2.N, cfg2.idle 9 (grid2.coords t) = false := by decide +kernel
theorem liveAt2_10 : ∀ t : Fin cfg2.N, cfg2.idle 10 (grid2.coords t) = false := by decide +kernel
theorem liveAt2_11 : ∀ t : Fin cfg2.N, cfg2.idle 11 (grid2.coords t) = false := by decide +kernel
theorem liveAt2_12 : ∀ t : Fin cfg2.N, cfg2.idle 12 (grid2.coords t) = false := by decide +kernel
theorem liveAt2_13 : ∀ t : Fin cfg2.N, cfg2.idle 13 (grid2.coords t) = false := by decide +kernel
theorem liveAt2_14 : ∀ t : Fin cfg2.N, cfg2.idle 14 (grid2.coords t) = false := by decide +kernel
theorem liveAt2_15 : ∀ t : Fin cfg2.N, cfg2.idle 15 (grid2.coords t) = false := by decide +kernel
theorem liveAt2_16 : ∀ t : Fin cfg2.N, cfg2.idle 16 (grid2.coords t) = false := by decide +kernel
theorem liveAt2_17 : ∀ t : Fin cfg2.N, cfg2.idle 17 (grid2.coords t) = false := by decide +kernel
theorem liveAt2_18 : ∀ t : Fin cfg2.N, cfg2.idle 18 (grid2.coords t) = false := by decide +kernel

/-- At the first point the output window is live: the body clears it. -/
theorem liveAt2_19_A : ∀ t : Fin cfg2.N, cond2_0 (grid2.coords t) → ¬cond2_1 (grid2.coords t) → cfg2.idle 19 (grid2.coords t) = false := by decide +kernel
/-- At a point between the first and the last the output window is idle: the body stores nothing into it. -/
theorem idleAt2_19_B : ∀ t : Fin cfg2.N, ¬cond2_0 (grid2.coords t) → ¬cond2_1 (grid2.coords t) → cfg2.idle 19 (grid2.coords t) = true := by decide +kernel
/-- At such a point the pipeline does not write the output block back. -/
theorem noFlush2_19_B : ∀ t : Fin cfg2.N, ¬cond2_0 (grid2.coords t) → ¬cond2_1 (grid2.coords t) → (cfg2.win 19).flush t = false := by decide +kernel
/-- At the last point the output window is live: the body stores the result into it. -/
theorem liveAt2_19_C : ∀ t : Fin cfg2.N, ¬cond2_0 (grid2.coords t) → cond2_1 (grid2.coords t) → cfg2.idle 19 (grid2.coords t) = false := by decide +kernel

/-! ## The memrefs the pipeline passes the body -/

/-- The output window's one staging buffer as a view: what the window holds is stated through it. -/
abbrev VO2_19 : View sig .tc .vmem S128x10 .f32 := (Memref.whole cc2_stg19_0 : Memref sig .tc .vmem S128x10 .f32).view

/-! Each window's current staging memref at point t, spelled as the pipeline passes it, and its wholeness. -/
abbrev ms2_0 (t : Fin cfg2.N) : Memref sig .tc .vmem S5000x64 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S5000x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S5000x1 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S64x64 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x64 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x64 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x64 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S1x64 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S1x64 .f32 := win2_10.stage (cfg2.slots t 10)
abbrev hs2_10 (t : Fin cfg2.N) : (ms2_10 t).IsWhole := hstage2_10 ((cfg2.slots t 10).cast nbuf2_10)
abbrev ms2_11 (t : Fin cfg2.N) : Memref sig .tc .vmem S64x64 .f32 := win2_11.stage (cfg2.slots t 11)
abbrev hs2_11 (t : Fin cfg2.N) : (ms2_11 t).IsWhole := hstage2_11 ((cfg2.slots t 11).cast nbuf2_11)
abbrev ms2_12 (t : Fin cfg2.N) : Memref sig .tc .vmem S1x64 .f32 := win2_12.stage (cfg2.slots t 12)
abbrev hs2_12 (t : Fin cfg2.N) : (ms2_12 t).IsWhole := hstage2_12 ((cfg2.slots t 12).cast nbuf2_12)
abbrev ms2_13 (t : Fin cfg2.N) : Memref sig .tc .vmem S1x64 .f32 := win2_13.stage (cfg2.slots t 13)
abbrev hs2_13 (t : Fin cfg2.N) : (ms2_13 t).IsWhole := hstage2_13 ((cfg2.slots t 13).cast nbuf2_13)
abbrev ms2_14 (t : Fin cfg2.N) : Memref sig .tc .vmem S1x64 .f32 := win2_14.stage (cfg2.slots t 14)
abbrev hs2_14 (t : Fin cfg2.N) : (ms2_14 t).IsWhole := hstage2_14 ((cfg2.slots t 14).cast nbuf2_14)
abbrev ms2_15 (t : Fin cfg2.N) : Memref sig .tc .vmem S1x64 .f32 := win2_15.stage (cfg2.slots t 15)
abbrev hs2_15 (t : Fin cfg2.N) : (ms2_15 t).IsWhole := hstage2_15 ((cfg2.slots t 15).cast nbuf2_15)
abbrev ms2_16 (t : Fin cfg2.N) : Memref sig .tc .vmem S1x64 .f32 := win2_16.stage (cfg2.slots t 16)
abbrev hs2_16 (t : Fin cfg2.N) : (ms2_16 t).IsWhole := hstage2_16 ((cfg2.slots t 16).cast nbuf2_16)
abbrev ms2_17 (t : Fin cfg2.N) : Memref sig .tc .vmem S64x10 .f32 := win2_17.stage (cfg2.slots t 17)
abbrev hs2_17 (t : Fin cfg2.N) : (ms2_17 t).IsWhole := hstage2_17 ((cfg2.slots t 17).cast nbuf2_17)
abbrev ms2_18 (t : Fin cfg2.N) : Memref sig .tc .vmem S1x10 .f32 := win2_18.stage (cfg2.slots t 18)
abbrev hs2_18 (t : Fin cfg2.N) : (ms2_18 t).IsWhole := hstage2_18 ((cfg2.slots t 18).cast nbuf2_18)
abbrev ms2_19 (t : Fin cfg2.N) : Memref sig .tc .vmem S128x10 .f32 := win2_19.stage (cfg2.slots t 19)
abbrev hs2_19 (t : Fin cfg2.N) : (ms2_19 t).IsWhole := hstage2_19 ((cfg2.slots t 19).cast nbuf2_19)

/-- The two accumulators: whole scoped buffers of the kernel's own, passed beside the windows. -/
abbrev scM2_0 : Memref sig .tc .vmem S128x64 .f32 := Memref.whole cc2_scratch0
abbrev scM2_1 : Memref sig .tc .vmem S128x1 .f32 := Memref.whole cc2_scratch1
/-- The sum accumulator, carried between points, as a view: what it holds is stated through it. -/
abbrev VS2_0 : View sig .tc .vmem S128x64 .f32 := scM2_0.view
/-- The count accumulator, carried between points, as a view. -/
abbrev VS2_1 : View sig .tc .vmem S128x1 .f32 := scM2_1.view

/-- The region's invariant before its first point, opened: the core's scoped buffers that are no staging buffer of
    this call (the other two calls' staging buffers, each whole at some contents), then the two accumulators as
    memrefs owned at some contents, then the generator register at some state. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f) ∗ (∃ d, owns (c : Thread nD τ) scM2_0 fullShare d) ∗ (∃ d, owns (c : Thread nD τ) scM2_1 fullShare d)) ∗ (∃ r, prngReg c r)) := by
  unfold Pipeline.ΦA; rw [scopedRest2_eq]; simp only [scM2_0, scM2_1, owns_whole]; try rfl

end Cert.KernelIdeal.Frm

end
-- ==== Proof.KernelIdealReg2RunA.lean ====
import proofs.«418702_j33346126086715_3_alg».proof.Proof.KernelIdealReg2Runs

-- membership in a rectangle of full extents recurses once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2's whole-body run at its first point

The body's triple at the first grid point, where it clears both accumulators and the output block, then adds the
point's share into the accumulators. -/

-- (the run's proof term is large: the definition's epilogue walks it past the default budget)
set_option maxHeartbeats 4000000 in
/-- THE FIRST POINT (the first branch taken, the second not). What the body's stores leave in the output's staging
    memref and in each accumulator, as pieces (last first), WITH the proof that on whole memrefs, the nineteen inputs'
    at their contents, the output's and both accumulators' at anything (the body clears all three before it reads any
    of them back), the body runs to the continuation holding the inputs' as they were and the output's and each
    accumulator's buffer with its pieces written. The pieces are the witness the run finds. -/
noncomputable def kernelRun2_A (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : cond2_0 i) (hc1 : ¬cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) :
    Σ' (L19 : List (View.Piece (Elt F) S128x10 .f32)), Σ' (LS0 : List (View.Piece (Elt F) S128x64 .f32)), { LS1 : List (View.Piece (Elt F) S128x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f LS0) ∗ (∃ f, arg22.view.loc (c : Thread nD τ) ↦[arg22.view.set]{fullShare} arg22.view.writes (Elt F) f LS1)) -∗ K ⟨⟩))
          ⊢ wp frame (wpE (defs₀ (F := F)) Variants.none c none) E (cc2__sage2_pool_classify_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18
    simp only [cc2__sage2_pool_classify_kernel_eq_skeleton]; unfold cc2__sage2_pool_classify_kernel_skel
    simp only [k2_part1_eq_skeleton, k2_part2_eq_skeleton]
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]; · iexists _; iexact H19
    isplitl [HS0]; · iexists _; iexact HS0
    iexists _; iexact HS1

end Cert.KernelIdeal.Frm

end
-- ==== Proof.KernelIdealReg2RunB.lean ====
import proofs.«418702_j33346126086715_3_alg».proof.Proof.KernelIdealReg2Runs

/-! # Region 2, a point between the first and the last: the whole-body run

Neither branch of the body is taken at such a point: the accumulators are not cleared and the output block is not
written. The body loads its nineteen inputs, forms the second layer's rows, and adds the pooled rows and the row counts
into the two accumulators it carries from the point before. -/

-- membership in a rectangle of full extents recurses once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the witness of the run is a long term: the definition's closing passes walk all of it
set_option maxHeartbeats 4000000 in
/-- A POINT BETWEEN THE FIRST AND THE LAST (neither branch taken). The pieces the body's stores leave in each
    accumulator (last first; none in the output block), together with the triple: on whole memrefs, with the nineteen
    inputs at their contents, the output block at any contents `xi19`, and each accumulator at what the point before
    left (`xs0`, `xs1`), the body runs to the continuation with the inputs and the output block as they were and each
    accumulator's buffer with its pieces written. The pieces are whatever the symbolic run finds. -/
noncomputable def kernelRun2_B (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : ¬cond2_0 i) (hc1 : ¬cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) (xs0 : Vec F S128x64 .f32) (xs1 : Vec F S128x1 .f32) :
    Σ' (L19 : List (View.Piece (Elt F) S128x10 .f32)), Σ' (LS0 : List (View.Piece (Elt F) S128x64 .f32)), { LS1 : List (View.Piece (Elt F) S128x1 .f32) //
      ∀ (xi19 : Vec F S128x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare xi19 ∗ owns (c : Thread nD τ) arg21 fullShare xs0 ∗ owns (c : Thread nD τ) arg22 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare xi19 ∗ (∃ f, arg21.view.loc (c : Thread nD τ) ↦[arg21.view.set]{fullShare} arg21.view.writes (Elt F) f LS0) ∗ (∃ f, arg22.view.loc (c : Thread nD τ) ↦[arg22.view.set]{fullShare} arg22.view.writes (Elt F) f LS1)) -∗ K ⟨⟩))
          ⊢ wp frame (wpE (defs₀ (F := F)) Variants.none c none) E (cc2__sage2_pool_classify_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨[], ?_, ?_, fun xi19 E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hfs0; obtain rfl := harg22.eq_unread hfs1
    simp only [cc2__sage2_pool_classify_kernel_eq_skeleton]; unfold cc2__sage2_pool_classify_kernel_skel
    simp only [k2_part1_eq_skeleton, k2_part2_eq_skeleton]
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [HS0]; · iexists _; iexact HS0
    iexists _; iexact HS1

end Cert.KernelIdeal.Frm

end
-- ==== Proof.KernelIdealReg2RunC.lean ====
import proofs.«418702_j33346126086715_3_alg».proof.Proof.KernelIdealReg2Runs

-- membership in a rectangle of full extents recurses once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- THE LAST POINT (the first branch not taken, the second taken). What the body's stores leave in the output's
    staging memref and in each accumulator, as pieces (last first), WITH the proof that on whole memrefs, the nineteen
    inputs' at their contents, the output's at anything, each accumulator's at the contents the point before left, the
    body runs to the continuation holding the inputs' as they were and the output's and each accumulator's buffer
    with its pieces written: the accumulators with this point's share added, the output with the classifier head and
    the log-softmax of the pooled means. The pieces are the witness the run finds. -/
noncomputable def kernelRun2_C (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : ¬cond2_0 i) (hc1 : cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) (xs0 : Vec F S128x64 .f32) (xs1 : Vec F S128x1 .f32) :
    Σ' (L19 : List (View.Piece (Elt F) S128x10 .f32)), Σ' (LS0 : List (View.Piece (Elt F) S128x64 .f32)), { LS1 : List (View.Piece (Elt F) S128x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ owns (c : Thread nD τ) arg21 fullShare xs0 ∗ owns (c : Thread nD τ) arg22 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f LS0) ∗ (∃ f, arg22.view.loc (c : Thread nD τ) ↦[arg22.view.set]{fullShare} arg22.view.writes (Elt F) f LS1)) -∗ K ⟨⟩))
          ⊢ wp frame (wpE (defs₀ (F := F)) Variants.none c none) E (cc2__sage2_pool_classify_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg21.eq_unread hfs0; obtain rfl := harg22.eq_unread hfs1
    simp only [cc2__sage2_pool_classify_kernel_eq_skeleton]; unfold cc2__sage2_pool_classify_kernel_skel
    simp only [k2_part1_eq_skeleton, k2_part2_eq_skeleton]
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]; · iexists _; iexact H19
    isplitl [HS0]; · iexists _; iexact HS0
    iexists _; iexact HS1

end Cert.KernelIdeal.Frm

end
-- ==== Proof.KernelIdealReg2.lean ====
import proofs.«418702_j33346126086715_3_alg».proof.Proof.KernelIdealReg2RunA
import proofs.«418702_j33346126086715_3_alg».proof.Proof.KernelIdealReg2RunB
import proofs.«418702_j33346126086715_3_alg».proof.Proof.KernelIdealReg2RunC

set_option maxRecDepth 16384

noncomputable section

/-! # Region 2 (the second SAGE layer, the pooling and the classifier): proof data and body obligation

The body's three cases (first point, a middle point, the last point) have their whole-body runs in the three run
modules. Here: what each case leaves in the output block and in the two accumulators the kernel carries between grid
points; what those hold point by point (`outsAt2`); the region's invariant (`PhiS2`); the pipeline's proof data
(`dat2`) at the region-entry contents `V`; the body obligation; and the invariant at the region's two ends. -/

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## What each case of the body leaves in the output block and in the two carried accumulators

The body of region 2 has two conditionals on the grid position: the first point zeroes the accumulators and the
output block, the last point computes the result from the accumulators. Three cases are met: A (first point), B (a
middle point), C (last point). For each, the pieces the case's run ends with are read back over junk; where the
pieces cover the buffer the junk is never seen. -/

/-! ### Case A: the first point (both accumulators and the output block zeroed, then the point's contribution added) -/

/-- Case A's stores into the output block (window 19) cover it. -/
theorem cover2_A_19 (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : cond2_0 i) (hc1 : ¬cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) (y : S128x10.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18).1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18).1 S128x10.size (by sl_kernel_rfl) y

/-- What case A leaves in the output block's staging buffer: its pieces read back over junk. -/
def out2_A_19 (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : cond2_0 i) (hc1 : ¬cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) : Vec F S128x10 .f32 :=
  VO2_19.read (Elt F) (VO2_19.writes (Elt F) VO2_19.junk (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18).1)

/-- Case A's stores into the pooled-sum accumulator (scratch 0, carried between points) cover it. -/
theorem scover2_A_0 (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : cond2_0 i) (hc1 : ¬cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) (y : S128x64.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18).2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18).2.1 S128x64.size (by sl_kernel_rfl) y

/-- What case A leaves in the pooled-sum accumulator: its pieces read back over junk. -/
def sout2_A_0 (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : cond2_0 i) (hc1 : ¬cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) : Vec F S128x64 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18).2.1)

/-- Case A's stores into the node-count accumulator (scratch 1, carried between points) cover it. -/
theorem scover2_A_1 (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : cond2_0 i) (hc1 : ¬cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) (y : S128x1.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18).2.2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18).2.2.1 S128x1.size (by sl_kernel_rfl) y

/-- What case A leaves in the node-count accumulator: its pieces read back over junk. -/
def sout2_A_1 (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : cond2_0 i) (hc1 : ¬cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) : Vec F S128x1 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18).2.2.1)

/-! ### Case B: a middle point (the point's contribution added to the accumulators; the output block untouched) -/

/-- Case B stores nothing into the output block (window 19 is idle at the middle points and not written back there):
    no pieces: its value is never read. -/
def out2_B_19 (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : ¬cond2_0 i) (hc1 : ¬cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) (xs0 : Vec F S128x64 .f32) (xs1 : Vec F S128x1 .f32) : Vec F S128x10 .f32 :=
  VO2_19.read (Elt F) (VO2_19.writes (Elt F) VO2_19.junk (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1).1)

/-- Case B's stores into the pooled-sum accumulator (scratch 0, carried between points) cover it. -/
theorem scover2_B_0 (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : ¬cond2_0 i) (hc1 : ¬cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) (xs0 : Vec F S128x64 .f32) (xs1 : Vec F S128x1 .f32) (y : S128x64.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1).2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1).2.1 S128x64.size (by sl_kernel_rfl) y

/-- What case B leaves in the pooled-sum accumulator: its pieces read back over junk. -/
def sout2_B_0 (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : ¬cond2_0 i) (hc1 : ¬cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) (xs0 : Vec F S128x64 .f32) (xs1 : Vec F S128x1 .f32) : Vec F S128x64 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1).2.1)

/-- Case B's stores into the node-count accumulator (scratch 1, carried between points) cover it. -/
theorem scover2_B_1 (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : ¬cond2_0 i) (hc1 : ¬cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) (xs0 : Vec F S128x64 .f32) (xs1 : Vec F S128x1 .f32) (y : S128x1.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1).2.2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1).2.2.1 S128x1.size (by sl_kernel_rfl) y

/-- What case B leaves in the node-count accumulator: its pieces read back over junk. -/
def sout2_B_1 (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : ¬cond2_0 i) (hc1 : ¬cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) (xs0 : Vec F S128x64 .f32) (xs1 : Vec F S128x1 .f32) : Vec F S128x1 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1).2.2.1)

/-! ### Case C: the last point (the contribution added, then the pooled mean classified and the log-softmax stored into the output block) -/

/-- Case C's stores into the output block (window 19) cover it. -/
theorem cover2_C_19 (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : ¬cond2_0 i) (hc1 : cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) (xs0 : Vec F S128x64 .f32) (xs1 : Vec F S128x1 .f32) (y : S128x10.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1).1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1).1 S128x10.size (by sl_kernel_rfl) y

/-- What case C leaves in the output block's staging buffer: its pieces read back over junk. -/
def out2_C_19 (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : ¬cond2_0 i) (hc1 : cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) (xs0 : Vec F S128x64 .f32) (xs1 : Vec F S128x1 .f32) : Vec F S128x10 .f32 :=
  VO2_19.read (Elt F) (VO2_19.writes (Elt F) VO2_19.junk (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1).1)

/-- Case C's stores into the pooled-sum accumulator (scratch 0, carried between points) cover it. -/
theorem scover2_C_0 (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : ¬cond2_0 i) (hc1 : cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) (xs0 : Vec F S128x64 .f32) (xs1 : Vec F S128x1 .f32) (y : S128x64.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1).2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1).2.1 S128x64.size (by sl_kernel_rfl) y

/-- What case C leaves in the pooled-sum accumulator: its pieces read back over junk. -/
def sout2_C_0 (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : ¬cond2_0 i) (hc1 : cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) (xs0 : Vec F S128x64 .f32) (xs1 : Vec F S128x1 .f32) : Vec F S128x64 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1).2.1)

/-- Case C's stores into the node-count accumulator (scratch 1, carried between points) cover it. -/
theorem scover2_C_1 (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : ¬cond2_0 i) (hc1 : cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) (xs0 : Vec F S128x64 .f32) (xs1 : Vec F S128x1 .f32) (y : S128x1.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1).2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1).2.2.1 S128x1.size (by sl_kernel_rfl) y

/-- What case C leaves in the node-count accumulator: its pieces read back over junk. -/
def sout2_C_1 (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : ¬cond2_0 i) (hc1 : cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) (xs0 : Vec F S128x64 .f32) (xs1 : Vec F S128x1 .f32) : Vec F S128x1 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1).2.2.1)

/-! ## What the output block and the accumulators hold after each point -/

/-- THE ACCUMULATION. What the output block's staging buffer and the two accumulators hold after the body at position
    `n` (the output first, then the pooled sums, then the node counts): at the first point case A's contents; at the
    last point case C's and at any other point case B's, each over what the point before left in the accumulators. -/
def outsAt2 (c : Dev nD) : (n : ℕ) → n < cfg2.N → Vec F S128x10 .f32 × Vec F S128x64 .f32 × Vec F S128x1 .f32
  | 0, hn => (out2_A_19 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) (ms2_11 ⟨0, hn⟩) (hs2_11 ⟨0, hn⟩) (ms2_12 ⟨0, hn⟩) (hs2_12 ⟨0, hn⟩) (ms2_13 ⟨0, hn⟩) (hs2_13 ⟨0, hn⟩) (ms2_14 ⟨0, hn⟩) (hs2_14 ⟨0, hn⟩) (ms2_15 ⟨0, hn⟩) (hs2_15 ⟨0, hn⟩) (ms2_16 ⟨0, hn⟩) (hs2_16 ⟨0, hn⟩) (ms2_17 ⟨0, hn⟩) (hs2_17 ⟨0, hn⟩) (ms2_18 ⟨0, hn⟩) (hs2_18 ⟨0, hn⟩) (ms2_19 ⟨0, hn⟩) (hs2_19 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩) (iblk2 V c 10 ⟨0, hn⟩) (iblk2 V c 11 ⟨0, hn⟩) (iblk2 V c 12 ⟨0, hn⟩) (iblk2 V c 13 ⟨0, hn⟩) (iblk2 V c 14 ⟨0, hn⟩) (iblk2 V c 15 ⟨0, hn⟩) (iblk2 V c 16 ⟨0, hn⟩) (iblk2 V c 17 ⟨0, hn⟩) (iblk2 V c 18 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) (ms2_11 ⟨0, hn⟩) (hs2_11 ⟨0, hn⟩) (ms2_12 ⟨0, hn⟩) (hs2_12 ⟨0, hn⟩) (ms2_13 ⟨0, hn⟩) (hs2_13 ⟨0, hn⟩) (ms2_14 ⟨0, hn⟩) (hs2_14 ⟨0, hn⟩) (ms2_15 ⟨0, hn⟩) (hs2_15 ⟨0, hn⟩) (ms2_16 ⟨0, hn⟩) (hs2_16 ⟨0, hn⟩) (ms2_17 ⟨0, hn⟩) (hs2_17 ⟨0, hn⟩) (ms2_18 ⟨0, hn⟩) (hs2_18 ⟨0, hn⟩) (ms2_19 ⟨0, hn⟩) (hs2_19 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩) (iblk2 V c 10 ⟨0, hn⟩) (iblk2 V c 11 ⟨0, hn⟩) (iblk2 V c 12 ⟨0, hn⟩) (iblk2 V c 13 ⟨0, hn⟩) (iblk2 V c 14 ⟨0, hn⟩) (iblk2 V c 15 ⟨0, hn⟩) (iblk2 V c 16 ⟨0, hn⟩) (iblk2 V c 17 ⟨0, hn⟩) (iblk2 V c 18 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) (ms2_11 ⟨0, hn⟩) (hs2_11 ⟨0, hn⟩) (ms2_12 ⟨0, hn⟩) (hs2_12 ⟨0, hn⟩) (ms2_13 ⟨0, hn⟩) (hs2_13 ⟨0, hn⟩) (ms2_14 ⟨0, hn⟩) (hs2_14 ⟨0, hn⟩) (ms2_15 ⟨0, hn⟩) (hs2_15 ⟨0, hn⟩) (ms2_16 ⟨0, hn⟩) (hs2_16 ⟨0, hn⟩) (ms2_17 ⟨0, hn⟩) (hs2_17 ⟨0, hn⟩) (ms2_18 ⟨0, hn⟩) (hs2_18 ⟨0, hn⟩) (ms2_19 ⟨0, hn⟩) (hs2_19 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩) (iblk2 V c 10 ⟨0, hn⟩) (iblk2 V c 11 ⟨0, hn⟩) (iblk2 V c 12 ⟨0, hn⟩) (iblk2 V c 13 ⟨0, hn⟩) (iblk2 V c 14 ⟨0, hn⟩) (iblk2 V c 15 ⟨0, hn⟩) (iblk2 V c 16 ⟨0, hn⟩) (iblk2 V c 17 ⟨0, hn⟩) (iblk2 V c 18 ⟨0, hn⟩))
  | n + 1, hn =>
    if h0 : (n + 1) % 20 = 0 then
      False.elim (by have hN : n + 1 < 20 := lt_of_lt_of_eq hn (show cfg2.N = 20 from N_2); omega)
    else
      if h1 : (n + 1) % 20 = 19 then
        (out2_C_19 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) (ms2_15 ⟨n + 1, hn⟩) (hs2_15 ⟨n + 1, hn⟩) (ms2_16 ⟨n + 1, hn⟩) (hs2_16 ⟨n + 1, hn⟩) (ms2_17 ⟨n + 1, hn⟩) (hs2_17 ⟨n + 1, hn⟩) (ms2_18 ⟨n + 1, hn⟩) (hs2_18 ⟨n + 1, hn⟩) (ms2_19 ⟨n + 1, hn⟩) (hs2_19 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (iblk2 V c 11 ⟨n + 1, hn⟩) (iblk2 V c 12 ⟨n + 1, hn⟩) (iblk2 V c 13 ⟨n + 1, hn⟩) (iblk2 V c 14 ⟨n + 1, hn⟩) (iblk2 V c 15 ⟨n + 1, hn⟩) (iblk2 V c 16 ⟨n + 1, hn⟩) (iblk2 V c 17 ⟨n + 1, hn⟩) (iblk2 V c 18 ⟨n + 1, hn⟩) (outsAt2 c n (Nat.lt_of_succ_lt hn)).2.1 (outsAt2 c n (Nat.lt_of_succ_lt hn)).2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) (ms2_15 ⟨n + 1, hn⟩) (hs2_15 ⟨n + 1, hn⟩) (ms2_16 ⟨n + 1, hn⟩) (hs2_16 ⟨n + 1, hn⟩) (ms2_17 ⟨n + 1, hn⟩) (hs2_17 ⟨n + 1, hn⟩) (ms2_18 ⟨n + 1, hn⟩) (hs2_18 ⟨n + 1, hn⟩) (ms2_19 ⟨n + 1, hn⟩) (hs2_19 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (iblk2 V c 11 ⟨n + 1, hn⟩) (iblk2 V c 12 ⟨n + 1, hn⟩) (iblk2 V c 13 ⟨n + 1, hn⟩) (iblk2 V c 14 ⟨n + 1, hn⟩) (iblk2 V c 15 ⟨n + 1, hn⟩) (iblk2 V c 16 ⟨n + 1, hn⟩) (iblk2 V c 17 ⟨n + 1, hn⟩) (iblk2 V c 18 ⟨n + 1, hn⟩) (outsAt2 c n (Nat.lt_of_succ_lt hn)).2.1 (outsAt2 c n (Nat.lt_of_succ_lt hn)).2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) (ms2_15 ⟨n + 1, hn⟩) (hs2_15 ⟨n + 1, hn⟩) (ms2_16 ⟨n + 1, hn⟩) (hs2_16 ⟨n + 1, hn⟩) (ms2_17 ⟨n + 1, hn⟩) (hs2_17 ⟨n + 1, hn⟩) (ms2_18 ⟨n + 1, hn⟩) (hs2_18 ⟨n + 1, hn⟩) (ms2_19 ⟨n + 1, hn⟩) (hs2_19 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (iblk2 V c 11 ⟨n + 1, hn⟩) (iblk2 V c 12 ⟨n + 1, hn⟩) (iblk2 V c 13 ⟨n + 1, hn⟩) (iblk2 V c 14 ⟨n + 1, hn⟩) (iblk2 V c 15 ⟨n + 1, hn⟩) (iblk2 V c 16 ⟨n + 1, hn⟩) (iblk2 V c 17 ⟨n + 1, hn⟩) (iblk2 V c 18 ⟨n + 1, hn⟩) (outsAt2 c n (Nat.lt_of_succ_lt hn)).2.1 (outsAt2 c n (Nat.lt_of_succ_lt hn)).2.2)
      else
        (out2_B_19 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) (ms2_15 ⟨n + 1, hn⟩) (hs2_15 ⟨n + 1, hn⟩) (ms2_16 ⟨n + 1, hn⟩) (hs2_16 ⟨n + 1, hn⟩) (ms2_17 ⟨n + 1, hn⟩) (hs2_17 ⟨n + 1, hn⟩) (ms2_18 ⟨n + 1, hn⟩) (hs2_18 ⟨n + 1, hn⟩) (ms2_19 ⟨n + 1, hn⟩) (hs2_19 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (iblk2 V c 11 ⟨n + 1, hn⟩) (iblk2 V c 12 ⟨n + 1, hn⟩) (iblk2 V c 13 ⟨n + 1, hn⟩) (iblk2 V c 14 ⟨n + 1, hn⟩) (iblk2 V c 15 ⟨n + 1, hn⟩) (iblk2 V c 16 ⟨n + 1, hn⟩) (iblk2 V c 17 ⟨n + 1, hn⟩) (iblk2 V c 18 ⟨n + 1, hn⟩) (outsAt2 c n (Nat.lt_of_succ_lt hn)).2.1 (outsAt2 c n (Nat.lt_of_succ_lt hn)).2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) (ms2_15 ⟨n + 1, hn⟩) (hs2_15 ⟨n + 1, hn⟩) (ms2_16 ⟨n + 1, hn⟩) (hs2_16 ⟨n + 1, hn⟩) (ms2_17 ⟨n + 1, hn⟩) (hs2_17 ⟨n + 1, hn⟩) (ms2_18 ⟨n + 1, hn⟩) (hs2_18 ⟨n + 1, hn⟩) (ms2_19 ⟨n + 1, hn⟩) (hs2_19 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (iblk2 V c 11 ⟨n + 1, hn⟩) (iblk2 V c 12 ⟨n + 1, hn⟩) (iblk2 V c 13 ⟨n + 1, hn⟩) (iblk2 V c 14 ⟨n + 1, hn⟩) (iblk2 V c 15 ⟨n + 1, hn⟩) (iblk2 V c 16 ⟨n + 1, hn⟩) (iblk2 V c 17 ⟨n + 1, hn⟩) (iblk2 V c 18 ⟨n + 1, hn⟩) (outsAt2 c n (Nat.lt_of_succ_lt hn)).2.1 (outsAt2 c n (Nat.lt_of_succ_lt hn)).2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) (ms2_15 ⟨n + 1, hn⟩) (hs2_15 ⟨n + 1, hn⟩) (ms2_16 ⟨n + 1, hn⟩) (hs2_16 ⟨n + 1, hn⟩) (ms2_17 ⟨n + 1, hn⟩) (hs2_17 ⟨n + 1, hn⟩) (ms2_18 ⟨n + 1, hn⟩) (hs2_18 ⟨n + 1, hn⟩) (ms2_19 ⟨n + 1, hn⟩) (hs2_19 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (iblk2 V c 11 ⟨n + 1, hn⟩) (iblk2 V c 12 ⟨n + 1, hn⟩) (iblk2 V c 13 ⟨n + 1, hn⟩) (iblk2 V c 14 ⟨n + 1, hn⟩) (iblk2 V c 15 ⟨n + 1, hn⟩) (iblk2 V c 16 ⟨n + 1, hn⟩) (iblk2 V c 17 ⟨n + 1, hn⟩) (iblk2 V c 18 ⟨n + 1, hn⟩) (outsAt2 c n (Nat.lt_of_succ_lt hn)).2.1 (outsAt2 c n (Nat.lt_of_succ_lt hn)).2.2)

/-- `outsAt2` at the first point: case A's contents. -/
theorem outsAt2_A (c : Dev nD) (t : Fin cfg2.N) (h0 : t.val % 20 = 0) (h1 : ¬t.val % 20 = 19) :
    outsAt2 V c t.val t.isLt = (out2_A_19 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) (ms2_19 t) (hs2_19 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) (ms2_19 t) (hs2_19 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) (ms2_19 t) (hs2_19 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t)) := by
  obtain ⟨n, hn⟩ := t
  cases n with
  | zero => exact rfl
  | succ n =>
    exfalso
    have hN : n + 1 < 20 := lt_of_lt_of_eq hn (show cfg2.N = 20 from N_2)
    (try dsimp only at h0); omega

/-- `outsAt2` at a middle point: case B's contents, over what the point before left. -/
theorem outsAt2_B (c : Dev nD) (t : Fin cfg2.N) (h0 : ¬t.val % 20 = 0) (h1 : ¬t.val % 20 = 19) :
    outsAt2 V c t.val t.isLt = (out2_B_19 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) (ms2_19 t) (hs2_19 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (outsAt2 V c (t.val - 1) (Nat.lt_of_le_of_lt (Nat.sub_le _ _) t.isLt)).2.1 (outsAt2 V c (t.val - 1) (Nat.lt_of_le_of_lt (Nat.sub_le _ _) t.isLt)).2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) (ms2_19 t) (hs2_19 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (outsAt2 V c (t.val - 1) (Nat.lt_of_le_of_lt (Nat.sub_le _ _) t.isLt)).2.1 (outsAt2 V c (t.val - 1) (Nat.lt_of_le_of_lt (Nat.sub_le _ _) t.isLt)).2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) (ms2_19 t) (hs2_19 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt2` at the last point: case C's contents, over what the point before left. -/
theorem outsAt2_C (c : Dev nD) (t : Fin cfg2.N) (h0 : ¬t.val % 20 = 0) (h1 : t.val % 20 = 19) :
    outsAt2 V c t.val t.isLt = (out2_C_19 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) (ms2_19 t) (hs2_19 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (outsAt2 V c (t.val - 1) (Nat.lt_of_le_of_lt (Nat.sub_le _ _) t.isLt)).2.1 (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) (ms2_19 t) (hs2_19 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (outsAt2 V c (t.val - 1) (Nat.lt_of_le_of_lt (Nat.sub_le _ _) t.isLt)).2.1 (outsAt2 V c (t.val - 1) (Nat.lt_of_le_of_lt (Nat.sub_le _ _) t.isLt)).2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) (ms2_19 t) (hs2_19 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The region invariant before position `n`: before the first point what the launch hands a region whose body
    stages nothing of its own (every scoped buffer no window stages at anything, the generator register at some
    state); afterwards the same with the two accumulators at what the point before left in them (`outsAt2`'s second
    and third components). -/
def PhiS2 (c : Dev nD) : (n : ℕ) → n ≤ cfg2.N → sProp 𝕄
  | 0, _ => Pipeline.ΦA spec2 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f) ∗ owns (c : Thread nD τ) scM2_0 fullShare ((outsAt2 V c n hn).2.1) ∗ owns (c : Thread nD τ) scM2_1 fullShare ((outsAt2 V c n hn).2.2)) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulators at that point's contents. -/
theorem PhiS2_succ (c : Dev nD) (n : ℕ) (hn : n < cfg2.N) :
    PhiS2 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f) ∗ owns (c : Thread nD τ) scM2_0 fullShare ((outsAt2 V c n hn).2.1) ∗ owns (c : Thread nD τ) scM2_1 fullShare ((outsAt2 V c n hn).2.2)) ∗ (∃ r, prngReg c r)) := rfl

/-- Before a point that is not the first: the accumulators at what the point before left. -/
theorem PhiS2_pos (c : Dev nD) (n : ℕ) (h : n ≤ cfg2.N) (hz : n ≠ 0) :
    PhiS2 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f) ∗ owns (c : Thread nD τ) scM2_0 fullShare ((outsAt2 V c (n - 1) (by omega)).2.1) ∗ owns (c : Thread nD τ) scM2_1 fullShare ((outsAt2 V c (n - 1) (by omega)).2.2)) ∗ (∃ r, prngReg c r)) := by
  cases n with
  | zero => exact absurd rfl hz
  | succ n => rfl

/-! ## The pipeline's proof data -/

/-- The proof data of pipeline 2 on core `c`: the arrays as the region finds them (`V`); after the body at point `t`
    each input's buffer at its block and the output block's at `outsAt2`'s first component; the invariant `PhiS2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => iblk2 V c 15 t
    | ⟨16, _⟩ => iblk2 V c 16 t
    | ⟨17, _⟩ => iblk2 V c 17 t
    | ⟨18, _⟩ => iblk2 V c 18 t
    | ⟨19, _⟩ => (outsAt2 V c t.val t.isLt).1
    | ⟨_ + 20, h⟩ => absurd h (Nat.not_lt.2 (Nat.le_add_left _ _))
  Φ t := PhiS2 V c t.val (Nat.le_of_lt_succ t.isLt)
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- The invariant at a point's start (the proof data at `t.castSucc`), restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = iblk2 V c 13 t := by dsimp only [dat2]
theorem after2_14 (c : Dev nD) (t : Fin cfg2.N) : (dat2 V c).after 14 t = iblk2 V c 14 t := by dsimp only [dat2]
theorem after2_15 (c : Dev nD) (t : Fin cfg2.N) : (dat2 V c).after 15 t = iblk2 V c 15 t := by dsimp only [dat2]
theorem after2_16 (c : Dev nD) (t : Fin cfg2.N) : (dat2 V c).after 16 t = iblk2 V c 16 t := by dsimp only [dat2]
theorem after2_17 (c : Dev nD) (t : Fin cfg2.N) : (dat2 V c).after 17 t = iblk2 V c 17 t := by dsimp only [dat2]
theorem after2_18 (c : Dev nD) (t : Fin cfg2.N) : (dat2 V c).after 18 t = iblk2 V c 18 t := by dsimp only [dat2]
theorem after2_19 (c : Dev nD) (t : Fin cfg2.N) : (dat2 V c).after 19 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
theorem before2_12 (c : Dev nD) (t : Fin cfg2.N) (d) : (dat2 V c).before 12 t d = iblk2 V c 12 t :=
  before2_12_of V (dat2 V c) (A_eq2 V c 12) (after2_12 V c) t d
theorem before2_13 (c : Dev nD) (t : Fin cfg2.N) (d) : (dat2 V c).before 13 t d = iblk2 V c 13 t :=
  before2_13_of V (dat2 V c) (A_eq2 V c 13) (after2_13 V c) t d
theorem before2_14 (c : Dev nD) (t : Fin cfg2.N) (d) : (dat2 V c).before 14 t d = iblk2 V c 14 t :=
  before2_14_of V (dat2 V c) (A_eq2 V c 14) (after2_14 V c) t d
theorem before2_15 (c : Dev nD) (t : Fin cfg2.N) (d) : (dat2 V c).before 15 t d = iblk2 V c 15 t :=
  before2_15_of V (dat2 V c) (A_eq2 V c 15) (after2_15 V c) t d
theorem before2_16 (c : Dev nD) (t : Fin cfg2.N) (d) : (dat2 V c).before 16 t d = iblk2 V c 16 t :=
  before2_16_of V (dat2 V c) (A_eq2 V c 16) (after2_16 V c) t d
theorem before2_17 (c : Dev nD) (t : Fin cfg2.N) (d) : (dat2 V c).before 17 t d = iblk2 V c 17 t :=
  before2_17_of V (dat2 V c) (A_eq2 V c 17) (after2_17 V c) t d
theorem before2_18 (c : Dev nD) (t : Fin cfg2.N) (d) : (dat2 V c).before 18 t d = iblk2 V c 18 t :=
  before2_18_of V (dat2 V c) (A_eq2 V c 18) (after2_18 V c) t d

/-! ## The body obligation, at a generic point -/

/-- What the body is called with at point `t`: the invariant, the core's dues, every window's current staging buffer, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d))
    ∗ (∃ d, owns (c : Thread nD τ) (ms2_11 t) fullShare ((dat2 V c).before 11 t d))
    ∗ (∃ d, owns (c : Thread nD τ) (ms2_12 t) fullShare ((dat2 V c).before 12 t d))
    ∗ (∃ d, owns (c : Thread nD τ) (ms2_13 t) fullShare ((dat2 V c).before 13 t d))
    ∗ (∃ d, owns (c : Thread nD τ) (ms2_14 t) fullShare ((dat2 V c).before 14 t d))
    ∗ (∃ d, owns (c : Thread nD τ) (ms2_15 t) fullShare ((dat2 V c).before 15 t d))
    ∗ (∃ d, owns (c : Thread nD τ) (ms2_16 t) fullShare ((dat2 V c).before 16 t d))
    ∗ (∃ d, owns (c : Thread nD τ) (ms2_17 t) fullShare ((dat2 V c).before 17 t d))
    ∗ (∃ d, owns (c : Thread nD τ) (ms2_18 t) fullShare ((dat2 V c).before 18 t d))
    ∗ (∃ d, owns (c : Thread nD τ) (ms2_19 t) fullShare ((dat2 V c).before 19 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t
    ∗ (dat2 V c).leavesExact 11 t
    ∗ (dat2 V c).leavesExact 12 t
    ∗ (dat2 V c).leavesExact 13 t
    ∗ (dat2 V c).leavesExact 14 t
    ∗ (dat2 V c).leavesExact 15 t
    ∗ (dat2 V c).leavesExact 16 t
    ∗ (dat2 V c).leavesExact 17 t
    ∗ (dat2 V c).leavesExact 18 t
    ∗ (dat2 V c).leavesExact 19 t)

set_option maxHeartbeats 8000000 in
/-- The body at any point. The inputs' buffers hold their blocks and are handed back as they were. The grid position
    decides the case: at the first point the invariant hands the run both accumulators at anything and the run zeroes
    them and the output block; at a later point it hands them at what the point before left; in every case it takes them
    back at this point's contents, read through the covers. The output block is live at the first and the last point
    (stored whole there) and idle in between, where its buffer goes back untouched. The core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11, before2_12, before2_13, before2_14, before2_15, before2_16, before2_17, before2_18]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  rw [show (dat2 V c).leavesExact 7 t = owns (c : Thread nD τ) (ms2_7 t) fullShare ((dat2 V c).after 7 t) from by
    unfold Dat.leavesExact; rw [liveAt2_7 t], after2_7]
  rw [show (dat2 V c).leavesExact 8 t = owns (c : Thread nD τ) (ms2_8 t) fullShare ((dat2 V c).after 8 t) from by
    unfold Dat.leavesExact; rw [liveAt2_8 t], after2_8]
  rw [show (dat2 V c).leavesExact 9 t = owns (c : Thread nD τ) (ms2_9 t) fullShare ((dat2 V c).after 9 t) from by
    unfold Dat.leavesExact; rw [liveAt2_9 t], after2_9]
  rw [show (dat2 V c).leavesExact 10 t = owns (c : Thread nD τ) (ms2_10 t) fullShare ((dat2 V c).after 10 t) from by
    unfold Dat.leavesExact; rw [liveAt2_10 t], after2_10]
  rw [show (dat2 V c).leavesExact 11 t = owns (c : Thread nD τ) (ms2_11 t) fullShare ((dat2 V c).after 11 t) from by
    unfold Dat.leavesExact; rw [liveAt2_11 t], after2_11]
  rw [show (dat2 V c).leavesExact 12 t = owns (c : Thread nD τ) (ms2_12 t) fullShare ((dat2 V c).after 12 t) from by
    unfold Dat.leavesExact; rw [liveAt2_12 t], after2_12]
  rw [show (dat2 V c).leavesExact 13 t = owns (c : Thread nD τ) (ms2_13 t) fullShare ((dat2 V c).after 13 t) from by
    unfold Dat.leavesExact; rw [liveAt2_13 t], after2_13]
  rw [show (dat2 V c).leavesExact 14 t = owns (c : Thread nD τ) (ms2_14 t) fullShare ((dat2 V c).after 14 t) from by
    unfold Dat.leavesExact; rw [liveAt2_14 t], after2_14]
  rw [show (dat2 V c).leavesExact 15 t = owns (c : Thread nD τ) (ms2_15 t) fullShare ((dat2 V c).after 15 t) from by
    unfold Dat.leavesExact; rw [liveAt2_15 t], after2_15]
  rw [show (dat2 V c).leavesExact 16 t = owns (c : Thread nD τ) (ms2_16 t) fullShare ((dat2 V c).after 16 t) from by
    unfold Dat.leavesExact; rw [liveAt2_16 t], after2_16]
  rw [show (dat2 V c).leavesExact 17 t = owns (c : Thread nD τ) (ms2_17 t) fullShare ((dat2 V c).after 17 t) from by
    unfold Dat.leavesExact; rw [liveAt2_17 t], after2_17]
  rw [show (dat2 V c).leavesExact 18 t = owns (c : Thread nD τ) (ms2_18 t) fullShare ((dat2 V c).after 18 t) from by
    unfold Dat.leavesExact; rw [liveAt2_18 t], after2_18]
  by_cases h0 : t.val % 20 = 0
  · by_cases h1 : t.val % 20 = 19
    · exfalso; omega
    · -- the first point
      have hz : t.val = 0 := by omega
      rw [show (dat2 V c).leavesExact 19 t = owns (c : Thread nD τ) (ms2_19 t) fullShare ((dat2 V c).after 19 t) from by
        unfold Dat.leavesExact; rw [liveAt2_19_A t ((hcond2_0 t).mpr h0) (fun h => h1 ((hcond2_1 t).mp h))], after2_19]
      rw [outsAt2_A V c t h0 h1]
      unfold out2_A_19 sout2_A_0 sout2_A_1; (try dsimp only)
      rw [PhiS2_castSucc V c t, PhiS2_zero V c _ _ hz, PhiA2_eq]
      iintro ⟨⟨⟨HR0, HR1, HR2, HR3, HR4, HR5, HR6, HR7, HR8, HR9, HR10, HR11, HR12, HR13, HR14, HR15, HR16, HR17, HR18, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((kernelRun2_A c (grid2.coords t) _ _ _ _ _ _ _ _ _ _ _ _ _ _ _ _ _ _ _ _ _ _ _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexists _; iexact H19
      isplitl [HS0]; · iexact HS0
      isplitl [HS1]; · iexact HS1
      iintro ⟨H0, H1, H2, H3, H4, H5, H6, H7, H8, H9, H10, H11, H12, H13, H14, H15, H16, H17, H18, ⟨%e19, H19⟩, ⟨%es0, HS0⟩, ⟨%es1, HS1⟩⟩
      isplitl [HR0 HR1 HR2 HR3 HR4 HR5 HR6 HR7 HR8 HR9 HR10 HR11 HR12 HR13 HR14 HR15 HR16 HR17 HR18 HS0 HS1 Hg]
      · isplitl [HR0 HR1 HR2 HR3 HR4 HR5 HR6 HR7 HR8 HR9 HR10 HR11 HR12 HR13 HR14 HR15 HR16 HR17 HR18 HS0 HS1]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          isplitl [HR18]; · iexact HR18
          isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover2_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      unfold owns; iexists _; isplitr
      swap; · iexact H19
      ipureintro; exact View.read_writes_of_cover _ _ _ _ _ (cover2_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  · have hz : t.val ≠ 0 := fun h => h0 (by rw [h])
    by_cases h1 : t.val % 20 = 19
    · -- the last point
      rw [show (dat2 V c).leavesExact 19 t = owns (c : Thread nD τ) (ms2_19 t) fullShare ((dat2 V c).after 19 t) from by
        unfold Dat.leavesExact; rw [liveAt2_19_C t (fun h => h0 ((hcond2_0 t).mp h)) ((hcond2_1 t).mpr h1)], after2_19]
      rw [outsAt2_C V c t h0 h1]
      unfold out2_C_19 sout2_C_0 sout2_C_1; (try dsimp only)
      rw [PhiS2_castSucc V c t, PhiS2_pos V c _ _ hz]
      iintro ⟨⟨⟨HR0, HR1, HR2, HR3, HR4, HR5, HR6, HR7, HR8, HR9, HR10, HR11, HR12, HR13, HR14, HR15, HR16, HR17, HR18, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((kernelRun2_C c (grid2.coords t) _ _ _ _ _ _ _ _ _ _ _ _ _ _ _ _ _ _ _ _ _ _ _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexists _; iexact H19
      isplitl [HS0]; · iexact HS0
      isplitl [HS1]; · iexact HS1
      iintro ⟨H0, H1, H2, H3, H4, H5, H6, H7, H8, H9, H10, H11, H12, H13, H14, H15, H16, H17, H18, ⟨%e19, H19⟩, ⟨%es0, HS0⟩, ⟨%es1, HS1⟩⟩
      isplitl [HR0 HR1 HR2 HR3 HR4 HR5 HR6 HR7 HR8 HR9 HR10 HR11 HR12 HR13 HR14 HR15 HR16 HR17 HR18 HS0 HS1 Hg]
      · isplitl [HR0 HR1 HR2 HR3 HR4 HR5 HR6 HR7 HR8 HR9 HR10 HR11 HR12 HR13 HR14 HR15 HR16 HR17 HR18 HS0 HS1]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          isplitl [HR18]; · iexact HR18
          isplitl [HS0]
          · unfold owns; iexists _; isplitr
            swap; · iexact HS0
            ipureintro; exact View.read_writes_of_cover _ _ _ _ _ (scover2_C_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover2_C_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      unfold owns; iexists _; isplitr
      swap; · iexact H19
      ipureintro; exact View.read_writes_of_cover _ _ _ _ _ (cover2_C_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · -- a middle point
      rw [Dat.leavesExact_idle (dat2 V c) 19 t (idleAt2_19_B t (fun h => h0 ((hcond2_0 t).mp h)) (fun h => h1 ((hcond2_1 t).mp h))) (noFlush2_19_B t (fun h => h0 ((hcond2_0 t).mp h)) (fun h => h1 ((hcond2_1 t).mp h)))]
      rw [outsAt2_B V c t h0 h1]
      unfold sout2_B_0 sout2_B_1; (try dsimp only)
      rw [PhiS2_castSucc V c t, PhiS2_pos V c _ _ hz]
      iintro ⟨⟨⟨HR0, HR1, HR2, HR3, HR4, HR5, HR6, HR7, HR8, HR9, HR10, HR11, HR12, HR13, HR14, HR15, HR16, HR17, HR18, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((kernelRun2_B c (grid2.coords t) _ _ _ _ _ _ _ _ _ _ _ _ _ _ _ _ _ _ _ _ _ _ _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [HS0]; · iexact HS0
      isplitl [HS1]; · iexact HS1
      iintro ⟨H0, H1, H2, H3, H4, H5, H6, H7, H8, H9, H10, H11, H12, H13, H14, H15, H16, H17, H18, H19, ⟨%es0, HS0⟩, ⟨%es1, HS1⟩⟩
      isplitl [HR0 HR1 HR2 HR3 HR4 HR5 HR6 HR7 HR8 HR9 HR10 HR11 HR12 HR13 HR14 HR15 HR16 HR17 HR18 HS0 HS1 Hg]
      · isplitl [HR0 HR1 HR2 HR3 HR4 HR5 HR6 HR7 HR8 HR9 HR10 HR11 HR12 HR13 HR14 HR15 HR16 HR17 HR18 HS0 HS1]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          isplitl [HR18]; · iexact HR18
          isplitl [HS0]
          · unfold owns; iexists _; isplitr
            swap; · iexact HS0
            ipureintro; exact View.read_writes_of_cover _ _ _ _ _ (scover2_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover2_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iexists _; iexact H19

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the region's two ends -/

/-- What the launch hands a region whose body stages nothing of its own is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the same back: what the accumulators hold is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HR0, HR1, HR2, HR3, HR4, HR5, HR6, HR7, HR8, HR9, HR10, HR11, HR12, HR13, HR14, HR15, HR16, HR17, HR18, HS0, HS1⟩, Hg⟩
  isplitl [HR0 HR1 HR2 HR3 HR4 HR5 HR6 HR7 HR8 HR9 HR10 HR11 HR12 HR13 HR14 HR15 HR16 HR17 HR18 HS0 HS1]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    isplitl [HR16]; · iexact HR16
    isplitl [HR17]; · iexact HR17
    isplitl [HR18]; · iexact HR18
    isplitl [HS0]; · iexists _; iexact HS0
    iexists _; iexact HS1
  iexact Hg

/-- The same after the last point. -/
theorem hout2 (c : Dev nD) : (dat2 V c).Φ (Fin.last cfg2.N) ⊢ Pipeline.ΦA spec2 c :=
  Phi_out2 V c _ (by rw [Fin.val_last]; have : cfg2.N = 20 := N_2; omega)

/-! ## The proof data's plain fields -/

/-- Nothing is owed at any point; every window is held at the full share; every cell's level is recorded. -/
theorem owed2 (c : Dev nD) (t : Fin (cfg2.N + 1)) : (dat2 V c).owed t = 0 := rfl
theorem share2 (c : Dev nD) (w : Fin cfg2.W) : (dat2 V c).q w = fullShare := rfl
theorem recorded2 (c : Dev nD) (t : Fin (cfg2.N + 1)) : (dat2 V c).recorded t = Set.univ := rfl

end Cert.KernelIdeal.Frm

end
-- ==== Proof.KernelIdealData.lean ====
import proofs.«418702_j33346126086715_3_alg».proof.Proof.KernelIdealRun
import proofs.«418702_j33346126086715_3_alg».proof.Proof.KernelIdealReg0
import proofs.«418702_j33346126086715_3_alg».proof.Proof.KernelIdealReg1
import proofs.«418702_j33346126086715_3_alg».proof.Proof.KernelIdealReg2

/-! # The three pallas_calls' proof data, and the run of @main over them

Each call's proof data — the window arrays at the call's entry contents, what every grid point leaves in each
window's buffer, the invariant between points — satisfies what the run of @main asks of a region: the arrays are
the entry contents', the body runs from point to point, nothing is owed, every share is whole, and the invariant
begins and ends at the scoped rest. For the first two calls the invariant IS the scoped rest at every point; the
third carries its two pooling accumulators from point to point. -/

noncomputable section

namespace Cert.KernelIdeal.Frm

open Idealize.ShloMosaic Idealize.ShloMosaic.TcCoe
open Idealize.SL Idealize.SL.RA Idealize.SL.BI
open scoped Idealize.SL.BI
open Idealize.SL.BI.BIBase Idealize.SL.Sem
open Cert.KernelIdeal Cert.KernelIdeal.Gen

variable {F : FTy → Type} [FloatOps F]

/-- The projection call's data, at any entry contents. -/
abbrev d0 : DatAt F cfg0 := fun V c => dat0 V c
/-- The layer-1 call's data, at any entry contents. -/
abbrev d1 : DatAt F cfg1 := fun V c => dat1 V c
/-- The layer-2 / pooling / classifier call's data, at any entry contents. -/
abbrev d2 : DatAt F cfg2 := fun V c => dat2 V c

theorem rd0 : RegionData (F := F) cfg0 d0 :=
  ⟨fun V c w => A_eq0 V c w, fun V c => body_obligation0 V c, fun _ _ _ => rfl, fun _ _ _ => rfl, fun _ _ _ => rfl,
    fun _ _ => .rfl, fun _ _ => .rfl⟩

theorem rd1 : RegionData (F := F) cfg1 d1 :=
  ⟨fun V c w => A_eq1 V c w, fun V c => body_obligation1 V c, fun _ _ _ => rfl, fun _ _ _ => rfl, fun _ _ _ => rfl,
    fun _ _ => .rfl, fun _ _ => .rfl⟩

theorem rd2 : RegionData (F := F) cfg2 d2 :=
  ⟨fun V c w => A_eq2 V c w, fun V c => body_obligation2 V c, fun _ _ _ => rfl, fun _ _ _ => rfl, fun _ _ _ => rfl,
    fun V c => hin2 V c, fun V c => hout2 V c⟩

end Cert.KernelIdeal.Frm

end
-- ==== Proof.KVal0.lean ====
import proofs.«418702_j33346126086715_3_alg».proof.Proof.Gen.KernelIdeal.Skeleton
import Idealize.ShloMosaic.Lib.Pipeline.Value
import Idealize.ShloMosaic.Lib.ValueIdx
import Idealize.ShloMosaic.PureOps.Ideal.Laws

/-! The projection kernel's arithmetic read at an index: the rounded product of the rounded operands is, at the
    ideal values, the plain sum over the contraction axis of the products of the operands' entries. -/

noncomputable section

namespace Cert.Value.K

open Cert.KernelIdeal Cert.KernelIdeal.Gen
open Idealize.ShloMosaic Idealize.ShloMosaic.TcCoe Idealize.SL.Sem Idealize.ShloMosaic.ValueIdx

/-! ## The operand indices of the [10000,128] × [128,64] product -/

theorem lhs_proj_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl

theorem lhs_proj_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q

theorem rhs_proj_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q

theorem rhs_proj_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The product into the zero accumulator, at row `ρ` and column `j`: the sum over `k` of `a (ρ, k) * b (k, j)`. -/
theorem proj_matmul_apply (a : FVec Ideal S10000x128 .bf16) (b : FVec Ideal S128x64 .bf16) (ρ : Fin 10000) (j : Fin 64) :
    FloatOps.matmul dot_S10000x128_S128x64_S10000x64_1_0_0_1_n_n none a b (constant S10000x64 .f32 0x00000000#32) (ix2 ρ j)
      = ∑ k : Fin 128, a (ix2 ρ k) * b (ix2 k j) := by
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 ρ j) ((contrEquiv1 dot_S10000x128_S128x64_S10000x64_1_0_0_1_n_n 128 rfl rfl).symm k) = ix2 ρ k := funext fun d => Fin.ext (by
    match d with
    | ⟨0, _⟩ => exact lhs_proj_0 _ _
    | ⟨1, _⟩ => exact (lhs_proj_1 _ _).trans hk)
  have er : dot_S10000x128_S128x64_S10000x64_1_0_0_1_n_n.rhsIdx (ix2 ρ j) ((contrEquiv1 dot_S10000x128_S128x64_S10000x64_1_0_0_1_n_n 128 rfl rfl).symm k) = ix2 k j := funext fun d => Fin.ext (by
    match d with
    | ⟨0, _⟩ => exact (rhs_proj_0 _ _).trans hk
    | ⟨1, _⟩ => exact rhs_proj_1 _ _)
  rw [el, er]

/-- THE PROJECTION'S PAYLOAD AT AN INDEX: every rounding is the identity at the ideal values, so the stored block is
    the product of the two loaded blocks. -/
theorem k0_pay1_apply (x0 : Vec Ideal S10000x128 .f32) (x1 : Vec Ideal S128x64 .f32) (ρ : Fin 10000) (j : Fin 64) :
    k0_pay1 (F := Ideal) x0 x1 (ix2 ρ j) = ∑ k : Fin 128, x0 (ix2 ρ k) * x1 (ix2 k j) := by
  unfold k0_pay1
  exact proj_matmul_apply (truncf .bf16 x0 bitsLt_bf16_f32) (truncf .bf16 x1 bitsLt_bf16_f32) ρ j

end Cert.Value.K

end
-- ==== Proof.KVal0Arr.lean ====
import proofs.«418702_j33346126086715_3_alg».proof.Proof.KVal0
import proofs.«418702_j33346126086715_3_alg».proof.Proof.KernelIdealReg0
import Idealize.ShloMosaic.Lib.Pipeline.Value
import Idealize.ShloMosaic.Lib.ValueIdx

/-! The projection call's result ARRAY at the ideal values. Each of the 10 grid points reads rows
    `10000·t … 10000·t + 9999` of `x` and the whole weight matrix, and writes the same rows of the result; the blocks
    tile the result, so after the call entry `(n, j)` of the result is `∑ k, x (n, k) · W (k, j)`, the entry of the
    plain matrix product. -/

noncomputable section

namespace Cert.Value.K

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

-- what every TensorCore buffer holds when the call is entered
variable (V : (c : Dev nD) → (b : Ref sig .tc) → Buf (Elt Ideal) ((c : Thread nD τ).loc b))

/-- The zero offsets of a rank-2 rectangle, as the constant function. -/
theorem zero_off2 : (![0, 0] : Fin 2 → Nat) = fun _ => 0 :=
  funext fun a => match a with | ⟨0, _⟩ => rfl | ⟨1, _⟩ => rfl

/-! ## The output block from the two input blocks -/

/-- The body's one store covers its buffer and its loads read their buffers whole, so the output block at row `ρ`,
    column `j` is the payload there: the sum over the contraction axis. -/
theorem out0_2_apply (x0 : Vec Ideal S10000x128 .f32) (x1 : Vec Ideal S128x64 .f32) (ρ : Fin 10000) (j : Fin 64) :
    out0_2 (F := Ideal) x0 x1 (ix2 ρ j) = ∑ k : Fin 128, x0 (ix2 ρ k) * x1 (ix2 k j) := by
  unfold out0_2
  rw [View.canon_unit_zero zero_off2]
  simp only [View.ld_unit_zero (S := S10000x128) zero_off2, View.ld_unit_zero (S := S128x64) zero_off2]
  exact k0_pay1_apply x0 x1 ρ j

/-! ## Where the blocks sit in their arrays -/

/-- The block indices over the grid: the rows of `x` and of the result move with the point, one block a point; the
    weight matrix is one block; no window moves along the columns. -/
theorem blockIdx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block of `x` at point `t`, at `y`, is `x` at row `10000·t + y₀`, column `y₁`: a block's coordinate in the array
    is the block index times the block's extent plus the coordinate inside the block. -/
theorem xblock_apply (c : Dev nD) (t : Fin cfg0.N) (y : S10000x128.Idx) (i : S100000x128.Idx)
    (h0 : (i 0).val = 10000 * t.val + (y 0).val) (h1 : (i 1).val = (y 1).val) :
    (iblk0 V c 0 t : Vec Ideal S10000x128 .f32) y = (V c main_arg0 : Vec Ideal S100000x128 .f32) i := by
  obtain ⟨e0, e1, -⟩ := blockIdx0 t
  show (V c main_arg0 : Vec Ideal S100000x128 .f32) (((cfg0.win 0).blk t).view.emb y) = _
  refine congrArg (V c main_arg0 : Vec Ideal S100000x128 .f32) (funext fun a => Fin.ext ?_)
  match a with
  | ⟨0, _⟩ => show win0_0.index t (0 : Fin 2) * 10000 + 1 * (y 0).val = (i 0).val; rw [e0, h0]; omega
  | ⟨1, _⟩ => show win0_0.index t (1 : Fin 2) * 128 + 1 * (y 1).val = (i 1).val; rw [e1, h1]; omega

/-- The same at literal coordinates: row `ρ` of block `t` is row `n = 10000·t + ρ` of `x`. -/
theorem xblock_ix2 (c : Dev nD) (t : Fin cfg0.N) (ρ : Fin 10000) (k : Fin 128) (n : Fin 100000)
    (hn : n.val = 10000 * t.val + ρ.val) :
    (iblk0 V c 0 t : Vec Ideal S10000x128 .f32) (ix2 ρ k) = (V c main_arg0 : Vec Ideal S100000x128 .f32) (ix2 n k) :=
  xblock_apply V c t (ix2 ρ k) (ix2 n k) hn rfl

/-- The weight matrix's block is the whole matrix, at every point. -/
theorem wblock_eq (c : Dev nD) (t : Fin cfg0.N) :
    (iblk0 V c 1 t : Vec Ideal S128x64 .f32) = (V c main_arg3 : Vec Ideal S128x64 .f32) := by
  obtain ⟨-, -, e0, e1, -⟩ := blockIdx0 t
  funext y
  show (V c main_arg3 : Vec Ideal S128x64 .f32) (((cfg0.win 1).blk t).view.emb y) = _
  refine congrArg (V c main_arg3 : Vec Ideal S128x64 .f32) (funext fun a => Fin.ext ?_)
  match a with
  | ⟨0, _⟩ => show win0_1.index t (0 : Fin 2) * 128 + 1 * (y 0).val = (y 0).val; rw [e0]; omega
  | ⟨1, _⟩ => show win0_1.index t (1 : Fin 2) * 64 + 1 * (y 1).val = (y 1).val; rw [e1]; omega

/-! ## The result array as one function of the two argument arrays -/

/-- The matrix product, entry by entry: `(n, j) ↦ ∑ k, x (n, k) · W (k, j)`. -/
def projArr (xarr : Vec Ideal S100000x128 .f32) (warr : Vec Ideal S128x64 .f32) : Vec Ideal S100000x64 .bf16 :=
  fun i => ∑ k : Fin 128, xarr (ix2 (⟨(i 0).val, (i 0).isLt⟩ : Fin 100000) k) * warr (ix2 k (⟨(i 1).val, (i 1).isLt⟩ : Fin 64))

theorem projArr_apply (xarr : Vec Ideal S100000x128 .f32) (warr : Vec Ideal S128x64 .f32) (n : Fin 100000) (j : Fin 64) :
    projArr xarr warr (ix2 n j) = ∑ k : Fin 128, xarr (ix2 n k) * warr (ix2 k j) := rfl

/-- An output block whose `x` block is rows `10000·tv …` of `xarr` and whose weight block is `warr` is, at `y`, the
    product's entry at row `10000·tv + y₀`, column `y₁`. Stated over variables; the window's blocks are put in below. -/
theorem out_block_apply (xb : Vec Ideal S10000x128 .f32) (wb : Vec Ideal S128x64 .f32)
    (xarr : Vec Ideal S100000x128 .f32) (warr : Vec Ideal S128x64 .f32) (tv : Nat)
    (hx : ∀ (ρ : Fin 10000) (k : Fin 128) (n : Fin 100000), n.val = 10000 * tv + ρ.val → xb (ix2 ρ k) = xarr (ix2 n k))
    (hw : wb = warr) (y : S10000x64.Idx) (i : S100000x64.Idx)
    (h0 : (i 0).val = 10000 * tv + (y 0).val) (h1 : (i 1).val = (y 1).val) :
    out0_2 (F := Ideal) xb wb y = projArr xarr warr i := by
  obtain ⟨ρ, j, rfl⟩ : ∃ (ρ : Fin 10000) (j : Fin 64), y = ix2 ρ j := ⟨y 0, y 1, eq_ix2 y⟩
  obtain ⟨n, q, rfl⟩ : ∃ (n : Fin 100000) (q : Fin 64), i = ix2 n q := ⟨i 0, i 1, eq_ix2 i⟩
  have hn : n.val = 10000 * tv + ρ.val := h0
  have hq : q = j := Fin.ext h1
  subst hq hw
  rw [out0_2_apply, projArr_apply]
  exact Finset.sum_congr rfl fun k _ => by rw [hx ρ k n hn]

/-- What point `t` writes back is block `t` of the product of the two argument arrays as the call finds them. -/
theorem flushed0_eq (c : Dev nD) (t : Fin cfg0.N) :
    (dat0 V c).flushed 2 t = ((cfg0.win 2).blk t).view.read (Elt Ideal) (projArr (V c main_arg0) (V c main_arg3)) := by
  show (cfg0.win 2).cut (grid0.coords t) ((dat0 V c).after 2 t) = _
  rw [after0_2]
  obtain ⟨-, -, -, -, e0, e1⟩ := blockIdx0 t
  funext y
  show out0_2 (F := Ideal) (iblk0 V c 0 t) (iblk0 V c 1 t) y = projArr (V c main_arg0) (V c main_arg3) (((cfg0.win 2).blk t).view.emb y)
  refine out_block_apply _ _ _ _ t.val (fun ρ k n hn => xblock_ix2 V c t ρ k n hn) (wblock_eq V c t) y _ ?_ ?_
  · show win0_2.index t (0 : Fin 2) * 10000 + 1 * (y 0).val = 10000 * t.val + (y 0).val; rw [e0]; omega
  · show win0_2.index t (1 : Fin 2) * 64 + 1 * (y 1).val = (y 1).val; rw [e1]; omega

/-- An index of the result lies in point `t`'s block iff, on each axis, it lies in the block's range. -/
theorem mem_outblk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v12).slice (win0_2.rect t)).set ↔ _
  rw [View.set_slice_whole, Rect.mem_set_unit]
  exact Iff.rfl

/-- Every index of the result is in some point's block: row `n` lies in block `n / 10000`, and every point writes back. -/
theorem covered0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, e0, e1⟩ := blockIdx0 t
  refine ⟨t, flush0_2 t, ?_⟩
  rw [mem_outblk]
  intro a
  match a with
  | ⟨0, _⟩ => show win0_2.index t (0 : Fin 2) * 10000 ≤ (i 0).val ∧ (i 0).val < win0_2.index t (0 : Fin 2) * 10000 + 10000; rw [e0, ht]; omega
  | ⟨1, _⟩ => show win0_2.index t (1 : Fin 2) * 64 ≤ (i 1).val ∧ (i 1).val < win0_2.index t (1 : Fin 2) * 64 + 64; rw [e1]; omega

/-- THE RESULT ARRAY after the call: the product of the two argument arrays as the call finds them. -/
theorem final0 (c : Dev nD) : (dat0 V c).arrAt 2 cfg0.N = projArr (V c main_arg0) (V c main_arg3) :=
  (dat0 V c).arrAt_eq_of_cover 2 (projArr (V c main_arg0) (V c main_arg3)) (fun t _ => flushed0_eq V c t) covered0

/-- The two argument arrays and the result array, as functions on indices of their literal shapes. -/
abbrev xArr0 (c : Dev nD) : Vec Ideal S100000x128 .f32 := V c main_arg0
abbrev wArr0 (c : Dev nD) : Vec Ideal S128x64 .f32 := V c main_arg3
abbrev yArr0 (c : Dev nD) : Vec Ideal S100000x64 .bf16 := (dat0 V c).arrAt 2 cfg0.N

/-- The same, entry by entry: `(n, j) ↦ ∑ k, x (n, k) · W (k, j)`. -/
theorem final0_apply (c : Dev nD) (n : Fin 100000) (j : Fin 64) :
    yArr0 V c (ix2 n j) = ∑ k : Fin 128, xArr0 V c (ix2 n k) * wArr0 V c (ix2 k j) := by
  have h : yArr0 V c = projArr (xArr0 V c) (wArr0 V c) := final0 V c
  rw [h]
  exact projArr_apply _ _ n j

end Cert.Value.K

end
-- ==== Proof.KJoin0.lean ====
import proofs.«418702_j33346126086715_3_alg».proof.Proof.KVal0Arr
import proofs.«418702_j33346126086715_3_alg».proof.Proof.KernelIdealRegionsP
import proofs.«418702_j33346126086715_3_alg».proof.Proof.Spec

/-! The kernel program's arguments as the specification's parameters, and the first link of the chain: what the
    projection call leaves in its result array is the specification's `xl1`, the rows of `x` through the first
    layer's neighbour weight. The call is entered after the first host stretch, which writes no argument, so the
    two arrays it reads are the launch memory's. -/

noncomputable section

namespace Cert.Value.KJ

open Cert.KernelIdeal Cert.KernelIdeal.Gen Cert.KernelIdeal.Frm Cert.Value.K
open Idealize.ShloMosaic Idealize.ShloMosaic.TcCoe Idealize.SL.Sem Idealize.ShloMosaic.ValueIdx Idealize.ShloMosaic.StableHlo

variable (m : (ℓ : Loc nD τ sig) → Buf (Elt Ideal) ℓ)

/-- The float arguments on core `c` as the specification's parameters, in argument order (the two integer
    arguments enter through the selectors). -/
abbrev paramsK (c : Dev nD) : Spec.Params :=
  ⟨(m ((c.tc : Thread nD τ).loc main_arg0)), (m ((c.tc : Thread nD τ).loc main_arg3)), (m ((c.tc : Thread nD τ).loc main_arg4)), (m ((c.tc : Thread nD τ).loc main_arg5)), (m ((c.tc : Thread nD τ).loc main_arg6)), (m ((c.tc : Thread nD τ).loc main_arg7)), (m ((c.tc : Thread nD τ).loc main_arg8)), (m ((c.tc : Thread nD τ).loc main_arg9)), (m ((c.tc : Thread nD τ).loc main_arg10)), (m ((c.tc : Thread nD τ).loc main_arg11)), (m ((c.tc : Thread nD τ).loc main_arg12)), (m ((c.tc : Thread nD τ).loc main_arg13)), (m ((c.tc : Thread nD τ).loc main_arg14)), (m ((c.tc : Thread nD τ).loc main_arg15)), (m ((c.tc : Thread nD τ).loc main_arg16)), (m ((c.tc : Thread nD τ).loc main_arg17)), (m ((c.tc : Thread nD τ).loc main_arg18)), (m ((c.tc : Thread nD τ).loc main_arg19)), (m ((c.tc : Thread nD τ).loc main_arg20)), (m ((c.tc : Thread nD τ).loc main_arg21)), (m ((c.tc : Thread nD τ).loc main_arg22)), (m ((c.tc : Thread nD τ).loc main_arg23)), (m ((c.tc : Thread nD τ).loc main_arg24))⟩

/-- The edge list and the node-to-graph map on core `c`. -/
abbrev eiK (c : Dev nD) : IVec Spec.S2xE 32 := m ((c.tc : Thread nD τ).loc main_arg1)
abbrev batchK (c : Dev nD) : IVec Spec.SN 32 := m ((c.tc : Thread nD τ).loc main_arg2)

/-- The contents the projection call is entered with: the launch memory after the first host stretch. -/
abbrev E0 : (c : Dev nD) → (b : Ref sig .tc) → Buf (Elt Ideal) ((c : Thread nD τ).loc b) := fun c b => V1 m c b

/-- The first host stretch writes neither `x` nor the neighbour weight. -/
theorem E0_x (c : Dev nD) : xArr0 (E0 m) c = (paramsK m c).x :=
  (V1_of m c main_arg0 (by decide)).trans rfl
theorem E0_w (c : Dev nD) : wArr0 (E0 m) c = (paramsK m c).W1l :=
  (V1_of m c main_arg3 (by decide)).trans rfl

/-- LINK 0: the projection call's result array, entry by entry, is `xl1` of the arguments. -/
theorem link0 (c : Dev nD) (n : Fin 100000) (j : Fin 64) :
    yArr0 (E0 m) c (ix2 n j) = Spec.xl1 (paramsK m c) n j := by
  rw [final0_apply, E0_x, E0_w]
  rfl

end Cert.Value.KJ

end
-- ==== Proof.KHostLay.lean ====
import proofs.«418702_j33346126086715_3_alg».proof.Proof.Gen.KernelIdeal
import Idealize.ShloMosaic.Lib.Pipeline.Value
import Idealize.ShloMosaic.Lib.ValueIdx
import Idealize.ShloMosaic.PureOps.Ideal.Laws

/-! The layout operations of the host stretches, each read at an index of literal shape: a scalar splat, the index
    column of a flat index vector, a row of the edge list flattened, a flat vector as a column and as a row. -/

noncomputable section

namespace Cert.Value.K

open Cert.KernelIdeal Cert.KernelIdeal.Gen
open Idealize.ShloMosaic Idealize.ShloMosaic.TcCoe Idealize.SL.Sem Idealize.ShloMosaic.ValueIdx

/-! ## Splats of a scalar -/

/-- A float scalar broadcast to any shape reads as the scalar's word everywhere. -/
theorem splat_apply {t : Shape} (h : S_.BroadcastsInDim t (![] : Fin 0 → Fin t.rank)) (w : BitVec 32) (i : t.Idx) :
    broadcastInDim t ![] h (constant (F := Ideal) S_ .f32 w) i = Ideal.ofBits .f32 w :=
  broadcastInDim_apply ![] h (constant (F := Ideal) S_ .f32 w) i ix0 (fun a => a.elim0)

/-- An integer scalar broadcast to any shape reads as the scalar everywhere. -/
theorem splatI_apply {t : Shape} (h : S_.BroadcastsInDim t (![] : Fin 0 → Fin t.rank)) (w : BitVec 32) (i : t.Idx) :
    broadcastInDim t ![] h (constantI S_ 32 w) i = w :=
  broadcastInDim_apply ![] h (constantI S_ 32 w) i ix0 (fun a => a.elim0)

/-! ## The edge list's rows and the index column -/

/-- Row `0` of the edge list, cut out as a [1, E] array. -/
theorem edge_row0_apply {α : Type} (ei : S2x1600000.Idx → α) (e : Fin 1600000) :
    extractStridedSlice S1x1600000 ![0, 0] ei slices_S2x1600000_S1x1600000_0_0 (ix2 0 e) = ei (ix2 0 e) := by
  refine extractStridedSlice_apply ![0, 0] ei slices_S2x1600000_S1x1600000_0_0 (ix2 0 e) (ix2 0 e) (fun a => ?_)
  match a with
  | ⟨0, _⟩ => rfl
  | ⟨1, _⟩ => exact (Nat.zero_add _).symm

/-- Row `1` of the edge list, cut out as a [1, E] array. -/
theorem edge_row1_apply {α : Type} (ei : S2x1600000.Idx → α) (e : Fin 1600000) :
    extractStridedSlice S1x1600000 ![1, 0] ei slices_S2x1600000_S1x1600000_1_0 (ix2 0 e) = ei (ix2 1 e) := by
  refine extractStridedSlice_apply ![1, 0] ei slices_S2x1600000_S1x1600000_1_0 (ix2 0 e) (ix2 1 e) (fun a => ?_)
  match a with
  | ⟨0, _⟩ => rfl
  | ⟨1, _⟩ => exact (Nat.zero_add _).symm

/-- A [1, E] array flattened to [E]. -/
theorem flat_of_row_apply {α : Type} (x : S1x1600000.Idx → α) (e : Fin 1600000) :
    shapeCast S1600000 x shapeCasts_S1x1600000_S1600000 (ix1 e) = x (ix2 0 e) := by
  refine shapeCast_apply x shapeCasts_S1x1600000_S1600000 (ix1 e) (ix2 0 e) ?_
  rw [Shape.rowMajor_val_two, Shape.rowMajor_val_one]
  show 0 * 1600000 + e.val = e.val
  omega

/-- A flat index vector [E] as the index column [E, 1]. -/
theorem col_of_flat_apply {α : Type} (v : S1600000.Idx → α) (e : Fin 1600000) :
    broadcastInDim S1600000x1 ![0] bcast_S1600000_S1600000x1_0 v (ix2 e 0) = v (ix1 e) := by
  refine broadcastInDim_apply ![0] bcast_S1600000_S1600000x1_0 v (ix2 e 0) (ix1 e) (fun a => ?_)
  match a with
  | ⟨0, _⟩ => rfl

/-! ## Flat vectors as columns and rows -/

/-- A per-node vector [N] as the column [N, 1]. -/
theorem node_col_apply {α : Type} (v : S100000.Idx → α) (n : Fin 100000) :
    shapeCast S100000x1 v shapeCasts_S100000_S100000x1 (ix2 n 0) = v (ix1 n) := by
  refine shapeCast_apply v shapeCasts_S100000_S100000x1 (ix2 n 0) (ix1 n) ?_
  rw [Shape.rowMajor_val_two, Shape.rowMajor_val_one]
  show n.val = n.val * 1 + 0
  omega

/-- A per-feature vector [64] as the row [1, 64]. -/
theorem feat_row_apply {α : Type} (v : S64.Idx → α) (j : Fin 64) :
    shapeCast S1x64 v shapeCasts_S64_S1x64 (ix2 0 j) = v (ix1 j) := by
  refine shapeCast_apply v shapeCasts_S64_S1x64 (ix2 0 j) (ix1 j) ?_
  rw [Shape.rowMajor_val_two, Shape.rowMajor_val_one]
  show j.val = 0 * 64 + j.val
  omega

/-- The class bias [10] as the row [1, 10]. -/
theorem class_row_apply {α : Type} (v : S10.Idx → α) (q : Fin 10) :
    shapeCast S1x10 v shapeCasts_S10_S1x10 (ix2 0 q) = v (ix1 q) := by
  refine shapeCast_apply v shapeCasts_S10_S1x10 (ix2 0 q) (ix1 q) ?_
  rw [Shape.rowMajor_val_two, Shape.rowMajor_val_one]
  show q.val = 0 * 10 + q.val
  omega

end Cert.Value.K

end
-- ==== Proof.KHost0.lean ====
import proofs.«418702_j33346126086715_3_alg».proof.Proof.KernelIdealRegionsP
import proofs.«418702_j33346126086715_3_alg».proof.Proof.Spec
import proofs.«418702_j33346126086715_3_alg».proof.Proof.LibScatterRows
import proofs.«418702_j33346126086715_3_alg».proof.Proof.KHostLay
import Idealize.ShloMosaic.Lib.StableHlo.Run
import Idealize.ShloMosaic.Lib.IdealHost

/-! What the first host stretch leaves: the flattened source and destination rows of the edge list, the in-degree
    count of every node (a scatter of ones), its clamp at one, and the reciprocal. Each is first named as a function
    of the edge list and read at an index, then identified with the buffer's contents after the stretch. -/

noncomputable section

namespace Cert.Value.K

open Cert.KernelIdeal Cert.KernelIdeal.Gen
open Idealize.ShloMosaic Idealize.ShloMosaic.TcCoe Idealize.SL.Sem Idealize.ShloMosaic.ValueIdx Idealize.ShloMosaic.StableHlo

/-! ## The stretch's values as functions of the edge list -/

/-- The source row of the edge list, flat. -/
def srcFlat (ei : IVec S2x1600000 32) : IVec S1600000 32 :=
  shapeCast S1600000 (extractStridedSlice S1x1600000 ![0, 0] ei slices_S2x1600000_S1x1600000_0_0) shapeCasts_S1x1600000_S1600000

/-- The destination row of the edge list, flat. -/
def dstFlat (ei : IVec S2x1600000 32) : IVec S1600000 32 :=
  shapeCast S1600000 (extractStridedSlice S1x1600000 ![1, 0] ei slices_S2x1600000_S1x1600000_1_0) shapeCasts_S1x1600000_S1600000

theorem srcFlat_apply (ei : IVec S2x1600000 32) (e : Fin 1600000) : srcFlat ei (ix1 e) = ei (ix2 0 e) := by
  unfold srcFlat
  rw [flat_of_row_apply, edge_row0_apply]

theorem dstFlat_apply (ei : IVec S2x1600000 32) (e : Fin 1600000) : dstFlat ei (ix1 e) = ei (ix2 1 e) := by
  unfold dstFlat
  rw [flat_of_row_apply, edge_row1_apply]

/-- The count of edges landing on each node: ones scattered onto zeros along the destination column. -/
def cntArr (ei : IVec S2x1600000 32) : FVec Ideal S100000 .f32 :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 (dstFlat ei))
    (broadcastInDim S1600000 ![] bcast_S_S1600000 (constant (F := Ideal) S_ .f32 0x3F800000#32))

/-- The count clamped below at one. -/
def cArr (ei : IVec S2x1600000 32) : FVec Ideal S100000 .f32 :=
  maximumf (cntArr ei) (broadcastInDim S100000 ![] bcast_S_S100000 (constant (F := Ideal) S_ .f32 0x3F800000#32))

/-- The reciprocal of the clamped count. -/
def invcArr (ei : IVec S2x1600000 32) : FVec Ideal S100000 .f32 :=
  Host.divf (F := Ideal) (broadcastInDim S100000 ![] bcast_S_S100000 (constant (F := Ideal) S_ .f32 0x3F800000#32)) (cArr ei)

theorem cntArr_apply (ei : IVec S2x1600000 32) (n : Fin 100000) : cntArr ei (ix1 n) = Spec.cnt (Spec.landsOf ei) n := by
  unfold cntArr Spec.cnt
  refine (scatterAdd_flat_apply _ _ _ _ n).trans ?_
  rw [splat_apply]
  have hf : (Finset.univ.filter (fun e : Fin 1600000 =>
        (broadcastInDim S1600000x1 ![0] bcast_S1600000_S1600000x1_0 (dstFlat ei) (ix2 e (0 : Fin 1))).toInt = (n.val : ℤ)))
      = Finset.univ.filter (fun e => Spec.landsOf ei e n) :=
    Finset.filter_congr fun e _ => by rw [col_of_flat_apply, dstFlat_apply]
  rw [hf]
  exact congrArg (Spec.zeroW + ·) (Finset.sum_congr rfl fun e _ => splat_apply _ _ _)

theorem cArr_apply (ei : IVec S2x1600000 32) (n : Fin 100000) : cArr ei (ix1 n) = Spec.c (Spec.landsOf ei) n := by
  unfold cArr Spec.c
  rw [maximumf_apply, cntArr_apply, splat_apply]

theorem invcArr_apply (ei : IVec S2x1600000 32) (n : Fin 100000) : invcArr ei (ix1 n) = Spec.invc (Spec.landsOf ei) n := by
  unfold invcArr Spec.invc
  rw [hostDivf_apply, splat_apply, cArr_apply]

/-! ## The buffers after the stretch -/

variable (m : (ℓ : Loc nD τ sig) → Buf (Elt Ideal) ℓ)

/-- The edge list as the program finds it on core `c`. -/
abbrev edges (c : Dev nD) : IVec S2x1600000 32 := m (c, Proc.devRef .tc main_arg1)

theorem V1_main_v1 (c : Dev nD) : (V1 (F := Ideal) m c main_v1 : S1600000.Idx → BitVec 32) = srcFlat (edges m c) := by
  show StableHlo.after hostOps0 (fun b => m (c, b)) (Proc.devRef .tc main_v1) = _
  after_results
  rfl

theorem V1_main_v3 (c : Dev nD) : (V1 (F := Ideal) m c main_v3 : S1600000.Idx → BitVec 32) = dstFlat (edges m c) := by
  show StableHlo.after hostOps0 (fun b => m (c, b)) (Proc.devRef .tc main_v3) = _
  after_results
  rfl

theorem V1_main_v9 (c : Dev nD) : (V1 (F := Ideal) m c main_v9 : S100000.Idx → EReal) = cArr (edges m c) := by
  show StableHlo.after hostOps0 (fun b => m (c, b)) (Proc.devRef .tc main_v9) = _
  after_results
  rfl

theorem V1_main_v11 (c : Dev nD) : (V1 (F := Ideal) m c main_v11 : S100000.Idx → EReal) = invcArr (edges m c) := by
  show StableHlo.after hostOps0 (fun b => m (c, b)) (Proc.devRef .tc main_v11) = _
  after_results
  rfl

/-- WHAT THE FIRST STRETCH LEAVES, at an index: the clamped count and its reciprocal of the specification, over
    the landing test of the edge list's destination row. -/
theorem V1_main_v9_apply (c : Dev nD) (n : Fin 100000) :
    (V1 (F := Ideal) m c main_v9 : S100000.Idx → EReal) (ix1 n) = Spec.c (Spec.landsOf (edges m c)) n := by
  rw [V1_main_v9, cArr_apply]

theorem V1_main_v11_apply (c : Dev nD) (n : Fin 100000) :
    (V1 (F := Ideal) m c main_v11 : S100000.Idx → EReal) (ix1 n) = Spec.invc (Spec.landsOf (edges m c)) n := by
  rw [V1_main_v11, invcArr_apply]

end Cert.Value.K

end
-- ==== Proof.KHost1.lean ====
import proofs.«418702_j33346126086715_3_alg».proof.Proof.KHost0
import proofs.«418702_j33346126086715_3_alg».proof.Proof.LibGatherRows

/-! The aggregation along the edges, which both later host stretches perform on a node table: gather the rows at
    the normalised and clamped source indices, widen them, and scatter-add onto zeros along the destination column.
    Read at an index it is the zero word plus the sum, over the edges landing on the node, of the table's row at the
    edge's source. Then what the second stretch leaves. -/

noncomputable section

namespace Cert.Value.K

open Cert.KernelIdeal Cert.KernelIdeal.Gen
open Idealize.ShloMosaic Idealize.ShloMosaic.TcCoe Idealize.SL.Sem Idealize.ShloMosaic.ValueIdx Idealize.ShloMosaic.StableHlo

/-! ## The aggregation as a function of the flat index rows and the table -/

/-- The source column as the gather takes it: a negative index moved up by the node count. -/
def srcCol (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

theorem srcCol_apply (ei : IVec S2x1600000 32) (e : Fin 1600000) :
    srcCol (srcFlat ei) (ix2 e 0) = Spec.norm (ei (ix2 0 e)) := by
  unfold srcCol Spec.norm
  rw [col_of_flat_apply]
  show Scalar.select (IntOp.cmpi .slt (srcFlat ei (ix1 e)) (broadcastInDim S1600000 ![] bcast_S_S1600000 (constantI S_ 32 0#32) (ix1 e)))
      (IntOp.addi (srcFlat ei (ix1 e)) (broadcastInDim S1600000 ![] bcast_S_S1600000 (constantI S_ 32 100000#32) (ix1 e))) (srcFlat ei (ix1 e)) = _
  rw [splatI_apply, splatI_apply, srcFlat_apply]

/-- The aggregation of a node table `h` along the edges. -/
def aggArr (src dst : IVec S1600000 32) (h : FVec Ideal S100000x64 .bf16) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (extf .f32 (Host.gather gather_S100000x64_S1600000x1_S1600000x64_1_0_n_n_0_1_164 h (srcCol src)) bitsLt_bf16_f32)

/-- THE AGGREGATION AT AN INDEX. -/
theorem aggArr_apply (ei : IVec S2x1600000 32) (h : FVec Ideal S100000x64 .bf16) (n : Fin 100000) (j : Fin 64) :
    aggArr (srcFlat ei) (dstFlat ei) h (ix2 n j)
      = Spec.zeroW + ∑ e ∈ Finset.univ.filter (fun e => Spec.landsOf ei e n), h (ix2 (Spec.rOf ei e) j) := by
  unfold aggArr
  refine (scatterAdd_rows_apply _ _ _ _ n j).trans ?_
  rw [splat_apply]
  have hf : (Finset.univ.filter (fun e : Fin 1600000 =>
        (broadcastInDim S1600000x1 ![0] bcast_S1600000_S1600000x1_0 (dstFlat ei) (ix2 e (0 : Fin 1))).toInt = (n.val : ℤ)))
      = Finset.univ.filter (fun e => Spec.landsOf ei e n) :=
    Finset.filter_congr fun e _ => by rw [col_of_flat_apply, dstFlat_apply]
  rw [hf]
  refine congrArg (Spec.zeroW + ·) (Finset.sum_congr rfl fun e _ => ?_)
  rw [extf_apply]
  refine (gather_rows_apply (by omega) _ h (srcCol (srcFlat ei)) e j).trans ?_
  refine congrArg h (congrArg (fun r : Fin 100000 => ix2 r j) (Fin.ext ?_))
  show min (srcCol (srcFlat ei) (ix2 e (0 : Fin 1))).toInt.toNat (100000 - 1) = min (Spec.norm (ei (ix2 0 e))).toInt.toNat (100000 - 1)
  rw [srcCol_apply]

/-! ## The second stretch over any entry contents -/

section Stretch1
variable (W : Valuation τ sig (Elt Ideal))

set_option maxHeartbeats 1000000 in
theorem hostOps1_main_v23 :
    (StableHlo.after hostOps1 W (Proc.devRef .tc main_v23) : S100000x64.Idx → EReal)
      = aggArr (W (Proc.devRef .tc main_v1)) (W (Proc.devRef .tc main_v3)) (W (Proc.devRef .tc main_v12)) := by
  after_results_simp
  rfl

set_option maxHeartbeats 1000000 in
theorem hostOps1_main_v24 :
    (StableHlo.after hostOps1 W (Proc.devRef .tc main_v24) : S100000x1.Idx → EReal)
      = shapeCast S100000x1 (W (Proc.devRef .tc main_v11) : S100000.Idx → EReal) shapeCasts_S100000_S100000x1 := by
  after_results_simp
  rfl

set_option maxHeartbeats 1000000 in
theorem hostOps1_main_v25 :
    (StableHlo.after hostOps1 W (Proc.devRef .tc main_v25) : S1x64.Idx → EReal)
      = shapeCast S1x64 (W (Proc.devRef .tc main_arg5) : S64.Idx → EReal) shapeCasts_S64_S1x64 := by
  after_results_simp
  rfl

set_option maxHeartbeats 1000000 in
theorem hostOps1_main_v26 :
    (StableHlo.after hostOps1 W (Proc.devRef .tc main_v26) : S1x64.Idx → EReal)
      = shapeCast S1x64 (W (Proc.devRef .tc main_arg9) : S64.Idx → EReal) shapeCasts_S64_S1x64 := by
  after_results_simp
  rfl

set_option maxHeartbeats 1000000 in
theorem hostOps1_main_v27 :
    (StableHlo.after hostOps1 W (Proc.devRef .tc main_v27) : S1x64.Idx → EReal)
      = shapeCast S1x64 (W (Proc.devRef .tc main_arg10) : S64.Idx → EReal) shapeCasts_S64_S1x64 := by
  after_results_simp
  rfl

set_option maxHeartbeats 1000000 in
theorem hostOps1_main_v28 :
    (StableHlo.after hostOps1 W (Proc.devRef .tc main_v28) : S1x64.Idx → EReal)
      = shapeCast S1x64 (W (Proc.devRef .tc main_arg11) : S64.Idx → EReal) shapeCasts_S64_S1x64 := by
  after_results_simp
  rfl

set_option maxHeartbeats 1000000 in
theorem hostOps1_main_v29 :
    (StableHlo.after hostOps1 W (Proc.devRef .tc main_v29) : S1x64.Idx → EReal)
      = shapeCast S1x64 (W (Proc.devRef .tc main_arg12) : S64.Idx → EReal) shapeCasts_S64_S1x64 := by
  after_results_simp
  rfl

end Stretch1

/-! ## The buffers after the second stretch, from the program's memory and the first region's result -/

section AfterStretch1
variable (m : (ℓ : Loc nD τ sig) → Buf (Elt Ideal) ℓ) (outs : Outs (F := Ideal))

/-- The first region's result as the second stretch finds it. -/
abbrev proj1 (c : Dev nD) : FVec Ideal S100000x64 .bf16 := outs 2 main_v12 c

theorem V2_main_v1 (c : Dev nD) : (V2 m outs c main_v1 : S1600000.Idx → BitVec 32) = srcFlat (edges m c) :=
  (V2_of m outs c main_v1 (by decide)).trans (V1_main_v1 m c)

theorem V2_main_v3 (c : Dev nD) : (V2 m outs c main_v3 : S1600000.Idx → BitVec 32) = dstFlat (edges m c) :=
  (V2_of m outs c main_v3 (by decide)).trans (V1_main_v3 m c)

theorem V2_main_v11 (c : Dev nD) : (V2 m outs c main_v11 : S100000.Idx → EReal) = invcArr (edges m c) :=
  (V2_of m outs c main_v11 (by decide)).trans (V1_main_v11 m c)

theorem V2_main_v12 (c : Dev nD) : (V2 m outs c main_v12 : S100000x64.Idx → EReal) = proj1 outs c :=
  Function.update_self _ _ _

/-- THE NEIGHBOUR SUMS OF THE FIRST LAYER, at an index: over the edges landing on the node, the first region's
    result at the edge's source row. -/
theorem V3_main_v23_apply (c : Dev nD) (n : Fin 100000) (j : Fin 64) :
    (V3 m outs c main_v23 : S100000x64.Idx → EReal) (ix2 n j)
      = Spec.zeroW + ∑ e ∈ Finset.univ.filter (fun e => Spec.landsOf (edges m c) e n), proj1 outs c (ix2 (Spec.rOf (edges m c) e) j) := by
  have e := hostOps1_main_v23 (V2 m outs c)
  rw [V2_main_v1, V2_main_v3, V2_main_v12] at e
  exact (congrFun e (ix2 n j)).trans (aggArr_apply (edges m c) (proj1 outs c) n j)

/-- The reciprocal counts as a column. -/
theorem V3_main_v24_apply (c : Dev nD) (n : Fin 100000) :
    (V3 m outs c main_v24 : S100000x1.Idx → EReal) (ix2 n 0) = Spec.invc (Spec.landsOf (edges m c)) n := by
  have e := hostOps1_main_v24 (V2 m outs c)
  rw [V2_main_v11] at e
  exact (congrFun e (ix2 n 0)).trans ((node_col_apply _ n).trans (invcArr_apply (edges m c) n))

/-- The five per-feature vectors of the first layer as rows: the bias, then the normalisation's scale, shift, mean
    and variance. None of them is written before the region, so each is the program's argument. -/
theorem V3_main_v25_apply (c : Dev nD) (j : Fin 64) :
    (V3 m outs c main_v25 : S1x64.Idx → EReal) (ix2 0 j) = (m (c, Proc.devRef .tc main_arg5) : S64.Idx → EReal) (ix1 j) := by
  have e := hostOps1_main_v25 (V2 m outs c)
  rw [show V2 m outs c (Proc.devRef .tc main_arg5) = m (c, Proc.devRef .tc main_arg5) from (V2_of m outs c main_arg5 (by decide)).trans (V1_of m c main_arg5 (by decide))] at e
  exact (congrFun e (ix2 0 j)).trans (feat_row_apply _ j)

theorem V3_main_v26_apply (c : Dev nD) (j : Fin 64) :
    (V3 m outs c main_v26 : S1x64.Idx → EReal) (ix2 0 j) = (m (c, Proc.devRef .tc main_arg9) : S64.Idx → EReal) (ix1 j) := by
  have e := hostOps1_main_v26 (V2 m outs c)
  rw [show V2 m outs c (Proc.devRef .tc main_arg9) = m (c, Proc.devRef .tc main_arg9) from (V2_of m outs c main_arg9 (by decide)).trans (V1_of m c main_arg9 (by decide))] at e
  exact (congrFun e (ix2 0 j)).trans (feat_row_apply _ j)

theorem V3_main_v27_apply (c : Dev nD) (j : Fin 64) :
    (V3 m outs c main_v27 : S1x64.Idx → EReal) (ix2 0 j) = (m (c, Proc.devRef .tc main_arg10) : S64.Idx → EReal) (ix1 j) := by
  have e := hostOps1_main_v27 (V2 m outs c)
  rw [show V2 m outs c (Proc.devRef .tc main_arg10) = m (c, Proc.devRef .tc main_arg10) from (V2_of m outs c main_arg10 (by decide)).trans (V1_of m c main_arg10 (by decide))] at e
  exact (congrFun e (ix2 0 j)).trans (feat_row_apply _ j)

theorem V3_main_v28_apply (c : Dev nD) (j : Fin 64) :
    (V3 m outs c main_v28 : S1x64.Idx → EReal) (ix2 0 j) = (m (c, Proc.devRef .tc main_arg11) : S64.Idx → EReal) (ix1 j) := by
  have e := hostOps1_main_v28 (V2 m outs c)
  rw [show V2 m outs c (Proc.devRef .tc main_arg11) = m (c, Proc.devRef .tc main_arg11) from (V2_of m outs c main_arg11 (by decide)).trans (V1_of m c main_arg11 (by decide))] at e
  exact (congrFun e (ix2 0 j)).trans (feat_row_apply _ j)

theorem V3_main_v29_apply (c : Dev nD) (j : Fin 64) :
    (V3 m outs c main_v29 : S1x64.Idx → EReal) (ix2 0 j) = (m (c, Proc.devRef .tc main_arg12) : S64.Idx → EReal) (ix1 j) := by
  have e := hostOps1_main_v29 (V2 m outs c)
  rw [show V2 m outs c (Proc.devRef .tc main_arg12) = m (c, Proc.devRef .tc main_arg12) from (V2_of m outs c main_arg12 (by decide)).trans (V1_of m c main_arg12 (by decide))] at e
  exact (congrFun e (ix2 0 j)).trans (feat_row_apply _ j)

end AfterStretch1

end Cert.Value.K

end
-- ==== Proof.KVal1.lean ====
import proofs.«418702_j33346126086715_3_alg».proof.Proof.Gen.KernelIdeal.Skeleton
import Idealize.ShloMosaic.Lib.Pipeline.Value
import Idealize.ShloMosaic.Lib.ValueIdx
import Idealize.ShloMosaic.PureOps.Ideal.Laws

/-! The first layer's kernel arithmetic read at an index. At the ideal values every rounding is the identity, the
    product into the zero accumulator is the plain sum over the contraction axis, and the keep-dims broadcasts read a
    column block at column `0` and a row block at row `0`. -/

noncomputable section

namespace Cert.Value.K

open Cert.KernelIdeal Cert.KernelIdeal.Gen
open Idealize.ShloMosaic Idealize.ShloMosaic.TcCoe Idealize.SL.Sem Idealize.ShloMosaic.ValueIdx

/-! ## The operand indices of the [5000,128] × [128,64] product -/

theorem lhs_sage1_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl

theorem lhs_sage1_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q

theorem rhs_sage1_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q

theorem rhs_sage1_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product into the zero accumulator, at row `ρ` and column `j`: the sum over `k` of `a (ρ, k) * b (k, j)`. -/
theorem sage1_matmul_apply (a : FVec Ideal S5000x128 .bf16) (b : FVec Ideal S128x64 .bf16) (ρ : Fin 5000) (j : Fin 64) :
    FloatOps.matmul dot_S5000x128_S128x64_S5000x64_1_0_0_1_n_n none a b (constant S5000x64 .f32 0x00000000#32) (ix2 ρ j)
      = ∑ k : Fin 128, a (ix2 ρ k) * b (ix2 k j) := by
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 ρ j) ((contrEquiv1 dot_S5000x128_S128x64_S5000x64_1_0_0_1_n_n 128 rfl rfl).symm k) = ix2 ρ k := funext fun d => Fin.ext (by
    match d with
    | ⟨0, _⟩ => exact lhs_sage1_0 _ _
    | ⟨1, _⟩ => exact (lhs_sage1_1 _ _).trans hk)
  have er : dot_S5000x128_S128x64_S5000x64_1_0_0_1_n_n.rhsIdx (ix2 ρ j) ((contrEquiv1 dot_S5000x128_S128x64_S5000x64_1_0_0_1_n_n 128 rfl rfl).symm k) = ix2 k j := funext fun d => Fin.ext (by
    match d with
    | ⟨0, _⟩ => exact (rhs_sage1_0 _ _).trans hk
    | ⟨1, _⟩ => exact rhs_sage1_1 _ _)
  rw [el, er]

/-! ## The keep-dims broadcasts at an index -/

/-- A [5000,1] column broadcast along the 64 columns reads the column's row. -/
theorem bcast_col_apply {α : Type} (v : S5000x1.Idx → α) (ρ : Fin 5000) (j : Fin 64) :
    broadcastTo S5000x64 v broadcasts_S5000x1_S5000x64 (ix2 ρ j) = v (ix2 ρ 0) := by
  refine broadcastTo_apply v broadcasts_S5000x1_S5000x64 (ix2 ρ j) (ix2 ρ 0) (fun a => ?_)
  match a with
  | ⟨0, _⟩ => rfl
  | ⟨1, _⟩ => rfl

/-- A [1,64] row broadcast along the 5000 rows reads the row's column. -/
theorem bcast_row_apply {α : Type} (v : S1x64.Idx → α) (ρ : Fin 5000) (j : Fin 64) :
    broadcastTo S5000x64 v broadcasts_S1x64_S5000x64 (ix2 ρ j) = v (ix2 0 j) := by
  refine broadcastTo_apply v broadcasts_S1x64_S5000x64 (ix2 ρ j) (ix2 0 j) (fun a => ?_)
  match a with
  | ⟨0, _⟩ => rfl
  | ⟨1, _⟩ => rfl

/-- The reciprocal square root of a vector, entry by entry. -/
theorem rsqrt_apply {s : Shape} {φ : FTy} (a : FVec Ideal s φ) (i : s.Idx) : rsqrt a i = Ideal.rsqrt (a i) := rfl

/-! ## The payload -/

/-- THE FIRST LAYER'S PAYLOAD AT AN INDEX: the scaled neighbour sum plus the root product plus the bias, normalised
    with the running statistics, clamped at zero. The arguments are the blocks in the order the payload takes them:
    the rows of `x`, the root weight, the neighbour sums, the reciprocal counts, then the bias, scale, shift, mean
    and variance rows. -/
theorem k1_pay1_apply (x : Vec Ideal S5000x128 .f32) (w : Vec Ideal S128x64 .f32) (s : Vec Ideal S5000x64 .f32) (ic : Vec Ideal S5000x1 .f32)
    (b g be mu var : Vec Ideal S1x64 .f32) (ρ : Fin 5000) (j : Fin 64) :
    k1_pay1 (F := Ideal) x w s ic b g be mu var (ix2 ρ j)
      = max ((((((s (ix2 ρ j) * ic (ix2 ρ 0) + ∑ k : Fin 128, x (ix2 ρ k) * w (ix2 k j)) + b (ix2 0 j)) - mu (ix2 0 j))
            * Ideal.rsqrt (var (ix2 0 j) + Ideal.ofBits .f32 0x3727C5AC#32)) * g (ix2 0 j)) + be (ix2 0 j))
          (Ideal.ofBits .f32 0x00000000#32) := by
  unfold k1_pay1
  simp only [shapeCast_self, truncf_apply, maximumf_apply, addf_apply, mulf_apply, subf_apply, broadcast_apply, rsqrt_apply, matmul,
    bcast_col_apply, bcast_row_apply, sage1_matmul_apply]
  rfl

end Cert.Value.K

end
-- ==== Proof.KVal1Arr.lean ====
import proofs.«418702_j33346126086715_3_alg».proof.Proof.KernelIdealReg1
import proofs.«418702_j33346126086715_3_alg».proof.Proof.KVal1
import Idealize.ShloMosaic.Lib.Pipeline.Value
import Idealize.ShloMosaic.Lib.ValueIdx
import Idealize.ShloMosaic.PureOps.Ideal.Laws

/-! # The first layer's output array, entry by entry

Region 1 writes its output in twenty row blocks of 5000 rows. Each block is the layer's arithmetic applied to the
matching row blocks of the input rows, the neighbour sums and the reciprocal counts, and to the whole weight matrix and
the five parameter rows. Since the blocks tile the 100000 rows, the array the region leaves is one function of the nine
arrays it reads: at row `n` and column `j`,
`max (((((S n j * IC n + ∑ k, X n k * W k j) + b j) - μ j) * rsqrt (σ² j + ε)) * γ j + β j) 0`. -/

noncomputable section

namespace Cert.Value.K1

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

/-! ## The layer at one entry -/

/-- One entry of the layer, from the nine arrays: the neighbour sum scaled by the reciprocal count, plus the row through
    the root weight, plus the bias; shifted by the mean, scaled by the reciprocal root of the variance plus epsilon and
    by the gain, shifted by the offset; clamped at zero. The association and the literal words are the kernel's. -/
abbrev layer1 (X : S100000x128.Idx → EReal) (S : S100000x64.Idx → EReal) (IC : S100000x1.Idx → EReal) (W : S128x64.Idx → EReal)
    (b g be mu var : S1x64.Idx → EReal) (n : Fin 100000) (j : Fin 64) : EReal :=
  max ((((((S (ix2 n j) * IC (ix2 n 0) + ∑ k : Fin 128, X (ix2 n k) * W (ix2 k j)) + b (ix2 0 j)) - mu (ix2 0 j))
        * Ideal.rsqrt (var (ix2 0 j) + Ideal.ofBits .f32 0x3727C5AC#32)) * g (ix2 0 j)) + be (ix2 0 j))
      (Ideal.ofBits .f32 0x00000000#32)

theorem off_zero : (![0, 0] : Fin 2 → Nat) = fun _ => 0 := funext fun a => by fin_cases a <;> rfl

/-- The body's output block at row `ρ` and column `j`, from the nine input blocks (window order): the single
    full-rectangle store holds the payload of the full-rectangle loads. -/
theorem out1_9_apply (x0 : Vec Ideal S5000x128 .f32) (x1 : Vec Ideal S5000x64 .f32) (x2 : Vec Ideal S5000x1 .f32) (x3 : Vec Ideal S128x64 .f32)
    (x4 x5 x6 x7 x8 : Vec Ideal S1x64 .f32) (ρ : Fin 5000) (j : Fin 64) :
    out1_9 (F := Ideal) x0 x1 x2 x3 x4 x5 x6 x7 x8 (ix2 ρ j)
      = max ((((((x1 (ix2 ρ j) * x2 (ix2 ρ 0) + ∑ k : Fin 128, x0 (ix2 ρ k) * x3 (ix2 k j)) + x4 (ix2 0 j)) - x7 (ix2 0 j))
            * Ideal.rsqrt (x8 (ix2 0 j) + Ideal.ofBits .f32 0x3727C5AC#32)) * x5 (ix2 0 j)) + x6 (ix2 0 j))
          (Ideal.ofBits .f32 0x00000000#32) := by
  unfold out1_9
  rw [View.canon_unit_zero off_zero]
  simp only [View.ld_unit_zero (S := S5000x128) off_zero, View.ld_unit_zero (S := S128x64) off_zero, View.ld_unit_zero (S := S5000x64) off_zero,
    View.ld_unit_zero (S := S5000x1) off_zero, View.ld_unit_zero (S := S1x64) off_zero]
  exact Cert.Value.K.k1_pay1_apply x0 x3 x1 x2 x4 x5 x6 x7 x8 ρ j

/-- The same with each block entry named by the array entry it is a copy of: row `ρ` of the block is row `n` of the
    row-blocked arrays, and the weight and the parameter rows are whole. -/
theorem out1_9_entry (x0 : Vec Ideal S5000x128 .f32) (x1 : Vec Ideal S5000x64 .f32) (x2 : Vec Ideal S5000x1 .f32) (x3 : Vec Ideal S128x64 .f32)
    (x4 x5 x6 x7 x8 : Vec Ideal S1x64 .f32)
    (X : S100000x128.Idx → EReal) (S : S100000x64.Idx → EReal) (IC : S100000x1.Idx → EReal) (W : S128x64.Idx → EReal)
    (b g be mu var : S1x64.Idx → EReal) (ρ : Fin 5000) (j : Fin 64) (n : Fin 100000)
    (h0 : ∀ k : Fin 128, x0 (ix2 ρ k) = X (ix2 n k)) (h1 : x1 (ix2 ρ j) = S (ix2 n j)) (h2 : x2 (ix2 ρ 0) = IC (ix2 n 0))
    (h3 : ∀ k : Fin 128, x3 (ix2 k j) = W (ix2 k j)) (h4 : x4 (ix2 0 j) = b (ix2 0 j)) (h5 : x5 (ix2 0 j) = g (ix2 0 j))
    (h6 : x6 (ix2 0 j) = be (ix2 0 j)) (h7 : x7 (ix2 0 j) = mu (ix2 0 j)) (h8 : x8 (ix2 0 j) = var (ix2 0 j)) :
    out1_9 (F := Ideal) x0 x1 x2 x3 x4 x5 x6 x7 x8 (ix2 ρ j) = layer1 X S IC W b g be mu var n j := by
  rw [out1_9_apply, h1, h2, h4, h5, h6, h7, h8]
  simp only [h0, h3]

section Arrays
variable (V : (c : Dev nD) → (b : Ref sig .tc) → Buf (Elt Ideal) ((c : Thread nD τ).loc b))

/-! The nine arrays the region reads, as it finds them, each at its literal type. -/
/-- the input rows -/
abbrev xArr (c : Dev nD) : S100000x128.Idx → EReal := V c main_arg0
/-- the neighbour sums of the projected rows -/
abbrev sArr (c : Dev nD) : S100000x64.Idx → EReal := V c main_v23
/-- the reciprocal counts, a column -/
abbrev icArr (c : Dev nD) : S100000x1.Idx → EReal := V c main_v24
/-- the root weight -/
abbrev wArr (c : Dev nD) : S128x64.Idx → EReal := V c main_arg4
/-- the bias row -/
abbrev bRow (c : Dev nD) : S1x64.Idx → EReal := V c main_v25
/-- the gain row -/
abbrev gRow (c : Dev nD) : S1x64.Idx → EReal := V c main_v26
/-- the offset row -/
abbrev beRow (c : Dev nD) : S1x64.Idx → EReal := V c main_v27
/-- the mean row -/
abbrev muRow (c : Dev nD) : S1x64.Idx → EReal := V c main_v28
/-- the variance row -/
abbrev varRow (c : Dev nD) : S1x64.Idx → EReal := V c main_v29

/-! ## Where each window's block sits in its array -/

/-- The block index maps over the grid: the three row-blocked inputs and the output take block `t` of the rows at
    point `t`; the weight and the five parameter rows are their one block at every point. -/
theorem idx_facts1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = t.val ∧ win1_9.index t (1 : Fin 2) = 0) :=
  (by decide +kernel : ∀ t : Fin grid1.N, _)

/-- Row `ρ` of the input rows' block at point `t` is row `5000 t + ρ` of the array. -/
theorem iblk1_0_apply (c : Dev nD) (t : Fin cfg1.N) (ρ : Fin 5000) (k : Fin 128) (n : Fin 100000) (hn : n.val = 5000 * t.val + ρ.val) :
    (iblk1 V c 0 t : Vec Ideal S5000x128 .f32) (ix2 ρ k) = (V c main_arg0 : S100000x128.Idx → EReal) (ix2 n k) := by
  obtain ⟨⟨e0, e1⟩, -⟩ := idx_facts1 t
  show (V c main_arg0 : S100000x128.Idx → EReal) (((cfg1.win 0).blk t).view.emb (ix2 ρ k)) = _
  refine congrArg (V c main_arg0 : S100000x128.Idx → EReal) (funext fun a => Fin.ext ?_)
  match a with
  | ⟨0, _⟩ => show win1_0.index t (0 : Fin 2) * 5000 + 1 * ρ.val = n.val; omega
  | ⟨1, _⟩ => show win1_0.index t (1 : Fin 2) * 128 + 1 * k.val = k.val; omega

/-- Row `ρ` of the neighbour sums' block at point `t` is row `5000 t + ρ` of the array. -/
theorem iblk1_1_apply (c : Dev nD) (t : Fin cfg1.N) (ρ : Fin 5000) (j : Fin 64) (n : Fin 100000) (hn : n.val = 5000 * t.val + ρ.val) :
    (iblk1 V c 1 t : Vec Ideal S5000x64 .f32) (ix2 ρ j) = (V c main_v23 : S100000x64.Idx → EReal) (ix2 n j) := by
  obtain ⟨-, ⟨e0, e1⟩, -⟩ := idx_facts1 t
  show (V c main_v23 : S100000x64.Idx → EReal) (((cfg1.win 1).blk t).view.emb (ix2 ρ j)) = _
  refine congrArg (V c main_v23 : S100000x64.Idx → EReal) (funext fun a => Fin.ext ?_)
  match a with
  | ⟨0, _⟩ => show win1_1.index t (0 : Fin 2) * 5000 + 1 * ρ.val = n.val; omega
  | ⟨1, _⟩ => show win1_1.index t (1 : Fin 2) * 64 + 1 * j.val = j.val; omega

/-- Row `ρ` of the reciprocal counts' block at point `t` is row `5000 t + ρ` of the column. -/
theorem iblk1_2_apply (c : Dev nD) (t : Fin cfg1.N) (ρ : Fin 5000) (n : Fin 100000) (hn : n.val = 5000 * t.val + ρ.val) :
    (iblk1 V c 2 t : Vec Ideal S5000x1 .f32) (ix2 ρ 0) = (V c main_v24 : S100000x1.Idx → EReal) (ix2 n 0) := by
  obtain ⟨-, -, ⟨e0, e1⟩, -⟩ := idx_facts1 t
  show (V c main_v24 : S100000x1.Idx → EReal) (((cfg1.win 2).blk t).view.emb (ix2 ρ 0)) = _
  refine congrArg (V c main_v24 : S100000x1.Idx → EReal) (funext fun a => Fin.ext ?_)
  match a with
  | ⟨0, _⟩ => show win1_2.index t (0 : Fin 2) * 5000 + 1 * ρ.val = n.val; omega
  | ⟨1, _⟩ => show win1_2.index t (1 : Fin 2) * 1 + 1 * (0 : Fin 1).val = (0 : Fin 1).val; omega

/-- The weight's block is the whole weight, at every point. -/
theorem iblk1_3_apply (c : Dev nD) (t : Fin cfg1.N) (k : Fin 128) (j : Fin 64) :
    (iblk1 V c 3 t : Vec Ideal S128x64 .f32) (ix2 k j) = (V c main_arg4 : S128x64.Idx → EReal) (ix2 k j) := by
  obtain ⟨-, -, -, ⟨e0, e1⟩, -⟩ := idx_facts1 t
  show (V c main_arg4 : S128x64.Idx → EReal) (((cfg1.win 3).blk t).view.emb (ix2 k j)) = _
  refine congrArg (V c main_arg4 : S128x64.Idx → EReal) (funext fun a => Fin.ext ?_)
  match a with
  | ⟨0, _⟩ => show win1_3.index t (0 : Fin 2) * 128 + 1 * k.val = k.val; omega
  | ⟨1, _⟩ => show win1_3.index t (1 : Fin 2) * 64 + 1 * j.val = j.val; omega

/-- The bias row's block is the whole row, at every point. -/
theorem iblk1_4_apply (c : Dev nD) (t : Fin cfg1.N) (j : Fin 64) :
    (iblk1 V c 4 t : Vec Ideal S1x64 .f32) (ix2 0 j) = (V c main_v25 : S1x64.Idx → EReal) (ix2 0 j) := by
  obtain ⟨-, -, -, -, ⟨e0, e1⟩, -⟩ := idx_facts1 t
  show (V c main_v25 : S1x64.Idx → EReal) (((cfg1.win 4).blk t).view.emb (ix2 0 j)) = _
  refine congrArg (V c main_v25 : S1x64.Idx → EReal) (funext fun a => Fin.ext ?_)
  match a with
  | ⟨0, _⟩ => show win1_4.index t (0 : Fin 2) * 1 + 1 * (0 : Fin 1).val = (0 : Fin 1).val; omega
  | ⟨1, _⟩ => show win1_4.index t (1 : Fin 2) * 64 + 1 * j.val = j.val; omega

/-- The gain row's block is the whole row, at every point. -/
theorem iblk1_5_apply (c : Dev nD) (t : Fin cfg1.N) (j : Fin 64) :
    (iblk1 V c 5 t : Vec Ideal S1x64 .f32) (ix2 0 j) = (V c main_v26 : S1x64.Idx → EReal) (ix2 0 j) := by
  obtain ⟨-, -, -, -, -, ⟨e0, e1⟩, -⟩ := idx_facts1 t
  show (V c main_v26 : S1x64.Idx → EReal) (((cfg1.win 5).blk t).view.emb (ix2 0 j)) = _
  refine congrArg (V c main_v26 : S1x64.Idx → EReal) (funext fun a => Fin.ext ?_)
  match a with
  | ⟨0, _⟩ => show win1_5.index t (0 : Fin 2) * 1 + 1 * (0 : Fin 1).val = (0 : Fin 1).val; omega
  | ⟨1, _⟩ => show win1_5.index t (1 : Fin 2) * 64 + 1 * j.val = j.val; omega

/-- The offset row's block is the whole row, at every point. -/
theorem iblk1_6_apply (c : Dev nD) (t : Fin cfg1.N) (j : Fin 64) :
    (iblk1 V c 6 t : Vec Ideal S1x64 .f32) (ix2 0 j) = (V c main_v27 : S1x64.Idx → EReal) (ix2 0 j) := by
  obtain ⟨-, -, -, -, -, -, ⟨e0, e1⟩, -⟩ := idx_facts1 t
  show (V c main_v27 : S1x64.Idx → EReal) (((cfg1.win 6).blk t).view.emb (ix2 0 j)) = _
  refine congrArg (V c main_v27 : S1x64.Idx → EReal) (funext fun a => Fin.ext ?_)
  match a with
  | ⟨0, _⟩ => show win1_6.index t (0 : Fin 2) * 1 + 1 * (0 : Fin 1).val = (0 : Fin 1).val; omega
  | ⟨1, _⟩ => show win1_6.index t (1 : Fin 2) * 64 + 1 * j.val = j.val; omega

/-- The mean row's block is the whole row, at every point. -/
theorem iblk1_7_apply (c : Dev nD) (t : Fin cfg1.N) (j : Fin 64) :
    (iblk1 V c 7 t : Vec Ideal S1x64 .f32) (ix2 0 j) = (V c main_v28 : S1x64.Idx → EReal) (ix2 0 j) := by
  obtain ⟨-, -, -, -, -, -, -, ⟨e0, e1⟩, -⟩ := idx_facts1 t
  show (V c main_v28 : S1x64.Idx → EReal) (((cfg1.win 7).blk t).view.emb (ix2 0 j)) = _
  refine congrArg (V c main_v28 : S1x64.Idx → EReal) (funext fun a => Fin.ext ?_)
  match a with
  | ⟨0, _⟩ => show win1_7.index t (0 : Fin 2) * 1 + 1 * (0 : Fin 1).val = (0 : Fin 1).val; omega
  | ⟨1, _⟩ => show win1_7.index t (1 : Fin 2) * 64 + 1 * j.val = j.val; omega

/-- The variance row's block is the whole row, at every point. -/
theorem iblk1_8_apply (c : Dev nD) (t : Fin cfg1.N) (j : Fin 64) :
    (iblk1 V c 8 t : Vec Ideal S1x64 .f32) (ix2 0 j) = (V c main_v29 : S1x64.Idx → EReal) (ix2 0 j) := by
  obtain ⟨-, -, -, -, -, -, -, -, ⟨e0, e1⟩, -⟩ := idx_facts1 t
  show (V c main_v29 : S1x64.Idx → EReal) (((cfg1.win 8).blk t).view.emb (ix2 0 j)) = _
  refine congrArg (V c main_v29 : S1x64.Idx → EReal) (funext fun a => Fin.ext ?_)
  match a with
  | ⟨0, _⟩ => show win1_8.index t (0 : Fin 2) * 1 + 1 * (0 : Fin 1).val = (0 : Fin 1).val; omega
  | ⟨1, _⟩ => show win1_8.index t (1 : Fin 2) * 64 + 1 * j.val = j.val; omega

/-! ## The array the region leaves -/

/-- The layer over the whole array, from the nine arrays as the region finds them. -/
abbrev arr1 (c : Dev nD) : S100000x64.Idx → EReal := fun i =>
  layer1 (xArr V c) (sArr V c) (icArr V c) (wArr V c) (bRow V c) (gRow V c) (beRow V c) (muRow V c) (varRow V c) (i 0) (i 1)

/-- What point `t` writes back is block `t` of `arr1`. -/
theorem flushed1_9_eq (c : Dev nD) (t : Fin cfg1.N) :
    (dat1 V c).flushed 9 t = ((cfg1.win 9).blk t).view.read (Elt Ideal) (arr1 V c) := by
  show (cfg1.win 9).cut (grid1.coords t) ((dat1 V c).after 9 t) = _
  rw [after1_9]
  refine funext fun (y : S5000x64.Idx) => ?_
  obtain ⟨ρ, j, rfl⟩ : ∃ (ρ : Fin 5000) (j : Fin 64), y = ix2 ρ j := ⟨y 0, y 1, eq_ix2 y⟩
  have hN : cfg1.N = 20 := N_1
  have ht : t.val < 20 := hN ▸ t.isLt
  obtain ⟨-, -, -, -, -, -, -, -, -, ⟨e0, e1⟩⟩ := idx_facts1 t
  have hemb : ((cfg1.win 9).blk t).view.emb (ix2 ρ j) = ix2 (⟨5000 * t.val + ρ.val, by omega⟩ : Fin 100000) j :=
    funext fun a => Fin.ext (by
      match a with
      | ⟨0, _⟩ => show win1_9.index t (0 : Fin 2) * 5000 + 1 * ρ.val = 5000 * t.val + ρ.val; omega
      | ⟨1, _⟩ => show win1_9.index t (1 : Fin 2) * 64 + 1 * j.val = j.val; omega)
  show out1_9 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (ix2 ρ j) = arr1 V c (((cfg1.win 9).blk t).view.emb (ix2 ρ j))
  rw [hemb]
  exact out1_9_entry (iblk1 V c 0 t) (iblk1 V c 1 t) (iblk1 V c 2 t) (iblk1 V c 3 t) (iblk1 V c 4 t) (iblk1 V c 5 t) (iblk1 V c 6 t) (iblk1 V c 7 t) (iblk1 V c 8 t) _ _ _ _ _ _ _ _ _ ρ j ⟨5000 * t.val + ρ.val, by omega⟩
    (fun k => iblk1_0_apply V c t ρ k _ rfl) (iblk1_1_apply V c t ρ j _ rfl) (iblk1_2_apply V c t ρ _ rfl)
    (fun k => iblk1_3_apply V c t k j) (iblk1_4_apply V c t j) (iblk1_5_apply V c t j) (iblk1_6_apply V c t j)
    (iblk1_7_apply V c t j) (iblk1_8_apply V c t j)

/-- An index of the output array is in point `t`'s block iff, on each axis, it is within the block's range. -/
theorem mem_blk1_9 (t : Fin cfg1.N) (i : S100000x64.Idx) :
    i ∈ ((cfg1.win 9).blk t).view.set ↔ ∀ a : Fin 2, win1_9.index t a * S5000x64.size a ≤ (i a).val ∧ (i a).val < win1_9.index t a * S5000x64.size a + S5000x64.size a := by
  show i ∈ ((View.whole main_v30).slice (win1_9.rect t)).set ↔ _
  rw [View.set_slice_whole, Rect.mem_set_unit]
  exact Iff.rfl

/-- The twenty blocks tile the rows: row `n` is in the block of point `n / 5000`, and every point writes back. -/
theorem cover_blk1_9 (i : S100000x64.Idx) : ∃ t : Fin cfg1.N, (cfg1.win 9).flush t = true ∧ i ∈ ((cfg1.win 9).blk t).view.set := by
  have hN : cfg1.N = 20 := N_1
  have hi0 : (i 0).val < 100000 := (i 0).isLt
  have hi1 : (i 1).val < 64 := (i 1).isLt
  let t : Fin cfg1.N := ⟨(i 0).val / 5000, by rw [hN]; omega⟩
  have htv : t.val = (i 0).val / 5000 := rfl
  obtain ⟨-, -, -, -, -, -, -, -, -, ⟨e0, e1⟩⟩ := idx_facts1 t
  refine ⟨t, flush1_9 t, ?_⟩
  rw [mem_blk1_9]
  intro a
  match a with
  | ⟨0, _⟩ => show win1_9.index t (0 : Fin 2) * 5000 ≤ (i 0).val ∧ (i 0).val < win1_9.index t (0 : Fin 2) * 5000 + 5000; omega
  | ⟨1, _⟩ => show win1_9.index t (1 : Fin 2) * 64 ≤ (i 1).val ∧ (i 1).val < win1_9.index t (1 : Fin 2) * 64 + 64; omega

/-- THE ARRAY AFTER THE REGION: the layer of the nine arrays the region reads, at every entry. -/
theorem arrAt1_9_eq (c : Dev nD) : (dat1 V c).arrAt 9 cfg1.N = arr1 V c :=
  (dat1 V c).arrAt_eq_of_cover 9 (arr1 V c) (fun t _ => flushed1_9_eq V c t) (cover_blk1_9)

/-- The same at row `n` and column `j`, written out. -/
theorem arrAt1_9_apply (c : Dev nD) (n : Fin 100000) (j : Fin 64) :
    ((dat1 V c).arrAt 9 cfg1.N : S100000x64.Idx → EReal) (ix2 n j)
      = max ((((((sArr V c (ix2 n j) * icArr V c (ix2 n 0) + ∑ k : Fin 128, xArr V c (ix2 n k) * wArr V c (ix2 k j)) + bRow V c (ix2 0 j))
            - muRow V c (ix2 0 j)) * Ideal.rsqrt (varRow V c (ix2 0 j) + Ideal.ofBits .f32 0x3727C5AC#32)) * gRow V c (ix2 0 j)) + beRow V c (ix2 0 j))
          (Ideal.ofBits .f32 0x00000000#32) :=
  congrFun (arrAt1_9_eq V c) (ix2 n j)

end Arrays

end Cert.Value.K1

end
-- ==== Proof.SpecLaws1.lean ====
import proofs.«418702_j33346126086715_3_alg».proof.Proof.Spec

/-!
# Laws between the two arrangements: layers 1 and 2, and the row maximum

The second program projects layer 1's input rows before it sums them over the landing edges and multiplies by the
reciprocal of the divisor where the first divides the summed rows and projects after; it adds the bias last where the
first adds it before the root term; it multiplies by the reciprocal in layer 2 where the first divides. On real inputs
(for the projection law) and for a divisor that is a real at least one (for the others) the two agree.
-/

noncomputable section

namespace Cert.Value.Spec

open Idealize.ShloMosaic Idealize.ShloMosaic.ValueIdx
open scoped BigOperators

/-! ## The words -/

theorem zeroW_eq : zeroW = 0 := Ideal.ofBits_zero_f32

theorem oneW_eq : oneW = 1 := by
  have h : ((8388608 : ℝ) * ((2 : ℝ) ^ 23)⁻¹) = 1 := by norm_num
  simp [Ideal.ofBits, Ideal.ieee]
  exact_mod_cast h

theorem ninfW_eq : ninfW = ⊥ := by
  simp [Ideal.ofBits, Ideal.ieee]

/-- The bf16 word of 1.0 (the all-ones column of the count). -/
theorem ofBits_one_bf16 : Ideal.ofBits .bf16 0x3F80#16 = 1 := by
  have h : ((128 : ℝ) * ((2 : ℝ) ^ 7)⁻¹) = 1 := by norm_num
  simp [Ideal.ofBits, Ideal.ieee]
  exact_mod_cast h

/-! ## Real sums inside the extended reals -/

/-- The inclusion of the reals is additive. -/
def coeHom : ℝ →+ EReal where
  toFun x := (x : EReal)
  map_zero' := EReal.coe_zero
  map_add' := EReal.coe_add

theorem coe_sum {ι : Type*} (s : Finset ι) (f : ι → ℝ) :
    ((∑ a ∈ s, f a : ℝ) : EReal) = ∑ a ∈ s, (f a : EReal) :=
  map_sum coeHom f s

theorem coe_max (a b : ℝ) : max (a : EReal) (b : EReal) = ((max a b : ℝ) : EReal) :=
  (EReal.coe_strictMono.monotone.map_max).symm

/-- A sum of ones from zero is the number of terms. -/
theorem zero_add_sum_one {ι : Type*} (s : Finset ι) :
    (0 : EReal) + ∑ _a ∈ s, (1 : EReal) = ((s.card : ℝ) : EReal) := by
  rw [zero_add, Finset.sum_const, nsmul_one]
  rfl

/-- The reciprocal of a nonzero real. -/
theorem div_one_coe {c : ℝ} (hc : c ≠ 0) : Ideal.div 1 (c : EReal) = ((1 / c : ℝ) : EReal) := by
  rw [Ideal.div_coe hc, one_mul]

/-- (L2) Multiplying by the reciprocal of a nonzero real is dividing by it, at the infinities too. -/
theorem mul_div_one {c : ℝ} (hc : c ≠ 0) (a : EReal) : a * Ideal.div 1 (c : EReal) = Ideal.div a (c : EReal) := by
  rw [Ideal.div_coe hc, Ideal.div_coe hc, one_mul]

/-- (L3) The order of the three summands. -/
theorem add_three (A D b : EReal) : (A + D) + b = (A + b) + D := add_right_comm A D b

/-- (L1, abstractly) Mean, then projection, against projection, then sum, then the reciprocal: equal on real data. -/
theorem mean_then_project {E K : Type*} [Fintype K] (S : Finset E) (xr : E → K → ℝ) (w : K → ℝ) {c : ℝ} (hc : c ≠ 0) :
    ∑ k : K, Ideal.div ((0 : EReal) + ∑ e ∈ S, ((xr e k : ℝ) : EReal)) (c : EReal) * ((w k : ℝ) : EReal)
      = ((0 : EReal) + ∑ e ∈ S, ∑ k : K, ((xr e k : ℝ) : EReal) * ((w k : ℝ) : EReal)) * Ideal.div 1 (c : EReal) := by
  simp only [Ideal.div_coe hc, zero_add, one_mul, ← coe_sum, ← EReal.coe_mul]
  congr 1
  rw [Finset.sum_comm, Finset.sum_mul]
  refine Finset.sum_congr rfl fun k _ => ?_
  rw [← Finset.sum_mul]
  ring

/-- The fold of the maximum from a start value is at least the start value. -/
theorem le_fold_max {ι : Type*} (s : Finset ι) (b : EReal) (f : ι → EReal) : b ≤ s.fold max b f := by
  classical
  induction s using Finset.induction_on with
  | empty => simp
  | insert a s ha ih => rw [Finset.fold_insert ha]; exact le_trans ih (le_max_right _ _)

theorem max_fold_max {ι : Type*} (s : Finset ι) (b : EReal) (f : ι → EReal) :
    max b (s.fold max b f) = s.fold max b f :=
  max_eq_right (le_fold_max s b f)

/-! ## The divisor is a real, at least one -/

variable (P : Params) (r : Fin 1600000 → Fin 100000)
  (lands : Fin 1600000 → Fin 100000 → Prop) [∀ e n, Decidable (lands e n)]
  (landsB : Fin 100000 → Fin 128 → Prop) [∀ m g, Decidable (landsB m g)]

/-- The number of edges landing on row n. -/
def deg (n : Fin 100000) : ℕ := (Finset.univ.filter (fun e => lands e n)).card

/-- The real divisor of row n. -/
def cr (n : Fin 100000) : ℝ := max (deg lands n : ℝ) 1

theorem cnt_eq (n : Fin 100000) : cnt lands n = ((deg lands n : ℝ) : EReal) := by
  unfold cnt deg
  rw [zeroW_eq, oneW_eq]
  exact zero_add_sum_one _

/-- The count is a real, not negative. -/
theorem cnt_real (n : Fin 100000) : ∃ v : ℝ, 0 ≤ v ∧ cnt lands n = (v : EReal) :=
  ⟨deg lands n, Nat.cast_nonneg _, cnt_eq lands n⟩

theorem c_eq (n : Fin 100000) : c lands n = ((cr lands n : ℝ) : EReal) := by
  unfold c cr
  rw [cnt_eq, oneW_eq, ← EReal.coe_one, coe_max]

theorem one_le_cr (n : Fin 100000) : 1 ≤ cr lands n := le_max_right _ _

theorem cr_ne_zero (n : Fin 100000) : cr lands n ≠ 0 := by
  have := one_le_cr lands n
  intro h; rw [h] at this; norm_num at this

/-- The divisor is a real, at least one. -/
theorem c_real (n : Fin 100000) : ∃ v : ℝ, 1 ≤ v ∧ c lands n = (v : EReal) :=
  ⟨cr lands n, one_le_cr lands n, c_eq lands n⟩

theorem invc_eq (n : Fin 100000) : invc lands n = ((1 / cr lands n : ℝ) : EReal) := by
  unfold invc
  rw [c_eq, oneW_eq]
  exact div_one_coe (cr_ne_zero lands n)

/-! ## The laws at the stages -/

/-- (L1) On real input rows and a real neighbour weight, the mean's projection is the projected sum times the reciprocal. -/
theorem L1 (hx : ∀ i, ∃ v : ℝ, P.x i = (v : EReal)) (hW : ∀ i, ∃ v : ℝ, P.W1l i = (v : EReal))
    (n : Fin 100000) (j : Fin 64) :
    ∑ k : Fin 128, m1 P r lands n k * P.W1l (ix2 k j) = s1 P r lands n j * invc lands n := by
  choose xr hxr using hx
  choose wr hwr using hW
  unfold m1 s1 xl1 invc
  simp only [hxr, hwr, c_eq, zeroW_eq, oneW_eq]
  exact mean_then_project _ (fun e k => xr (ix2 (r e) k)) (fun k => wr (ix2 k j)) (cr_ne_zero lands n)

/-- (L2 at layer 2) The mean of layer 2 is the sum times the reciprocal. -/
theorem m2_eq (n : Fin 100000) (k : Fin 64) : m2 P r lands n k = s2 P r lands n k * invc lands n := by
  unfold m2 invc
  rw [c_eq, oneW_eq]
  exact (mul_div_one (cr_ne_zero lands n) _).symm

/-- Layer 1 in the second program's arrangement. -/
theorem a1_kernel (hx : ∀ i, ∃ v : ℝ, P.x i = (v : EReal)) (hW : ∀ i, ∃ v : ℝ, P.W1l i = (v : EReal))
    (n : Fin 100000) (j : Fin 64) :
    ((s1 P r lands n j * invc lands n) + ∑ k : Fin 128, P.x (ix2 n k) * P.W1r (ix2 k j)) + P.b1 (ix1 j)
      = a1 P r lands n j := by
  unfold a1
  rw [L1 P r lands hx hW n j]
  exact add_right_comm _ _ _

/-- Layer 2 in the second program's arrangement. -/
theorem a2_kernel (n : Fin 100000) (j : Fin 64) :
    ((∑ k : Fin 64, (s2 P r lands n k * invc lands n) * P.W2l (ix2 k j))
        + ∑ k : Fin 64, h1 P r lands n k * P.W2r (ix2 k j)) + P.b2 (ix1 j)
      = a2 P r lands n j := by
  unfold a2
  simp only [m2_eq]
  exact add_right_comm _ _ _

/-- The host's extra maximum with the start word changes nothing. -/
theorem mx_eq (g : Fin 128) : mx P r lands landsB g = rowmax fun q => lg P r lands landsB g q := by
  unfold mx rowmax
  exact max_fold_max _ _ _

end Cert.Value.Spec

end
-- ==== Proof.SpecLaws2.lean ====
import proofs.«418702_j33346126086715_3_alg».proof.Proof.SpecLaws1

/-!
# Whole stages in the second program's arrangement

Layer 1's and layer 2's outputs with the second program's order of operations, and the row-wise log-softmax with the
second program's row maximum (no extra maximum with the start word) and its sum of exponentials (no zero it starts from).
-/

noncomputable section

namespace Cert.Value.Spec

open Idealize.ShloMosaic Idealize.ShloMosaic.ValueIdx
open scoped BigOperators

variable (P : Params) (r : Fin 1600000 → Fin 100000)
  (lands : Fin 1600000 → Fin 100000 → Prop) [∀ e n, Decidable (lands e n)]
  (landsB : Fin 100000 → Fin 128 → Prop) [∀ m g, Decidable (landsB m g)]

/-- The normalisation as a conditional: a negative index is moved up by the number of rows. -/
theorem norm_eq (s : BitVec 32) : norm s = if s.slt 0#32 then s + 100000#32 else s := by
  unfold norm Scalar.select IntOp.cmpi IntOp.addi
  cases h : s.slt 0#32 <;> simp [h]

/-- Layer 1's output in the second program's arrangement. -/
theorem h1_kernel (hx : ∀ i, ∃ v : ℝ, P.x i = (v : EReal)) (hW : ∀ i, ∃ v : ℝ, P.W1l i = (v : EReal))
    (n : Fin 100000) (j : Fin 64) :
    max (bnorm P.bn1g P.bn1b P.bn1m P.bn1v
      (((s1 P r lands n j * invc lands n) + ∑ k : Fin 128, P.x (ix2 n k) * P.W1r (ix2 k j)) + P.b1 (ix1 j)) j) zeroW
      = h1 P r lands n j := by
  rw [a1_kernel P r lands hx hW n j]; rfl

/-- Layer 2's output in the second program's arrangement. -/
theorem h2_kernel (n : Fin 100000) (j : Fin 64) :
    max (bnorm P.bn2g P.bn2b P.bn2m P.bn2v
      (((∑ k : Fin 64, (s2 P r lands n k * invc lands n) * P.W2l (ix2 k j))
        + ∑ k : Fin 64, h1 P r lands n k * P.W2r (ix2 k j)) + P.b2 (ix1 j)) j) zeroW
      = h2 P r lands n j := by
  rw [a2_kernel P r lands n j]; rfl

/-- The log-softmax of a row of ten in the first program's arrangement. -/
def lsmRef (f : Fin 10 → EReal) (q : Fin 10) : EReal :=
  (f q - max ninfW (rowmax f)) - Ideal.log (zeroW + ∑ q' : Fin 10, Ideal.exp (f q' - max ninfW (rowmax f)))

/-- The log-softmax of a row of ten in the second program's arrangement. -/
def lsmK (f : Fin 10 → EReal) (q : Fin 10) : EReal :=
  (f q - rowmax f) - Ideal.log (∑ q' : Fin 10, Ideal.exp (f q' - rowmax f))

theorem lsmK_eq_lsmRef (f : Fin 10 → EReal) (q : Fin 10) : lsmK f q = lsmRef f q := by
  unfold lsmK lsmRef
  have h : max ninfW (rowmax f) = rowmax f := max_fold_max _ _ _
  rw [h, zeroW_eq, zero_add]

/-- The function is the first arrangement's log-softmax of the logits … -/
theorem result_eq_lsmRef (g : Fin 128) (q : Fin 10) :
    result P r lands landsB g q = lsmRef (fun q' => lg P r lands landsB g q') q := rfl

/-- … and the second arrangement's. -/
theorem result_eq_lsmK (g : Fin 128) (q : Fin 10) :
    result P r lands landsB g q = lsmK (fun q' => lg P r lands landsB g q') q :=
  (result_eq_lsmRef P r lands landsB g q).trans (lsmK_eq_lsmRef _ q).symm

end Cert.Value.Spec

end
-- ==== Proof.KChain1.lean ====
import proofs.«418702_j33346126086715_3_alg».proof.Proof.KJoin0
import proofs.«418702_j33346126086715_3_alg».proof.Proof.KHost1
import proofs.«418702_j33346126086715_3_alg».proof.Proof.KVal1Arr
import proofs.«418702_j33346126086715_3_alg».proof.Proof.SpecLaws2

/-! The second link of the chain: what the first layer's call leaves in its result array is the specification's
    `h1`. The call is entered after the second host stretch, which has summed the projected rows along the edges
    (the specification's `s1`, once the projection's result is `xl1`), reshaped the reciprocal counts into a column
    and five parameter vectors into rows, and written no argument. The body's arrangement — scale the neighbour sum
    by the reciprocal count, add the root product, then the bias — is the specification's on real data. -/

noncomputable section

namespace Cert.Value.KJ

open Cert.KernelIdeal Cert.KernelIdeal.Gen Cert.KernelIdeal.Frm Cert.Value.K
open Idealize.ShloMosaic Idealize.ShloMosaic.TcCoe Idealize.SL.Sem Idealize.ShloMosaic.ValueIdx Idealize.ShloMosaic.StableHlo

variable (m : (ℓ : Loc nD τ sig) → Buf (Elt Ideal) ℓ) (outs : Outs (F := Ideal))

/-- The contents the first layer's call is entered with: after the second host stretch, over whatever the regions
    before it left (`outs`). -/
abbrev E1 : (c : Dev nD) → (b : Ref sig .tc) → Buf (Elt Ideal) ((c : Thread nD τ).loc b) := fun c b => V3 m outs c b

/-- An argument no stretch or region before the first layer's call writes is the launch memory's. -/
theorem V3_arg (c : Dev nD) (r : Ref sig .tc) (h3 : r ∉ hostOps1_W) (h2 : r ∉ ([main_v12] : List (Ref sig .tc)))
    (h1 : r ∉ hostOps0_W) : V3 m outs c r = m (c, Proc.devRef .tc r) :=
  (V3_of m outs c r h3).trans ((V2_of m outs c r h2).trans (V1_of m c r h1))

/-! ## The call's nine entry arrays -/

theorem E1_x (c : Dev nD) : K1.xArr (E1 m outs) c = (paramsK m c).x :=
  (V3_arg m outs c main_arg0 (by decide) (by decide) (by decide)).trans rfl
theorem E1_w (c : Dev nD) : K1.wArr (E1 m outs) c = (paramsK m c).W1r :=
  (V3_arg m outs c main_arg4 (by decide) (by decide) (by decide)).trans rfl

/-- The neighbour sums, once the projection's result is `xl1`: the specification's `s1`. -/
theorem E1_s (c : Dev nD) (h0 : ∀ n j, proj1 outs c (ix2 n j) = Spec.xl1 (paramsK m c) n j) (n : Fin 100000) (j : Fin 64) :
    K1.sArr (E1 m outs) c (ix2 n j) = Spec.s1 (paramsK m c) (Spec.rOf (edges m c)) (Spec.landsOf (edges m c)) n j := by
  refine (V3_main_v23_apply m outs c n j).trans ?_
  unfold Spec.s1
  exact congrArg (fun s => Spec.zeroW + s) (Finset.sum_congr rfl fun e _ => h0 _ j)

theorem E1_ic (c : Dev nD) (n : Fin 100000) :
    K1.icArr (E1 m outs) c (ix2 n 0) = Spec.invc (Spec.landsOf (edges m c)) n :=
  V3_main_v24_apply m outs c n
theorem E1_b (c : Dev nD) (j : Fin 64) : K1.bRow (E1 m outs) c (ix2 0 j) = (paramsK m c).b1 (ix1 j) :=
  V3_main_v25_apply m outs c j
theorem E1_g (c : Dev nD) (j : Fin 64) : K1.gRow (E1 m outs) c (ix2 0 j) = (paramsK m c).bn1g (ix1 j) :=
  V3_main_v26_apply m outs c j
theorem E1_be (c : Dev nD) (j : Fin 64) : K1.beRow (E1 m outs) c (ix2 0 j) = (paramsK m c).bn1b (ix1 j) :=
  V3_main_v27_apply m outs c j
theorem E1_mu (c : Dev nD) (j : Fin 64) : K1.muRow (E1 m outs) c (ix2 0 j) = (paramsK m c).bn1m (ix1 j) :=
  V3_main_v28_apply m outs c j
theorem E1_var (c : Dev nD) (j : Fin 64) : K1.varRow (E1 m outs) c (ix2 0 j) = (paramsK m c).bn1v (ix1 j) :=
  V3_main_v29_apply m outs c j

/-- LINK 1: the first layer's result array, entry by entry, is `h1` of the arguments — when the projection's result
    is `xl1` and the rows of `x` and the neighbour weight are real. -/
theorem link1 (c : Dev nD) (h0 : ∀ n j, proj1 outs c (ix2 n j) = Spec.xl1 (paramsK m c) n j)
    (hx : ∀ i, ∃ v : ℝ, (paramsK m c).x i = (v : EReal)) (hW : ∀ i, ∃ v : ℝ, (paramsK m c).W1l i = (v : EReal))
    (n : Fin 100000) (j : Fin 64) :
    ((dat1 (E1 m outs) c).arrAt 9 cfg1.N : S100000x64.Idx → EReal) (ix2 n j)
      = Spec.h1 (paramsK m c) (Spec.rOf (edges m c)) (Spec.landsOf (edges m c)) n j := by
  rw [K1.arrAt1_9_apply, E1_x, E1_w, E1_s m outs c h0, E1_ic, E1_b, E1_g, E1_be, E1_mu, E1_var]
  exact Spec.h1_kernel (paramsK m c) (Spec.rOf (edges m c)) (Spec.landsOf (edges m c)) hx hW n j

end Cert.Value.KJ

end
-- ==== Proof.KHost2.lean ====
import proofs.«418702_j33346126086715_3_alg».proof.Proof.KHost1

/-! What the third host stretch leaves: the aggregation of the first layer's output along the edges, the reciprocal
    counts and the graph assignment as columns, and the per-feature vectors of the second layer and of the
    classifier as rows. -/

noncomputable section

namespace Cert.Value.K

open Cert.KernelIdeal Cert.KernelIdeal.Gen
open Idealize.ShloMosaic Idealize.ShloMosaic.TcCoe Idealize.SL.Sem Idealize.ShloMosaic.ValueIdx Idealize.ShloMosaic.StableHlo

/-! ## The third stretch over any entry contents -/

section Stretch2
variable (W : Valuation τ sig (Elt Ideal))

set_option maxHeartbeats 1000000 in
theorem hostOps2_main_v41 :
    (StableHlo.after hostOps2 W (Proc.devRef .tc main_v41) : S100000x64.Idx → EReal)
      = aggArr (W (Proc.devRef .tc main_v1)) (W (Proc.devRef .tc main_v3)) (W (Proc.devRef .tc main_v30)) := by
  after_results_simp
  rfl

set_option maxHeartbeats 1000000 in
theorem hostOps2_main_v42 :
    (StableHlo.after hostOps2 W (Proc.devRef .tc main_v42) : S100000x1.Idx → EReal)
      = shapeCast S100000x1 (W (Proc.devRef .tc main_v11) : S100000.Idx → EReal) shapeCasts_S100000_S100000x1 := by
  after_results_simp
  rfl

set_option maxHeartbeats 1000000 in
theorem hostOps2_main_v43 :
    (StableHlo.after hostOps2 W (Proc.devRef .tc main_v43) : S100000x1.Idx → BitVec 32)
      = shapeCast S100000x1 (W (Proc.devRef .tc main_arg2) : S100000.Idx → BitVec 32) shapeCasts_S100000_S100000x1 := by
  after_results_simp
  rfl

set_option maxHeartbeats 1000000 in
theorem hostOps2_main_v44 :
    (StableHlo.after hostOps2 W (Proc.devRef .tc main_v44) : S1x64.Idx → EReal)
      = shapeCast S1x64 (W (Proc.devRef .tc main_arg8) : S64.Idx → EReal) shapeCasts_S64_S1x64 := by
  after_results_simp
  rfl

set_option maxHeartbeats 1000000 in
theorem hostOps2_main_v45 :
    (StableHlo.after hostOps2 W (Proc.devRef .tc main_v45) : S1x64.Idx → EReal)
      = shapeCast S1x64 (W (Proc.devRef .tc main_arg13) : S64.Idx → EReal) shapeCasts_S64_S1x64 := by
  after_results_simp
  rfl

set_option maxHeartbeats 1000000 in
theorem hostOps2_main_v46 :
    (StableHlo.after hostOps2 W (Proc.devRef .tc main_v46) : S1x64.Idx → EReal)
      = shapeCast S1x64 (W (Proc.devRef .tc main_arg14) : S64.Idx → EReal) shapeCasts_S64_S1x64 := by
  after_results_simp
  rfl

set_option maxHeartbeats 1000000 in
theorem hostOps2_main_v47 :
    (StableHlo.after hostOps2 W (Proc.devRef .tc main_v47) : S1x64.Idx → EReal)
      = shapeCast S1x64 (W (Proc.devRef .tc main_arg15) : S64.Idx → EReal) shapeCasts_S64_S1x64 := by
  after_results_simp
  rfl

set_option maxHeartbeats 1000000 in
theorem hostOps2_main_v48 :
    (StableHlo.after hostOps2 W (Proc.devRef .tc main_v48) : S1x64.Idx → EReal)
      = shapeCast S1x64 (W (Proc.devRef .tc main_arg16) : S64.Idx → EReal) shapeCasts_S64_S1x64 := by
  after_results_simp
  rfl

set_option maxHeartbeats 1000000 in
theorem hostOps2_main_v49 :
    (StableHlo.after hostOps2 W (Proc.devRef .tc main_v49) : S1x64.Idx → EReal)
      = shapeCast S1x64 (W (Proc.devRef .tc main_arg18) : S64.Idx → EReal) shapeCasts_S64_S1x64 := by
  after_results_simp
  rfl

set_option maxHeartbeats 1000000 in
theorem hostOps2_main_v50 :
    (StableHlo.after hostOps2 W (Proc.devRef .tc main_v50) : S1x64.Idx → EReal)
      = shapeCast S1x64 (W (Proc.devRef .tc main_arg19) : S64.Idx → EReal) shapeCasts_S64_S1x64 := by
  after_results_simp
  rfl

set_option maxHeartbeats 1000000 in
theorem hostOps2_main_v51 :
    (StableHlo.after hostOps2 W (Proc.devRef .tc main_v51) : S1x64.Idx → EReal)
      = shapeCast S1x64 (W (Proc.devRef .tc main_arg20) : S64.Idx → EReal) shapeCasts_S64_S1x64 := by
  after_results_simp
  rfl

set_option maxHeartbeats 1000000 in
theorem hostOps2_main_v52 :
    (StableHlo.after hostOps2 W (Proc.devRef .tc main_v52) : S1x64.Idx → EReal)
      = shapeCast S1x64 (W (Proc.devRef .tc main_arg21) : S64.Idx → EReal) shapeCasts_S64_S1x64 := by
  after_results_simp
  rfl

set_option maxHeartbeats 1000000 in
theorem hostOps2_main_v53 :
    (StableHlo.after hostOps2 W (Proc.devRef .tc main_v53) : S1x64.Idx → EReal)
      = shapeCast S1x64 (W (Proc.devRef .tc main_arg22) : S64.Idx → EReal) shapeCasts_S64_S1x64 := by
  after_results_simp
  rfl

set_option maxHeartbeats 1000000 in
theorem hostOps2_main_v54 :
    (StableHlo.after hostOps2 W (Proc.devRef .tc main_v54) : S1x10.Idx → EReal)
      = shapeCast S1x10 (W (Proc.devRef .tc main_arg24) : S10.Idx → EReal) shapeCasts_S10_S1x10 := by
  after_results_simp
  rfl

end Stretch2

/-! ## The buffers after the third stretch, from the program's memory and the first two regions' results -/

section AfterStretch2
variable (m : (ℓ : Loc nD τ sig) → Buf (Elt Ideal) ℓ) (outs : Outs (F := Ideal))

/-- The second region's result (the first layer's output) as the third stretch finds it. -/
abbrev layer1 (c : Dev nD) : FVec Ideal S100000x64 .bf16 := outs 4 main_v30 c

/-- A buffer neither region result nor host stretch writes before the third stretch is the program's. -/
theorem V4_arg (c : Dev nD) (r : Ref sig .tc) (h4 : r ∉ ([main_v30] : List (Ref sig .tc))) (h3 : r ∉ hostOps1_W)
    (h2 : r ∉ ([main_v12] : List (Ref sig .tc))) (h1 : r ∉ hostOps0_W) : V4 m outs c r = m (c, Proc.devRef .tc r) :=
  (V4_of m outs c r h4).trans ((V3_of m outs c r h3).trans ((V2_of m outs c r h2).trans (V1_of m c r h1)))

theorem V4_main_v1 (c : Dev nD) : (V4 m outs c main_v1 : S1600000.Idx → BitVec 32) = srcFlat (edges m c) :=
  (V4_of m outs c main_v1 (by decide)).trans ((V3_of m outs c main_v1 (by decide)).trans (V2_main_v1 m outs c))

theorem V4_main_v3 (c : Dev nD) : (V4 m outs c main_v3 : S1600000.Idx → BitVec 32) = dstFlat (edges m c) :=
  (V4_of m outs c main_v3 (by decide)).trans ((V3_of m outs c main_v3 (by decide)).trans (V2_main_v3 m outs c))

theorem V4_main_v11 (c : Dev nD) : (V4 m outs c main_v11 : S100000.Idx → EReal) = invcArr (edges m c) :=
  (V4_of m outs c main_v11 (by decide)).trans ((V3_of m outs c main_v11 (by decide)).trans (V2_main_v11 m outs c))

theorem V4_main_v30 (c : Dev nD) : (V4 m outs c main_v30 : S100000x64.Idx → EReal) = layer1 outs c :=
  Function.update_self _ _ _

/-- THE NEIGHBOUR SUMS OF THE SECOND LAYER, at an index: over the edges landing on the node, the second region's
    result at the edge's source row. -/
theorem V5_main_v41_apply (c : Dev nD) (n : Fin 100000) (k : Fin 64) :
    (V5 m outs c main_v41 : S100000x64.Idx → EReal) (ix2 n k)
      = Spec.zeroW + ∑ e ∈ Finset.univ.filter (fun e => Spec.landsOf (edges m c) e n), layer1 outs c (ix2 (Spec.rOf (edges m c) e) k) := by
  have e := hostOps2_main_v41 (V4 m outs c)
  rw [V4_main_v1, V4_main_v3, V4_main_v30] at e
  exact (congrFun e (ix2 n k)).trans (aggArr_apply (edges m c) (layer1 outs c) n k)

/-- The reciprocal counts as a column. -/
theorem V5_main_v42_apply (c : Dev nD) (n : Fin 100000) :
    (V5 m outs c main_v42 : S100000x1.Idx → EReal) (ix2 n 0) = Spec.invc (Spec.landsOf (edges m c)) n := by
  have e := hostOps2_main_v42 (V4 m outs c)
  rw [V4_main_v11] at e
  exact (congrFun e (ix2 n 0)).trans ((node_col_apply _ n).trans (invcArr_apply (edges m c) n))

/-- The graph assignment as a column. -/
theorem V5_main_v43_apply (c : Dev nD) (n : Fin 100000) :
    (V5 m outs c main_v43 : S100000x1.Idx → BitVec 32) (ix2 n 0) = (m (c, Proc.devRef .tc main_arg2) : S100000.Idx → BitVec 32) (ix1 n) := by
  have e := hostOps2_main_v43 (V4 m outs c)
  rw [V4_arg m outs c main_arg2 (by decide) (by decide) (by decide) (by decide)] at e
  exact (congrFun e (ix2 n 0)).trans (node_col_apply _ n)

theorem V5_main_v44_apply (c : Dev nD) (j : Fin 64) :
    (V5 m outs c main_v44 : S1x64.Idx → EReal) (ix2 0 j) = (m (c, Proc.devRef .tc main_arg8) : S64.Idx → EReal) (ix1 j) := by
  have e := hostOps2_main_v44 (V4 m outs c)
  rw [V4_arg m outs c main_arg8 (by decide) (by decide) (by decide) (by decide)] at e
  exact (congrFun e (ix2 0 j)).trans (feat_row_apply _ j)

theorem V5_main_v45_apply (c : Dev nD) (j : Fin 64) :
    (V5 m outs c main_v45 : S1x64.Idx → EReal) (ix2 0 j) = (m (c, Proc.devRef .tc main_arg13) : S64.Idx → EReal) (ix1 j) := by
  have e := hostOps2_main_v45 (V4 m outs c)
  rw [V4_arg m outs c main_arg13 (by decide) (by decide) (by decide) (by decide)] at e
  exact (congrFun e (ix2 0 j)).trans (feat_row_apply _ j)

theorem V5_main_v46_apply (c : Dev nD) (j : Fin 64) :
    (V5 m outs c main_v46 : S1x64.Idx → EReal) (ix2 0 j) = (m (c, Proc.devRef .tc main_arg14) : S64.Idx → EReal) (ix1 j) := by
  have e := hostOps2_main_v46 (V4 m outs c)
  rw [V4_arg m outs c main_arg14 (by decide) (by decide) (by decide) (by decide)] at e
  exact (congrFun e (ix2 0 j)).trans (feat_row_apply _ j)

theorem V5_main_v47_apply (c : Dev nD) (j : Fin 64) :
    (V5 m outs c main_v47 : S1x64.Idx → EReal) (ix2 0 j) = (m (c, Proc.devRef .tc main_arg15) : S64.Idx → EReal) (ix1 j) := by
  have e := hostOps2_main_v47 (V4 m outs c)
  rw [V4_arg m outs c main_arg15 (by decide) (by decide) (by decide) (by decide)] at e
  exact (congrFun e (ix2 0 j)).trans (feat_row_apply _ j)

theorem V5_main_v48_apply (c : Dev nD) (j : Fin 64) :
    (V5 m outs c main_v48 : S1x64.Idx → EReal) (ix2 0 j) = (m (c, Proc.devRef .tc main_arg16) : S64.Idx → EReal) (ix1 j) := by
  have e := hostOps2_main_v48 (V4 m outs c)
  rw [V4_arg m outs c main_arg16 (by decide) (by decide) (by decide) (by decide)] at e
  exact (congrFun e (ix2 0 j)).trans (feat_row_apply _ j)

theorem V5_main_v49_apply (c : Dev nD) (j : Fin 64) :
    (V5 m outs c main_v49 : S1x64.Idx → EReal) (ix2 0 j) = (m (c, Proc.devRef .tc main_arg18) : S64.Idx → EReal) (ix1 j) := by
  have e := hostOps2_main_v49 (V4 m outs c)
  rw [V4_arg m outs c main_arg18 (by decide) (by decide) (by decide) (by decide)] at e
  exact (congrFun e (ix2 0 j)).trans (feat_row_apply _ j)

theorem V5_main_v50_apply (c : Dev nD) (j : Fin 64) :
    (V5 m outs c main_v50 : S1x64.Idx → EReal) (ix2 0 j) = (m (c, Proc.devRef .tc main_arg19) : S64.Idx → EReal) (ix1 j) := by
  have e := hostOps2_main_v50 (V4 m outs c)
  rw [V4_arg m outs c main_arg19 (by decide) (by decide) (by decide) (by decide)] at e
  exact (congrFun e (ix2 0 j)).trans (feat_row_apply _ j)

theorem V5_main_v51_apply (c : Dev nD) (j : Fin 64) :
    (V5 m outs c main_v51 : S1x64.Idx → EReal) (ix2 0 j) = (m (c, Proc.devRef .tc main_arg20) : S64.Idx → EReal) (ix1 j) := by
  have e := hostOps2_main_v51 (V4 m outs c)
  rw [V4_arg m outs c main_arg20 (by decide) (by decide) (by decide) (by decide)] at e
  exact (congrFun e (ix2 0 j)).trans (feat_row_apply _ j)

theorem V5_main_v52_apply (c : Dev nD) (j : Fin 64) :
    (V5 m outs c main_v52 : S1x64.Idx → EReal) (ix2 0 j) = (m (c, Proc.devRef .tc main_arg21) : S64.Idx → EReal) (ix1 j) := by
  have e := hostOps2_main_v52 (V4 m outs c)
  rw [V4_arg m outs c main_arg21 (by decide) (by decide) (by decide) (by decide)] at e
  exact (congrFun e (ix2 0 j)).trans (feat_row_apply _ j)

theorem V5_main_v53_apply (c : Dev nD) (j : Fin 64) :
    (V5 m outs c main_v53 : S1x64.Idx → EReal) (ix2 0 j) = (m (c, Proc.devRef .tc main_arg22) : S64.Idx → EReal) (ix1 j) := by
  have e := hostOps2_main_v53 (V4 m outs c)
  rw [V4_arg m outs c main_arg22 (by decide) (by decide) (by decide) (by decide)] at e
  exact (congrFun e (ix2 0 j)).trans (feat_row_apply _ j)

theorem V5_main_v54_apply (c : Dev nD) (q : Fin 10) :
    (V5 m outs c main_v54 : S1x10.Idx → EReal) (ix2 0 q) = (m (c, Proc.devRef .tc main_arg24) : S10.Idx → EReal) (ix1 q) := by
  have e := hostOps2_main_v54 (V4 m outs c)
  rw [V4_arg m outs c main_arg24 (by decide) (by decide) (by decide) (by decide)] at e
  exact (congrFun e (ix2 0 q)).trans (class_row_apply _ q)

end AfterStretch2

end Cert.Value.K

end
-- ==== Proof.KVal2Dot.lean ====
/- The five matrix products of the pooling-and-classifier kernel, each read at an index at the ideal values:
   into a zero accumulator a product is the plain sum, over the one contracted coordinate, of the operands' products. -/
import proofs.«418702_j33346126086715_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.Value.K2

open Cert.KernelIdeal Cert.KernelIdeal.Gen Idealize.ShloMosaic Idealize.ShloMosaic.TcCoe Idealize.SL.Sem
open Idealize.ShloMosaic.ValueIdx

/-! ### S5000x64 times S64x64: rows by columns, one contracted axis of extent 64 -/

theorem lhs_w2_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_w2_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_w2_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_w2_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The product into the zero accumulator, read at row `p` and column `c`: the sum over the contracted coordinate. -/
theorem matmul_w2_apply (l : FVec Ideal S5000x64 .bf16) (r : FVec Ideal S64x64 .bf16) (p : Fin 5000) (c : Fin 64) :
    matmul dot_S5000x64_S64x64_S5000x64_1_0_0_1_n_n none l r (constant (F := Ideal) S5000x64 .f32 0x00000000#32) (ix2 p c)
      = ∑ k : Fin 64, l (ix2 p k) * r (ix2 k c) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p c) ((contrEquiv1 dot_S5000x64_S64x64_S5000x64_1_0_0_1_n_n 64 rfl rfl).symm k) = ix2 p k := funext fun a => Fin.ext (by
    match a with
    | ⟨0, _⟩ => exact lhs_w2_0 _ _
    | ⟨1, _⟩ => exact (lhs_w2_1 _ _).trans hk)
  have er : dot_S5000x64_S64x64_S5000x64_1_0_0_1_n_n.rhsIdx (ix2 p c) ((contrEquiv1 dot_S5000x64_S64x64_S5000x64_1_0_0_1_n_n 64 rfl rfl).symm k) = ix2 k c := funext fun a => Fin.ext (by
    match a with
    | ⟨0, _⟩ => exact (rhs_w2_0 _ _).trans hk
    | ⟨1, _⟩ => exact rhs_w2_1 _ _)
  rw [el, er]

/-! ### S128x64 times S64x64: rows by columns, one contracted axis of extent 64 -/

theorem lhs_c1_0 (i : S128x64.Idx) (q : dot_S128x64_S64x64_S128x64_1_0_0_1_n_n.contr.Idx) :
    (dot_S128x64_S64x64_S128x64_1_0_0_1_n_n.lhsIdx i q 0).val = (i 0).val := by
  unfold DotDims.lhsIdx
  rw [dif_neg (show ¬(0 : Fin S128x64.rank) ∈ dot_S128x64_S64x64_S128x64_1_0_0_1_n_n.lhsBatch by decide), dif_pos (show (0 : Fin S128x64.rank) ∈ dot_S128x64_S64x64_S128x64_1_0_0_1_n_n.lhsNonContracting by decide)]
  rfl
theorem lhs_c1_1 (i : S128x64.Idx) (q : dot_S128x64_S64x64_S128x64_1_0_0_1_n_n.contr.Idx) :
    (dot_S128x64_S64x64_S128x64_1_0_0_1_n_n.lhsIdx i q 1).val = (q ⟨0, by decide⟩).val :=
  dot_S128x64_S64x64_S128x64_1_0_0_1_n_n.lhsIdx_val_of_single rfl i q
theorem rhs_c1_0 (i : S128x64.Idx) (q : dot_S128x64_S64x64_S128x64_1_0_0_1_n_n.contr.Idx) :
    (dot_S128x64_S64x64_S128x64_1_0_0_1_n_n.rhsIdx i q 0).val = (q ⟨0, by decide⟩).val :=
  dot_S128x64_S64x64_S128x64_1_0_0_1_n_n.rhsIdx_val_of_single rfl i q
theorem rhs_c1_1 (i : S128x64.Idx) (q : dot_S128x64_S64x64_S128x64_1_0_0_1_n_n.contr.Idx) :
    (dot_S128x64_S64x64_S128x64_1_0_0_1_n_n.rhsIdx i q 1).val = (i 1).val := by
  unfold DotDims.rhsIdx
  rw [dif_neg (show ¬(1 : Fin S64x64.rank) ∈ dot_S128x64_S64x64_S128x64_1_0_0_1_n_n.rhsBatch by decide), dif_pos (show (1 : Fin S64x64.rank) ∈ dot_S128x64_S64x64_S128x64_1_0_0_1_n_n.rhsNonContracting by decide)]
  rfl

/-- The product into the zero accumulator, read at row `p` and column `c`: the sum over the contracted coordinate. -/
theorem matmul_c1_apply (l : FVec Ideal S128x64 .bf16) (r : FVec Ideal S64x64 .bf16) (p : Fin 128) (c : Fin 64) :
    matmul dot_S128x64_S64x64_S128x64_1_0_0_1_n_n none l r (constant (F := Ideal) S128x64 .f32 0x00000000#32) (ix2 p c)
      = ∑ k : Fin 64, l (ix2 p k) * r (ix2 k c) := by
  simp only [matmul]
  rw [Ideal.matmul_constant_zero_apply, ← Equiv.sum_comp (contrEquiv1 dot_S128x64_S64x64_S128x64_1_0_0_1_n_n 64 rfl rfl).symm]
  refine Finset.sum_congr rfl fun k _ => ?_
  have hk := contrEquiv1_symm_val dot_S128x64_S64x64_S128x64_1_0_0_1_n_n 64 rfl rfl k
  have el : dot_S128x64_S64x64_S128x64_1_0_0_1_n_n.lhsIdx (ix2 p c) ((contrEquiv1 dot_S128x64_S64x64_S128x64_1_0_0_1_n_n 64 rfl rfl).symm k) = ix2 p k := funext fun a => Fin.ext (by
    match a with
    | ⟨0, _⟩ => exact lhs_c1_0 _ _
    | ⟨1, _⟩ => exact (lhs_c1_1 _ _).trans hk)
  have er : dot_S128x64_S64x64_S128x64_1_0_0_1_n_n.rhsIdx (ix2 p c) ((contrEquiv1 dot_S128x64_S64x64_S128x64_1_0_0_1_n_n 64 rfl rfl).symm k) = ix2 k c := funext fun a => Fin.ext (by
    match a with
    | ⟨0, _⟩ => exact (rhs_c1_0 _ _).trans hk
    | ⟨1, _⟩ => exact rhs_c1_1 _ _)
  rw [el, er]

/-! ### S128x64 times S64x10: rows by columns, one contracted axis of extent 64 -/

theorem lhs_c2_0 (i : S128x10.Idx) (q : dot_S128x64_S64x10_S128x10_1_0_0_1_n_n.contr.Idx) :
    (dot_S128x64_S64x10_S128x10_1_0_0_1_n_n.lhsIdx i q 0).val = (i 0).val := by
  unfold DotDims.lhsIdx
  rw [dif_neg (show ¬(0 : Fin S128x64.rank) ∈ dot_S128x64_S64x10_S128x10_1_0_0_1_n_n.lhsBatch by decide), dif_pos (show (0 : Fin S128x64.rank) ∈ dot_S128x64_S64x10_S128x10_1_0_0_1_n_n.lhsNonContracting by decide)]
  rfl
theorem lhs_c2_1 (i : S128x10.Idx) (q : dot_S128x64_S64x10_S128x10_1_0_0_1_n_n.contr.Idx) :
    (dot_S128x64_S64x10_S128x10_1_0_0_1_n_n.lhsIdx i q 1).val = (q ⟨0, by decide⟩).val :=
  dot_S128x64_S64x10_S128x10_1_0_0_1_n_n.lhsIdx_val_of_single rfl i q
theorem rhs_c2_0 (i : S128x10.Idx) (q : dot_S128x64_S64x10_S128x10_1_0_0_1_n_n.contr.Idx) :
    (dot_S128x64_S64x10_S128x10_1_0_0_1_n_n.rhsIdx i q 0).val = (q ⟨0, by decide⟩).val :=
  dot_S128x64_S64x10_S128x10_1_0_0_1_n_n.rhsIdx_val_of_single rfl i q
theorem rhs_c2_1 (i : S128x10.Idx) (q : dot_S128x64_S64x10_S128x10_1_0_0_1_n_n.contr.Idx) :
    (dot_S128x64_S64x10_S128x10_1_0_0_1_n_n.rhsIdx i q 1).val = (i 1).val := by
  unfold DotDims.rhsIdx
  rw [dif_neg (show ¬(1 : Fin S64x10.rank) ∈ dot_S128x64_S64x10_S128x10_1_0_0_1_n_n.rhsBatch by decide), dif_pos (show (1 : Fin S64x10.rank) ∈ dot_S128x64_S64x10_S128x10_1_0_0_1_n_n.rhsNonContracting by decide)]
  rfl

/-- The product into the zero accumulator, read at row `p` and column `c`: the sum over the contracted coordinate. -/
theorem matmul_c2_apply (l : FVec Ideal S128x64 .bf16) (r : FVec Ideal S64x10 .bf16) (p : Fin 128) (c : Fin 10) :
    matmul dot_S128x64_S64x10_S128x10_1_0_0_1_n_n none l r (constant (F := Ideal) S128x10 .f32 0x00000000#32) (ix2 p c)
      = ∑ k : Fin 64, l (ix2 p k) * r (ix2 k c) := by
  simp only [matmul]
  rw [Ideal.matmul_constant_zero_apply, ← Equiv.sum_comp (contrEquiv1 dot_S128x64_S64x10_S128x10_1_0_0_1_n_n 64 rfl rfl).symm]
  refine Finset.sum_congr rfl fun k _ => ?_
  have hk := contrEquiv1_symm_val dot_S128x64_S64x10_S128x10_1_0_0_1_n_n 64 rfl rfl k
  have el : dot_S128x64_S64x10_S128x10_1_0_0_1_n_n.lhsIdx (ix2 p c) ((contrEquiv1 dot_S128x64_S64x10_S128x10_1_0_0_1_n_n 64 rfl rfl).symm k) = ix2 p k := funext fun a => Fin.ext (by
    match a with
    | ⟨0, _⟩ => exact lhs_c2_0 _ _
    | ⟨1, _⟩ => exact (lhs_c2_1 _ _).trans hk)
  have er : dot_S128x64_S64x10_S128x10_1_0_0_1_n_n.rhsIdx (ix2 p c) ((contrEquiv1 dot_S128x64_S64x10_S128x10_1_0_0_1_n_n 64 rfl rfl).symm k) = ix2 k c := funext fun a => Fin.ext (by
    match a with
    | ⟨0, _⟩ => exact (rhs_c2_0 _ _).trans hk
    | ⟨1, _⟩ => exact rhs_c2_1 _ _)
  rw [el, er]

/-! ### S5000x128 (contracted on its rows) times S5000x64: column `g` of the left against column `c` of the right, over the 5000 rows -/

theorem lhs_pool_0 (i : S128x64.Idx) (q : dot_S5000x128_S5000x64_S128x64_0_0_1_1_n_n.contr.Idx) :
    (dot_S5000x128_S5000x64_S128x64_0_0_1_1_n_n.lhsIdx i q 0).val = (q ⟨0, by decide⟩).val :=
  dot_S5000x128_S5000x64_S128x64_0_0_1_1_n_n.lhsIdx_val_of_single rfl i q
theorem lhs_pool_1 (i : S128x64.Idx) (q : dot_S5000x128_S5000x64_S128x64_0_0_1_1_n_n.contr.Idx) :
    (dot_S5000x128_S5000x64_S128x64_0_0_1_1_n_n.lhsIdx i q 1).val = (i 0).val := by
  unfold DotDims.lhsIdx
  rw [dif_neg (show ¬(1 : Fin S5000x128.rank) ∈ dot_S5000x128_S5000x64_S128x64_0_0_1_1_n_n.lhsBatch by decide), dif_pos (show (1 : Fin S5000x128.rank) ∈ dot_S5000x128_S5000x64_S128x64_0_0_1_1_n_n.lhsNonContracting by decide)]
  rfl
theorem rhs_pool_0 (i : S128x64.Idx) (q : dot_S5000x128_S5000x64_S128x64_0_0_1_1_n_n.contr.Idx) :
    (dot_S5000x128_S5000x64_S128x64_0_0_1_1_n_n.rhsIdx i q 0).val = (q ⟨0, by decide⟩).val :=
  dot_S5000x128_S5000x64_S128x64_0_0_1_1_n_n.rhsIdx_val_of_single rfl i q
theorem rhs_pool_1 (i : S128x64.Idx) (q : dot_S5000x128_S5000x64_S128x64_0_0_1_1_n_n.contr.Idx) :
    (dot_S5000x128_S5000x64_S128x64_0_0_1_1_n_n.rhsIdx i q 1).val = (i 1).val := by
  unfold DotDims.rhsIdx
  rw [dif_neg (show ¬(1 : Fin S5000x64.rank) ∈ dot_S5000x128_S5000x64_S128x64_0_0_1_1_n_n.rhsBatch by decide), dif_pos (show (1 : Fin S5000x64.rank) ∈ dot_S5000x128_S5000x64_S128x64_0_0_1_1_n_n.rhsNonContracting by decide)]
  rfl

/-- The product into the zero accumulator, read at `(g, c)`: the sum over the rows `ρ` of the left's `(ρ, g)` times the right's `(ρ, c)`. -/
theorem matmul_pool_apply (l : FVec Ideal S5000x128 .bf16) (r : FVec Ideal S5000x64 .bf16) (g : Fin 128) (c : Fin 64) :
    matmul dot_S5000x128_S5000x64_S128x64_0_0_1_1_n_n none l r (constant (F := Ideal) S128x64 .f32 0x00000000#32) (ix2 g c)
      = ∑ ρ : Fin 5000, l (ix2 ρ g) * r (ix2 ρ c) := by
  simp only [matmul]
  rw [Ideal.matmul_constant_zero_apply, ← Equiv.sum_comp (contrEquiv1 dot_S5000x128_S5000x64_S128x64_0_0_1_1_n_n 5000 rfl rfl).symm]
  refine Finset.sum_congr rfl fun k _ => ?_
  have hk := contrEquiv1_symm_val dot_S5000x128_S5000x64_S128x64_0_0_1_1_n_n 5000 rfl rfl k
  have el : dot_S5000x128_S5000x64_S128x64_0_0_1_1_n_n.lhsIdx (ix2 g c) ((contrEquiv1 dot_S5000x128_S5000x64_S128x64_0_0_1_1_n_n 5000 rfl rfl).symm k) = ix2 k g := funext fun a => Fin.ext (by
    match a with
    | ⟨0, _⟩ => exact (lhs_pool_0 _ _).trans hk
    | ⟨1, _⟩ => exact lhs_pool_1 _ _)
  have er : dot_S5000x128_S5000x64_S128x64_0_0_1_1_n_n.rhsIdx (ix2 g c) ((contrEquiv1 dot_S5000x128_S5000x64_S128x64_0_0_1_1_n_n 5000 rfl rfl).symm k) = ix2 k c := funext fun a => Fin.ext (by
    match a with
    | ⟨0, _⟩ => exact (rhs_pool_0 _ _).trans hk
    | ⟨1, _⟩ => exact rhs_pool_1 _ _)
  rw [el, er]

/-! ### S5000x128 (contracted on its rows) times S5000x1: column `g` of the left against column `c` of the right, over the 5000 rows -/

theorem lhs_cnt_0 (i : S128x1.Idx) (q : dot_S5000x128_S5000x1_S128x1_0_0_1_1_n_n.contr.Idx) :
    (dot_S5000x128_S5000x1_S128x1_0_0_1_1_n_n.lhsIdx i q 0).val = (q ⟨0, by decide⟩).val :=
  dot_S5000x128_S5000x1_S128x1_0_0_1_1_n_n.lhsIdx_val_of_single rfl i q
theorem lhs_cnt_1 (i : S128x1.Idx) (q : dot_S5000x128_S5000x1_S128x1_0_0_1_1_n_n.contr.Idx) :
    (dot_S5000x128_S5000x1_S128x1_0_0_1_1_n_n.lhsIdx i q 1).val = (i 0).val := by
  unfold DotDims.lhsIdx
  rw [dif_neg (show ¬(1 : Fin S5000x128.rank) ∈ dot_S5000x128_S5000x1_S128x1_0_0_1_1_n_n.lhsBatch by decide), dif_pos (show (1 : Fin S5000x128.rank) ∈ dot_S5000x128_S5000x1_S128x1_0_0_1_1_n_n.lhsNonContracting by decide)]
  rfl
theorem rhs_cnt_0 (i : S128x1.Idx) (q : dot_S5000x128_S5000x1_S128x1_0_0_1_1_n_n.contr.Idx) :
    (dot_S5000x128_S5000x1_S128x1_0_0_1_1_n_n.rhsIdx i q 0).val = (q ⟨0, by decide⟩).val :=
  dot_S5000x128_S5000x1_S128x1_0_0_1_1_n_n.rhsIdx_val_of_single rfl i q
theorem rhs_cnt_1 (i : S128x1.Idx) (q : dot_S5000x128_S5000x1_S128x1_0_0_1_1_n_n.contr.Idx) :
    (dot_S5000x128_S5000x1_S128x1_0_0_1_1_n_n.rhsIdx i q 1).val = (i 1).val := by
  unfold DotDims.rhsIdx
  rw [dif_neg (show ¬(1 : Fin S5000x1.rank) ∈ dot_S5000x128_S5000x1_S128x1_0_0_1_1_n_n.rhsBatch by decide), dif_pos (show (1 : Fin S5000x1.rank) ∈ dot_S5000x128_S5000x1_S128x1_0_0_1_1_n_n.rhsNonContracting by decide)]
  rfl

/-- The product into the zero accumulator, read at `(g, c)`: the sum over the rows `ρ` of the left's `(ρ, g)` times the right's `(ρ, c)`. -/
theorem matmul_cnt_apply (l : FVec Ideal S5000x128 .bf16) (r : FVec Ideal S5000x1 .bf16) (g : Fin 128) (c : Fin 1) :
    matmul dot_S5000x128_S5000x1_S128x1_0_0_1_1_n_n none l r (constant (F := Ideal) S128x1 .f32 0x00000000#32) (ix2 g c)
      = ∑ ρ : Fin 5000, l (ix2 ρ g) * r (ix2 ρ c) := by
  simp only [matmul]
  rw [Ideal.matmul_constant_zero_apply, ← Equiv.sum_comp (contrEquiv1 dot_S5000x128_S5000x1_S128x1_0_0_1_1_n_n 5000 rfl rfl).symm]
  refine Finset.sum_congr rfl fun k _ => ?_
  have hk := contrEquiv1_symm_val dot_S5000x128_S5000x1_S128x1_0_0_1_1_n_n 5000 rfl rfl k
  have el : dot_S5000x128_S5000x1_S128x1_0_0_1_1_n_n.lhsIdx (ix2 g c) ((contrEquiv1 dot_S5000x128_S5000x1_S128x1_0_0_1_1_n_n 5000 rfl rfl).symm k) = ix2 k g := funext fun a => Fin.ext (by
    match a with
    | ⟨0, _⟩ => exact (lhs_cnt_0 _ _).trans hk
    | ⟨1, _⟩ => exact lhs_cnt_1 _ _)
  have er : dot_S5000x128_S5000x1_S128x1_0_0_1_1_n_n.rhsIdx (ix2 g c) ((contrEquiv1 dot_S5000x128_S5000x1_S128x1_0_0_1_1_n_n 5000 rfl rfl).symm k) = ix2 k c := funext fun a => Fin.ext (by
    match a with
    | ⟨0, _⟩ => exact (rhs_cnt_0 _ _).trans hk
    | ⟨1, _⟩ => exact rhs_cnt_1 _ _)
  rw [el, er]

end Cert.Value.K2

end
-- ==== Proof.KVal2Lay.lean ====
/- Layout operations of the pooling-and-classifier kernel read at an index: a column broadcast over the lanes,
   a vector cast to a one-column array, and the index a row reduction reads. -/
import proofs.«418702_j33346126086715_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.Value.K2

open Cert.KernelIdeal Cert.KernelIdeal.Gen Idealize.ShloMosaic Idealize.ShloMosaic.TcCoe Idealize.SL.Sem
open Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index a reduction over the columns of a `[128, 10]` array reads for row `g` and column `q`. -/
theorem lift_rows10 (h : S128x10.Reduces [1] S128) (g : Fin 128) (q : Fin 10) :
    h.lift (ix1 g) q = ix2 g q :=
  funext fun a => Fin.ext (by
    match a with
    | ⟨0, _⟩ => rfl
    | ⟨1, _⟩ => rfl)

end Cert.Value.K2

end
-- ==== Proof.KVal2Pay.lean ====
/- The payloads of the pooling-and-classifier kernel read at an index, at the ideal values: the one-hot block, the
   layer-2 pre-activation, the two scratch updates, the resets of the first point, and at the last point the hidden
   layer of the head and the log-softmax of its logits. -/
import proofs.«418702_j33346126086715_3_alg».proof.Proof.KVal2Dot
import proofs.«418702_j33346126086715_3_alg».proof.Proof.KVal2Lay
import Idealize.ShloMosaic.Lib.KernelVsHost

noncomputable section

namespace Cert.Value.K2

open Cert.KernelIdeal Cert.KernelIdeal.Gen Idealize.ShloMosaic Idealize.ShloMosaic.TcCoe Idealize.SL.Sem
open Idealize.ShloMosaic.ValueIdx

/-! ## The payloads of the pooling-and-classifier kernel read at an index -/

/-- The one-hot entry: 1 where lane `g`'s number is the word of row `ρ`'s graph, else 0. -/
def onehot (bb : IVec S5000x1 32) (ρ : Fin 5000) (g : Fin 128) : EReal :=
  if BitVec.ofNat 32 g.val = bb (ix2 ρ (0 : Fin 1)) then 1 else 0

/-- The one-hot block of a point, at row `ρ` and lane `g`. -/
theorem pay1_apply (bb : IVec S5000x1 32) (ρ : Fin 5000) (g : Fin 128) :
    k2_pay1 (F := Ideal) bb (ix2 ρ g) = onehot bb ρ g := by
  unfold k2_pay1
  simp only [truncf_apply, sitofp_apply, extui_apply, shapeCast_self]
  show ((((IntOp.cmpi .eq (iota .tc S5000x128 32 [1] iota_S5000x128_d1_w32 (ix2 ρ g))
      (broadcastTo S5000x128 bb broadcasts_S5000x1_S5000x128 (ix2 ρ g))).setWidth 32).toInt : ℝ) : EReal) = _
  rw [iota_single_apply, broadcastTo_a1_ab_apply, toInt_setWidth_bit]
  unfold onehot
  by_cases h : BitVec.ofNat 32 g.val = bb (ix2 ρ (0 : Fin 1))
  · have e : IntOp.cmpi .eq (BitVec.ofNat 32 (ix2 ρ g 1).val) (bb (ix2 ρ (0 : Fin 1))) = 1#1 := by
      have hb : (BitVec.ofNat 32 g.val == bb (ix2 ρ (0 : Fin 1))) = true := by rw [beq_iff_eq]; exact h
      show BitVec.ofBool (BitVec.ofNat 32 g.val == bb (ix2 ρ (0 : Fin 1))) = 1#1
      rw [hb]; rfl
    rw [e, if_pos h]; simp
  · have e : IntOp.cmpi .eq (BitVec.ofNat 32 (ix2 ρ g 1).val) (bb (ix2 ρ (0 : Fin 1))) = 0#1 := by
      have hb : (BitVec.ofNat 32 g.val == bb (ix2 ρ (0 : Fin 1))) = false := by rw [beq_eq_false_iff_ne]; exact h
      show BitVec.ofBool (BitVec.ofNat 32 g.val == bb (ix2 ρ (0 : Fin 1))) = 0#1
      rw [hb]; rfl
    rw [e, if_neg h]; simp

/-- The pre-activation of layer 2 before the scale and shift of its normalisation, at row `ρ` and feature `j`. -/
theorem pay10_apply (h1b : FVec Ideal S5000x64 .bf16) (W2l W2r : FVec Ideal S64x64 .f32) (s2b : FVec Ideal S5000x64 .f32)
    (ivb : FVec Ideal S5000x1 .f32) (b2 m2 v2 : FVec Ideal S1x64 .f32) (ρ : Fin 5000) (j : Fin 64) :
    k2_pay10 (F := Ideal) h1b W2l W2r s2b ivb b2 m2 v2 (ix2 ρ j)
      = ((((∑ k : Fin 64, (s2b (ix2 ρ k) * ivb (ix2 ρ (0 : Fin 1))) * W2l (ix2 k j)) + ∑ k : Fin 64, h1b (ix2 ρ k) * W2r (ix2 k j))
          + b2 (ix2 (0 : Fin 1) j)) - m2 (ix2 (0 : Fin 1) j))
        * Ideal.rsqrt (v2 (ix2 (0 : Fin 1) j) + Ideal.ofBits .f32 0x3727C5AC#32) := by
  unfold k2_pay10
  simp only [mulf_apply, subf_apply, addf_apply, shapeCast_self]
  rw [matmul_w2_apply, matmul_w2_apply, broadcastTo_1b_ab_apply, broadcastTo_1b_ab_apply, broadcastTo_1b_ab_apply]
  simp only [truncf_apply, mulf_apply, broadcastTo_a1_ab_apply]
  rfl

/-- What a point adds to the pooled sums, over what the scratch held: at graph `g` and feature `j`. -/
theorem pay2_apply (y : FVec Ideal S5000x64 .f32) (g2 be2 : FVec Ideal S1x64 .f32) (bb : IVec S5000x1 32)
    (acc : FVec Ideal S128x64 .f32) (g : Fin 128) (j : Fin 64) :
    k2_pay2 (F := Ideal) y g2 be2 bb acc (ix2 g j)
      = acc (ix2 g j) + ∑ ρ : Fin 5000, onehot bb ρ g
          * max (y (ix2 ρ j) * g2 (ix2 (0 : Fin 1) j) + be2 (ix2 (0 : Fin 1) j)) (Ideal.ofBits .f32 0x00000000#32) := by
  unfold k2_pay2
  simp only [addf_apply, shapeCast_self]
  rw [matmul_pool_apply]
  simp only [truncf_apply, maximumf_apply, addf_apply, mulf_apply, broadcast_apply, pay1_apply, broadcastTo_1b_ab_apply]
  rfl

/-- What a point adds to the pooled counts, over what the scratch held: at graph `g`. -/
theorem pay3_apply (bb : IVec S5000x1 32) (acc : FVec Ideal S128x1 .f32) (g : Fin 128) :
    k2_pay3 (F := Ideal) bb acc (ix2 g (0 : Fin 1))
      = acc (ix2 g (0 : Fin 1)) + ∑ ρ : Fin 5000, onehot bb ρ g * Ideal.ofBits .bf16 0x3F80#16 := by
  unfold k2_pay3
  simp only [addf_apply, shapeCast_self]
  rw [matmul_cnt_apply]
  simp only [broadcast_apply, pay1_apply]
  rfl

/-- The reset values of the first point are the zero word. -/
theorem pay7_apply (i : S128x64.Idx) : k2_pay7 (F := Ideal) i = Ideal.ofBits .f32 0x00000000#32 := by
  unfold k2_pay7
  simp only [shapeCast_self]
  rfl
theorem pay8_apply (i : S128x1.Idx) : k2_pay8 (F := Ideal) i = Ideal.ofBits .f32 0x00000000#32 := by
  unfold k2_pay8
  simp only [shapeCast_self]
  rfl
theorem pay9_apply (i : S128x10.Idx) : k2_pay9 (F := Ideal) i = Ideal.ofBits .f32 0x00000000#32 := by
  unfold k2_pay9
  rfl

/-- The classifier's second weight, narrowed: the same value. -/
theorem pay5_apply (Wc2 : FVec Ideal S64x10 .f32) (i : S64x10.Idx) : k2_pay5 (F := Ideal) Wc2 i = Wc2 i := by
  unfold k2_pay5
  rfl

/-- The hidden layer of the head at the last point: pooled mean, first linear map, normalisation, rectifier. -/
theorem pay6_apply (sm : FVec Ideal S128x64 .f32) (ct : FVec Ideal S128x1 .f32) (Wc1 : FVec Ideal S64x64 .f32)
    (bc1 m3 v3 g3 be3 : FVec Ideal S1x64 .f32) (g : Fin 128) (j : Fin 64) :
    k2_pay6 (F := Ideal) sm ct Wc1 bc1 m3 v3 g3 be3 (ix2 g j)
      = max ((((((∑ k : Fin 64, Ideal.div (sm (ix2 g k)) (max (ct (ix2 g (0 : Fin 1))) (Ideal.ofBits .f32 0x3F800000#32)) * Wc1 (ix2 k j))
            + bc1 (ix2 (0 : Fin 1) j)) - m3 (ix2 (0 : Fin 1) j))
            * Ideal.rsqrt (v3 (ix2 (0 : Fin 1) j) + Ideal.ofBits .f32 0x3727C5AC#32)) * g3 (ix2 (0 : Fin 1) j))
            + be3 (ix2 (0 : Fin 1) j)) (Ideal.ofBits .f32 0x00000000#32) := by
  unfold k2_pay6
  simp only [truncf_apply, maximumf_apply, addf_apply, mulf_apply, subf_apply, shapeCast_self]
  rw [matmul_c1_apply, broadcastTo_1b_ab_apply, broadcastTo_1b_ab_apply, broadcastTo_1b_ab_apply, broadcastTo_1b_ab_apply, broadcastTo_1b_ab_apply]
  simp only [truncf_apply, divf_apply, maximumf_apply, broadcast_apply, broadcastTo_a1_ab_apply]
  rfl

/-- A row's maximum over the ten classes, from the word of minus infinity. -/
theorem rowmax10_apply (src : FVec Ideal S128x10 .f32) (h : S128x10.Reduces [1] S128) (hφ : FKind.Formats .f32)
    (hacc : (0xFF800000#32 : BitVec 32) = FKind.maximumf.neutral .f32 hφ) (g : Fin 128) :
    multiReduction .maximumf [1] S128 src 0xFF800000#32 h hφ hacc (ix1 g)
      = (Finset.univ : Finset (Fin 10)).fold max (Ideal.ofBits .f32 0xFF800000#32) (fun q => src (ix2 g q)) := by
  refine (Ideal.multiReduction_maximumf_single src 0xFF800000#32 h hφ hacc (ix1 g)).trans ?_
  exact congrArg (fun f => (Finset.univ : Finset (Fin 10)).fold max (Ideal.ofBits .f32 0xFF800000#32) f)
    (funext fun q => congrArg src (lift_rows10 h g q))

/-- A row's sum over the ten classes. -/
theorem rowsum10_apply (src : FVec Ideal S128x10 .f32) (h : S128x10.Reduces [1] S128) (hφ : FKind.Formats .f32)
    (hacc : (0x00000000#32 : BitVec 32) = FKind.add.neutral .f32 hφ) (g : Fin 128) :
    multiReduction .add [1] S128 src 0x00000000#32 h hφ hacc (ix1 g) = ∑ q : Fin 10, src (ix2 g q) := by
  refine (Ideal.multiReduction_add_single src 0x00000000#32 h hφ hacc (ix1 g)).trans ?_
  exact Finset.sum_congr rfl fun q _ => congrArg src (lift_rows10 h g q)

/-- The logit of graph `g` and class `q`: the second linear map of the head. -/
def headLogit (Wc2b : FVec Ideal S64x10 .bf16) (g3b : FVec Ideal S128x64 .bf16) (bc2 : FVec Ideal S1x10 .f32)
    (g : Fin 128) (q : Fin 10) : EReal :=
  (∑ k : Fin 64, g3b (ix2 g k) * Wc2b (ix2 k q)) + bc2 (ix2 (0 : Fin 1) q)

/-- The log-softmax of a row of ten logits as the kernel takes it: shift by the row's maximum (folded from the word of
    minus infinity), then subtract the logarithm of the sum of the exponentials of the shifted row. -/
def logSoftmax10 (f : Fin 10 → EReal) (q : Fin 10) : EReal :=
  (f q - (Finset.univ : Finset (Fin 10)).fold max (Ideal.ofBits .f32 0xFF800000#32) f)
    - Ideal.log (∑ q' : Fin 10, Ideal.exp (f q' - (Finset.univ : Finset (Fin 10)).fold max (Ideal.ofBits .f32 0xFF800000#32) f))

/-- The kernel's chain of row operations on a `[128, 10]` array of logits — row maximum, shift, exponential, row sum,
    logarithm, shift — read at `(g, q)`: the log-softmax of row `g`. -/
theorem logSoftmax_rows (L : FVec Ideal S128x10 .f32) (h : S128x10.Reduces [1] S128) (hφ : FKind.Formats .f32)
    (ha1 : (0xFF800000#32 : BitVec 32) = FKind.maximumf.neutral .f32 hφ) (ha2 : (0x00000000#32 : BitVec 32) = FKind.add.neutral .f32 hφ)
    (sc : S128.ShapeCasts S128x1) (bc : S128x1.Broadcasts S128x10) (g : Fin 128) (q : Fin 10) :
    subf (subf L (broadcastTo S128x10 (shapeCast S128x1 (multiReduction .maximumf [1] S128 L 0xFF800000#32 h hφ ha1) sc) bc))
        (broadcastTo S128x10 (log (shapeCast S128x1 (multiReduction .add [1] S128
          (exp (subf L (broadcastTo S128x10 (shapeCast S128x1 (multiReduction .maximumf [1] S128 L 0xFF800000#32 h hφ ha1) sc) bc)))
          0x00000000#32 h hφ ha2) sc)) bc) (ix2 g q)
      = logSoftmax10 (fun q' => L (ix2 g q')) q := by
  have hmax : ∀ q' : Fin 10, broadcastTo S128x10 (shapeCast S128x1 (multiReduction .maximumf [1] S128 L 0xFF800000#32 h hφ ha1) sc) bc (ix2 g q')
      = (Finset.univ : Finset (Fin 10)).fold max (Ideal.ofBits .f32 0xFF800000#32) (fun q'' => L (ix2 g q'')) := fun q' =>
    (broadcastTo_a1_ab_apply _ bc g q').trans ((shapeCast_a_a1_apply _ sc g 0).trans (rowmax10_apply L h hφ ha1 g))
  rw [subf_apply, subf_apply, hmax q, broadcastTo_a1_ab_apply]
  show _ - Ideal.log (shapeCast S128x1 _ sc (ix2 g (0 : Fin 1))) = _
  rw [shapeCast_a_a1_apply, rowsum10_apply]
  unfold logSoftmax10
  refine congrArg (fun z => _ - Ideal.log z) (Finset.sum_congr rfl fun q' _ => ?_)
  show Ideal.exp (L (ix2 g q') - _) = _
  rw [hmax q']

/-- The output of the last point: the log-softmax of the row of logits. -/
theorem pay4_apply (Wc2b : FVec Ideal S64x10 .bf16) (g3b : FVec Ideal S128x64 .bf16) (bc2 : FVec Ideal S1x10 .f32)
    (g : Fin 128) (q : Fin 10) :
    k2_pay4 (F := Ideal) Wc2b g3b bc2 (ix2 g q) = logSoftmax10 (headLogit Wc2b g3b bc2 g) q := by
  unfold k2_pay4
  refine (logSoftmax_rows _ _ _ _ _ _ _ g q).trans (congrArg (fun f => logSoftmax10 f q) (funext fun q' => ?_))
  rw [addf_apply, matmul_c2_apply, broadcastTo_1b_ab_apply, shapeCast_self]
  rfl

end Cert.Value.K2

end
-- ==== Proof.KVal2Fold.lean ====
/- The pooling-and-classifier kernel over its twenty grid points, at the ideal values: the blocks of a point, what a
   point adds to the two scratch accumulators, the accumulators after each point as the zero word plus the
   contributions so far, and the output the last point stores. -/
import proofs.«418702_j33346126086715_3_alg».proof.Proof.KVal2Pay

noncomputable section

namespace Cert.Value.K2

open Cert.KernelIdeal Cert.KernelIdeal.Gen Idealize.ShloMosaic Idealize.ShloMosaic.TcCoe Idealize.SL.Sem
open Idealize.ShloMosaic.ValueIdx

/-! ## The blocks of a point, the two scratch updates, and the head -/

/-- The nineteen input blocks the body finds at one grid point, at their literal types, in window order. -/
structure Pt where
  h1b : FVec Ideal S5000x64 .bf16
  s2b : FVec Ideal S5000x64 .f32
  ivb : FVec Ideal S5000x1 .f32
  bb : IVec S5000x1 32
  W2l : FVec Ideal S64x64 .f32
  W2r : FVec Ideal S64x64 .f32
  b2 : FVec Ideal S1x64 .f32
  g2 : FVec Ideal S1x64 .f32
  be2 : FVec Ideal S1x64 .f32
  m2 : FVec Ideal S1x64 .f32
  v2 : FVec Ideal S1x64 .f32
  Wc1 : FVec Ideal S64x64 .f32
  bc1 : FVec Ideal S1x64 .f32
  g3 : FVec Ideal S1x64 .f32
  be3 : FVec Ideal S1x64 .f32
  m3 : FVec Ideal S1x64 .f32
  v3 : FVec Ideal S1x64 .f32
  Wc2 : FVec Ideal S64x10 .f32
  bc2 : FVec Ideal S1x10 .f32

/-- Layer 2's output at row `ρ` of the point's block and feature `j`, in the kernel's arrangement: the scaled
    neighbour sum through the left weight, plus the row through the right weight, plus the bias; normalised; rectified. -/
def Pt.h2 (p : Pt) (ρ : Fin 5000) (j : Fin 64) : EReal :=
  max ((((((∑ k : Fin 64, (p.s2b (ix2 ρ k) * p.ivb (ix2 ρ (0 : Fin 1))) * p.W2l (ix2 k j))
            + ∑ k : Fin 64, p.h1b (ix2 ρ k) * p.W2r (ix2 k j))
          + p.b2 (ix2 (0 : Fin 1) j)) - p.m2 (ix2 (0 : Fin 1) j))
        * Ideal.rsqrt (p.v2 (ix2 (0 : Fin 1) j) + Ideal.ofBits .f32 0x3727C5AC#32))
      * p.g2 (ix2 (0 : Fin 1) j) + p.be2 (ix2 (0 : Fin 1) j)) (Ideal.ofBits .f32 0x00000000#32)

/-- What a point leaves in the pooled-sum scratch, over what it held. -/
def Pt.stepSum (p : Pt) (acc : FVec Ideal S128x64 .f32) : FVec Ideal S128x64 .f32 :=
  k2_pay2 (F := Ideal) (k2_pay10 (F := Ideal) p.h1b p.W2l p.W2r p.s2b p.ivb p.b2 p.m2 p.v2) p.g2 p.be2 p.bb acc

/-- What a point leaves in the pooled-count scratch, over what it held. -/
def Pt.stepCnt (p : Pt) (acc : FVec Ideal S128x1 .f32) : FVec Ideal S128x1 .f32 :=
  k2_pay3 (F := Ideal) p.bb acc

theorem Pt.stepSum_apply (p : Pt) (acc : FVec Ideal S128x64 .f32) (g : Fin 128) (j : Fin 64) :
    p.stepSum acc (ix2 g j) = acc (ix2 g j) + ∑ ρ : Fin 5000, onehot p.bb ρ g * p.h2 ρ j := by
  unfold Pt.stepSum
  rw [pay2_apply]
  refine congrArg (acc (ix2 g j) + ·) (Finset.sum_congr rfl fun ρ _ => ?_)
  rw [pay10_apply]
  rfl

theorem Pt.stepCnt_apply (p : Pt) (acc : FVec Ideal S128x1 .f32) (g : Fin 128) :
    p.stepCnt acc (ix2 g (0 : Fin 1)) = acc (ix2 g (0 : Fin 1)) + ∑ ρ : Fin 5000, onehot p.bb ρ g * Ideal.ofBits .bf16 0x3F80#16 := by
  unfold Pt.stepCnt
  exact pay3_apply p.bb acc g

/-! ## The scratch accumulators after each point -/

/-- The pooled-sum scratch after point `t`: reset and updated at the first point, updated at each later one. -/
def sumAfter (pt : ℕ → Pt) : ℕ → FVec Ideal S128x64 .f32
  | 0 => (pt 0).stepSum (k2_pay7 (F := Ideal))
  | t + 1 => (pt (t + 1)).stepSum (sumAfter pt t)

/-- The pooled-count scratch after point `t`. -/
def cntAfter (pt : ℕ → Pt) : ℕ → FVec Ideal S128x1 .f32
  | 0 => (pt 0).stepCnt (k2_pay8 (F := Ideal))
  | t + 1 => (pt (t + 1)).stepCnt (cntAfter pt t)

/-- After point `t` the pooled-sum scratch holds the zero word plus the contributions of the points up to `t`. -/
theorem sumAfter_apply (pt : ℕ → Pt) (t : ℕ) (g : Fin 128) (j : Fin 64) :
    sumAfter pt t (ix2 g j)
      = Ideal.ofBits .f32 0x00000000#32 + ∑ t' ∈ Finset.range (t + 1), ∑ ρ : Fin 5000, onehot (pt t').bb ρ g * (pt t').h2 ρ j := by
  induction t with
  | zero => rw [sumAfter, Pt.stepSum_apply, pay7_apply, Finset.sum_range_one]
  | succ t ih => rw [sumAfter, Pt.stepSum_apply, ih, Finset.sum_range_succ _ (t + 1), add_assoc]

/-- After point `t` the pooled-count scratch holds the zero word plus the points' one-hot column sums. -/
theorem cntAfter_apply (pt : ℕ → Pt) (t : ℕ) (g : Fin 128) :
    cntAfter pt t (ix2 g (0 : Fin 1))
      = Ideal.ofBits .f32 0x00000000#32
        + ∑ t' ∈ Finset.range (t + 1), ∑ ρ : Fin 5000, onehot (pt t').bb ρ g * Ideal.ofBits .bf16 0x3F80#16 := by
  induction t with
  | zero => rw [cntAfter, Pt.stepCnt_apply, pay8_apply, Finset.sum_range_one]
  | succ t ih => rw [cntAfter, Pt.stepCnt_apply, ih, Finset.sum_range_succ _ (t + 1), add_assoc]

/-! ## The head at the last point -/

/-- The hidden layer of the head at graph `g` and feature `j`, from what the two scratches hold. -/
def Pt.hid (p : Pt) (sm : FVec Ideal S128x64 .f32) (ct : FVec Ideal S128x1 .f32) (g : Fin 128) (j : Fin 64) : EReal :=
  max ((((((∑ k : Fin 64, Ideal.div (sm (ix2 g k)) (max (ct (ix2 g (0 : Fin 1))) (Ideal.ofBits .f32 0x3F800000#32)) * p.Wc1 (ix2 k j))
            + p.bc1 (ix2 (0 : Fin 1) j)) - p.m3 (ix2 (0 : Fin 1) j))
        * Ideal.rsqrt (p.v3 (ix2 (0 : Fin 1) j) + Ideal.ofBits .f32 0x3727C5AC#32)) * p.g3 (ix2 (0 : Fin 1) j))
      + p.be3 (ix2 (0 : Fin 1) j)) (Ideal.ofBits .f32 0x00000000#32)

/-- What the last point stores into the output block. -/
def Pt.head (p : Pt) (sm : FVec Ideal S128x64 .f32) (ct : FVec Ideal S128x1 .f32) : FVec Ideal S128x10 .f32 :=
  k2_pay4 (F := Ideal) (k2_pay5 (F := Ideal) p.Wc2) (k2_pay6 (F := Ideal) sm ct p.Wc1 p.bc1 p.m3 p.v3 p.g3 p.be3) p.bc2

theorem Pt.head_apply (p : Pt) (sm : FVec Ideal S128x64 .f32) (ct : FVec Ideal S128x1 .f32) (g : Fin 128) (q : Fin 10) :
    p.head sm ct (ix2 g q)
      = logSoftmax10 (fun q' => (∑ k : Fin 64, p.hid sm ct g k * p.Wc2 (ix2 k q')) + p.bc2 (ix2 (0 : Fin 1) q')) q := by
  unfold Pt.head
  rw [pay4_apply]
  refine congrArg (fun f => logSoftmax10 f q) (funext fun q' => ?_)
  unfold headLogit
  refine congrArg (· + p.bc2 (ix2 (0 : Fin 1) q')) (Finset.sum_congr rfl fun k _ => ?_)
  rw [pay6_apply, pay5_apply]
  rfl

end Cert.Value.K2

end
-- ==== Proof.SpecLaws4.lean ====
import proofs.«418702_j33346126086715_3_alg».proof.Proof.Spec
import Mathlib.Algebra.BigOperators.Fin
import Mathlib.Logic.Equiv.Fin.Basic

/-!
# The pool: a sum over graphs as twenty accumulated one-hot products

The host sums the node rows of each graph in one pass (an accumulating scatter by graph index). The other arrangement
walks the hundred thousand rows in twenty blocks of five thousand; at each block it multiplies the block of rows by
the block's zero-one membership matrix (entry one where the graph's number is the row's graph index) and adds the
product to an accumulator that starts from the zero word. The laws here say the two agree over the extended reals,
for any row values (infinite ones included, since a zero entry times anything is zero there):

* twenty blocks of five thousand rows are the hundred thousand rows (`sum_blocks`);
* a sum against a zero-one column keeps the selected terms (`sum_onehot`, `sum_onehot_right`);
* the word-level membership test: the graph's number as a 32-bit word equals the row's index word exactly when that
  word, read signed, is the graph's number (`ofNat_eq_iff`), and the compare / widen / convert chain's value is the
  zero-one entry (`onehot_word`);
* an accumulator that starts from a value plus the first contribution and then adds one contribution per step holds
  the value plus the sum of the contributions (`acc_fold`, `acc_fold_fin`, `acc_fold_last`);
* assembled: the block sums of one-hot products are the sum over the graph's rows (`pool_blocks`); the pooled sum and
  the pooled count of the specification are the zero word plus the twenty block sums (`gs_eq_blocks`,
  `gc_eq_blocks`), and an accumulator run of the block contributions ends at them (`pool_of_fold`, `gs_of_fold`,
  `gc_of_fold`).
-/

noncomputable section

namespace Cert.Value.Spec

open Idealize.ShloMosaic Idealize.ShloMosaic.ValueIdx
open scoped BigOperators

/-! ## Blocks of rows -/

/-- Row `ρ` of block `t`: the row `5000 t + ρ`. -/
abbrev blockRow (t : Fin 20) (ρ : Fin 5000) : Fin 100000 := ⟨5000 * t.val + ρ.val, by omega⟩

/-- Twenty blocks of five thousand rows are the hundred thousand rows. -/
theorem sum_blocks {M : Type*} [AddCommMonoid M] (f : Fin 100000 → M) :
    ∑ t : Fin 20, ∑ ρ : Fin 5000, f ⟨5000 * t.val + ρ.val, by omega⟩ = ∑ m : Fin 100000, f m := by
  have h := (Fintype.sum_prod_type (fun x : Fin 20 × Fin 5000 => f (finProdFinEquiv x))).symm.trans
    (Equiv.sum_comp (finProdFinEquiv (m := 20) (n := 5000)) f)
  rw [← h]
  refine Finset.sum_congr rfl fun t _ => Finset.sum_congr rfl fun ρ _ => congrArg f (Fin.ext ?_)
  simp [finProdFinEquiv]
  omega

/-! ## Sums against a zero-one column -/

/-- A sum against a zero-one column (on the left) keeps the selected terms. -/
theorem sum_onehot {ι : Type*} (s : Finset ι) (Q : ι → Prop) [DecidablePred Q] (v : ι → EReal) :
    ∑ ρ ∈ s, (if Q ρ then (1 : EReal) else 0) * v ρ = ∑ ρ ∈ s.filter Q, v ρ := by
  rw [Finset.sum_filter]
  refine Finset.sum_congr rfl fun ρ _ => ?_
  split_ifs <;> simp

/-- The same with the zero-one column on the right. -/
theorem sum_onehot_right {ι : Type*} (s : Finset ι) (Q : ι → Prop) [DecidablePred Q] (v : ι → EReal) :
    ∑ ρ ∈ s, v ρ * (if Q ρ then (1 : EReal) else 0) = ∑ ρ ∈ s.filter Q, v ρ := by
  rw [Finset.sum_filter]
  refine Finset.sum_congr rfl fun ρ _ => ?_
  split_ifs <;> simp

/-! ## The membership test on words -/

/-- A graph's number as a 32-bit word, read signed, is the number. -/
theorem toInt_ofNat_small (g : Fin 128) : (BitVec.ofNat 32 g.val).toInt = (g.val : ℤ) := by
  have hg := g.isLt
  rw [BitVec.toInt_eq_toNat_cond, BitVec.toNat_ofNat]
  have : g.val % 2 ^ 32 = g.val := Nat.mod_eq_of_lt (by omega)
  rw [this, if_pos (by omega)]

/-- The graph's number as a word equals an index word exactly when the index word, read signed, is the number. -/
theorem ofNat_eq_iff (g : Fin 128) (b : BitVec 32) : BitVec.ofNat 32 g.val = b ↔ b.toInt = (g.val : ℤ) := by
  constructor
  · rintro rfl; exact toInt_ofNat_small g
  · intro h; exact (BitVec.toInt_inj.mp (h.trans (toInt_ofNat_small g).symm)).symm

/-- The value of the compare / widen / convert chain on one element: one where the index word, read signed, is the
    graph's number, else zero. -/
theorem onehot_word (g : Fin 128) (b : BitVec 32) :
    ((((IntOp.cmpi .eq (BitVec.ofNat 32 g.val) b).setWidth 32).toInt : ℝ) : EReal)
      = if b.toInt = (g.val : ℤ) then 1 else 0 := by
  by_cases h : BitVec.ofNat 32 g.val = b
  · rw [if_pos ((ofNat_eq_iff g b).mp h)]
    have : IntOp.cmpi .eq (BitVec.ofNat 32 g.val) b = 1#1 := by simp [IntOp.cmpi, h]
    rw [this]; norm_num
  · rw [if_neg (fun h' => h ((ofNat_eq_iff g b).mpr h'))]
    have hb : (BitVec.ofNat 32 g.val == b) = false := beq_eq_false_iff_ne.mpr h
    have : IntOp.cmpi .eq (BitVec.ofNat 32 g.val) b = 0#1 := by simp [IntOp.cmpi, hb]
    rw [this]; norm_num

/-! ## The accumulation -/

/-- The accumulation over the naturals: a start value plus the first contribution, then one contribution per step. -/
theorem acc_fold {M : Type*} [AddCommMonoid M] (z : M) (acc contrib : ℕ → M) (N : ℕ) (h0 : acc 0 = z + contrib 0)
    (hs : ∀ t, t + 1 < N → acc (t + 1) = acc t + contrib (t + 1)) :
    ∀ T, T < N → acc T = z + ∑ t ∈ Finset.range (T + 1), contrib t := by
  intro T
  induction T with
  | zero => intro _; simp [h0]
  | succ T ih =>
    intro hT
    rw [hs T hT, ih (by omega), Finset.sum_range_succ _ (T + 1), add_assoc]

/-- The accumulation over `n + 1` numbered steps: after step `T` the accumulator holds the start value plus the
    contributions of the steps up to `T`. -/
theorem acc_fold_fin {M : Type*} [AddCommMonoid M] {n : ℕ} (z : M) (acc contrib : Fin (n + 1) → M)
    (h0 : acc 0 = z + contrib 0)
    (hs : ∀ (t : Fin (n + 1)) (h : t.val + 1 < n + 1), acc ⟨t.val + 1, h⟩ = acc t + contrib ⟨t.val + 1, h⟩)
    (T : Fin (n + 1)) :
    acc T = z + ∑ t ∈ Finset.univ.filter (fun t : Fin (n + 1) => t.val ≤ T.val), contrib t := by
  -- the same run over the naturals, both functions extended by zero past the last step
  let acc' : ℕ → M := fun k => if h : k < n + 1 then acc ⟨k, h⟩ else 0
  let contrib' : ℕ → M := fun k => if h : k < n + 1 then contrib ⟨k, h⟩ else 0
  have h0' : acc' 0 = z + contrib' 0 := by
    simp only [acc', contrib', dif_pos (Nat.succ_pos n)]
    exact h0
  have hs' : ∀ t, t + 1 < n + 1 → acc' (t + 1) = acc' t + contrib' (t + 1) := by
    intro t ht
    have ht' : t < n + 1 := by omega
    simp only [acc', contrib', dif_pos ht, dif_pos ht']
    exact hs ⟨t, ht'⟩ ht
  have key := acc_fold z acc' contrib' (n + 1) h0' hs' T.val T.isLt
  have hT : acc' T.val = acc T := by simp only [acc', dif_pos T.isLt]
  rw [← hT, key]
  congr 1
  -- the naturals up to `T` are the steps up to `T`
  have hr : Finset.range (T.val + 1) = (Finset.range (n + 1)).filter (fun k => k ≤ T.val) := by
    ext k
    simp only [Finset.mem_range, Finset.mem_filter]
    have := T.isLt
    omega
  calc ∑ k ∈ Finset.range (T.val + 1), contrib' k
      = ∑ k ∈ (Finset.range (n + 1)).filter (fun k => k ≤ T.val), contrib' k := by rw [hr]
    _ = ∑ k ∈ Finset.range (n + 1), (if k ≤ T.val then contrib' k else 0) := Finset.sum_filter _ _
    _ = ∑ t : Fin (n + 1), (if t.val ≤ T.val then contrib' t.val else 0) := Finset.sum_range _
    _ = ∑ t : Fin (n + 1), (if t.val ≤ T.val then contrib t else 0) :=
        Finset.sum_congr rfl fun t _ => by simp only [contrib', dif_pos t.isLt]
    _ = ∑ t ∈ Finset.univ.filter (fun t : Fin (n + 1) => t.val ≤ T.val), contrib t := (Finset.sum_filter _ _).symm

/-- At the last step the accumulator holds the start value plus all the contributions. -/
theorem acc_fold_last {M : Type*} [AddCommMonoid M] {n : ℕ} (z : M) (acc contrib : Fin (n + 1) → M)
    (h0 : acc 0 = z + contrib 0)
    (hs : ∀ (t : Fin (n + 1)) (h : t.val + 1 < n + 1), acc ⟨t.val + 1, h⟩ = acc t + contrib ⟨t.val + 1, h⟩) :
    acc (Fin.last n) = z + ∑ t, contrib t := by
  rw [acc_fold_fin z acc contrib h0 hs (Fin.last n)]
  congr 1
  refine Finset.sum_congr (Finset.filter_true_of_mem fun t _ => ?_) fun _ _ => rfl
  exact Nat.lt_succ_iff.mp t.isLt

/-! ## Assembled: the pool -/

/-- Block `t`'s contribution to graph `g`'s pooled sum of the row values `v`: the one-hot column of the block (one
    where the row's graph index, read signed, is `g`) against the block's values. -/
def poolContrib (batch : IVec SN 32) (v : Fin 100000 → EReal) (g : Fin 128) (t : Fin 20) : EReal :=
  ∑ ρ : Fin 5000, (if (batch (ix1 (blockRow t ρ))).toInt = (g.val : ℤ) then (1 : EReal) else 0) * v (blockRow t ρ)

/-- The twenty block sums of one-hot products are the sum over the rows of graph `g`. -/
theorem pool_blocks (batch : IVec SN 32) (v : Fin 100000 → EReal) (g : Fin 128) :
    ∑ t : Fin 20, ∑ ρ : Fin 5000,
        (if (batch (ix1 (blockRow t ρ))).toInt = (g.val : ℤ) then (1 : EReal) else 0) * v (blockRow t ρ)
      = ∑ m ∈ Finset.univ.filter (fun m => landsBOf batch m g), v m :=
  (sum_blocks (fun m => (if (batch (ix1 m)).toInt = (g.val : ℤ) then (1 : EReal) else 0) * v m)).trans
    (sum_onehot Finset.univ (fun m => landsBOf batch m g) v)

section Assembled
variable (P : Params) (r : Fin 1600000 → Fin 100000)
  (lands : Fin 1600000 → Fin 100000 → Prop) [∀ e n, Decidable (lands e n)]
  (batch : IVec SN 32)

/-- THE POOLED SUM: the specification's sum of graph `g`'s rows is the zero word plus the twenty block sums of the
    one-hot column against the layer's output rows. -/
theorem gs_eq_blocks (g : Fin 128) (j : Fin 64) :
    gs P r lands (landsBOf batch) g j
      = zeroW + ∑ t : Fin 20, ∑ ρ : Fin 5000,
          (if (batch (ix1 (blockRow t ρ))).toInt = (g.val : ℤ) then (1 : EReal) else 0)
            * h2 P r lands (blockRow t ρ) j := by
  unfold gs
  exact congrArg (fun s => zeroW + s) (pool_blocks batch (fun m => h2 P r lands m j) g).symm

/-- THE POOLED COUNT: the specification's count of graph `g`'s rows is the zero word plus the twenty block sums of the
    one-hot column against a column of ones (`c`: whatever spelling of one the column has). -/
theorem gc_eq_blocks (g : Fin 128) (c : EReal) (hc : c = oneW) :
    gc (landsBOf batch) g
      = zeroW + ∑ t : Fin 20, ∑ ρ : Fin 5000,
          (if (batch (ix1 (blockRow t ρ))).toInt = (g.val : ℤ) then (1 : EReal) else 0) * c := by
  subst hc
  unfold gc
  exact congrArg (fun s => zeroW + s) (pool_blocks batch (fun _ => oneW) g).symm

/-- An accumulator that starts from the zero word plus block 0's contribution and adds one block's contribution per
    step ends, after block 19, at the zero word plus the sum over the rows of graph `g`. -/
theorem pool_of_fold (v : Fin 100000 → EReal) (g : Fin 128) (acc : Fin 20 → EReal)
    (h0 : acc 0 = zeroW + poolContrib batch v g 0)
    (hs : ∀ (t : Fin 20) (h : t.val + 1 < 20), acc ⟨t.val + 1, h⟩ = acc t + poolContrib batch v g ⟨t.val + 1, h⟩) :
    acc 19 = zeroW + ∑ m ∈ Finset.univ.filter (fun m => landsBOf batch m g), v m := by
  have h := acc_fold_last (n := 19) zeroW acc (poolContrib batch v g) h0 hs
  rw [show acc 19 = acc (Fin.last 19) from rfl, h]
  exact congrArg (fun s => zeroW + s) (pool_blocks batch v g)

/-- The accumulator run of the layer's output rows ends at the specification's pooled sum. -/
theorem gs_of_fold (g : Fin 128) (j : Fin 64) (acc : Fin 20 → EReal)
    (h0 : acc 0 = zeroW + poolContrib batch (fun m => h2 P r lands m j) g 0)
    (hs : ∀ (t : Fin 20) (h : t.val + 1 < 20),
      acc ⟨t.val + 1, h⟩ = acc t + poolContrib batch (fun m => h2 P r lands m j) g ⟨t.val + 1, h⟩) :
    acc 19 = gs P r lands (landsBOf batch) g j :=
  pool_of_fold batch (fun m => h2 P r lands m j) g acc h0 hs

/-- The accumulator run of a column of ones ends at the specification's pooled count. -/
theorem gc_of_fold (g : Fin 128) (acc : Fin 20 → EReal)
    (h0 : acc 0 = zeroW + poolContrib batch (fun _ => oneW) g 0)
    (hs : ∀ (t : Fin 20) (h : t.val + 1 < 20),
      acc ⟨t.val + 1, h⟩ = acc t + poolContrib batch (fun _ => oneW) g ⟨t.val + 1, h⟩) :
    acc 19 = gc (landsBOf batch) g :=
  pool_of_fold batch (fun _ => oneW) g acc h0 hs

end Assembled

end Cert.Value.Spec

end
-- ==== Proof.KVal2Res.lean ====
/- Region 2's value against the specification, at the ideal values: the region's entry arrays at their literal
   types, what it means for the points' blocks to be those arrays' blocks and for the arrays to hold the
   specification's values, and under both the block the last point stores is the specification's result. -/
import proofs.«418702_j33346126086715_3_alg».proof.Proof.KVal2Fold
import proofs.«418702_j33346126086715_3_alg».proof.Proof.SpecLaws2
import proofs.«418702_j33346126086715_3_alg».proof.Proof.SpecLaws4

noncomputable section

namespace Cert.Value.K2

open Cert.KernelIdeal Cert.KernelIdeal.Gen Idealize.ShloMosaic Idealize.ShloMosaic.TcCoe Idealize.SL.Sem
open Idealize.ShloMosaic.ValueIdx

open Cert.Value

/-! ## Region 2's result over its entry arrays, and the specification -/

/-- Region 2's entry arrays at their literal types, in window order. -/
structure Ent where
  H1 : FVec Ideal S100000x64 .bf16
  S2 : FVec Ideal S100000x64 .f32
  IV : FVec Ideal S100000x1 .f32
  B : IVec S100000x1 32
  W2l : FVec Ideal S64x64 .f32
  W2r : FVec Ideal S64x64 .f32
  b2 : FVec Ideal S1x64 .f32
  g2 : FVec Ideal S1x64 .f32
  be2 : FVec Ideal S1x64 .f32
  m2 : FVec Ideal S1x64 .f32
  v2 : FVec Ideal S1x64 .f32
  Wc1 : FVec Ideal S64x64 .f32
  bc1 : FVec Ideal S1x64 .f32
  g3 : FVec Ideal S1x64 .f32
  be3 : FVec Ideal S1x64 .f32
  m3 : FVec Ideal S1x64 .f32
  v3 : FVec Ideal S1x64 .f32
  Wc2 : FVec Ideal S64x10 .f32
  bc2 : FVec Ideal S1x10 .f32

/-- The points' blocks are the entry arrays' blocks: point `t` finds rows `5000 t … 5000 t + 4999` of the four
    row-blocked arrays and the whole of each parameter array. -/
structure Agrees (E : Ent) (pt : ℕ → Pt) : Prop where
  h1b : ∀ (t : Fin 20) (ρ : Fin 5000) (k : Fin 64), (pt t.val).h1b (ix2 ρ k) = E.H1 (ix2 (Spec.blockRow t ρ) k)
  s2b : ∀ (t : Fin 20) (ρ : Fin 5000) (k : Fin 64), (pt t.val).s2b (ix2 ρ k) = E.S2 (ix2 (Spec.blockRow t ρ) k)
  ivb : ∀ (t : Fin 20) (ρ : Fin 5000), (pt t.val).ivb (ix2 ρ (0 : Fin 1)) = E.IV (ix2 (Spec.blockRow t ρ) (0 : Fin 1))
  bb : ∀ (t : Fin 20) (ρ : Fin 5000), (pt t.val).bb (ix2 ρ (0 : Fin 1)) = E.B (ix2 (Spec.blockRow t ρ) (0 : Fin 1))
  W2l : ∀ t : Fin 20, (pt t.val).W2l = E.W2l
  W2r : ∀ t : Fin 20, (pt t.val).W2r = E.W2r
  b2 : ∀ t : Fin 20, (pt t.val).b2 = E.b2
  g2 : ∀ t : Fin 20, (pt t.val).g2 = E.g2
  be2 : ∀ t : Fin 20, (pt t.val).be2 = E.be2
  m2 : ∀ t : Fin 20, (pt t.val).m2 = E.m2
  v2 : ∀ t : Fin 20, (pt t.val).v2 = E.v2
  Wc1 : ∀ t : Fin 20, (pt t.val).Wc1 = E.Wc1
  bc1 : ∀ t : Fin 20, (pt t.val).bc1 = E.bc1
  g3 : ∀ t : Fin 20, (pt t.val).g3 = E.g3
  be3 : ∀ t : Fin 20, (pt t.val).be3 = E.be3
  m3 : ∀ t : Fin 20, (pt t.val).m3 = E.m3
  v3 : ∀ t : Fin 20, (pt t.val).v3 = E.v3
  Wc2 : ∀ t : Fin 20, (pt t.val).Wc2 = E.Wc2
  bc2 : ∀ t : Fin 20, (pt t.val).bc2 = E.bc2

/-- The entry arrays hold the specification's values: layer 1's output, layer 2's neighbour sums, the inverse counts,
    the graph words, and the parameters (the vectors as one-row arrays). -/
structure IsSpec (E : Ent) (P : Spec.Params) (r : Fin 1600000 → Fin 100000)
    (lands : Fin 1600000 → Fin 100000 → Prop) [∀ e n, Decidable (lands e n)] (batch : IVec Spec.SN 32) : Prop where
  H1 : ∀ (n : Fin 100000) (k : Fin 64), E.H1 (ix2 n k) = Spec.h1 P r lands n k
  S2 : ∀ (n : Fin 100000) (k : Fin 64), E.S2 (ix2 n k) = Spec.s2 P r lands n k
  IV : ∀ n : Fin 100000, E.IV (ix2 n (0 : Fin 1)) = Spec.invc lands n
  B : ∀ n : Fin 100000, E.B (ix2 n (0 : Fin 1)) = batch (ix1 n)
  W2l : ∀ (k j : Fin 64), E.W2l (ix2 k j) = P.W2l (ix2 k j)
  W2r : ∀ (k j : Fin 64), E.W2r (ix2 k j) = P.W2r (ix2 k j)
  b2 : ∀ j : Fin 64, E.b2 (ix2 (0 : Fin 1) j) = P.b2 (ix1 j)
  g2 : ∀ j : Fin 64, E.g2 (ix2 (0 : Fin 1) j) = P.bn2g (ix1 j)
  be2 : ∀ j : Fin 64, E.be2 (ix2 (0 : Fin 1) j) = P.bn2b (ix1 j)
  m2 : ∀ j : Fin 64, E.m2 (ix2 (0 : Fin 1) j) = P.bn2m (ix1 j)
  v2 : ∀ j : Fin 64, E.v2 (ix2 (0 : Fin 1) j) = P.bn2v (ix1 j)
  Wc1 : ∀ (k j : Fin 64), E.Wc1 (ix2 k j) = P.Wc1 (ix2 k j)
  bc1 : ∀ j : Fin 64, E.bc1 (ix2 (0 : Fin 1) j) = P.bc1 (ix1 j)
  g3 : ∀ j : Fin 64, E.g3 (ix2 (0 : Fin 1) j) = P.bn3g (ix1 j)
  be3 : ∀ j : Fin 64, E.be3 (ix2 (0 : Fin 1) j) = P.bn3b (ix1 j)
  m3 : ∀ j : Fin 64, E.m3 (ix2 (0 : Fin 1) j) = P.bn3m (ix1 j)
  v3 : ∀ j : Fin 64, E.v3 (ix2 (0 : Fin 1) j) = P.bn3v (ix1 j)
  Wc2 : ∀ (k : Fin 64) (q : Fin 10), E.Wc2 (ix2 k q) = P.Wc2 (ix2 k q)
  bc2 : ∀ q : Fin 10, E.bc2 (ix2 (0 : Fin 1) q) = P.bc2 (ix1 q)

section Bridge
variable {E : Ent} {pt : ℕ → Pt} (hag : Agrees E pt)
variable {P : Spec.Params} {r : Fin 1600000 → Fin 100000}
  {lands : Fin 1600000 → Fin 100000 → Prop} [∀ e n, Decidable (lands e n)] {batch : IVec Spec.SN 32}
  (hs : IsSpec E P r lands batch)
include hag hs

/-- A point's one-hot entry is the membership test of the row's graph word. -/
theorem onehot_eq (t : Fin 20) (ρ : Fin 5000) (g : Fin 128) :
    onehot (pt t.val).bb ρ g
      = if (batch (ix1 (Spec.blockRow t ρ))).toInt = (g.val : ℤ) then (1 : EReal) else 0 := by
  unfold onehot
  rw [hag.bb t ρ, hs.B]
  exact if_congr (Spec.ofNat_eq_iff g _) rfl rfl

/-- A point's layer-2 output at a row of its block is the specification's at that row of the array. -/
theorem h2_eq (t : Fin 20) (ρ : Fin 5000) (j : Fin 64) :
    (pt t.val).h2 ρ j = Spec.h2 P r lands (Spec.blockRow t ρ) j := by
  rw [← Spec.h2_kernel]
  unfold Pt.h2 Spec.bnorm
  rw [hag.W2l t, hag.W2r t, hag.b2 t, hag.g2 t, hag.be2 t, hag.m2 t, hag.v2 t, hag.ivb t ρ, hs.IV,
    hs.b2, hs.g2, hs.be2, hs.m2, hs.v2]
  simp only [hag.s2b t ρ, hag.h1b t ρ, hs.S2, hs.H1, hs.W2l, hs.W2r]

/-- The pooled-sum scratch after the last point is the specification's pooled sum. -/
theorem sumAfter_last (g : Fin 128) (j : Fin 64) :
    sumAfter pt 19 (ix2 g j) = Spec.gs P r lands (Spec.landsBOf batch) g j := by
  rw [sumAfter_apply, Spec.gs_eq_blocks, Finset.sum_range]
  refine congrArg (fun s => Spec.zeroW + s) (Finset.sum_congr rfl fun t _ => Finset.sum_congr rfl fun ρ _ => ?_)
  rw [onehot_eq hag hs t ρ g, h2_eq hag hs t ρ j]

/-- The pooled-count scratch after the last point is the specification's pooled count. -/
theorem cntAfter_last (g : Fin 128) :
    cntAfter pt 19 (ix2 g (0 : Fin 1)) = Spec.gc (Spec.landsBOf batch) g := by
  rw [cntAfter_apply, Spec.gc_eq_blocks batch g (Ideal.ofBits .bf16 0x3F80#16) (Spec.ofBits_one_bf16.trans Spec.oneW_eq.symm),
    Finset.sum_range]
  refine congrArg (fun s => Spec.zeroW + s) (Finset.sum_congr rfl fun t _ => Finset.sum_congr rfl fun ρ _ => ?_)
  rw [onehot_eq hag hs t ρ g]

/-- The hidden layer of the head is the specification's. -/
theorem hid_eq (g : Fin 128) (j : Fin 64) :
    (pt 19).hid (sumAfter pt 19) (cntAfter pt 19) g j = Spec.g3 P r lands (Spec.landsBOf batch) g j := by
  have e1 : (pt 19).Wc1 = E.Wc1 := hag.Wc1 (19 : Fin 20)
  have e2 : (pt 19).bc1 = E.bc1 := hag.bc1 (19 : Fin 20)
  have e3 : (pt 19).g3 = E.g3 := hag.g3 (19 : Fin 20)
  have e4 : (pt 19).be3 = E.be3 := hag.be3 (19 : Fin 20)
  have e5 : (pt 19).m3 = E.m3 := hag.m3 (19 : Fin 20)
  have e6 : (pt 19).v3 = E.v3 := hag.v3 (19 : Fin 20)
  unfold Pt.hid Spec.g3 Spec.bnorm Spec.a3 Spec.p
  rw [e1, e2, e3, e4, e5, e6, cntAfter_last hag hs g, hs.bc1, hs.g3, hs.be3, hs.m3, hs.v3]
  simp only [sumAfter_last hag hs g, hs.Wc1]

/-- REGION 2'S VALUE: what the last point stores at `(g, q)` is the specification's result. -/
theorem head_eq_result (g : Fin 128) (q : Fin 10) :
    (pt 19).head (sumAfter pt 19) (cntAfter pt 19) (ix2 g q) = Spec.result P r lands (Spec.landsBOf batch) g q := by
  have hl : ∀ f : Fin 10 → EReal, logSoftmax10 f q = Spec.lsmK f q := fun f => rfl
  have e1 : (pt 19).Wc2 = E.Wc2 := hag.Wc2 (19 : Fin 20)
  have e2 : (pt 19).bc2 = E.bc2 := hag.bc2 (19 : Fin 20)
  rw [Pt.head_apply, Spec.result_eq_lsmK, hl]
  refine congrArg (fun f => Spec.lsmK f q) (funext fun q' => ?_)
  unfold Spec.lg
  rw [e1, e2, hs.bc2]
  simp only [hid_eq hag hs g, hs.Wc2]

end Bridge

end Cert.Value.K2

end
-- ==== Proof.KChain2.lean ====
import proofs.«418702_j33346126086715_3_alg».proof.Proof.KChain1
import proofs.«418702_j33346126086715_3_alg».proof.Proof.KHost2
import proofs.«418702_j33346126086715_3_alg».proof.Proof.KVal2Res

/-! The last links of the chain. The pooling and classifier call is entered after the third host stretch, which has
    summed the first layer's rows along the edges (the specification's `s2`, once the first layer's result is
    `h1`), reshaped the reciprocal counts and the graph words into columns and thirteen parameter vectors into rows,
    and written no argument: its nineteen entry arrays hold the specification's values. The call's result is then
    the specification's result, and with the two earlier links the whole kernel program's. -/

noncomputable section

namespace Cert.Value.KJ

open Cert.KernelIdeal Cert.KernelIdeal.Gen Cert.KernelIdeal.Frm Cert.Value.K
open Idealize.ShloMosaic Idealize.ShloMosaic.TcCoe Idealize.SL.Sem Idealize.ShloMosaic.ValueIdx Idealize.ShloMosaic.StableHlo

variable (m : (ℓ : Loc nD τ sig) → Buf (Elt Ideal) ℓ) (outs : Outs (F := Ideal))

/-- The contents the last call is entered with: after the third host stretch, over whatever the regions before it
    left (`outs`). -/
abbrev E2 : (c : Dev nD) → (b : Ref sig .tc) → Buf (Elt Ideal) ((c : Thread nD τ).loc b) := fun c b => V5 m outs c b

/-- The last call's nineteen entry arrays, in window order, at any entry contents. -/
abbrev entAt (V : (c : Dev nD) → (b : Ref sig .tc) → Buf (Elt Ideal) ((c : Thread nD τ).loc b)) (c : Dev nD) : K2.Ent :=
  ⟨V c main_v30, V c main_v41, V c main_v42, V c main_v43, V c main_arg6, V c main_arg7,
    V c main_v44, V c main_v45, V c main_v46, V c main_v47, V c main_v48,
    V c main_arg17, V c main_v49, V c main_v50, V c main_v51, V c main_v52, V c main_v53,
    V c main_arg23, V c main_v54⟩

/-- The node-to-graph words as the program finds them on core `c`. -/
abbrev graphs (c : Dev nD) : IVec Spec.SN 32 := m (c, Proc.devRef .tc main_arg2)

/-- An argument the third stretch does not write is the launch memory's. -/
theorem V5_arg (c : Dev nD) (r : Ref sig .tc) (h5 : r ∉ hostOps2_W) (h4 : r ∉ ([main_v30] : List (Ref sig .tc)))
    (h3 : r ∉ hostOps1_W) (h2 : r ∉ ([main_v12] : List (Ref sig .tc))) (h1 : r ∉ hostOps0_W) :
    V5 m outs c r = m (c, Proc.devRef .tc r) :=
  (V5_of m outs c r h5).trans (V4_arg m outs c r h4 h3 h2 h1)

/-- The first layer's result reaches the last call unchanged. -/
theorem V5_main_v30 (c : Dev nD) : (V5 m outs c main_v30 : S100000x64.Idx → EReal) = layer1 outs c :=
  (V5_of m outs c main_v30 (by decide)).trans (V4_main_v30 m outs c)

/-- The four weight matrices the last call reads are the launch memory's. -/
theorem E2_W2l (c : Dev nD) : V5 m outs c main_arg6 = m (c, Proc.devRef .tc main_arg6) :=
  V5_arg m outs c main_arg6 (by decide) (by decide) (by decide) (by decide) (by decide)
theorem E2_W2r (c : Dev nD) : V5 m outs c main_arg7 = m (c, Proc.devRef .tc main_arg7) :=
  V5_arg m outs c main_arg7 (by decide) (by decide) (by decide) (by decide) (by decide)
theorem E2_Wc1 (c : Dev nD) : V5 m outs c main_arg17 = m (c, Proc.devRef .tc main_arg17) :=
  V5_arg m outs c main_arg17 (by decide) (by decide) (by decide) (by decide) (by decide)
theorem E2_Wc2 (c : Dev nD) : V5 m outs c main_arg23 = m (c, Proc.devRef .tc main_arg23) :=
  V5_arg m outs c main_arg23 (by decide) (by decide) (by decide) (by decide) (by decide)

/-- The neighbour sums of the second layer, once the first layer's result is `h1`: the specification's `s2`. -/
theorem E2_s2 (c : Dev nD)
    (h1 : ∀ n k, layer1 outs c (ix2 n k) = Spec.h1 (paramsK m c) (Spec.rOf (edges m c)) (Spec.landsOf (edges m c)) n k)
    (n : Fin 100000) (k : Fin 64) :
    (V5 m outs c main_v41 : S100000x64.Idx → EReal) (ix2 n k)
      = Spec.s2 (paramsK m c) (Spec.rOf (edges m c)) (Spec.landsOf (edges m c)) n k := by
  refine (V5_main_v41_apply m outs c n k).trans ?_
  unfold Spec.s2
  exact congrArg (fun s => Spec.zeroW + s) (Finset.sum_congr rfl fun e _ => h1 _ k)

/-! ## The entry arrays, field by field -/

theorem F_H1 (c : Dev nD) (h1 : ∀ n k, layer1 outs c (ix2 n k) = Spec.h1 (paramsK m c) (Spec.rOf (edges m c)) (Spec.landsOf (edges m c)) n k) (n : Fin 100000) (k : Fin 64) :
    (entAt (E2 m outs) c).H1 (ix2 n k) = Spec.h1 (paramsK m c) (Spec.rOf (edges m c)) (Spec.landsOf (edges m c)) n k :=
  (congrFun (V5_main_v30 m outs c) (ix2 n k)).trans (h1 n k)
theorem F_S2 (c : Dev nD) (h1 : ∀ n k, layer1 outs c (ix2 n k) = Spec.h1 (paramsK m c) (Spec.rOf (edges m c)) (Spec.landsOf (edges m c)) n k) (n : Fin 100000) (k : Fin 64) :
    (entAt (E2 m outs) c).S2 (ix2 n k) = Spec.s2 (paramsK m c) (Spec.rOf (edges m c)) (Spec.landsOf (edges m c)) n k :=
  E2_s2 m outs c h1 n k
theorem F_IV (c : Dev nD) (n : Fin 100000) : (entAt (E2 m outs) c).IV (ix2 n (0 : Fin 1)) = Spec.invc (Spec.landsOf (edges m c)) n :=
  V5_main_v42_apply m outs c n
theorem F_B (c : Dev nD) (n : Fin 100000) : (entAt (E2 m outs) c).B (ix2 n (0 : Fin 1)) = graphs m c (ix1 n) :=
  V5_main_v43_apply m outs c n
theorem F_W2l (c : Dev nD) (k j : Fin 64) : (entAt (E2 m outs) c).W2l (ix2 k j) = (paramsK m c).W2l (ix2 k j) := congrFun (E2_W2l m outs c) (ix2 k j)
theorem F_W2r (c : Dev nD) (k j : Fin 64) : (entAt (E2 m outs) c).W2r (ix2 k j) = (paramsK m c).W2r (ix2 k j) := congrFun (E2_W2r m outs c) (ix2 k j)
theorem F_Wc1 (c : Dev nD) (k j : Fin 64) : (entAt (E2 m outs) c).Wc1 (ix2 k j) = (paramsK m c).Wc1 (ix2 k j) := congrFun (E2_Wc1 m outs c) (ix2 k j)
theorem F_Wc2 (c : Dev nD) (k : Fin 64) (q : Fin 10) : (entAt (E2 m outs) c).Wc2 (ix2 k q) = (paramsK m c).Wc2 (ix2 k q) := congrFun (E2_Wc2 m outs c) (ix2 k q)
theorem F_b2 (c : Dev nD) (j : Fin 64) : (entAt (E2 m outs) c).b2 (ix2 (0 : Fin 1) j) = (paramsK m c).b2 (ix1 j) := V5_main_v44_apply m outs c j
theorem F_g2 (c : Dev nD) (j : Fin 64) : (entAt (E2 m outs) c).g2 (ix2 (0 : Fin 1) j) = (paramsK m c).bn2g (ix1 j) := V5_main_v45_apply m outs c j
theorem F_be2 (c : Dev nD) (j : Fin 64) : (entAt (E2 m outs) c).be2 (ix2 (0 : Fin 1) j) = (paramsK m c).bn2b (ix1 j) := V5_main_v46_apply m outs c j
theorem F_m2 (c : Dev nD) (j : Fin 64) : (entAt (E2 m outs) c).m2 (ix2 (0 : Fin 1) j) = (paramsK m c).bn2m (ix1 j) := V5_main_v47_apply m outs c j
theorem F_v2 (c : Dev nD) (j : Fin 64) : (entAt (E2 m outs) c).v2 (ix2 (0 : Fin 1) j) = (paramsK m c).bn2v (ix1 j) := V5_main_v48_apply m outs c j
theorem F_bc1 (c : Dev nD) (j : Fin 64) : (entAt (E2 m outs) c).bc1 (ix2 (0 : Fin 1) j) = (paramsK m c).bc1 (ix1 j) := V5_main_v49_apply m outs c j
theorem F_g3 (c : Dev nD) (j : Fin 64) : (entAt (E2 m outs) c).g3 (ix2 (0 : Fin 1) j) = (paramsK m c).bn3g (ix1 j) := V5_main_v50_apply m outs c j
theorem F_be3 (c : Dev nD) (j : Fin 64) : (entAt (E2 m outs) c).be3 (ix2 (0 : Fin 1) j) = (paramsK m c).bn3b (ix1 j) := V5_main_v51_apply m outs c j
theorem F_m3 (c : Dev nD) (j : Fin 64) : (entAt (E2 m outs) c).m3 (ix2 (0 : Fin 1) j) = (paramsK m c).bn3m (ix1 j) := V5_main_v52_apply m outs c j
theorem F_v3 (c : Dev nD) (j : Fin 64) : (entAt (E2 m outs) c).v3 (ix2 (0 : Fin 1) j) = (paramsK m c).bn3v (ix1 j) := V5_main_v53_apply m outs c j
theorem F_bc2 (c : Dev nD) (q : Fin 10) : (entAt (E2 m outs) c).bc2 (ix2 (0 : Fin 1) q) = (paramsK m c).bc2 (ix1 q) := V5_main_v54_apply m outs c q

/-- LINK 2: the last call's entry arrays hold the specification's values, once the first layer's result is `h1`. -/
theorem isSpec2 (c : Dev nD)
    (h1 : ∀ n k, layer1 outs c (ix2 n k) = Spec.h1 (paramsK m c) (Spec.rOf (edges m c)) (Spec.landsOf (edges m c)) n k) :
    K2.IsSpec (entAt (E2 m outs) c) (paramsK m c) (Spec.rOf (edges m c)) (Spec.landsOf (edges m c)) (graphs m c) :=
  ⟨F_H1 m outs c h1, F_S2 m outs c h1, F_IV m outs c, F_B m outs c, F_W2l m outs c, F_W2r m outs c,
    F_b2 m outs c, F_g2 m outs c, F_be2 m outs c, F_m2 m outs c, F_v2 m outs c,
    F_Wc1 m outs c, F_bc1 m outs c, F_g3 m outs c, F_be3 m outs c, F_m3 m outs c, F_v3 m outs c,
    F_Wc2 m outs c, F_bc2 m outs c⟩

/-- The edge list and the graph words, in the two spellings of their memory locations. -/
theorem eiK_eq (c : Dev nD) : eiK m c = edges m c := rfl
theorem batchK_eq (c : Dev nD) : batchK m c = graphs m c := rfl

/-- The specified result with its selectors written out. -/
theorem resultOf_eq (P : Spec.Params) (ei : IVec Spec.S2xE 32) (batch : IVec Spec.SN 32) (g : Fin 128) (q : Fin 10) :
    Spec.resultOf P ei batch g q = Spec.result P (Spec.rOf ei) (Spec.landsOf ei) (Spec.landsBOf batch) g q := rfl

/-- The projection's and the first layer's results, from what `outs` holds. -/
theorem proj1_eq_xl1 (c : Dev nD) (h0 : outs 2 main_v12 c = (dat0 (E0 m) c).arrAt 2 cfg0.N) (n : Fin 100000) (j : Fin 64) :
    proj1 outs c (ix2 n j) = Spec.xl1 (paramsK m c) n j := by
  have e : proj1 outs c = yArr0 (E0 m) c := h0
  rw [e]
  exact link0 m c n j

theorem layer1_eq_h1 (c : Dev nD) (h0 : outs 2 main_v12 c = (dat0 (E0 m) c).arrAt 2 cfg0.N)
    (h1 : outs 4 main_v30 c = (dat1 (E1 m outs) c).arrAt 9 cfg1.N)
    (hx : ∀ i, ∃ v : ℝ, (paramsK m c).x i = (v : EReal)) (hW : ∀ i, ∃ v : ℝ, (paramsK m c).W1l i = (v : EReal))
    (n : Fin 100000) (k : Fin 64) :
    layer1 outs c (ix2 n k) = Spec.h1 (paramsK m c) (Spec.rOf (edges m c)) (Spec.landsOf (edges m c)) n k := by
  have e : layer1 outs c = ((dat1 (E1 m outs) c).arrAt 9 cfg1.N : S100000x64.Idx → EReal) := h1
  rw [e]
  exact link1 m outs c (proj1_eq_xl1 m outs c h0) hx hW n k

/-- THE KERNEL PROGRAM'S VALUE. If `outs` holds what the first two calls leave in their result arrays, the points'
    blocks of the last call are its entry arrays' (`hag`), and `Y` is what its last point stores from the two pooled
    accumulators (`hfr`), then `Y` is the specified result of the launch memory's arguments — on inputs whose `x`
    and first neighbour weight are real. -/
theorem kernel_value_of (c : Dev nD)
    (h0 : outs 2 main_v12 c = (dat0 (E0 m) c).arrAt 2 cfg0.N)
    (h1 : outs 4 main_v30 c = (dat1 (E1 m outs) c).arrAt 9 cfg1.N)
    (hx : ∀ i, ∃ v : ℝ, (paramsK m c).x i = (v : EReal)) (hW : ∀ i, ∃ v : ℝ, (paramsK m c).W1l i = (v : EReal))
    (pt : ℕ → K2.Pt) (hag : K2.Agrees (entAt (E2 m outs) c) pt)
    (Y : FVec Ideal S128x10 .f32) (hfr : Y = (pt 19).head (K2.sumAfter pt 19) (K2.cntAfter pt 19)) :
    Y = fun i => Spec.resultOf (paramsK m c) (eiK m c) (batchK m c) (i 0) (i 1) := by
  funext i
  obtain ⟨g, q, rfl⟩ : ∃ (g : Fin 128) (q : Fin 10), i = ix2 g q := ⟨i 0, i 1, eq_ix2 i⟩
  show Y (ix2 g q) = Spec.resultOf (paramsK m c) (eiK m c) (batchK m c) g q
  rw [eiK_eq, batchK_eq, resultOf_eq]
  exact (congrFun hfr (ix2 g q)).trans
    (K2.head_eq_result hag (isSpec2 m outs c (layer1_eq_h1 m outs c h0 h1 hx hW)) g q)

end Cert.Value.KJ

end
-- ==== Proof.KChain3.lean ====
import proofs.«418702_j33346126086715_3_alg».proof.Proof.KChain2
import proofs.«418702_j33346126086715_3_alg».proof.Proof.KernelIdealRun

/-! The kernel program's result buffer, over the run of its @main: the contents each call is entered with are the
    launch memory after the host stretches before it, over what the earlier calls left; so the chain of links
    applies, and the result buffer after the last call holds the specified result of the launch memory's
    arguments. -/

noncomputable section

namespace Cert.Value.KJ

open Cert.KernelIdeal Cert.KernelIdeal.Gen Cert.KernelIdeal.Frm Cert.Value.K
open Idealize.ShloMosaic Idealize.ShloMosaic.TcCoe Idealize.SL.Sem Idealize.ShloMosaic.ValueIdx Idealize.ShloMosaic.StableHlo

variable (m : (ℓ : Loc nD τ sig) → Buf (Elt Ideal) ℓ)

/-- The first two calls' proof data, at any entry contents. -/
abbrev dK0 : DatAt Ideal cfg0 := fun V c => dat0 V c
abbrev dK1 : DatAt Ideal cfg1 := fun V c => dat1 V c

/-- What the first two calls leave, as the run's record of them selects it. -/
theorem outs1_two (c : Dev nD) : outs1 m dK0 dK1 2 main_v12 c = out0 m dK0 c main_v12 := rfl
theorem outs1_four (c : Dev nD) : outs1 m dK0 dK1 4 main_v30 c = out1 m dK0 dK1 c main_v30 := rfl

/-- The first layer's call is entered with the same contents whichever record of the earlier calls is read: only
    the projection's result is read before it. -/
theorem E1_outs1 : E1 m (outs1 m dK0 dK1) = ent1 m dK0 :=
  funext fun c => funext fun b => congrFun (V3_outs1 m dK0 dK1 c) (Proc.devRef .tc b)

theorem h0_run (c : Dev nD) : outs1 m dK0 dK1 2 main_v12 c = (dat0 (E0 m) c).arrAt 2 cfg0.N :=
  (outs1_two m c).trans (out0_v12 m dK0 c)

theorem h1_run (c : Dev nD) : outs1 m dK0 dK1 4 main_v30 c = (dat1 (E1 m (outs1 m dK0 dK1)) c).arrAt 9 cfg1.N := by
  rw [E1_outs1]
  exact (outs1_four m c).trans (out1_v30 m dK0 dK1 c)

/-- THE KERNEL PROGRAM'S RESULT. For any proof data `d2` of the last call whose result array is what its last point
    stores from the two pooled accumulators (`hfr`), the points' blocks being the entry arrays' (`hag`): the
    program's result buffer holds the specified result of the launch memory's arguments, on inputs whose `x` and
    first neighbour weight are real. -/
theorem kernel_value_open (d2 : DatAt Ideal cfg2) (c : Dev nD)
    (hx : ∀ i, ∃ v : ℝ, (paramsK m c).x i = (v : EReal)) (hW : ∀ i, ∃ v : ℝ, (paramsK m c).W1l i = (v : EReal))
    (pt : ℕ → K2.Pt) (hag : K2.Agrees (entAt (ent2 m dK0 dK1) c) pt)
    (hfr : ((d2 (ent2 m dK0 dK1) c).arrAt 19 cfg2.N : FVec Ideal S128x10 .f32)
      = (pt 19).head (K2.sumAfter pt 19) (K2.cntAfter pt 19)) :
    (res55 m dK0 dK1 d2 c : FVec Ideal S128x10 .f32)
      = fun i => Spec.resultOf (paramsK m c) (eiK m c) (batchK m c) (i 0) (i 1) := by
  rw [res55_eq]
  exact kernel_value_of m (outs1 m dK0 dK1) c (h0_run m c) (h1_run m c) hx hW pt hag _ hfr

end Cert.Value.KJ

end
-- ==== Proof.KVal2Pt.lean ====
/- The blocks each grid point of region 2 finds, read off the contents the region is entered at. -/
import proofs.«418702_j33346126086715_3_alg».proof.Proof.KVal2Fold
import proofs.«418702_j33346126086715_3_alg».proof.Proof.KernelIdealReg2Runs

noncomputable section

namespace Cert.Value.K2

open Cert.KernelIdeal Cert.KernelIdeal.Gen Cert.KernelIdeal.Frm Idealize.ShloMosaic Idealize.ShloMosaic.TcCoe Idealize.SL.Sem
open Idealize.ShloMosaic.ValueIdx

variable (V : (c : Dev nD) → (b : Ref sig .tc) → Buf (Elt Ideal) ((c : Thread nD τ).loc b))

/-- Point `t` of the grid as a position below the grid's length (a number past the grid stands for the last point). -/
def pointOf (t : ℕ) : Fin cfg2.N := Fin.cast N_2.symm ⟨min t 19, by omega⟩

theorem pointOf_val (t : Fin cfg2.N) : pointOf t.val = t :=
  Fin.ext (by
    have h : t.val < 20 := lt_of_lt_of_eq t.isLt (show cfg2.N = 20 from N_2)
    show min t.val 19 = t.val
    omega)

/-- The nineteen input blocks the point at position `u` finds, read off the entry contents through the windows. -/
def ptAt (c : Dev nD) (u : Fin cfg2.N) : Pt where
  h1b := iblk2 V c 0 u
  s2b := iblk2 V c 1 u
  ivb := iblk2 V c 2 u
  bb := iblk2 V c 3 u
  W2l := iblk2 V c 4 u
  W2r := iblk2 V c 5 u
  b2 := iblk2 V c 6 u
  g2 := iblk2 V c 7 u
  be2 := iblk2 V c 8 u
  m2 := iblk2 V c 9 u
  v2 := iblk2 V c 10 u
  Wc1 := iblk2 V c 11 u
  bc1 := iblk2 V c 12 u
  g3 := iblk2 V c 13 u
  be3 := iblk2 V c 14 u
  m3 := iblk2 V c 15 u
  v3 := iblk2 V c 16 u
  Wc2 := iblk2 V c 17 u
  bc2 := iblk2 V c 18 u

/-- The blocks point `t` finds, for any number `t` (a number past the grid standing for the last point). -/
def ptOf (c : Dev nD) (t : ℕ) : Pt := ptAt V c (pointOf t)

theorem ptOf_val (c : Dev nD) (t : Fin cfg2.N) : ptOf V c t.val = ptAt V c t :=
  congrArg (ptAt V c) (pointOf_val t)

end Cert.Value.K2

end
-- ==== Proof.KVal2Blk.lean ====
/- Where each input window of the pooling-and-classifier region finds its block: at point `t` the four row-blocked
   windows hold rows `5000 t … 5000 t + 4999` of their arrays and the fifteen parameter windows hold their whole arrays. -/
import proofs.«418702_j33346126086715_3_alg».proof.Proof.KernelIdealReg2Runs
import proofs.«418702_j33346126086715_3_alg».proof.Proof.KVal2Res
import proofs.«418702_j33346126086715_3_alg».proof.Proof.KVal2Pt
import Idealize.ShloMosaic.Lib.Pipeline.Value
import Idealize.ShloMosaic.Lib.ValueIdx
import Idealize.ShloMosaic.PureOps.Ideal.Laws

noncomputable section

namespace Cert.Value.K2

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The block index maps over the grid: the four row-blocked inputs take block `t` of the rows at point `t`; the
    weights and the parameter rows are their one block at every point. -/
theorem idx_facts2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = 0 ∧ win2_10.index t (1 : Fin 2) = 0)
    ∧ (win2_11.index t (0 : Fin 2) = 0 ∧ win2_11.index t (1 : Fin 2) = 0)
    ∧ (win2_12.index t (0 : Fin 2) = 0 ∧ win2_12.index t (1 : Fin 2) = 0)
    ∧ (win2_13.index t (0 : Fin 2) = 0 ∧ win2_13.index t (1 : Fin 2) = 0)
    ∧ (win2_14.index t (0 : Fin 2) = 0 ∧ win2_14.index t (1 : Fin 2) = 0)
    ∧ (win2_15.index t (0 : Fin 2) = 0 ∧ win2_15.index t (1 : Fin 2) = 0)
    ∧ (win2_16.index t (0 : Fin 2) = 0 ∧ win2_16.index t (1 : Fin 2) = 0)
    ∧ (win2_17.index t (0 : Fin 2) = 0 ∧ win2_17.index t (1 : Fin 2) = 0)
    ∧ (win2_18.index t (0 : Fin 2) = 0 ∧ win2_18.index t (1 : Fin 2) = 0) :=
  (by decide +kernel : ∀ t : Fin grid2.N, _)

/-- Row `ρ` of window 0's block at point `t` is row `5000 t + ρ` of its array. -/
theorem iblk2_0_apply (c : Dev nD) (t : Fin cfg2.N) (ρ : Fin 5000) (k : Fin 64) (n : Fin 100000) (hn : n.val = 5000 * t.val + ρ.val) :
    (iblk2 V c 0 t : Vec Ideal S5000x64 .bf16) (ix2 ρ k) = (V c main_v30 : S100000x64.Idx → EReal) (ix2 n k) := by
  obtain ⟨⟨e0, e1⟩, -⟩ := idx_facts2 t
  show (V c main_v30 : S100000x64.Idx → EReal) (((cfg2.win 0).blk t).view.emb (ix2 ρ k)) = _
  refine congrArg (V c main_v30 : S100000x64.Idx → EReal) (funext fun a => Fin.ext ?_)
  match a with
  | ⟨0, _⟩ => show win2_0.index t (0 : Fin 2) * 5000 + 1 * ρ.val = n.val; omega
  | ⟨1, _⟩ => show win2_0.index t (1 : Fin 2) * 64 + 1 * (k).val = (k).val; omega

/-- Row `ρ` of window 1's block at point `t` is row `5000 t + ρ` of its array. -/
theorem iblk2_1_apply (c : Dev nD) (t : Fin cfg2.N) (ρ : Fin 5000) (k : Fin 64) (n : Fin 100000) (hn : n.val = 5000 * t.val + ρ.val) :
    (iblk2 V c 1 t : Vec Ideal S5000x64 .f32) (ix2 ρ k) = (V c main_v41 : S100000x64.Idx → EReal) (ix2 n k) := by
  obtain ⟨-, ⟨e0, e1⟩, -⟩ := idx_facts2 t
  show (V c main_v41 : S100000x64.Idx → EReal) (((cfg2.win 1).blk t).view.emb (ix2 ρ k)) = _
  refine congrArg (V c main_v41 : S100000x64.Idx → EReal) (funext fun a => Fin.ext ?_)
  match a with
  | ⟨0, _⟩ => show win2_1.index t (0 : Fin 2) * 5000 + 1 * ρ.val = n.val; omega
  | ⟨1, _⟩ => show win2_1.index t (1 : Fin 2) * 64 + 1 * (k).val = (k).val; omega

/-- Row `ρ` of window 2's block at point `t` is row `5000 t + ρ` of its array. -/
theorem iblk2_2_apply (c : Dev nD) (t : Fin cfg2.N) (ρ : Fin 5000) (n : Fin 100000) (hn : n.val = 5000 * t.val + ρ.val) :
    (iblk2 V c 2 t : Vec Ideal S5000x1 .f32) (ix2 ρ (0 : Fin 1)) = (V c main_v42 : S100000x1.Idx → EReal) (ix2 n (0 : Fin 1)) := by
  obtain ⟨-, -, ⟨e0, e1⟩, -⟩ := idx_facts2 t
  show (V c main_v42 : S100000x1.Idx → EReal) (((cfg2.win 2).blk t).view.emb (ix2 ρ (0 : Fin 1))) = _
  refine congrArg (V c main_v42 : S100000x1.Idx → EReal) (funext fun a => Fin.ext ?_)
  match a with
  | ⟨0, _⟩ => show win2_2.index t (0 : Fin 2) * 5000 + 1 * ρ.val = n.val; omega
  | ⟨1, _⟩ => show win2_2.index t (1 : Fin 2) * 1 + 1 * ((0 : Fin 1)).val = ((0 : Fin 1)).val; omega

/-- Row `ρ` of window 3's block at point `t` is row `5000 t + ρ` of its array. -/
theorem iblk2_3_apply (c : Dev nD) (t : Fin cfg2.N) (ρ : Fin 5000) (n : Fin 100000) (hn : n.val = 5000 * t.val + ρ.val) :
    (iblk2 V c 3 t : Vec Ideal S5000x1 .i32) (ix2 ρ (0 : Fin 1)) = (V c main_v43 : S100000x1.Idx → BitVec 32) (ix2 n (0 : Fin 1)) := by
  obtain ⟨-, -, -, ⟨e0, e1⟩, -⟩ := idx_facts2 t
  show (V c main_v43 : S100000x1.Idx → BitVec 32) (((cfg2.win 3).blk t).view.emb (ix2 ρ (0 : Fin 1))) = _
  refine congrArg (V c main_v43 : S100000x1.Idx → BitVec 32) (funext fun a => Fin.ext ?_)
  match a with
  | ⟨0, _⟩ => show win2_3.index t (0 : Fin 2) * 5000 + 1 * ρ.val = n.val; omega
  | ⟨1, _⟩ => show win2_3.index t (1 : Fin 2) * 1 + 1 * ((0 : Fin 1)).val = ((0 : Fin 1)).val; omega

/-- Window 4's block is its whole array, at every point. -/
theorem iblk2_4_eq (c : Dev nD) (t : Fin cfg2.N) :
    (iblk2 V c 4 t : Vec Ideal S64x64 .f32) = (V c main_arg6 : S64x64.Idx → EReal) := by
  obtain ⟨-, -, -, -, ⟨e0, e1⟩, -⟩ := idx_facts2 t
  refine funext fun (y : S64x64.Idx) => ?_
  obtain ⟨p, q, rfl⟩ : ∃ (p : Fin 64) (q : Fin 64), y = ix2 p q := ⟨y 0, y 1, eq_ix2 y⟩
  show (V c main_arg6 : S64x64.Idx → EReal) (((cfg2.win 4).blk t).view.emb (ix2 p q)) = _
  refine congrArg (V c main_arg6 : S64x64.Idx → EReal) (funext fun a => Fin.ext ?_)
  match a with
  | ⟨0, _⟩ => show win2_4.index t (0 : Fin 2) * 64 + 1 * p.val = p.val; omega
  | ⟨1, _⟩ => show win2_4.index t (1 : Fin 2) * 64 + 1 * q.val = q.val; omega

/-- Window 5's block is its whole array, at every point. -/
theorem iblk2_5_eq (c : Dev nD) (t : Fin cfg2.N) :
    (iblk2 V c 5 t : Vec Ideal S64x64 .f32) = (V c main_arg7 : S64x64.Idx → EReal) := by
  obtain ⟨-, -, -, -, -, ⟨e0, e1⟩, -⟩ := idx_facts2 t
  refine funext fun (y : S64x64.Idx) => ?_
  obtain ⟨p, q, rfl⟩ : ∃ (p : Fin 64) (q : Fin 64), y = ix2 p q := ⟨y 0, y 1, eq_ix2 y⟩
  show (V c main_arg7 : S64x64.Idx → EReal) (((cfg2.win 5).blk t).view.emb (ix2 p q)) = _
  refine congrArg (V c main_arg7 : S64x64.Idx → EReal) (funext fun a => Fin.ext ?_)
  match a with
  | ⟨0, _⟩ => show win2_5.index t (0 : Fin 2) * 64 + 1 * p.val = p.val; omega
  | ⟨1, _⟩ => show win2_5.index t (1 : Fin 2) * 64 + 1 * q.val = q.val; omega

/-- Window 6's block is its whole array, at every point. -/
theorem iblk2_6_eq (c : Dev nD) (t : Fin cfg2.N) :
    (iblk2 V c 6 t : Vec Ideal S1x64 .f32) = (V c main_v44 : S1x64.Idx → EReal) := by
  obtain ⟨-, -, -, -, -, -, ⟨e0, e1⟩, -⟩ := idx_facts2 t
  refine funext fun (y : S1x64.Idx) => ?_
  obtain ⟨p, q, rfl⟩ : ∃ (p : Fin 1) (q : Fin 64), y = ix2 p q := ⟨y 0, y 1, eq_ix2 y⟩
  show (V c main_v44 : S1x64.Idx → EReal) (((cfg2.win 6).blk t).view.emb (ix2 p q)) = _
  refine congrArg (V c main_v44 : S1x64.Idx → EReal) (funext fun a => Fin.ext ?_)
  match a with
  | ⟨0, _⟩ => show win2_6.index t (0 : Fin 2) * 1 + 1 * p.val = p.val; omega
  | ⟨1, _⟩ => show win2_6.index t (1 : Fin 2) * 64 + 1 * q.val = q.val; omega

/-- Window 7's block is its whole array, at every point. -/
theorem iblk2_7_eq (c : Dev nD) (t : Fin cfg2.N) :
    (iblk2 V c 7 t : Vec Ideal S1x64 .f32) = (V c main_v45 : S1x64.Idx → EReal) := by
  obtain ⟨-, -, -, -, -, -, -, ⟨e0, e1⟩, -⟩ := idx_facts2 t
  refine funext fun (y : S1x64.Idx) => ?_
  obtain ⟨p, q, rfl⟩ : ∃ (p : Fin 1) (q : Fin 64), y = ix2 p q := ⟨y 0, y 1, eq_ix2 y⟩
  show (V c main_v45 : S1x64.Idx → EReal) (((cfg2.win 7).blk t).view.emb (ix2 p q)) = _
  refine congrArg (V c main_v45 : S1x64.Idx → EReal) (funext fun a => Fin.ext ?_)
  match a with
  | ⟨0, _⟩ => show win2_7.index t (0 : Fin 2) * 1 + 1 * p.val = p.val; omega
  | ⟨1, _⟩ => show win2_7.index t (1 : Fin 2) * 64 + 1 * q.val = q.val; omega

/-- Window 8's block is its whole array, at every point. -/
theorem iblk2_8_eq (c : Dev nD) (t : Fin cfg2.N) :
    (iblk2 V c 8 t : Vec Ideal S1x64 .f32) = (V c main_v46 : S1x64.Idx → EReal) := by
  obtain ⟨-, -, -, -, -, -, -, -, ⟨e0, e1⟩, -⟩ := idx_facts2 t
  refine funext fun (y : S1x64.Idx) => ?_
  obtain ⟨p, q, rfl⟩ : ∃ (p : Fin 1) (q : Fin 64), y = ix2 p q := ⟨y 0, y 1, eq_ix2 y⟩
  show (V c main_v46 : S1x64.Idx → EReal) (((cfg2.win 8).blk t).view.emb (ix2 p q)) = _
  refine congrArg (V c main_v46 : S1x64.Idx → EReal) (funext fun a => Fin.ext ?_)
  match a with
  | ⟨0, _⟩ => show win2_8.index t (0 : Fin 2) * 1 + 1 * p.val = p.val; omega
  | ⟨1, _⟩ => show win2_8.index t (1 : Fin 2) * 64 + 1 * q.val = q.val; omega

/-- Window 9's block is its whole array, at every point. -/
theorem iblk2_9_eq (c : Dev nD) (t : Fin cfg2.N) :
    (iblk2 V c 9 t : Vec Ideal S1x64 .f32) = (V c main_v47 : S1x64.Idx → EReal) := by
  obtain ⟨-, -, -, -, -, -, -, -, -, ⟨e0, e1⟩, -⟩ := idx_facts2 t
  refine funext fun (y : S1x64.Idx) => ?_
  obtain ⟨p, q, rfl⟩ : ∃ (p : Fin 1) (q : Fin 64), y = ix2 p q := ⟨y 0, y 1, eq_ix2 y⟩
  show (V c main_v47 : S1x64.Idx → EReal) (((cfg2.win 9).blk t).view.emb (ix2 p q)) = _
  refine congrArg (V c main_v47 : S1x64.Idx → EReal) (funext fun a => Fin.ext ?_)
  match a with
  | ⟨0, _⟩ => show win2_9.index t (0 : Fin 2) * 1 + 1 * p.val = p.val; omega
  | ⟨1, _⟩ => show win2_9.index t (1 : Fin 2) * 64 + 1 * q.val = q.val; omega

/-- Window 10's block is its whole array, at every point. -/
theorem iblk2_10_eq (c : Dev nD) (t : Fin cfg2.N) :
    (iblk2 V c 10 t : Vec Ideal S1x64 .f32) = (V c main_v48 : S1x64.Idx → EReal) := by
  obtain ⟨-, -, -, -, -, -, -, -, -, -, ⟨e0, e1⟩, -⟩ := idx_facts2 t
  refine funext fun (y : S1x64.Idx) => ?_
  obtain ⟨p, q, rfl⟩ : ∃ (p : Fin 1) (q : Fin 64), y = ix2 p q := ⟨y 0, y 1, eq_ix2 y⟩
  show (V c main_v48 : S1x64.Idx → EReal) (((cfg2.win 10).blk t).view.emb (ix2 p q)) = _
  refine congrArg (V c main_v48 : S1x64.Idx → EReal) (funext fun a => Fin.ext ?_)
  match a with
  | ⟨0, _⟩ => show win2_10.index t (0 : Fin 2) * 1 + 1 * p.val = p.val; omega
  | ⟨1, _⟩ => show win2_10.index t (1 : Fin 2) * 64 + 1 * q.val = q.val; omega

/-- Window 11's block is its whole array, at every point. -/
theorem iblk2_11_eq (c : Dev nD) (t : Fin cfg2.N) :
    (iblk2 V c 11 t : Vec Ideal S64x64 .f32) = (V c main_arg17 : S64x64.Idx → EReal) := by
  obtain ⟨-, -, -, -, -, -, -, -, -, -, -, ⟨e0, e1⟩, -⟩ := idx_facts2 t
  refine funext fun (y : S64x64.Idx) => ?_
  obtain ⟨p, q, rfl⟩ : ∃ (p : Fin 64) (q : Fin 64), y = ix2 p q := ⟨y 0, y 1, eq_ix2 y⟩
  show (V c main_arg17 : S64x64.Idx → EReal) (((cfg2.win 11).blk t).view.emb (ix2 p q)) = _
  refine congrArg (V c main_arg17 : S64x64.Idx → EReal) (funext fun a => Fin.ext ?_)
  match a with
  | ⟨0, _⟩ => show win2_11.index t (0 : Fin 2) * 64 + 1 * p.val = p.val; omega
  | ⟨1, _⟩ => show win2_11.index t (1 : Fin 2) * 64 + 1 * q.val = q.val; omega

/-- Window 12's block is its whole array, at every point. -/
theorem iblk2_12_eq (c : Dev nD) (t : Fin cfg2.N) :
    (iblk2 V c 12 t : Vec Ideal S1x64 .f32) = (V c main_v49 : S1x64.Idx → EReal) := by
  obtain ⟨-, -, -, -, -, -, -, -, -, -, -, -, ⟨e0, e1⟩, -⟩ := idx_facts2 t
  refine funext fun (y : S1x64.Idx) => ?_
  obtain ⟨p, q, rfl⟩ : ∃ (p : Fin 1) (q : Fin 64), y = ix2 p q := ⟨y 0, y 1, eq_ix2 y⟩
  show (V c main_v49 : S1x64.Idx → EReal) (((cfg2.win 12).blk t).view.emb (ix2 p q)) = _
  refine congrArg (V c main_v49 : S1x64.Idx → EReal) (funext fun a => Fin.ext ?_)
  match a with
  | ⟨0, _⟩ => show win2_12.index t (0 : Fin 2) * 1 + 1 * p.val = p.val; omega
  | ⟨1, _⟩ => show win2_12.index t (1 : Fin 2) * 64 + 1 * q.val = q.val; omega

/-- Window 13's block is its whole array, at every point. -/
theorem iblk2_13_eq (c : Dev nD) (t : Fin cfg2.N) :
    (iblk2 V c 13 t : Vec Ideal S1x64 .f32) = (V c main_v50 : S1x64.Idx → EReal) := by
  obtain ⟨-, -, -, -, -, -, -, -, -, -, -, -, -, ⟨e0, e1⟩, -⟩ := idx_facts2 t
  refine funext fun (y : S1x64.Idx) => ?_
  obtain ⟨p, q, rfl⟩ : ∃ (p : Fin 1) (q : Fin 64), y = ix2 p q := ⟨y 0, y 1, eq_ix2 y⟩
  show (V c main_v50 : S1x64.Idx → EReal) (((cfg2.win 13).blk t).view.emb (ix2 p q)) = _
  refine congrArg (V c main_v50 : S1x64.Idx → EReal) (funext fun a => Fin.ext ?_)
  match a with
  | ⟨0, _⟩ => show win2_13.index t (0 : Fin 2) * 1 + 1 * p.val = p.val; omega
  | ⟨1, _⟩ => show win2_13.index t (1 : Fin 2) * 64 + 1 * q.val = q.val; omega

/-- Window 14's block is its whole array, at every point. -/
theorem iblk2_14_eq (c : Dev nD) (t : Fin cfg2.N) :
    (iblk2 V c 14 t : Vec Ideal S1x64 .f32) = (V c main_v51 : S1x64.Idx → EReal) := by
  obtain ⟨-, -, -, -, -, -, -, -, -, -, -, -, -, -, ⟨e0, e1⟩, -⟩ := idx_facts2 t
  refine funext fun (y : S1x64.Idx) => ?_
  obtain ⟨p, q, rfl⟩ : ∃ (p : Fin 1) (q : Fin 64), y = ix2 p q := ⟨y 0, y 1, eq_ix2 y⟩
  show (V c main_v51 : S1x64.Idx → EReal) (((cfg2.win 14).blk t).view.emb (ix2 p q)) = _
  refine congrArg (V c main_v51 : S1x64.Idx → EReal) (funext fun a => Fin.ext ?_)
  match a with
  | ⟨0, _⟩ => show win2_14.index t (0 : Fin 2) * 1 + 1 * p.val = p.val; omega
  | ⟨1, _⟩ => show win2_14.index t (1 : Fin 2) * 64 + 1 * q.val = q.val; omega

/-- Window 15's block is its whole array, at every point. -/
theorem iblk2_15_eq (c : Dev nD) (t : Fin cfg2.N) :
    (iblk2 V c 15 t : Vec Ideal S1x64 .f32) = (V c main_v52 : S1x64.Idx → EReal) := by
  obtain ⟨-, -, -, -, -, -, -, -, -, -, -, -, -, -, -, ⟨e0, e1⟩, -⟩ := idx_facts2 t
  refine funext fun (y : S1x64.Idx) => ?_
  obtain ⟨p, q, rfl⟩ : ∃ (p : Fin 1) (q : Fin 64), y = ix2 p q := ⟨y 0, y 1, eq_ix2 y⟩
  show (V c main_v52 : S1x64.Idx → EReal) (((cfg2.win 15).blk t).view.emb (ix2 p q)) = _
  refine congrArg (V c main_v52 : S1x64.Idx → EReal) (funext fun a => Fin.ext ?_)
  match a with
  | ⟨0, _⟩ => show win2_15.index t (0 : Fin 2) * 1 + 1 * p.val = p.val; omega
  | ⟨1, _⟩ => show win2_15.index t (1 : Fin 2) * 64 + 1 * q.val = q.val; omega

/-- Window 16's block is its whole array, at every point. -/
theorem iblk2_16_eq (c : Dev nD) (t : Fin cfg2.N) :
    (iblk2 V c 16 t : Vec Ideal S1x64 .f32) = (V c main_v53 : S1x64.Idx → EReal) := by
  obtain ⟨-, -, -, -, -, -, -, -, -, -, -, -, -, -, -, -, ⟨e0, e1⟩, -⟩ := idx_facts2 t
  refine funext fun (y : S1x64.Idx) => ?_
  obtain ⟨p, q, rfl⟩ : ∃ (p : Fin 1) (q : Fin 64), y = ix2 p q := ⟨y 0, y 1, eq_ix2 y⟩
  show (V c main_v53 : S1x64.Idx → EReal) (((cfg2.win 16).blk t).view.emb (ix2 p q)) = _
  refine congrArg (V c main_v53 : S1x64.Idx → EReal) (funext fun a => Fin.ext ?_)
  match a with
  | ⟨0, _⟩ => show win2_16.index t (0 : Fin 2) * 1 + 1 * p.val = p.val; omega
  | ⟨1, _⟩ => show win2_16.index t (1 : Fin 2) * 64 + 1 * q.val = q.val; omega

/-- Window 17's block is its whole array, at every point. -/
theorem iblk2_17_eq (c : Dev nD) (t : Fin cfg2.N) :
    (iblk2 V c 17 t : Vec Ideal S64x10 .f32) = (V c main_arg23 : S64x10.Idx → EReal) := by
  obtain ⟨-, -, -, -, -, -, -, -, -, -, -, -, -, -, -, -, -, ⟨e0, e1⟩, -⟩ := idx_facts2 t
  refine funext fun (y : S64x10.Idx) => ?_
  obtain ⟨p, q, rfl⟩ : ∃ (p : Fin 64) (q : Fin 10), y = ix2 p q := ⟨y 0, y 1, eq_ix2 y⟩
  show (V c main_arg23 : S64x10.Idx → EReal) (((cfg2.win 17).blk t).view.emb (ix2 p q)) = _
  refine congrArg (V c main_arg23 : S64x10.Idx → EReal) (funext fun a => Fin.ext ?_)
  match a with
  | ⟨0, _⟩ => show win2_17.index t (0 : Fin 2) * 64 + 1 * p.val = p.val; omega
  | ⟨1, _⟩ => show win2_17.index t (1 : Fin 2) * 10 + 1 * q.val = q.val; omega

/-- Window 18's block is its whole array, at every point. -/
theorem iblk2_18_eq (c : Dev nD) (t : Fin cfg2.N) :
    (iblk2 V c 18 t : Vec Ideal S1x10 .f32) = (V c main_v54 : S1x10.Idx → EReal) := by
  obtain ⟨-, -, -, -, -, -, -, -, -, -, -, -, -, -, -, -, -, -, ⟨e0, e1⟩⟩ := idx_facts2 t
  refine funext fun (y : S1x10.Idx) => ?_
  obtain ⟨p, q, rfl⟩ : ∃ (p : Fin 1) (q : Fin 10), y = ix2 p q := ⟨y 0, y 1, eq_ix2 y⟩
  show (V c main_v54 : S1x10.Idx → EReal) (((cfg2.win 18).blk t).view.emb (ix2 p q)) = _
  refine congrArg (V c main_v54 : S1x10.Idx → EReal) (funext fun a => Fin.ext ?_)
  match a with
  | ⟨0, _⟩ => show win2_18.index t (0 : Fin 2) * 1 + 1 * p.val = p.val; omega
  | ⟨1, _⟩ => show win2_18.index t (1 : Fin 2) * 10 + 1 * q.val = q.val; omega

/-! ## The entry arrays, and the points' blocks as their blocks -/

/-- Region 2's entry arrays, as the region finds them, in window order. -/
def entOf (c : Dev nD) : Ent where
  H1 := (V c main_v30 : S100000x64.Idx → EReal)
  S2 := (V c main_v41 : S100000x64.Idx → EReal)
  IV := (V c main_v42 : S100000x1.Idx → EReal)
  B := (V c main_v43 : S100000x1.Idx → BitVec 32)
  W2l := (V c main_arg6 : S64x64.Idx → EReal)
  W2r := (V c main_arg7 : S64x64.Idx → EReal)
  b2 := (V c main_v44 : S1x64.Idx → EReal)
  g2 := (V c main_v45 : S1x64.Idx → EReal)
  be2 := (V c main_v46 : S1x64.Idx → EReal)
  m2 := (V c main_v47 : S1x64.Idx → EReal)
  v2 := (V c main_v48 : S1x64.Idx → EReal)
  Wc1 := (V c main_arg17 : S64x64.Idx → EReal)
  bc1 := (V c main_v49 : S1x64.Idx → EReal)
  g3 := (V c main_v50 : S1x64.Idx → EReal)
  be3 := (V c main_v51 : S1x64.Idx → EReal)
  m3 := (V c main_v52 : S1x64.Idx → EReal)
  v3 := (V c main_v53 : S1x64.Idx → EReal)
  Wc2 := (V c main_arg23 : S64x10.Idx → EReal)
  bc2 := (V c main_v54 : S1x10.Idx → EReal)

theorem agrees_h1b (c : Dev nD) (t : Fin 20) (ρ : Fin 5000) (k : Fin 64) :
    (ptOf V c t.val).h1b (ix2 ρ k) = (entOf V c).H1 (ix2 (Spec.blockRow t ρ) k) := by
  have ht := t.isLt
  show (iblk2 V c 0 (pointOf t.val) : Vec Ideal S5000x64 .bf16) (ix2 ρ k) = (V c main_v30 : S100000x64.Idx → EReal) (ix2 (Spec.blockRow t ρ) k)
  exact iblk2_0_apply V c (pointOf t.val) ρ k (Spec.blockRow t ρ)
    (by show 5000 * t.val + ρ.val = 5000 * (min t.val 19) + ρ.val; omega)

theorem agrees_s2b (c : Dev nD) (t : Fin 20) (ρ : Fin 5000) (k : Fin 64) :
    (ptOf V c t.val).s2b (ix2 ρ k) = (entOf V c).S2 (ix2 (Spec.blockRow t ρ) k) := by
  have ht := t.isLt
  show (iblk2 V c 1 (pointOf t.val) : Vec Ideal S5000x64 .f32) (ix2 ρ k) = (V c main_v41 : S100000x64.Idx → EReal) (ix2 (Spec.blockRow t ρ) k)
  exact iblk2_1_apply V c (pointOf t.val) ρ k (Spec.blockRow t ρ)
    (by show 5000 * t.val + ρ.val = 5000 * (min t.val 19) + ρ.val; omega)

theorem agrees_ivb (c : Dev nD) (t : Fin 20) (ρ : Fin 5000) :
    (ptOf V c t.val).ivb (ix2 ρ (0 : Fin 1)) = (entOf V c).IV (ix2 (Spec.blockRow t ρ) (0 : Fin 1)) := by
  have ht := t.isLt
  show (iblk2 V c 2 (pointOf t.val) : Vec Ideal S5000x1 .f32) (ix2 ρ (0 : Fin 1)) = (V c main_v42 : S100000x1.Idx → EReal) (ix2 (Spec.blockRow t ρ) (0 : Fin 1))
  exact iblk2_2_apply V c (pointOf t.val) ρ (Spec.blockRow t ρ)
    (by show 5000 * t.val + ρ.val = 5000 * (min t.val 19) + ρ.val; omega)

theorem agrees_bb (c : Dev nD) (t : Fin 20) (ρ : Fin 5000) :
    (ptOf V c t.val).bb (ix2 ρ (0 : Fin 1)) = (entOf V c).B (ix2 (Spec.blockRow t ρ) (0 : Fin 1)) := by
  have ht := t.isLt
  show (iblk2 V c 3 (pointOf t.val) : Vec Ideal S5000x1 .i32) (ix2 ρ (0 : Fin 1)) = (V c main_v43 : S100000x1.Idx → BitVec 32) (ix2 (Spec.blockRow t ρ) (0 : Fin 1))
  exact iblk2_3_apply V c (pointOf t.val) ρ (Spec.blockRow t ρ)
    (by show 5000 * t.val + ρ.val = 5000 * (min t.val 19) + ρ.val; omega)

theorem agrees_W2l (c : Dev nD) (t : Fin 20) : (ptOf V c t.val).W2l = (entOf V c).W2l := by
  show (iblk2 V c 4 (pointOf t.val) : Vec Ideal S64x64 .f32) = (V c main_arg6 : S64x64.Idx → EReal)
  exact iblk2_4_eq V c (pointOf t.val)

theorem agrees_W2r (c : Dev nD) (t : Fin 20) : (ptOf V c t.val).W2r = (entOf V c).W2r := by
  show (iblk2 V c 5 (pointOf t.val) : Vec Ideal S64x64 .f32) = (V c main_arg7 : S64x64.Idx → EReal)
  exact iblk2_5_eq V c (pointOf t.val)

theorem agrees_b2 (c : Dev nD) (t : Fin 20) : (ptOf V c t.val).b2 = (entOf V c).b2 := by
  show (iblk2 V c 6 (pointOf t.val) : Vec Ideal S1x64 .f32) = (V c main_v44 : S1x64.Idx → EReal)
  exact iblk2_6_eq V c (pointOf t.val)

theorem agrees_g2 (c : Dev nD) (t : Fin 20) : (ptOf V c t.val).g2 = (entOf V c).g2 := by
  show (iblk2 V c 7 (pointOf t.val) : Vec Ideal S1x64 .f32) = (V c main_v45 : S1x64.Idx → EReal)
  exact iblk2_7_eq V c (pointOf t.val)

theorem agrees_be2 (c : Dev nD) (t : Fin 20) : (ptOf V c t.val).be2 = (entOf V c).be2 := by
  show (iblk2 V c 8 (pointOf t.val) : Vec Ideal S1x64 .f32) = (V c main_v46 : S1x64.Idx → EReal)
  exact iblk2_8_eq V c (pointOf t.val)

theorem agrees_m2 (c : Dev nD) (t : Fin 20) : (ptOf V c t.val).m2 = (entOf V c).m2 := by
  show (iblk2 V c 9 (pointOf t.val) : Vec Ideal S1x64 .f32) = (V c main_v47 : S1x64.Idx → EReal)
  exact iblk2_9_eq V c (pointOf t.val)

theorem agrees_v2 (c : Dev nD) (t : Fin 20) : (ptOf V c t.val).v2 = (entOf V c).v2 := by
  show (iblk2 V c 10 (pointOf t.val) : Vec Ideal S1x64 .f32) = (V c main_v48 : S1x64.Idx → EReal)
  exact iblk2_10_eq V c (pointOf t.val)

theorem agrees_Wc1 (c : Dev nD) (t : Fin 20) : (ptOf V c t.val).Wc1 = (entOf V c).Wc1 := by
  show (iblk2 V c 11 (pointOf t.val) : Vec Ideal S64x64 .f32) = (V c main_arg17 : S64x64.Idx → EReal)
  exact iblk2_11_eq V c (pointOf t.val)

theorem agrees_bc1 (c : Dev nD) (t : Fin 20) : (ptOf V c t.val).bc1 = (entOf V c).bc1 := by
  show (iblk2 V c 12 (pointOf t.val) : Vec Ideal S1x64 .f32) = (V c main_v49 : S1x64.Idx → EReal)
  exact iblk2_12_eq V c (pointOf t.val)

theorem agrees_g3 (c : Dev nD) (t : Fin 20) : (ptOf V c t.val).g3 = (entOf V c).g3 := by
  show (iblk2 V c 13 (pointOf t.val) : Vec Ideal S1x64 .f32) = (V c main_v50 : S1x64.Idx → EReal)
  exact iblk2_13_eq V c (pointOf t.val)

theorem agrees_be3 (c : Dev nD) (t : Fin 20) : (ptOf V c t.val).be3 = (entOf V c).be3 := by
  show (iblk2 V c 14 (pointOf t.val) : Vec Ideal S1x64 .f32) = (V c main_v51 : S1x64.Idx → EReal)
  exact iblk2_14_eq V c (pointOf t.val)

theorem agrees_m3 (c : Dev nD) (t : Fin 20) : (ptOf V c t.val).m3 = (entOf V c).m3 := by
  show (iblk2 V c 15 (pointOf t.val) : Vec Ideal S1x64 .f32) = (V c main_v52 : S1x64.Idx → EReal)
  exact iblk2_15_eq V c (pointOf t.val)

theorem agrees_v3 (c : Dev nD) (t : Fin 20) : (ptOf V c t.val).v3 = (entOf V c).v3 := by
  show (iblk2 V c 16 (pointOf t.val) : Vec Ideal S1x64 .f32) = (V c main_v53 : S1x64.Idx → EReal)
  exact iblk2_16_eq V c (pointOf t.val)

theorem agrees_Wc2 (c : Dev nD) (t : Fin 20) : (ptOf V c t.val).Wc2 = (entOf V c).Wc2 := by
  show (iblk2 V c 17 (pointOf t.val) : Vec Ideal S64x10 .f32) = (V c main_arg23 : S64x10.Idx → EReal)
  exact iblk2_17_eq V c (pointOf t.val)

theorem agrees_bc2 (c : Dev nD) (t : Fin 20) : (ptOf V c t.val).bc2 = (entOf V c).bc2 := by
  show (iblk2 V c 18 (pointOf t.val) : Vec Ideal S1x10 .f32) = (V c main_v54 : S1x10.Idx → EReal)
  exact iblk2_18_eq V c (pointOf t.val)

/-- THE BLOCKS ARE THE ARRAYS' BLOCKS: point `t` finds rows `5000 t … 5000 t + 4999` of the four row-blocked arrays and
    the whole of each parameter array. -/
theorem agrees (c : Dev nD) : Agrees (entOf V c) (ptOf V c) where
  h1b := agrees_h1b V c
  s2b := agrees_s2b V c
  ivb := agrees_ivb V c
  bb := agrees_bb V c
  W2l := agrees_W2l V c
  W2r := agrees_W2r V c
  b2 := agrees_b2 V c
  g2 := agrees_g2 V c
  be2 := agrees_be2 V c
  m2 := agrees_m2 V c
  v2 := agrees_v2 V c
  Wc1 := agrees_Wc1 V c
  bc1 := agrees_bc1 V c
  g3 := agrees_g3 V c
  be3 := agrees_be3 V c
  m3 := agrees_m3 V c
  v3 := agrees_v3 V c
  Wc2 := agrees_Wc2 V c
  bc2 := agrees_bc2 V c

end Cert.Value.K2

end
-- ==== Proof.KVal2Piece.lean ====
/- Region 2's three whole-body runs read as values: what each case leaves in the two carried accumulators and in the
   output block is the payload of its last store over the point's input blocks (and, past the first point, over what
   the point before left). -/
import proofs.«418702_j33346126086715_3_alg».proof.Proof.KernelIdealReg2
import Idealize.ShloMosaic.Lib.Pipeline.Value
import Idealize.ShloMosaic.Lib.Tactic

set_option maxRecDepth 16384

noncomputable section

namespace Cert.Value.K2

open Cert.KernelIdeal Cert.KernelIdeal.Gen Cert.KernelIdeal.Frm
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- The first point clears the pooled-sum accumulator and then adds its contribution: the update over the reset value. -/
theorem soutA0_eq (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : cond2_0 i) (hc1 : ¬cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) :
    sout2_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18
      = k2_pay2 (k2_pay10 x0 x4 x5 x1 x2 x6 x9 x10) x7 x8 x3 (k2_pay7 (F := F)) := by
  unfold sout2_A_0
  rw [View.read_writes_eq_canon _ _ _ (scover2_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18)]
  unfold kernelRun2_A
  dsimp only
  try sl_unfold_words
  rw [View.canon_cons_unit_zero (S := S128x64) hz]
  first | done | simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S5000x64) hz, View.ld_unit_zero (S := S5000x1) hz, View.ld_unit_zero (S := S64x64) hz, View.ld_unit_zero (S := S1x64) hz, View.ld_unit_zero (S := S64x10) hz, View.ld_unit_zero (S := S1x10) hz, View.ld_unit_zero (S := S128x10) hz, View.ld_unit_zero (S := S128x64) hz, View.ld_unit_zero (S := S128x1) hz, View.readCov_unit_zero (S := S128x64) _ hz, View.readCov_unit_zero (S := S128x1) _ hz, View.readCov_unit_zero (S := S128x10) _ hz]

/-- The first point clears the node-count accumulator and then adds its contribution. -/
theorem soutA1_eq (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : cond2_0 i) (hc1 : ¬cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) :
    sout2_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18
      = k2_pay3 x3 (k2_pay8 (F := F)) := by
  unfold sout2_A_1
  rw [View.read_writes_eq_canon _ _ _ (scover2_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18)]
  unfold kernelRun2_A
  dsimp only
  try sl_unfold_words
  rw [View.canon_cons_unit_zero (S := S128x1) hz]
  first | done | simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S5000x64) hz, View.ld_unit_zero (S := S5000x1) hz, View.ld_unit_zero (S := S64x64) hz, View.ld_unit_zero (S := S1x64) hz, View.ld_unit_zero (S := S64x10) hz, View.ld_unit_zero (S := S1x10) hz, View.ld_unit_zero (S := S128x10) hz, View.ld_unit_zero (S := S128x64) hz, View.ld_unit_zero (S := S128x1) hz, View.readCov_unit_zero (S := S128x64) _ hz, View.readCov_unit_zero (S := S128x1) _ hz, View.readCov_unit_zero (S := S128x10) _ hz]

/-- The first point clears the output block. -/
theorem outA19_eq (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : cond2_0 i) (hc1 : ¬cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) :
    out2_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18
      = (k2_pay9 (F := F)) := by
  unfold out2_A_19
  rw [View.read_writes_eq_canon _ _ _ (cover2_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18)]
  unfold kernelRun2_A
  dsimp only
  try sl_unfold_words
  rw [View.canon_unit_zero hz]
  first | done | simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S5000x64) hz, View.ld_unit_zero (S := S5000x1) hz, View.ld_unit_zero (S := S64x64) hz, View.ld_unit_zero (S := S1x64) hz, View.ld_unit_zero (S := S64x10) hz, View.ld_unit_zero (S := S1x10) hz, View.ld_unit_zero (S := S128x10) hz, View.ld_unit_zero (S := S128x64) hz, View.ld_unit_zero (S := S128x1) hz, View.readCov_unit_zero (S := S128x64) _ hz, View.readCov_unit_zero (S := S128x1) _ hz, View.readCov_unit_zero (S := S128x10) _ hz]

/-- A middle point adds its contribution onto what the pooled-sum accumulator held. -/
theorem soutB0_eq (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : ¬cond2_0 i) (hc1 : ¬cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) (xs0 : Vec F S128x64 .f32) (xs1 : Vec F S128x1 .f32) :
    sout2_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1
      = k2_pay2 (k2_pay10 x0 x4 x5 x1 x2 x6 x9 x10) x7 x8 x3 xs0 := by
  unfold sout2_B_0
  rw [View.read_writes_eq_canon _ _ _ (scover2_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1)]
  unfold kernelRun2_B
  dsimp only
  try sl_unfold_words
  rw [View.canon_unit_zero hz]
  first | done | simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S5000x64) hz, View.ld_unit_zero (S := S5000x1) hz, View.ld_unit_zero (S := S64x64) hz, View.ld_unit_zero (S := S1x64) hz, View.ld_unit_zero (S := S64x10) hz, View.ld_unit_zero (S := S1x10) hz, View.ld_unit_zero (S := S128x10) hz, View.ld_unit_zero (S := S128x64) hz, View.ld_unit_zero (S := S128x1) hz, View.readCov_unit_zero (S := S128x64) _ hz, View.readCov_unit_zero (S := S128x1) _ hz, View.readCov_unit_zero (S := S128x10) _ hz]

/-- A middle point adds its contribution onto what the node-count accumulator held. -/
theorem soutB1_eq (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : ¬cond2_0 i) (hc1 : ¬cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) (xs0 : Vec F S128x64 .f32) (xs1 : Vec F S128x1 .f32) :
    sout2_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1
      = k2_pay3 x3 xs1 := by
  unfold sout2_B_1
  rw [View.read_writes_eq_canon _ _ _ (scover2_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1)]
  unfold kernelRun2_B
  dsimp only
  try sl_unfold_words
  rw [View.canon_unit_zero hz]
  first | done | simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S5000x64) hz, View.ld_unit_zero (S := S5000x1) hz, View.ld_unit_zero (S := S64x64) hz, View.ld_unit_zero (S := S1x64) hz, View.ld_unit_zero (S := S64x10) hz, View.ld_unit_zero (S := S1x10) hz, View.ld_unit_zero (S := S128x10) hz, View.ld_unit_zero (S := S128x64) hz, View.ld_unit_zero (S := S128x1) hz, View.readCov_unit_zero (S := S128x64) _ hz, View.readCov_unit_zero (S := S128x1) _ hz, View.readCov_unit_zero (S := S128x10) _ hz]

/-- The last point adds its contribution onto what the pooled-sum accumulator held. -/
theorem soutC0_eq (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : ¬cond2_0 i) (hc1 : cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) (xs0 : Vec F S128x64 .f32) (xs1 : Vec F S128x1 .f32) :
    sout2_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1
      = k2_pay2 (k2_pay10 x0 x4 x5 x1 x2 x6 x9 x10) x7 x8 x3 xs0 := by
  unfold sout2_C_0
  rw [View.read_writes_eq_canon _ _ _ (scover2_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1)]
  unfold kernelRun2_C
  dsimp only
  try sl_unfold_words
  rw [View.canon_unit_zero hz]
  first | done | simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S5000x64) hz, View.ld_unit_zero (S := S5000x1) hz, View.ld_unit_zero (S := S64x64) hz, View.ld_unit_zero (S := S1x64) hz, View.ld_unit_zero (S := S64x10) hz, View.ld_unit_zero (S := S1x10) hz, View.ld_unit_zero (S := S128x10) hz, View.ld_unit_zero (S := S128x64) hz, View.ld_unit_zero (S := S128x1) hz, View.readCov_unit_zero (S := S128x64) _ hz, View.readCov_unit_zero (S := S128x1) _ hz, View.readCov_unit_zero (S := S128x10) _ hz]

/-- The last point adds its contribution onto what the node-count accumulator held. -/
theorem soutC1_eq (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : ¬cond2_0 i) (hc1 : cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) (xs0 : Vec F S128x64 .f32) (xs1 : Vec F S128x1 .f32) :
    sout2_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1
      = k2_pay3 x3 xs1 := by
  unfold sout2_C_1
  rw [View.read_writes_eq_canon _ _ _ (scover2_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1)]
  unfold kernelRun2_C
  dsimp only
  try sl_unfold_words
  rw [View.canon_unit_zero hz]
  first | done | simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S5000x64) hz, View.ld_unit_zero (S := S5000x1) hz, View.ld_unit_zero (S := S64x64) hz, View.ld_unit_zero (S := S1x64) hz, View.ld_unit_zero (S := S64x10) hz, View.ld_unit_zero (S := S1x10) hz, View.ld_unit_zero (S := S128x10) hz, View.ld_unit_zero (S := S128x64) hz, View.ld_unit_zero (S := S128x1) hz, View.readCov_unit_zero (S := S128x64) _ hz, View.readCov_unit_zero (S := S128x1) _ hz, View.readCov_unit_zero (S := S128x10) _ hz]

/-- The last point stores the head's output, computed from the accumulators as it has just left them. -/
theorem outC19_eq (c : Dev nD) (i : grid2.Coords) (arg1 : Memref sig .tc .vmem S5000x64 .bf16) (harg1 : arg1.IsWhole) (arg2 : Memref sig .tc .vmem S5000x64 .f32) (harg2 : arg2.IsWhole) (arg3 : Memref sig .tc .vmem S5000x1 .f32) (harg3 : arg3.IsWhole) (arg4 : Memref sig .tc .vmem S5000x1 .i32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S64x10 .f32) (harg18 : arg18.IsWhole) (arg19 : Memref sig .tc .vmem S1x10 .f32) (harg19 : arg19.IsWhole) (arg20 : Memref sig .tc .vmem S128x10 .f32) (harg20 : arg20.IsWhole) (arg21 : Memref sig .tc .vmem S128x64 .f32) (harg21 : arg21.IsWhole) (arg22 : Memref sig .tc .vmem S128x1 .f32) (harg22 : arg22.IsWhole) (hc0 : ¬cond2_0 i) (hc1 : cond2_1 i)
    (x0 : Vec F S5000x64 .bf16) (x1 : Vec F S5000x64 .f32) (x2 : Vec F S5000x1 .f32) (x3 : Vec F S5000x1 .i32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S64x64 .f32) (x12 : Vec F S1x64 .f32) (x13 : Vec F S1x64 .f32) (x14 : Vec F S1x64 .f32) (x15 : Vec F S1x64 .f32) (x16 : Vec F S1x64 .f32) (x17 : Vec F S64x10 .f32) (x18 : Vec F S1x10 .f32) (xs0 : Vec F S128x64 .f32) (xs1 : Vec F S128x1 .f32) :
    out2_C_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1
      = k2_pay4 (k2_pay5 x17) (k2_pay6 (k2_pay2 (k2_pay10 x0 x4 x5 x1 x2 x6 x9 x10) x7 x8 x3 xs0) (k2_pay3 x3 xs1) x11 x12 x15 x16 x13 x14) x18 := by
  unfold out2_C_19
  rw [View.read_writes_eq_canon _ _ _ (cover2_C_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 x13 x14 x15 x16 x17 x18 xs0 xs1)]
  unfold kernelRun2_C
  dsimp only
  try sl_unfold_words
  rw [View.canon_unit_zero hz]
  first | done | simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S5000x64) hz, View.ld_unit_zero (S := S5000x1) hz, View.ld_unit_zero (S := S64x64) hz, View.ld_unit_zero (S := S1x64) hz, View.ld_unit_zero (S := S64x10) hz, View.ld_unit_zero (S := S1x10) hz, View.ld_unit_zero (S := S128x10) hz, View.ld_unit_zero (S := S128x64) hz, View.ld_unit_zero (S := S128x1) hz, View.readCov_unit_zero (S := S128x64) _ hz, View.readCov_unit_zero (S := S128x1) _ hz, View.readCov_unit_zero (S := S128x10) _ hz]

end Cert.Value.K2

end
-- ==== Proof.KVal2Link.lean ====
/- Region 2's frame read as values: after each grid point the two carried accumulators hold the folds of the
   points' contributions. -/
import proofs.«418702_j33346126086715_3_alg».proof.Proof.KVal2Piece
import proofs.«418702_j33346126086715_3_alg».proof.Proof.KVal2Pt

set_option maxRecDepth 16384

noncomputable section

namespace Cert.Value.K2

open Cert.KernelIdeal Cert.KernelIdeal.Gen Cert.KernelIdeal.Frm
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## A point's updates over its blocks -/

theorem stepSum_ptAt (c : Dev nD) (t : Fin cfg2.N) (acc : FVec Ideal S128x64 .f32) :
    (ptAt V c t).stepSum acc = k2_pay2 (F := Ideal) (k2_pay10 (F := Ideal) (iblk2 V c 0 t) (iblk2 V c 4 t) (iblk2 V c 5 t) (iblk2 V c 1 t) (iblk2 V c 2 t) (iblk2 V c 6 t) (iblk2 V c 9 t) (iblk2 V c 10 t)) (iblk2 V c 7 t) (iblk2 V c 8 t) (iblk2 V c 3 t) acc := rfl

theorem stepCnt_ptAt (c : Dev nD) (t : Fin cfg2.N) (acc : FVec Ideal S128x1 .f32) :
    (ptAt V c t).stepCnt acc = k2_pay3 (F := Ideal) (iblk2 V c 3 t) acc := rfl

theorem head_ptAt (c : Dev nD) (t : Fin cfg2.N) (sm : FVec Ideal S128x64 .f32) (ct : FVec Ideal S128x1 .f32) :
    (ptAt V c t).head sm ct
      = k2_pay4 (F := Ideal) (k2_pay5 (F := Ideal) (iblk2 V c 17 t)) (k2_pay6 (F := Ideal) sm ct (iblk2 V c 11 t) (iblk2 V c 12 t) (iblk2 V c 15 t) (iblk2 V c 16 t) (iblk2 V c 13 t) (iblk2 V c 14 t)) (iblk2 V c 18 t) := rfl

/-! ## The accumulators after each point -/

theorem outsAt2_congr (c : Dev nD) {a b : ℕ} (h : a = b) (ha : a < cfg2.N) (hb : b < cfg2.N) :
    outsAt2 V c a ha = outsAt2 V c b hb := by
  subst h; rfl

theorem sumAfter_succ (pt : ℕ → Pt) (t : ℕ) : sumAfter pt (t + 1) = (pt (t + 1)).stepSum (sumAfter pt t) := by
  rw [sumAfter]

theorem cntAfter_succ (pt : ℕ → Pt) (t : ℕ) : cntAfter pt (t + 1) = (pt (t + 1)).stepCnt (cntAfter pt t) := by
  rw [cntAfter]

theorem sumAfter_zero (pt : ℕ → Pt) : sumAfter pt 0 = (pt 0).stepSum (k2_pay7 (F := Ideal)) := by
  rw [sumAfter]

theorem cntAfter_zero (pt : ℕ → Pt) : cntAfter pt 0 = (pt 0).stepCnt (k2_pay8 (F := Ideal)) := by
  rw [cntAfter]

/-- After the point at position `n` the two carried accumulators hold the folds of the contributions up to `n`. -/
theorem scratch_eq (c : Dev nD) : ∀ (n : ℕ) (hn : n < cfg2.N),
    (outsAt2 V c n hn).2.1 = sumAfter (ptOf V c) n ∧ (outsAt2 V c n hn).2.2 = cntAfter (ptOf V c) n
  | 0, hn => by
    have e := outsAt2_A V c (⟨0, hn⟩ : Fin cfg2.N) (Nat.zero_mod 20) (show ¬((0 : ℕ) % 20 = 19) from by decide)
    have hp : ptOf V c 0 = ptAt V c (⟨0, hn⟩ : Fin cfg2.N) := ptOf_val V c (⟨0, hn⟩ : Fin cfg2.N)
    rw [e]
    dsimp only
    rw [sumAfter_zero, cntAfter_zero, hp, stepSum_ptAt, stepCnt_ptAt]
    exact ⟨soutA0_eq (F := Ideal) c (grid2.coords (⟨0, hn⟩ : Fin cfg2.N)) (ms2_0 (⟨0, hn⟩ : Fin cfg2.N)) (hs2_0 (⟨0, hn⟩ : Fin cfg2.N)) (ms2_1 (⟨0, hn⟩ : Fin cfg2.N)) (hs2_1 (⟨0, hn⟩ : Fin cfg2.N)) (ms2_2 (⟨0, hn⟩ : Fin cfg2.N)) (hs2_2 (⟨0, hn⟩ : Fin cfg2.N)) (ms2_3 (⟨0, hn⟩ : Fin cfg2.N)) (hs2_3 (⟨0, hn⟩ : Fin cfg2.N)) (ms2_4 (⟨0, hn⟩ : Fin cfg2.N)) (hs2_4 (⟨0, hn⟩ : Fin cfg2.N)) (ms2_5 (⟨0, hn⟩ : Fin cfg2.N)) (hs2_5 (⟨0, hn⟩ : Fin cfg2.N)) (ms2_6 (⟨0, hn⟩ : Fin cfg2.N)) (hs2_6 (⟨0, hn⟩ : Fin cfg2.N)) (ms2_7 (⟨0, hn⟩ : Fin cfg2.N)) (hs2_7 (⟨0, hn⟩ : Fin cfg2.N)) (ms2_8 (⟨0, hn⟩ : Fin cfg2.N)) (hs2_8 (⟨0, hn⟩ : Fin cfg2.N)) (ms2_9 (⟨0, hn⟩ : Fin cfg2.N)) (hs2_9 (⟨0, hn⟩ : Fin cfg2.N)) (ms2_10 (⟨0, hn⟩ : Fin cfg2.N)) (hs2_10 (⟨0, hn⟩ : Fin cfg2.N)) (ms2_11 (⟨0, hn⟩ : Fin cfg2.N)) (hs2_11 (⟨0, hn⟩ : Fin cfg2.N)) (ms2_12 (⟨0, hn⟩ : Fin cfg2.N)) (hs2_12 (⟨0, hn⟩ : Fin cfg2.N)) (ms2_13 (⟨0, hn⟩ : Fin cfg2.N)) (hs2_13 (⟨0, hn⟩ : Fin cfg2.N)) (ms2_14 (⟨0, hn⟩ : Fin cfg2.N)) (hs2_14 (⟨0, hn⟩ : Fin cfg2.N)) (ms2_15 (⟨0, hn⟩ : Fin cfg2.N)) (hs2_15 (⟨0, hn⟩ : Fin cfg2.N)) (ms2_16 (⟨0, hn⟩ : Fin cfg2.N)) (hs2_16 (⟨0, hn⟩ : Fin cfg2.N)) (ms2_17 (⟨0, hn⟩ : Fin cfg2.N)) (hs2_17 (⟨0, hn⟩ : Fin cfg2.N)) (ms2_18 (⟨0, hn⟩ : Fin cfg2.N)) (hs2_18 (⟨0, hn⟩ : Fin cfg2.N)) (ms2_19 (⟨0, hn⟩ : Fin cfg2.N)) (hs2_19 (⟨0, hn⟩ : Fin cfg2.N)) scM2_0 (Memref.isWhole_whole _) scM2_1 (Memref.isWhole_whole _) _ _ (iblk2 V c 0 (⟨0, hn⟩ : Fin cfg2.N)) (iblk2 V c 1 (⟨0, hn⟩ : Fin cfg2.N)) (iblk2 V c 2 (⟨0, hn⟩ : Fin cfg2.N)) (iblk2 V c 3 (⟨0, hn⟩ : Fin cfg2.N)) (iblk2 V c 4 (⟨0, hn⟩ : Fin cfg2.N)) (iblk2 V c 5 (⟨0, hn⟩ : Fin cfg2.N)) (iblk2 V c 6 (⟨0, hn⟩ : Fin cfg2.N)) (iblk2 V c 7 (⟨0, hn⟩ : Fin cfg2.N)) (iblk2 V c 8 (⟨0, hn⟩ : Fin cfg2.N)) (iblk2 V c 9 (⟨0, hn⟩ : Fin cfg2.N)) (iblk2 V c 10 (⟨0, hn⟩ : Fin cfg2.N)) (iblk2 V c 11 (⟨0, hn⟩ : Fin cfg2.N)) (iblk2 V c 12 (⟨0, hn⟩ : Fin cfg2.N)) (iblk2 V c 13 (⟨0, hn⟩ : Fin cfg2.N)) (iblk2 V c 14 (⟨0, hn⟩ : Fin cfg2.N)) (iblk2 V c 15 (⟨0, hn⟩ : Fin cfg2.N)) (iblk2 V c 16 (⟨0, hn⟩ : Fin cfg2.N)) (iblk2 V c 17 (⟨0, hn⟩ : Fin cfg2.N)) (iblk2 V c 18 (⟨0, hn⟩ : Fin cfg2.N)),
      soutA1_eq (F := Ideal) c (grid2.coords (⟨0, hn⟩ : Fin cfg2.N)) (ms2_0 (⟨0, hn⟩ : Fin cfg2.N)) (hs2_0 (⟨0, hn⟩ : Fin cfg2.N)) (ms2_1 (⟨0, hn⟩ : Fin cfg2.N)) (hs2_1 (⟨0, hn⟩ : Fin cfg2.N)) (ms2_2 (⟨0, hn⟩ : Fin cfg2.N)) (hs2_2 (⟨0, hn⟩ : Fin cfg2.N)) (ms2_3 (⟨0, hn⟩ : Fin cfg2.N)) (hs2_3 (⟨0, hn⟩ : Fin cfg2.N)) (ms2_4 (⟨0, hn⟩ : Fin cfg2.N)) (hs2_4 (⟨0, hn⟩ : Fin cfg2.N)) (ms2_5 (⟨0, hn⟩ : Fin cfg2.N)) (hs2_5 (⟨0, hn⟩ : Fin cfg2.N)) (ms2_6 (⟨0, hn⟩ : Fin cfg2.N)) (hs2_6 (⟨0, hn⟩ : Fin cfg2.N)) (ms2_7 (⟨0, hn⟩ : Fin cfg2.N)) (hs2_7 (⟨0, hn⟩ : Fin cfg2.N)) (ms2_8 (⟨0, hn⟩ : Fin cfg2.N)) (hs2_8 (⟨0, hn⟩ : Fin cfg2.N)) (ms2_9 (⟨0, hn⟩ : Fin cfg2.N)) (hs2_9 (⟨0, hn⟩ : Fin cfg2.N)) (ms2_10 (⟨0, hn⟩ : Fin cfg2.N)) (hs2_10 (⟨0, hn⟩ : Fin cfg2.N)) (ms2_11 (⟨0, hn⟩ : Fin cfg2.N)) (hs2_11 (⟨0, hn⟩ : Fin cfg2.N)) (ms2_12 (⟨0, hn⟩ : Fin cfg2.N)) (hs2_12 (⟨0, hn⟩ : Fin cfg2.N)) (ms2_13 (⟨0, hn⟩ : Fin cfg2.N)) (hs2_13 (⟨0, hn⟩ : Fin cfg2.N)) (ms2_14 (⟨0, hn⟩ : Fin cfg2.N)) (hs2_14 (⟨0, hn⟩ : Fin cfg2.N)) (ms2_15 (⟨0, hn⟩ : Fin cfg2.N)) (hs2_15 (⟨0, hn⟩ : Fin cfg2.N)) (ms2_16 (⟨0, hn⟩ : Fin cfg2.N)) (hs2_16 (⟨0, hn⟩ : Fin cfg2.N)) (ms2_17 (⟨0, hn⟩ : Fin cfg2.N)) (hs2_17 (⟨0, hn⟩ : Fin cfg2.N)) (ms2_18 (⟨0, hn⟩ : Fin cfg2.N)) (hs2_18 (⟨0, hn⟩ : Fin cfg2.N)) (ms2_19 (⟨0, hn⟩ : Fin cfg2.N)) (hs2_19 (⟨0, hn⟩ : Fin cfg2.N)) scM2_0 (Memref.isWhole_whole _) scM2_1 (Memref.isWhole_whole _) _ _ (iblk2 V c 0 (⟨0, hn⟩ : Fin cfg2.N)) (iblk2 V c 1 (⟨0, hn⟩ : Fin cfg2.N)) (iblk2 V c 2 (⟨0, hn⟩ : Fin cfg2.N)) (iblk2 V c 3 (⟨0, hn⟩ : Fin cfg2.N)) (iblk2 V c 4 (⟨0, hn⟩ : Fin cfg2.N)) (iblk2 V c 5 (⟨0, hn⟩ : Fin cfg2.N)) (iblk2 V c 6 (⟨0, hn⟩ : Fin cfg2.N)) (iblk2 V c 7 (⟨0, hn⟩ : Fin cfg2.N)) (iblk2 V c 8 (⟨0, hn⟩ : Fin cfg2.N)) (iblk2 V c 9 (⟨0, hn⟩ : Fin cfg2.N)) (iblk2 V c 10 (⟨0, hn⟩ : Fin cfg2.N)) (iblk2 V c 11 (⟨0, hn⟩ : Fin cfg2.N)) (iblk2 V c 12 (⟨0, hn⟩ : Fin cfg2.N)) (iblk2 V c 13 (⟨0, hn⟩ : Fin cfg2.N)) (iblk2 V c 14 (⟨0, hn⟩ : Fin cfg2.N)) (iblk2 V c 15 (⟨0, hn⟩ : Fin cfg2.N)) (iblk2 V c 16 (⟨0, hn⟩ : Fin cfg2.N)) (iblk2 V c 17 (⟨0, hn⟩ : Fin cfg2.N)) (iblk2 V c 18 (⟨0, hn⟩ : Fin cfg2.N))⟩
  | n + 1, hn => by
    have hN : n + 1 < 20 := lt_of_lt_of_eq hn (show cfg2.N = 20 from N_2)
    have ih := scratch_eq c n (Nat.lt_of_succ_lt hn)
    have hp : ptOf V c (n + 1) = ptAt V c (⟨n + 1, hn⟩ : Fin cfg2.N) := ptOf_val V c (⟨n + 1, hn⟩ : Fin cfg2.N)
    have h0 : ¬(⟨n + 1, hn⟩ : Fin cfg2.N).val % 20 = 0 := by show ¬(n + 1) % 20 = 0; omega
    have hprev : outsAt2 V c ((⟨n + 1, hn⟩ : Fin cfg2.N).val - 1) (Nat.lt_of_le_of_lt (Nat.sub_le _ _) (⟨n + 1, hn⟩ : Fin cfg2.N).isLt)
        = outsAt2 V c n (Nat.lt_of_succ_lt hn) := outsAt2_congr V c (Nat.add_sub_cancel n 1) _ _
    rw [sumAfter_succ, cntAfter_succ, hp, stepSum_ptAt, stepCnt_ptAt, ← ih.1, ← ih.2]
    by_cases h1 : (⟨n + 1, hn⟩ : Fin cfg2.N).val % 20 = 19
    · rw [outsAt2_C V c (⟨n + 1, hn⟩ : Fin cfg2.N) h0 h1]
      dsimp only
      rw [hprev]
      exact ⟨soutC0_eq (F := Ideal) c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (ms2_7 (⟨n + 1, hn⟩ : Fin cfg2.N)) (hs2_7 (⟨n + 1, hn⟩ : Fin cfg2.N)) (ms2_8 (⟨n + 1, hn⟩ : Fin cfg2.N)) (hs2_8 (⟨n + 1, hn⟩ : Fin cfg2.N)) (ms2_9 (⟨n + 1, hn⟩ : Fin cfg2.N)) (hs2_9 (⟨n + 1, hn⟩ : Fin cfg2.N)) (ms2_10 (⟨n + 1, hn⟩ : Fin cfg2.N)) (hs2_10 (⟨n + 1, hn⟩ : Fin cfg2.N)) (ms2_11 (⟨n + 1, hn⟩ : Fin cfg2.N)) (hs2_11 (⟨n + 1, hn⟩ : Fin cfg2.N)) (ms2_12 (⟨n + 1, hn⟩ : Fin cfg2.N)) (hs2_12 (⟨n + 1, hn⟩ : Fin cfg2.N)) (ms2_13 (⟨n + 1, hn⟩ : Fin cfg2.N)) (hs2_13 (⟨n + 1, hn⟩ : Fin cfg2.N)) (ms2_14 (⟨n + 1, hn⟩ : Fin cfg2.N)) (hs2_14 (⟨n + 1, hn⟩ : Fin cfg2.N)) (ms2_15 (⟨n + 1, hn⟩ : Fin cfg2.N)) (hs2_15 (⟨n + 1, hn⟩ : Fin cfg2.N)) (ms2_16 (⟨n + 1, hn⟩ : Fin cfg2.N)) (hs2_16 (⟨n + 1, hn⟩ : Fin cfg2.N)) (ms2_17 (⟨n + 1, hn⟩ : Fin cfg2.N)) (hs2_17 (⟨n + 1, hn⟩ : Fin cfg2.N)) (ms2_18 (⟨n + 1, hn⟩ : Fin cfg2.N)) (hs2_18 (⟨n + 1, hn⟩ : Fin cfg2.N)) (ms2_19 (⟨n + 1, hn⟩ : Fin cfg2.N)) (hs2_19 (⟨n + 1, hn⟩ : Fin cfg2.N)) scM2_0 (Memref.isWhole_whole _) scM2_1 (Memref.isWhole_whole _) _ _ (iblk2 V c 0 (⟨n + 1, hn⟩ : Fin cfg2.N)) (iblk2 V c 1 (⟨n + 1, hn⟩ : Fin cfg2.N)) (iblk2 V c 2 (⟨n + 1, hn⟩ : Fin cfg2.N)) (iblk2 V c 3 (⟨n + 1, hn⟩ : Fin cfg2.N)) (iblk2 V c 4 (⟨n + 1, hn⟩ : Fin cfg2.N)) (iblk2 V c 5 (⟨n + 1, hn⟩ : Fin cfg2.N)) (iblk2 V c 6 (⟨n + 1, hn⟩ : Fin cfg2.N)) (iblk2 V c 7 (⟨n + 1, hn⟩ : Fin cfg2.N)) (iblk2 V c 8 (⟨n + 1, hn⟩ : Fin cfg2.N)) (iblk2 V c 9 (⟨n + 1, hn⟩ : Fin cfg2.N)) (iblk2 V c 10 (⟨n + 1, hn⟩ : Fin cfg2.N)) (iblk2 V c 11 (⟨n + 1, hn⟩ : Fin cfg2.N)) (iblk2 V c 12 (⟨n + 1, hn⟩ : Fin cfg2.N)) (iblk2 V c 13 (⟨n + 1, hn⟩ : Fin cfg2.N)) (iblk2 V c 14 (⟨n + 1, hn⟩ : Fin cfg2.N)) (iblk2 V c 15 (⟨n + 1, hn⟩ : Fin cfg2.N)) (iblk2 V c 16 (⟨n + 1, hn⟩ : Fin cfg2.N)) (iblk2 V c 17 (⟨n + 1, hn⟩ : Fin cfg2.N)) (iblk2 V c 18 (⟨n + 1, hn⟩ : Fin cfg2.N)) _ _,
        soutC1_eq (F := Ideal) c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (ms2_7 (⟨n + 1, hn⟩ : Fin cfg2.N)) (hs2_7 (⟨n + 1, hn⟩ : Fin cfg2.N)) (ms2_8 (⟨n + 1, hn⟩ : Fin cfg2.N)) (hs2_8 (⟨n + 1, hn⟩ : Fin cfg2.N)) (ms2_9 (⟨n + 1, hn⟩ : Fin cfg2.N)) (hs2_9 (⟨n + 1, hn⟩ : Fin cfg2.N)) (ms2_10 (⟨n + 1, hn⟩ : Fin cfg2.N)) (hs2_10 (⟨n + 1, hn⟩ : Fin cfg2.N)) (ms2_11 (⟨n + 1, hn⟩ : Fin cfg2.N)) (hs2_11 (⟨n + 1, hn⟩ : Fin cfg2.N)) (ms2_12 (⟨n + 1, hn⟩ : Fin cfg2.N)) (hs2_12 (⟨n + 1, hn⟩ : Fin cfg2.N)) (ms2_13 (⟨n + 1, hn⟩ : Fin cfg2.N)) (hs2_13 (⟨n + 1, hn⟩ : Fin cfg2.N)) (ms2_14 (⟨n + 1, hn⟩ : Fin cfg2.N)) (hs2_14 (⟨n + 1, hn⟩ : Fin cfg2.N)) (ms2_15 (⟨n + 1, hn⟩ : Fin cfg2.N)) (hs2_15 (⟨n + 1, hn⟩ : Fin cfg2.N)) (ms2_16 (⟨n + 1, hn⟩ : Fin cfg2.N)) (hs2_16 (⟨n + 1, hn⟩ : Fin cfg2.N)) (ms2_17 (⟨n + 1, hn⟩ : Fin cfg2.N)) (hs2_17 (⟨n + 1, hn⟩ : Fin cfg2.N)) (ms2_18 (⟨n + 1, hn⟩ : Fin cfg2.N)) (hs2_18 (⟨n + 1, hn⟩ : Fin cfg2.N)) (ms2_19 (⟨n + 1, hn⟩ : Fin cfg2.N)) (hs2_19 (⟨n + 1, hn⟩ : Fin cfg2.N)) scM2_0 (Memref.isWhole_whole _) scM2_1 (Memref.isWhole_whole _) _ _ (iblk2 V c 0 (⟨n + 1, hn⟩ : Fin cfg2.N)) (iblk2 V c 1 (⟨n + 1, hn⟩ : Fin cfg2.N)) (iblk2 V c 2 (⟨n + 1, hn⟩ : Fin cfg2.N)) (iblk2 V c 3 (⟨n + 1, hn⟩ : Fin cfg2.N)) (iblk2 V c 4 (⟨n + 1, hn⟩ : Fin cfg2.N)) (iblk2 V c 5 (⟨n + 1, hn⟩ : Fin cfg2.N)) (iblk2 V c 6 (⟨n + 1, hn⟩ : Fin cfg2.N)) (iblk2 V c 7 (⟨n + 1, hn⟩ : Fin cfg2.N)) (iblk2 V c 8 (⟨n + 1, hn⟩ : Fin cfg2.N)) (iblk2 V c 9 (⟨n + 1, hn⟩ : Fin cfg2.N)) (iblk2 V c 10 (⟨n + 1, hn⟩ : Fin cfg2.N)) (iblk2 V c 11 (⟨n + 1, hn⟩ : Fin cfg2.N)) (iblk2 V c 12 (⟨n + 1, hn⟩ : Fin cfg2.N)) (iblk2 V c 13 (⟨n + 1, hn⟩ : Fin cfg2.N)) (iblk2 V c 14 (⟨n + 1, hn⟩ : Fin cfg2.N)) (iblk2 V c 15 (⟨n + 1, hn⟩ : Fin cfg2.N)) (iblk2 V c 16 (⟨n + 1, hn⟩ : Fin cfg2.N)) (iblk2 V c 17 (⟨n + 1, hn⟩ : Fin cfg2.N)) (iblk2 V c 18 (⟨n + 1, hn⟩ : Fin cfg2.N)) _ _⟩
    · rw [outsAt2_B V c (⟨n + 1, hn⟩ : Fin cfg2.N) h0 h1]
      dsimp only
      rw [hprev]
      exact ⟨soutB0_eq (F := Ideal) c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (ms2_7 (⟨n + 1, hn⟩ : Fin cfg2.N)) (hs2_7 (⟨n + 1, hn⟩ : Fin cfg2.N)) (ms2_8 (⟨n + 1, hn⟩ : Fin cfg2.N)) (hs2_8 (⟨n + 1, hn⟩ : Fin cfg2.N)) (ms2_9 (⟨n + 1, hn⟩ : Fin cfg2.N)) (hs2_9 (⟨n + 1, hn⟩ : Fin cfg2.N)) (ms2_10 (⟨n + 1, hn⟩ : Fin cfg2.N)) (hs2_10 (⟨n + 1, hn⟩ : Fin cfg2.N)) (ms2_11 (⟨n + 1, hn⟩ : Fin cfg2.N)) (hs2_11 (⟨n + 1, hn⟩ : Fin cfg2.N)) (ms2_12 (⟨n + 1, hn⟩ : Fin cfg2.N)) (hs2_12 (⟨n + 1, hn⟩ : Fin cfg2.N)) (ms2_13 (⟨n + 1, hn⟩ : Fin cfg2.N)) (hs2_13 (⟨n + 1, hn⟩ : Fin cfg2.N)) (ms2_14 (⟨n + 1, hn⟩ : Fin cfg2.N)) (hs2_14 (⟨n + 1, hn⟩ : Fin cfg2.N)) (ms2_15 (⟨n + 1, hn⟩ : Fin cfg2.N)) (hs2_15 (⟨n + 1, hn⟩ : Fin cfg2.N)) (ms2_16 (⟨n + 1, hn⟩ : Fin cfg2.N)) (hs2_16 (⟨n + 1, hn⟩ : Fin cfg2.N)) (ms2_17 (⟨n + 1, hn⟩ : Fin cfg2.N)) (hs2_17 (⟨n + 1, hn⟩ : Fin cfg2.N)) (ms2_18 (⟨n + 1, hn⟩ : Fin cfg2.N)) (hs2_18 (⟨n + 1, hn⟩ : Fin cfg2.N)) (ms2_19 (⟨n + 1, hn⟩ : Fin cfg2.N)) (hs2_19 (⟨n + 1, hn⟩ : Fin cfg2.N)) scM2_0 (Memref.isWhole_whole _) scM2_1 (Memref.isWhole_whole _) _ _ (iblk2 V c 0 (⟨n + 1, hn⟩ : Fin cfg2.N)) (iblk2 V c 1 (⟨n + 1, hn⟩ : Fin cfg2.N)) (iblk2 V c 2 (⟨n + 1, hn⟩ : Fin cfg2.N)) (iblk2 V c 3 (⟨n + 1, hn⟩ : Fin cfg2.N)) (iblk2 V c 4 (⟨n + 1, hn⟩ : Fin cfg2.N)) (iblk2 V c 5 (⟨n + 1, hn⟩ : Fin cfg2.N)) (iblk2 V c 6 (⟨n + 1, hn⟩ : Fin cfg2.N)) (iblk2 V c 7 (⟨n + 1, hn⟩ : Fin cfg2.N)) (iblk2 V c 8 (⟨n + 1, hn⟩ : Fin cfg2.N)) (iblk2 V c 9 (⟨n + 1, hn⟩ : Fin cfg2.N)) (iblk2 V c 10 (⟨n + 1, hn⟩ : Fin cfg2.N)) (iblk2 V c 11 (⟨n + 1, hn⟩ : Fin cfg2.N)) (iblk2 V c 12 (⟨n + 1, hn⟩ : Fin cfg2.N)) (iblk2 V c 13 (⟨n + 1, hn⟩ : Fin cfg2.N)) (iblk2 V c 14 (⟨n + 1, hn⟩ : Fin cfg2.N)) (iblk2 V c 15 (⟨n + 1, hn⟩ : Fin cfg2.N)) (iblk2 V c 16 (⟨n + 1, hn⟩ : Fin cfg2.N)) (iblk2 V c 17 (⟨n + 1, hn⟩ : Fin cfg2.N)) (iblk2 V c 18 (⟨n + 1, hn⟩ : Fin cfg2.N)) _ _,
        soutB1_eq (F := Ideal) c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (ms2_7 (⟨n + 1, hn⟩ : Fin cfg2.N)) (hs2_7 (⟨n + 1, hn⟩ : Fin cfg2.N)) (ms2_8 (⟨n + 1, hn⟩ : Fin cfg2.N)) (hs2_8 (⟨n + 1, hn⟩ : Fin cfg2.N)) (ms2_9 (⟨n + 1, hn⟩ : Fin cfg2.N)) (hs2_9 (⟨n + 1, hn⟩ : Fin cfg2.N)) (ms2_10 (⟨n + 1, hn⟩ : Fin cfg2.N)) (hs2_10 (⟨n + 1, hn⟩ : Fin cfg2.N)) (ms2_11 (⟨n + 1, hn⟩ : Fin cfg2.N)) (hs2_11 (⟨n + 1, hn⟩ : Fin cfg2.N)) (ms2_12 (⟨n + 1, hn⟩ : Fin cfg2.N)) (hs2_12 (⟨n + 1, hn⟩ : Fin cfg2.N)) (ms2_13 (⟨n + 1, hn⟩ : Fin cfg2.N)) (hs2_13 (⟨n + 1, hn⟩ : Fin cfg2.N)) (ms2_14 (⟨n + 1, hn⟩ : Fin cfg2.N)) (hs2_14 (⟨n + 1, hn⟩ : Fin cfg2.N)) (ms2_15 (⟨n + 1, hn⟩ : Fin cfg2.N)) (hs2_15 (⟨n + 1, hn⟩ : Fin cfg2.N)) (ms2_16 (⟨n + 1, hn⟩ : Fin cfg2.N)) (hs2_16 (⟨n + 1, hn⟩ : Fin cfg2.N)) (ms2_17 (⟨n + 1, hn⟩ : Fin cfg2.N)) (hs2_17 (⟨n + 1, hn⟩ : Fin cfg2.N)) (ms2_18 (⟨n + 1, hn⟩ : Fin cfg2.N)) (hs2_18 (⟨n + 1, hn⟩ : Fin cfg2.N)) (ms2_19 (⟨n + 1, hn⟩ : Fin cfg2.N)) (hs2_19 (⟨n + 1, hn⟩ : Fin cfg2.N)) scM2_0 (Memref.isWhole_whole _) scM2_1 (Memref.isWhole_whole _) _ _ (iblk2 V c 0 (⟨n + 1, hn⟩ : Fin cfg2.N)) (iblk2 V c 1 (⟨n + 1, hn⟩ : Fin cfg2.N)) (iblk2 V c 2 (⟨n + 1, hn⟩ : Fin cfg2.N)) (iblk2 V c 3 (⟨n + 1, hn⟩ : Fin cfg2.N)) (iblk2 V c 4 (⟨n + 1, hn⟩ : Fin cfg2.N)) (iblk2 V c 5 (⟨n + 1, hn⟩ : Fin cfg2.N)) (iblk2 V c 6 (⟨n + 1, hn⟩ : Fin cfg2.N)) (iblk2 V c 7 (⟨n + 1, hn⟩ : Fin cfg2.N)) (iblk2 V c 8 (⟨n + 1, hn⟩ : Fin cfg2.N)) (iblk2 V c 9 (⟨n + 1, hn⟩ : Fin cfg2.N)) (iblk2 V c 10 (⟨n + 1, hn⟩ : Fin cfg2.N)) (iblk2 V c 11 (⟨n + 1, hn⟩ : Fin cfg2.N)) (iblk2 V c 12 (⟨n + 1, hn⟩ : Fin cfg2.N)) (iblk2 V c 13 (⟨n + 1, hn⟩ : Fin cfg2.N)) (iblk2 V c 14 (⟨n + 1, hn⟩ : Fin cfg2.N)) (iblk2 V c 15 (⟨n + 1, hn⟩ : Fin cfg2.N)) (iblk2 V c 16 (⟨n + 1, hn⟩ : Fin cfg2.N)) (iblk2 V c 17 (⟨n + 1, hn⟩ : Fin cfg2.N)) (iblk2 V c 18 (⟨n + 1, hn⟩ : Fin cfg2.N)) _ _⟩

end Cert.Value.K2

end
-- ==== Proof.KVal2Out.lean ====
/- Region 2's frame read as values, continued: the output block after the last point is the head of the two folds; the
   output window has one block, the whole array, written back once after the last point, so the output array when the
   region is left is that head. -/
import proofs.«418702_j33346126086715_3_alg».proof.Proof.KVal2Link
import Idealize.ShloMosaic.Lib.Pipeline.Value
import Idealize.ShloMosaic.Lib.ValueIdx

set_option maxRecDepth 16384

noncomputable section

namespace Cert.Value.K2

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The output block after the last point, and the output array when the region is left -/

/-- The last point of the grid. -/
abbrev lastPt : Fin cfg2.N := Fin.cast N_2.symm (19 : Fin 20)

/-- What region 2 leaves in its output array: the head of the two folds at the last point's blocks. -/
abbrev res2 (c : Dev nD) : FVec Ideal S128x10 .f32 :=
  (ptOf V c 19).head (sumAfter (ptOf V c) 19) (cntAfter (ptOf V c) 19)

/-- After the last point the output block's staging buffer holds the head. -/
theorem out_last (c : Dev nD) : (outsAt2 V c lastPt.val lastPt.isLt).1 = res2 V c := by
  have h0 : ¬lastPt.val % 20 = 0 := by decide
  have h1 : lastPt.val % 20 = 19 := by decide
  have hprev : outsAt2 V c (lastPt.val - 1) (Nat.lt_of_le_of_lt (Nat.sub_le _ _) lastPt.isLt)
      = outsAt2 V c 18 (lt_of_lt_of_eq (by decide : (18 : ℕ) < 20) (show (20 : ℕ) = cfg2.N from N_2.symm)) :=
    outsAt2_congr V c (show lastPt.val - 1 = 18 from rfl) _ _
  have ih := scratch_eq V c 18 (lt_of_lt_of_eq (by decide : (18 : ℕ) < 20) (show (20 : ℕ) = cfg2.N from N_2.symm))
  have hp : ptOf V c 19 = ptAt V c lastPt := ptOf_val V c lastPt
  have es : sumAfter (ptOf V c) 19 = (ptOf V c 19).stepSum (sumAfter (ptOf V c) 18) := sumAfter_succ (ptOf V c) 18
  have ec : cntAfter (ptOf V c) 19 = (ptOf V c 19).stepCnt (cntAfter (ptOf V c) 18) := cntAfter_succ (ptOf V c) 18
  rw [outsAt2_C V c lastPt h0 h1]
  dsimp only
  rw [hprev]
  show _ = (ptOf V c 19).head (sumAfter (ptOf V c) 19) (cntAfter (ptOf V c) 19)
  rw [es, ec, hp, head_ptAt, stepSum_ptAt, stepCnt_ptAt, ← ih.1, ← ih.2]
  exact outC19_eq (F := Ideal) c (grid2.coords lastPt) (ms2_0 lastPt) (hs2_0 lastPt) (ms2_1 lastPt) (hs2_1 lastPt) (ms2_2 lastPt) (hs2_2 lastPt) (ms2_3 lastPt) (hs2_3 lastPt) (ms2_4 lastPt) (hs2_4 lastPt) (ms2_5 lastPt) (hs2_5 lastPt) (ms2_6 lastPt) (hs2_6 lastPt) (ms2_7 lastPt) (hs2_7 lastPt) (ms2_8 lastPt) (hs2_8 lastPt) (ms2_9 lastPt) (hs2_9 lastPt) (ms2_10 lastPt) (hs2_10 lastPt) (ms2_11 lastPt) (hs2_11 lastPt) (ms2_12 lastPt) (hs2_12 lastPt) (ms2_13 lastPt) (hs2_13 lastPt) (ms2_14 lastPt) (hs2_14 lastPt) (ms2_15 lastPt) (hs2_15 lastPt) (ms2_16 lastPt) (hs2_16 lastPt) (ms2_17 lastPt) (hs2_17 lastPt) (ms2_18 lastPt) (hs2_18 lastPt) (ms2_19 lastPt) (hs2_19 lastPt) scM2_0 (Memref.isWhole_whole _) scM2_1 (Memref.isWhole_whole _) _ _ (iblk2 V c 0 lastPt) (iblk2 V c 1 lastPt) (iblk2 V c 2 lastPt) (iblk2 V c 3 lastPt) (iblk2 V c 4 lastPt) (iblk2 V c 5 lastPt) (iblk2 V c 6 lastPt) (iblk2 V c 7 lastPt) (iblk2 V c 8 lastPt) (iblk2 V c 9 lastPt) (iblk2 V c 10 lastPt) (iblk2 V c 11 lastPt) (iblk2 V c 12 lastPt) (iblk2 V c 13 lastPt) (iblk2 V c 14 lastPt) (iblk2 V c 15 lastPt) (iblk2 V c 16 lastPt) (iblk2 V c 17 lastPt) (iblk2 V c 18 lastPt) _ _

/-! ## The output array when the region is left -/

/-- The output window's block index is zero on both axes at every point: its one block is the whole array. -/
theorem idx_facts2_19 : ∀ t : Fin cfg2.N, win2_19.index t (0 : Fin 2) = 0 ∧ win2_19.index t (1 : Fin 2) = 0 :=
  (by decide +kernel : ∀ t : Fin grid2.N, _)

/-- An index of the output array is in a point's block iff, on each axis, it is within the block's range. -/
theorem mem_blk2_19 (t : Fin cfg2.N) (i : S128x10.Idx) :
    i ∈ ((cfg2.win 19).blk t).view.set ↔ ∀ a : Fin 2, win2_19.index t a * S128x10.size a ≤ (i a).val ∧ (i a).val < win2_19.index t a * S128x10.size a + S128x10.size a := by
  show i ∈ ((View.whole main_v55).slice (win2_19.rect t)).set ↔ _
  rw [View.set_slice_whole, Rect.mem_set_unit]
  exact Iff.rfl

/-- The last point's block covers the output array, and the last point writes back. -/
theorem cover_blk2_19 (i : S128x10.Idx) : ∃ t : Fin cfg2.N, (cfg2.win 19).flush t = true ∧ i ∈ ((cfg2.win 19).blk t).view.set := by
  have hi0 : (i 0).val < 128 := (i 0).isLt
  have hi1 : (i 1).val < 10 := (i 1).isLt
  obtain ⟨e0, e1⟩ := idx_facts2_19 lastPt
  refine ⟨lastPt, (flush2_19 lastPt).mpr (by decide), ?_⟩
  rw [mem_blk2_19]
  intro a
  match a with
  | ⟨0, _⟩ => show win2_19.index lastPt (0 : Fin 2) * 128 ≤ (i 0).val ∧ (i 0).val < win2_19.index lastPt (0 : Fin 2) * 128 + 128; omega
  | ⟨1, _⟩ => show win2_19.index lastPt (1 : Fin 2) * 10 ≤ (i 1).val ∧ (i 1).val < win2_19.index lastPt (1 : Fin 2) * 10 + 10; omega

/-- The one write-back of the output window writes what the last point left in the staging buffer (named Y). -/
theorem flushed19_of (c : Dev nD) (Y : FVec Ideal S128x10 .f32)
    (hY : (outsAt2 V c lastPt.val lastPt.isLt).1 = Y) (t : Fin cfg2.N) (hf : (cfg2.win 19).flush t = true) :
    (dat2 V c).flushed 19 t = ((cfg2.win 19).blk t).view.read (Elt Ideal) Y := by
  have ht : t.val = lastPt.val := by
    have h := (flush2_19 t).mp hf
    have hlt := lt_of_lt_of_eq t.isLt (show cfg2.N = 20 from N_2)
    show t.val = 19
    omega
  obtain ⟨e0, e1⟩ := idx_facts2_19 t
  show (cfg2.win 19).cut (grid2.coords t) ((dat2 V c).after 19 t) = _
  rw [after2_19, outsAt2_congr V c ht t.isLt lastPt.isLt, hY]
  refine funext fun (y : S128x10.Idx) => ?_
  obtain ⟨g, q, rfl⟩ : ∃ (g : Fin 128) (q : Fin 10), y = ix2 g q := ⟨y 0, y 1, eq_ix2 y⟩
  have hemb : ((cfg2.win 19).blk t).view.emb (ix2 g q) = ix2 g q :=
    funext fun a => Fin.ext (by
      match a with
      | ⟨0, _⟩ => show win2_19.index t (0 : Fin 2) * 128 + 1 * g.val = g.val; omega
      | ⟨1, _⟩ => show win2_19.index t (1 : Fin 2) * 10 + 1 * q.val = q.val; omega)
  show Y (ix2 g q) = Y (((cfg2.win 19).blk t).view.emb (ix2 g q))
  rw [hemb]

/-- REGION 2'S OUTPUT ARRAY when the region is left is what the last point left in the output window's buffer. -/
theorem arrAt19_of (c : Dev nD) (Y : FVec Ideal S128x10 .f32)
    (hY : (outsAt2 V c lastPt.val lastPt.isLt).1 = Y) : (dat2 V c).arrAt 19 cfg2.N = Y :=
  (dat2 V c).arrAt_eq_of_cover 19 Y (flushed19_of V c Y hY) cover_blk2_19

/-- REGION 2'S OUTPUT ARRAY when the region is left is the head of the two folds. -/
theorem arrAt19_eq (c : Dev nD) : (dat2 V c).arrAt 19 cfg2.N = res2 V c :=
  arrAt19_of V c (res2 V c) (out_last V c)

end Cert.Value.K2

end
-- ==== Proof.KChain4.lean ====
import proofs.«418702_j33346126086715_3_alg».proof.Proof.KChain3
import proofs.«418702_j33346126086715_3_alg».proof.Proof.KVal2Blk
import proofs.«418702_j33346126086715_3_alg».proof.Proof.KVal2Out
import proofs.«418702_j33346126086715_3_alg».proof.Proof.KernelIdealData

/-! The kernel program's result, closed: the last call's points read the blocks of its entry arrays, and its result
    array is what the last point stores from the two pooled accumulators; so the program's result buffer holds the
    specified result of the launch memory's arguments. -/

noncomputable section

namespace Cert.Value.KJ

open Cert.KernelIdeal Cert.KernelIdeal.Gen Cert.KernelIdeal.Frm Cert.Value.K
open Idealize.ShloMosaic Idealize.ShloMosaic.TcCoe Idealize.SL.Sem Idealize.ShloMosaic.ValueIdx Idealize.ShloMosaic.StableHlo

variable (m : (ℓ : Loc nD τ sig) → Buf (Elt Ideal) ℓ)

/-- The last call's entry arrays, in the two spellings of the record. -/
theorem entAt_eq (V : (c : Dev nD) → (b : Ref sig .tc) → Buf (Elt Ideal) ((c : Thread nD τ).loc b)) (c : Dev nD) :
    entAt V c = K2.entOf V c := rfl

/-- THE KERNEL PROGRAM'S RESULT, on inputs whose `x` and first neighbour weight are real. -/
theorem kernel_value (c : Dev nD)
    (hx : ∀ i, ∃ v : ℝ, (paramsK m c).x i = (v : EReal)) (hW : ∀ i, ∃ v : ℝ, (paramsK m c).W1l i = (v : EReal)) :
    (res55 m (d0 (F := Ideal)) d1 d2 c : FVec Ideal S128x10 .f32)
      = fun i => Spec.resultOf (paramsK m c) (eiK m c) (batchK m c) (i 0) (i 1) :=
  kernel_value_open m d2 c hx hW (K2.ptOf (ent2 m dK0 dK1) c)
    (by rw [entAt_eq]; exact K2.agrees (ent2 m dK0 dK1) c)
    (K2.arrAt19_eq (ent2 m dK0 dK1) c)

end Cert.Value.KJ

end
-- ==== Proof.lean ====
/-
  The claims of this certificate, proved: a two-layer mean-aggregating graph network, a mean pool of the node rows
  by graph, a two-layer classifier head and a row-wise log-softmax, computed by three pipelined calls joined by host
  stretches (the kernel program, as printed over machine words and read over the extended reals) and by one host
  program (the reference, read over the extended reals).

  Frames. From any memory with zero counters of which the precondition holds, every weakly fair execution of each
  of the three programs terminates, nothing faulting, with each of the 25 argument arrays as launched.

  Idealization. The kernel program read over the extended reals is its own text: no operation was rewritten, and
  there is nothing to preserve.

  Value. Over the extended reals, from memories that agree on the arguments, both programs end with the same result
  array, element by element: the function `Cert.Value.Spec.resultOf` of the arguments. The reference computes it in
  the specification's own arrangement. The kernel program projects the rows before it sums over the neighbours,
  multiplies by a reciprocal where the reference divides, adds its three summands in another order and pools by a
  one-hot contraction; under the precondition the node features and the first neighbour weight are real-valued,
  and then each of these is the same extended real.
-/
import proofs.«418702_j33346126086715_3_alg».proof.Defs
import proofs.«418702_j33346126086715_3_alg».proof.Proof.Gen.Kernel
import proofs.«418702_j33346126086715_3_alg».proof.Proof.Gen.KernelIdeal
import proofs.«418702_j33346126086715_3_alg».proof.Proof.Gen.ReferenceIdeal
import proofs.«418702_j33346126086715_3_alg».proof.Proof.Gen.Pre_finite_inputs
import proofs.«418702_j33346126086715_3_alg».proof.Proof.Assemble
import proofs.«418702_j33346126086715_3_alg».proof.Proof.KernelData
import proofs.«418702_j33346126086715_3_alg».proof.Proof.KernelIdealData
import proofs.«418702_j33346126086715_3_alg».proof.Proof.KChain4
import Idealize.ShloMosaic.Adequacy
import Idealize.ShloMosaic.Init

noncomputable section

namespace Cert.Proof

open Idealize.ShloMosaic Idealize.SL.Sem

/-- Everything claimed, from the proof data of the three calls of each pipelined program and the kernel program's
    result array as the specified function of its arguments. -/
theorem claim : Cert.Claim :=
  Cert.Assemble.claim_of
    (Cert.Kernel.Frm.d0 (F := Bits)) (Cert.Kernel.Frm.d1 (F := Bits)) (Cert.Kernel.Frm.d2 (F := Bits))
    Cert.Kernel.Frm.rd0 Cert.Kernel.Frm.rd1 Cert.Kernel.Frm.rd2
    (Cert.KernelIdeal.Frm.d0 (F := Ideal)) (Cert.KernelIdeal.Frm.d1 (F := Ideal)) (Cert.KernelIdeal.Frm.d2 (F := Ideal))
    Cert.KernelIdeal.Frm.rd0 Cert.KernelIdeal.Frm.rd1 Cert.KernelIdeal.Frm.rd2
    (fun m hx hW c => Cert.Value.KJ.kernel_value m c (hx c) (hW c))

end Cert.Proof

end
